-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x10 : Shape := ⟨3, ![4, 512, 10]⟩
abbrev S4x512x16x8192 : Shape := ⟨4, ![4, 512, 16, 8192]⟩
abbrev S10x16 : Shape := ⟨2, ![10, 16]⟩
abbrev S4x512 : Shape := ⟨2, ![4, 512]⟩
abbrev S4x512x16 : Shape := ⟨3, ![4, 512, 16]⟩
abbrev S_ : Shape := ⟨0, ![]⟩

class Facts : Prop where
  bcast_S_S4x512x10 : S_.BroadcastsInDim S4x512x10 (![] : Fin 0 → Fin S4x512x10.rank)
  reducesTo_S4x512x10_S_d0_1_2 : S4x512x10.ReducesTo [0, 1, 2] S_
  h_S_ : 0 < S_.numel
  bcast_S_S4x512x16x8192 : S_.BroadcastsInDim S4x512x16x8192 (![] : Fin 0 → Fin S4x512x16x8192.rank)
  reducesTo_S4x512x16x8192_S_d0_1_2_3 : S4x512x16x8192.ReducesTo [0, 1, 2, 3] S_
  bcast_S_S10x16 : S_.BroadcastsInDim S10x16 (![] : Fin 0 → Fin S10x16.rank)
  reducesTo_S10x16_S_d0_1 : S10x16.ReducesTo [0, 1] S_

variable [Facts]

def fn {F : FTy → Type} [FloatOps F] (main_arg0 : FVec F S4x512x10 .f32) (main_arg1 : FVec F S4x512x16x8192 .f32) (main_arg2 : FVec F S10x16 .f32) (main_arg3 : IVec S4x512 32) (main_arg4 : IVec S4x512x16 32) : IVec S_ 1 :=
  let main_v0 : FVec F S4x512x10 .f32 := Host.absf main_arg0
  let main_cst : FVec F S_ .f32 := constant S_ .f32 0x7F800000#32
  let main_v1 : FVec F S4x512x10 .f32 := broadcastInDim S4x512x10 ![] bcast_S_S4x512x10 main_cst
  let main_v2 : IVec S4x512x10 1 := cmpf .olt main_v0 main_v1
  let main_c : IVec S_ 1 := constantI S_ 1 1#1
  let main_v3 : IVec S_ 1 := (fun x v => Host.reduce IntOp.andi x v reducesTo_S4x512x10_S_d0_1_2 h_S_) main_v2 main_c
  let main_v4 : FVec F S4x512x16x8192 .f32 := Host.absf main_arg1
  let main_cst_0 : FVec F S_ .f32 := constant S_ .f32 0x7F800000#32
  let main_v5 : FVec F S4x512x16x8192 .f32 := broadcastInDim S4x512x16x8192 ![] bcast_S_S4x512x16x8192 main_cst_0
  let main_v6 : IVec S4x512x16x8192 1 := cmpf .olt main_v4 main_v5
  let main_c_1 : IVec S_ 1 := constantI S_ 1 1#1
  let main_v7 : IVec S_ 1 := (fun x v => Host.reduce IntOp.andi x v reducesTo_S4x512x16x8192_S_d0_1_2_3 h_S_) main_v6 main_c_1
  let main_v8 : IVec S_ 1 := andi main_v3 main_v7
  let main_v9 : FVec F S10x16 .f32 := Host.absf main_arg2
  let main_cst_2 : FVec F S_ .f32 := constant S_ .f32 0x7F800000#32
  let main_v10 : FVec F S10x16 .f32 := broadcastInDim S10x16 ![] bcast_S_S10x16 main_cst_2
  let main_v11 : IVec S10x16 1 := cmpf .olt main_v9 main_v10
  let main_c_3 : IVec S_ 1 := constantI S_ 1 1#1
  let main_v12 : IVec S_ 1 := (fun x v => Host.reduce IntOp.andi x v reducesTo_S10x16_S_d0_1 h_S_) main_v11 main_c_3
  let main_v13 : IVec S_ 1 := andi main_v8 main_v12
  main_v13
-- ==== Kernel.lean ====
abbrev S4x512x10 : Shape := ⟨3, ![4, 512, 10]⟩
abbrev S4x512x16x8192 : Shape := ⟨4, ![4, 512, 16, 8192]⟩
abbrev S10x16 : Shape := ⟨2, ![10, 16]⟩
abbrev S4x512 : Shape := ⟨2, ![4, 512]⟩
abbrev S4x512x16 : Shape := ⟨3, ![4, 512, 16]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S2048x16x8192 : Shape := ⟨3, ![2048, 16, 8192]⟩
abbrev S2048x16 : Shape := ⟨2, ![2048, 16]⟩
abbrev S16x16x8192 : Shape := ⟨3, ![16, 16, 8192]⟩
abbrev S16x16 : Shape := ⟨2, ![16, 16]⟩
abbrev S16x16x1 : Shape := ⟨3, ![16, 16, 1]⟩
abbrev S7 : Shape := ⟨1, ![7]⟩
abbrev S4x512x16x1 : Shape := ⟨4, ![4, 512, 16, 1]⟩
abbrev S1x1x1x7 : Shape := ⟨4, ![1, 1, 1, 7]⟩
abbrev S4x512x16x7 : Shape := ⟨4, ![4, 512, 16, 7]⟩
abbrev S4x512x16x7x1 : Shape := ⟨5, ![4, 512, 16, 7, 1]⟩
abbrev S1x1x1x1x1 : Shape := ⟨5, ![1, 1, 1, 1, 1]⟩

abbrev nBuf : Space → Nat
  | .hbm => 172
  | .vmem => 4
  | .smem => 0
  | _ => 0

abbrev hbmTy0_0 (i : Nat) : BufTy := match i % 128 with
  | 0 => ⟨S4x512x10, .f32⟩
  | 1 => ⟨S4x512x16x8192, .f32⟩
  | 2 => ⟨S10x16, .f32⟩
  | 3 => ⟨S4x512, .i32⟩
  | 4 => ⟨S4x512x16, .i32⟩
  | 5 => ⟨S_, .i32⟩
  | 6 => ⟨S4x512, .i32⟩
  | 7 => ⟨S4x512, .i1⟩
  | 8 => ⟨S4x512, .i32⟩
  | 9 => ⟨S_, .i32⟩
  | 10 => ⟨S_, .i32⟩
  | 11 => ⟨S4x512, .i32⟩
  | 12 => ⟨S_, .i32⟩
  | 13 => ⟨S4x512, .i32⟩
  | 14 => ⟨S4x512, .i1⟩
  | 15 => ⟨S4x512, .f32⟩
  | 16 => ⟨S_, .f32⟩
  | 17 => ⟨S4x512, .f32⟩
  | 18 => ⟨S_, .f32⟩
  | 19 => ⟨S4x512, .f32⟩
  | 20 => ⟨S4x512, .f32⟩
  | 21 => ⟨S4x512x1, .f32⟩
  | 22 => ⟨S4x512x10, .f32⟩
  | 23 => ⟨S4x512x10, .f32⟩
  | 24 => ⟨S4x512x10, .f32⟩
  | 25 => ⟨S_, .f32⟩
  | 26 => ⟨S4x512, .f32⟩
  | 27 => ⟨S4x512x1, .f32⟩
  | 28 => ⟨S4x512x1, .f32⟩
  | 29 => ⟨S4x512x10, .f32⟩
  | 30 => ⟨S4x512x10, .f32⟩
  | 31 => ⟨S4x512x1, .i32⟩
  | 32 => ⟨S_, .i32⟩
  | 33 => ⟨S4x512x1, .i32⟩
  | 34 => ⟨S4x512x1, .i1⟩
  | 35 => ⟨S_, .i32⟩
  | 36 => ⟨S4x512x1, .i32⟩
  | 37 => ⟨S4x512x1, .i32⟩
  | 38 => ⟨S4x512x1, .i32⟩
  | 39 => ⟨S4x512x1x1, .i32⟩
  | 40 => ⟨S1, .i32⟩
  | 41 => ⟨S_, .i32⟩
  | 42 => ⟨S4x512x1x1, .i32⟩
  | 43 => ⟨S4x512x1x1, .i1⟩
  | 44 => ⟨S1x1x1x1, .i32⟩
  | 45 => ⟨S4x512x1x1, .i32⟩
  | 46 => ⟨S4x512x1x1, .i1⟩
  | 47 => ⟨S4x512x1x1, .i1⟩
  | 48 => ⟨S_, .i1⟩
  | 49 => ⟨S4x512x1, .i1⟩
  | 50 => ⟨S4x512x1, .f32⟩
  | 51 => ⟨S_, .f32⟩
  | 52 => ⟨S4x512x1, .f32⟩
  | 53 => ⟨S4x512x1, .f32⟩
  | 54 => ⟨S4x512, .f32⟩
  | 55 => ⟨S4x512, .f32⟩
  | 56 => ⟨S4x512, .i1⟩
  | 57 => ⟨S_, .f32⟩
  | 58 => ⟨S_, .f32⟩
  | 59 => ⟨S4x512, .f32⟩
  | 60 => ⟨S4x512, .f32⟩
  | 61 => ⟨S4x512, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .i32⟩
  | 70 => ⟨S4x512, .i32⟩
  | 71 => ⟨S4x512, .i1⟩
  | 72 => ⟨S_, .i32⟩
  | 73 => ⟨S4x512, .i32⟩
  | 74 => ⟨S4x512, .i32⟩
  | 75 => ⟨S4x512, .i32⟩
  | 76 => ⟨S4x512x1, .i32⟩
  | 77 => ⟨S4x512x16, .f32⟩
  | 78 => ⟨S4x512x1, .f32⟩
  | 79 => ⟨S4x512x16, .f32⟩
  | 80 => ⟨S4x512x16, .f32⟩
  | 81 => ⟨S_, .i32⟩
  | 82 => ⟨S_, .i32⟩
  | 83 => ⟨S_, .i32⟩
  | 84 => ⟨S4x512x16, .i32⟩
  | 85 => ⟨S4x512x16, .i32⟩
  | 86 => ⟨S_, .i32⟩
  | 87 => ⟨S4x512x16, .i32⟩
  | 88 => ⟨S4x512x16, .i32⟩
  | 89 => ⟨S2048x16x8192, .f32⟩
  | 90 => ⟨S2048x16, .f32⟩
  | 91 => ⟨S4x512x16, .f32⟩
  | 92 => ⟨S7, .i32⟩
  | 93 => ⟨S_, .i32⟩
  | 94 => ⟨S7, .i32⟩
  | 95 => ⟨S7, .i32⟩
  | 96 => ⟨S7, .i32⟩
  | 97 => ⟨S7, .f32⟩
  | 98 => ⟨S_, .f32⟩
  | 99 => ⟨S7, .f32⟩
  | 100 => ⟨S7, .f32⟩
  | 101 => ⟨S7, .f32⟩
  | 102 => ⟨S_, .f32⟩
  | 103 => ⟨S_, .f32⟩
  | 104 => ⟨S_, .f32⟩
  | 105 => ⟨S_, .f32⟩
  | 106 => ⟨S7, .f32⟩
  | 107 => ⟨S7, .f32⟩
  | 108 => ⟨S_, .f32⟩
  | 109 => ⟨S_, .f32⟩
  | 110 => ⟨S4x512x16x1, .i32⟩
  | 111 => ⟨S1x1x1x7, .i32⟩
  | 112 => ⟨S4x512x16x7, .i32⟩
  | 113 => ⟨S4x512x16x7, .i32⟩
  | 114 => ⟨S4x512x16x7, .i32⟩
  | 115 => ⟨S_, .i32⟩
  | 116 => ⟨S_, .i32⟩
  | 117 => ⟨S_, .i32⟩
  | 118 => ⟨S4x512x16x7, .i32⟩
  | 119 => ⟨S4x512x16x7, .i32⟩
  | 120 => ⟨S_, .i32⟩
  | 121 => ⟨S4x512x16x7, .i32⟩
  | 122 => ⟨S4x512x16x7, .i32⟩
  | 123 => ⟨S_, .i32⟩
  | 124 => ⟨S4x512x16x7, .i32⟩
  | 125 => ⟨S4x512x16x7, .i1⟩
  | 126 => ⟨S_, .i32⟩
  | 127 => ⟨S4x512x16x7, .i32⟩
  | _ => ⟨S4x512x10, .f32⟩

abbrev hbmTy0_1 (i : Nat) : BufTy := match i % 128 with
  | 0 => ⟨S4x512x16x7, .i32⟩
  | 1 => ⟨S4x512x16x7, .i32⟩
  | 2 => ⟨S4x512x16x7x1, .i32⟩
  | 3 => ⟨S1, .i32⟩
  | 4 => ⟨S_, .i32⟩
  | 5 => ⟨S4x512x16x7x1, .i32⟩
  | 6 => ⟨S4x512x16x7x1, .i1⟩
  | 7 => ⟨S1x1x1x1x1, .i32⟩
  | 8 => ⟨S4x512x16x7x1, .i32⟩
  | 9 => ⟨S4x512x16x7x1, .i1⟩
  | 10 => ⟨S4x512x16x7x1, .i1⟩
  | 11 => ⟨S_, .i1⟩
  | 12 => ⟨S4x512x16x7, .i1⟩
  | 13 => ⟨S4x512x16x7, .f32⟩
  | 14 => ⟨S_, .f32⟩
  | 15 => ⟨S4x512x16x7, .f32⟩
  | 16 => ⟨S4x512x16x7, .f32⟩
  | 17 => ⟨S1x1x1x7, .f32⟩
  | 18 => ⟨S4x512x16x7, .f32⟩
  | 19 => ⟨S4x512x16x7, .f32⟩
  | 20 => ⟨S_, .f32⟩
  | 21 => ⟨S4x512x16, .f32⟩
  | 22 => ⟨S4x512x16, .f32⟩
  | 23 => ⟨S4x512x16, .f32⟩
  | 24 => ⟨S4x512x16, .f32⟩
  | 25 => ⟨S4x512x16, .f32⟩
  | 26 => ⟨S4x512x16, .i1⟩
  | 27 => ⟨S_, .f32⟩
  | 28 => ⟨S_, .f32⟩
  | 29 => ⟨S4x512x16, .f32⟩
  | 30 => ⟨S4x512x16, .f32⟩
  | 31 => ⟨S4x512x16, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S4x512x10, .f32⟩

abbrev hbmTy (i : Nat) : BufTy := match i / 128 with
  | 0 => hbmTy0_0 i
  | 1 => hbmTy0_1 i
  | _ => ⟨S4x512x10, .f32⟩

abbrev bufTy : (tb : Table) → Fin (tcTables nBuf tb) → BufTy
  | .hbm, ⟨i, _⟩ => hbmTy i
  | .local _ .vmem, ⟨0, _⟩ => ⟨S16x16x8192, .f32⟩
  | .local _ .vmem, ⟨1, _⟩ => ⟨S16x16x8192, .f32⟩
  | .local _ .vmem, ⟨2, _⟩ => ⟨S16x16, .f32⟩
  | .local _ .vmem, ⟨3, _⟩ => ⟨S16x16, .f32⟩
  | _, _ => ⟨S4x512x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_v13 : Ref sig .tc := ⟨.hbm, 60, rfl⟩
abbrev main_v14 : Ref sig .tc := ⟨.hbm, 61, rfl⟩
abbrev main_cst_1 : Ref sig .tc := ⟨.hbm, 62, rfl⟩
abbrev main_v15 : Ref sig .tc := ⟨.hbm, 63, rfl⟩
abbrev main_cst_2 : Ref sig .tc := ⟨.hbm, 64, rfl⟩
abbrev main_v16 : Ref sig .tc := ⟨.hbm, 65, rfl⟩
abbrev main_cst_3 : Ref sig .tc := ⟨.hbm, 66, rfl⟩
abbrev main_v17 : Ref sig .tc := ⟨.hbm, 67, rfl⟩
abbrev main_v18 : Ref sig .tc := ⟨.hbm, 68, rfl⟩
abbrev main_c_4 : Ref sig .tc := ⟨.hbm, 69, rfl⟩
abbrev main_v19 : Ref sig .tc := ⟨.hbm, 70, rfl⟩
abbrev main_v20 : Ref sig .tc := ⟨.hbm, 71, rfl⟩
abbrev main_c_5 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_c_6 : Ref sig .tc := ⟨.hbm, 81, rfl⟩
abbrev main_c_7 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_c_8 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_cst_9 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_10 : Ref sig .tc := ⟨.hbm, 102, rfl⟩
abbrev main_v41 : Ref sig .tc := ⟨.hbm, 103, rfl⟩
abbrev main_cst_11 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_12 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_c_13 : Ref sig .tc := ⟨.hbm, 115, rfl⟩
abbrev main_c_14 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v51 : Ref sig .tc := ⟨.hbm, 122, rfl⟩
abbrev main_call6_c : Ref sig .tc := ⟨.hbm, 123, rfl⟩
abbrev main_call6_v0 : Ref sig .tc := ⟨.hbm, 124, rfl⟩
abbrev main_call6_v1 : Ref sig .tc := ⟨.hbm, 125, rfl⟩
abbrev main_call6_c_0 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_c_1 : Ref sig .tc := ⟨.hbm, 131, rfl⟩
abbrev main_call6_c_2 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_c_3 : Ref sig .tc := ⟨.hbm, 139, rfl⟩
abbrev main_call6_v12 : Ref sig .tc := ⟨.hbm, 140, rfl⟩
abbrev main_call6_v13 : Ref sig .tc := ⟨.hbm, 141, rfl⟩
abbrev main_call6_cst : Ref sig .tc := ⟨.hbm, 142, rfl⟩
abbrev main_call6_v14 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_cst_15 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_cst_16 : Ref sig .tc := ⟨.hbm, 155, rfl⟩
abbrev main_call7_v0 : Ref sig .tc := ⟨.hbm, 156, rfl⟩
abbrev main_call7_v1 : Ref sig .tc := ⟨.hbm, 157, rfl⟩
abbrev main_v62 : Ref sig .tc := ⟨.hbm, 158, rfl⟩
abbrev main_v63 : Ref sig .tc := ⟨.hbm, 159, rfl⟩
abbrev main_cst_17 : Ref sig .tc := ⟨.hbm, 160, rfl⟩
abbrev main_v64 : Ref sig .tc := ⟨.hbm, 161, rfl⟩
abbrev main_cst_18 : Ref sig .tc := ⟨.hbm, 162, rfl⟩
abbrev main_v65 : Ref sig .tc := ⟨.hbm, 163, rfl⟩
abbrev main_cst_19 : Ref sig .tc := ⟨.hbm, 164, rfl⟩
abbrev main_v66 : Ref sig .tc := ⟨.hbm, 165, rfl⟩
abbrev main_v67 : Ref sig .tc := ⟨.hbm, 166, rfl⟩
abbrev main_cst_20 : Ref sig .tc := ⟨.hbm, 167, rfl⟩
abbrev main_v68 : Ref sig .tc := ⟨.hbm, 168, rfl⟩
abbrev main_cst_21 : Ref sig .tc := ⟨.hbm, 169, rfl⟩
abbrev main_v69 : Ref sig .tc := ⟨.hbm, 170, rfl⟩
abbrev main_v70 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S4x512 : S_.BroadcastsInDim S4x512 (![] : Fin 0 → Fin S4x512.rank)
  natLt_1_32 : 1 < 32
  bcast_S_S_ : S_.BroadcastsInDim S_ (![] : Fin 0 → Fin S_.rank)
  reduceWindows_S4x512_S4x512_w1s1p0_0_w512s1p511_0 : S4x512.ReduceWindows (![1, 512] : Fin 2 → Nat) ![1, 1] ![0, 511] ![0, 0] S4x512
  h_S_ : 0 < S_.numel
  reducesTo_S4x512x10_S4x512_d2 : S4x512x10.ReducesTo [2] S4x512
  bcast_S4x512_S4x512x1_0_1 : S4x512.BroadcastsInDim S4x512x1 (![0, 1] : Fin 2 → Fin S4x512x1.rank)
  bcast_S4x512x1_S4x512x10_0_1_2 : S4x512x1.BroadcastsInDim S4x512x10 (![0, 1, 2] : Fin 3 → Fin S4x512x10.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  reducesTo_S4x512_S_d0_1 : S4x512.ReducesTo [0, 1] S_
  bcast_S4x512x1_S4x512x16_0_1_2 : S4x512x1.BroadcastsInDim S4x512x16 (![0, 1, 2] : Fin 3 → Fin S4x512x16.rank)
  bcast_S_S4x512x16 : S_.BroadcastsInDim S4x512x16 (![] : Fin 0 → Fin S4x512x16.rank)
  shapeCasts_S4x512x16x8192_S2048x16x8192 : S4x512x16x8192.ShapeCasts S2048x16x8192
  inb_S16x16x8192_S16x16x8192_0_0_0 : ∀ a, (![0, 0, 0] : Fin 3 → Nat) a + S16x16x8192.size a ≤ S16x16x8192.size a
  h_S16x16x8192 : 0 < S16x16x8192.numel
  shapeCasts_S16x16x8192_S16x16x8192 : S16x16x8192.ShapeCasts S16x16x8192
  reduces_S16x16x8192_S16x16 : S16x16x8192.Reduces [2] S16x16
  shapeCasts_S16x16_S16x16x1 : S16x16.ShapeCasts S16x16x1
  broadcasts_S16x16x1_S16x16x8192 : S16x16x1.Broadcasts S16x16x8192
  shapeCasts_S16x16x1_S16x16 : S16x16x1.ShapeCasts S16x16
  inb_S16x16_S16x16_0_0 : ∀ a, (![0, 0] : Fin 2 → Nat) a + S16x16.size a ≤ S16x16.size a
  h_S16x16 : 0 < S16x16.numel
  shapeCasts_S2048x16_S4x512x16 : S2048x16.ShapeCasts S4x512x16
  bcast_S_S7 : S_.BroadcastsInDim S7 (![] : Fin 0 → Fin S7.rank)
  reducesTo_S7_S_d0 : S7.ReducesTo [0] S_
  bcast_S4x512x16_S4x512x16x1_0_1_2 : S4x512x16.BroadcastsInDim S4x512x16x1 (![0, 1, 2] : Fin 3 → Fin S4x512x16x1.rank)
  bcast_S7_S1x1x1x7_3 : S7.BroadcastsInDim S1x1x1x7 (![3] : Fin 1 → Fin S1x1x1x7.rank)
  bcast_S4x512x16x1_S4x512x16x7_0_1_2_3 : S4x512x16x1.BroadcastsInDim S4x512x16x7 (![0, 1, 2, 3] : Fin 4 → Fin S4x512x16x7.rank)
  bcast_S1x1x1x7_S4x512x16x7_0_1_2_3 : S1x1x1x7.BroadcastsInDim S4x512x16x7 (![0, 1, 2, 3] : Fin 4 → Fin S4x512x16x7.rank)
  bcast_S_S4x512x16x7 : S_.BroadcastsInDim S4x512x16x7 (![] : Fin 0 → Fin S4x512x16x7.rank)
  shapeCasts_S4x512x16x7_S4x512x16x7x1 : S4x512x16x7.ShapeCasts S4x512x16x7x1
  bcast_S_S4x512x16x7x1 : S_.BroadcastsInDim S4x512x16x7x1 (![] : Fin 0 → Fin S4x512x16x7x1.rank)
  bcast_S1_S1x1x1x1x1_4 : S1.BroadcastsInDim S1x1x1x1x1 (![4] : Fin 1 → Fin S1x1x1x1x1.rank)
  bcast_S1x1x1x1x1_S4x512x16x7x1_0_1_2_3_4 : S1x1x1x1x1.BroadcastsInDim S4x512x16x7x1 (![0, 1, 2, 3, 4] : Fin 5 → Fin S4x512x16x7x1.rank)
  reducesTo_S4x512x16x7x1_S4x512x16x7_d4 : S4x512x16x7x1.ReducesTo [4] S4x512x16x7
  reducesTo_S4x512x16x7_S4x512x16_d3 : S4x512x16x7.ReducesTo [3] S4x512x16
  reducesTo_S4x512x16_S_d0_1_2 : S4x512x16.ReducesTo [0, 1, 2] S_
  gather_S4x512x10_S4x512x1x1_S4x512x1_n_2_01_01_2_3_111_wf : GatherDims.WF S4x512x10 S4x512x1x1 S4x512x1 [] [2] [0, 1] [2] [0, 1] 3 ![1, 1, 1]
  gather_S10x16_S4x512x1_S4x512x16_2_0_n_n_0_2_116_wf : GatherDims.WF S10x16 S4x512x1 S4x512x16 [2] [0] [] [0] [] 2 ![1, 16]
  gather_S4x512x16x8192_S4x512x16x7x1_S4x512x16x7_n_3_012_012_3_4_1111_wf : GatherDims.WF S4x512x16x8192 S4x512x16x7x1 S4x512x16x7 [] [3] [0, 1, 2] [3] [0, 1, 2] 4 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x8192.size a ≤ S2048x16x8192.size a
  hwx0_0 : ∀ i : grid0.Coords, EltTy.bits .f32 = 32 ∨ (Rect.block (s := S2048x16x8192) S16x16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S2048x16.size a
  hwx0_1 : ∀ i : grid0.Coords, EltTy.bits .f32 = 32 ∨ (Rect.block (s := S2048x16) S16x16.size (cc0_transform_1 i) (hinb0_1 i)).WholeWords (EltTy.packing .f32)

variable [Facts₀]

def gather_S4x512x10_S4x512x1x1_S4x512x1_n_2_01_01_2_3_111 : GatherDims S4x512x10 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x10_S4x512x1x1_S4x512x1_n_2_01_01_2_3_111_wf
def gather_S10x16_S4x512x1_S4x512x16_2_0_n_n_0_2_116 : GatherDims S10x16 S4x512x1 S4x512x16 where
  offsetDims := [2]
  collapsedSliceDims := [0]
  operandBatchingDims := []
  startIndicesBatchingDims := []
  startIndexMap := [0]
  indexVectorDim := 2
  sliceSizes := ![1, 16]
  wf := gather_S10x16_S4x512x1_S4x512x16_2_0_n_n_0_2_116_wf
def gather_S4x512x16x8192_S4x512x16x7x1_S4x512x16x7_n_3_012_012_3_4_1111 : GatherDims S4x512x16x8192 S4x512x16x7x1 S4x512x16x7 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x512x16x8192_S4x512x16x7x1_S4x512x16x7_n_3_012_012_3_4_1111_wf

abbrev win0_0 : Pipeline.Window sig grid0 :=
  Pipeline.Window.ofSpec (Memref.whole main_v30) S16x16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x512x10 : Shape := ⟨3, ![4, 512, 10]⟩
abbrev S4x512x16x8192 : Shape := ⟨4, ![4, 512, 16, 8192]⟩
abbrev S10x16 : Shape := ⟨2, ![10, 16]⟩
abbrev S4x512 : Shape := ⟨2, ![4, 512]⟩
abbrev S4x512x16 : Shape := ⟨3, ![4, 512, 16]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S4x512x16x1 : Shape := ⟨4, ![4, 512, 16, 1]⟩
abbrev S7 : Shape := ⟨1, ![7]⟩
abbrev S1x1x1x7 : Shape := ⟨4, ![1, 1, 1, 7]⟩
abbrev S4x512x16x7 : Shape := ⟨4, ![4, 512, 16, 7]⟩
abbrev S4x512x16x7x1 : Shape := ⟨5, ![4, 512, 16, 7, 1]⟩
abbrev S1x1x1x1x1 : Shape := ⟨5, ![1, 1, 1, 1, 1]⟩

abbrev nBuf : Space → Nat
  | .hbm => 179
  | .vmem => 0
  | .smem => 0
  | _ => 0

abbrev hbmTy0_0 (i : Nat) : BufTy := match i % 128 with
  | 0 => ⟨S4x512x10, .f32⟩
  | 1 => ⟨S4x512x16x8192, .f32⟩
  | 2 => ⟨S10x16, .f32⟩
  | 3 => ⟨S4x512, .i32⟩
  | 4 => ⟨S4x512x16, .i32⟩
  | 5 => ⟨S_, .i32⟩
  | 6 => ⟨S4x512, .i32⟩
  | 7 => ⟨S4x512, .i1⟩
  | 8 => ⟨S4x512, .i32⟩
  | 9 => ⟨S_, .i32⟩
  | 10 => ⟨S_, .i32⟩
  | 11 => ⟨S4x512, .i32⟩
  | 12 => ⟨S_, .i32⟩
  | 13 => ⟨S4x512, .i32⟩
  | 14 => ⟨S4x512, .i1⟩
  | 15 => ⟨S4x512, .f32⟩
  | 16 => ⟨S_, .f32⟩
  | 17 => ⟨S4x512, .f32⟩
  | 18 => ⟨S_, .f32⟩
  | 19 => ⟨S4x512, .f32⟩
  | 20 => ⟨S4x512, .f32⟩
  | 21 => ⟨S4x512x1, .f32⟩
  | 22 => ⟨S4x512x10, .f32⟩
  | 23 => ⟨S4x512x10, .f32⟩
  | 24 => ⟨S4x512x10, .f32⟩
  | 25 => ⟨S_, .f32⟩
  | 26 => ⟨S4x512, .f32⟩
  | 27 => ⟨S4x512x1, .f32⟩
  | 28 => ⟨S4x512x1, .f32⟩
  | 29 => ⟨S4x512x10, .f32⟩
  | 30 => ⟨S4x512x10, .f32⟩
  | 31 => ⟨S4x512x1, .i32⟩
  | 32 => ⟨S_, .i32⟩
  | 33 => ⟨S4x512x1, .i32⟩
  | 34 => ⟨S4x512x1, .i1⟩
  | 35 => ⟨S_, .i32⟩
  | 36 => ⟨S4x512x1, .i32⟩
  | 37 => ⟨S4x512x1, .i32⟩
  | 38 => ⟨S4x512x1, .i32⟩
  | 39 => ⟨S4x512x1x1, .i32⟩
  | 40 => ⟨S1, .i32⟩
  | 41 => ⟨S_, .i32⟩
  | 42 => ⟨S4x512x1x1, .i32⟩
  | 43 => ⟨S4x512x1x1, .i1⟩
  | 44 => ⟨S1x1x1x1, .i32⟩
  | 45 => ⟨S4x512x1x1, .i32⟩
  | 46 => ⟨S4x512x1x1, .i1⟩
  | 47 => ⟨S4x512x1x1, .i1⟩
  | 48 => ⟨S_, .i1⟩
  | 49 => ⟨S4x512x1, .i1⟩
  | 50 => ⟨S4x512x1, .f32⟩
  | 51 => ⟨S_, .f32⟩
  | 52 => ⟨S4x512x1, .f32⟩
  | 53 => ⟨S4x512x1, .f32⟩
  | 54 => ⟨S4x512, .f32⟩
  | 55 => ⟨S4x512, .f32⟩
  | 56 => ⟨S4x512, .i1⟩
  | 57 => ⟨S_, .f32⟩
  | 58 => ⟨S_, .f32⟩
  | 59 => ⟨S4x512, .f32⟩
  | 60 => ⟨S4x512, .f32⟩
  | 61 => ⟨S4x512, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S4x512x16, .f32⟩
  | 71 => ⟨S_, .f32⟩
  | 72 => ⟨S4x512x16, .f32⟩
  | 73 => ⟨S4x512x16, .f32⟩
  | 74 => ⟨S4x512x16x1, .f32⟩
  | 75 => ⟨S4x512x16x8192, .f32⟩
  | 76 => ⟨S4x512x16x8192, .f32⟩
  | 77 => ⟨S4x512x16x8192, .f32⟩
  | 78 => ⟨S_, .f32⟩
  | 79 => ⟨S4x512x16, .f32⟩
  | 80 => ⟨S4x512x16x1, .f32⟩
  | 81 => ⟨S4x512x16x1, .f32⟩
  | 82 => ⟨S4x512x16x8192, .f32⟩
  | 83 => ⟨S4x512x16x8192, .f32⟩
  | 84 => ⟨S_, .i32⟩
  | 85 => ⟨S4x512, .i32⟩
  | 86 => ⟨S4x512, .i1⟩
  | 87 => ⟨S_, .i32⟩
  | 88 => ⟨S4x512, .i32⟩
  | 89 => ⟨S4x512, .i32⟩
  | 90 => ⟨S4x512, .i32⟩
  | 91 => ⟨S4x512x1, .i32⟩
  | 92 => ⟨S4x512x16, .f32⟩
  | 93 => ⟨S4x512x1, .f32⟩
  | 94 => ⟨S4x512x16, .f32⟩
  | 95 => ⟨S4x512x16, .f32⟩
  | 96 => ⟨S_, .i32⟩
  | 97 => ⟨S_, .i32⟩
  | 98 => ⟨S_, .i32⟩
  | 99 => ⟨S4x512x16, .i32⟩
  | 100 => ⟨S4x512x16, .i32⟩
  | 101 => ⟨S_, .i32⟩
  | 102 => ⟨S4x512x16, .i32⟩
  | 103 => ⟨S4x512x16, .i32⟩
  | 104 => ⟨S7, .i32⟩
  | 105 => ⟨S_, .i32⟩
  | 106 => ⟨S7, .i32⟩
  | 107 => ⟨S7, .i32⟩
  | 108 => ⟨S7, .i32⟩
  | 109 => ⟨S7, .f32⟩
  | 110 => ⟨S_, .f32⟩
  | 111 => ⟨S7, .f32⟩
  | 112 => ⟨S7, .f32⟩
  | 113 => ⟨S7, .f32⟩
  | 114 => ⟨S_, .f32⟩
  | 115 => ⟨S_, .f32⟩
  | 116 => ⟨S_, .f32⟩
  | 117 => ⟨S_, .f32⟩
  | 118 => ⟨S7, .f32⟩
  | 119 => ⟨S7, .f32⟩
  | 120 => ⟨S4x512x16x1, .i32⟩
  | 121 => ⟨S1x1x1x7, .i32⟩
  | 122 => ⟨S4x512x16x7, .i32⟩
  | 123 => ⟨S4x512x16x7, .i32⟩
  | 124 => ⟨S4x512x16x7, .i32⟩
  | 125 => ⟨S_, .i32⟩
  | 126 => ⟨S_, .i32⟩
  | 127 => ⟨S_, .i32⟩
  | _ => ⟨S4x512x10, .f32⟩

abbrev hbmTy0_1 (i : Nat) : BufTy := match i % 128 with
  | 0 => ⟨S4x512x16x7, .i32⟩
  | 1 => ⟨S4x512x16x7, .i32⟩
  | 2 => ⟨S_, .i32⟩
  | 3 => ⟨S4x512x16x7, .i32⟩
  | 4 => ⟨S4x512x16x7, .i32⟩
  | 5 => ⟨S_, .i32⟩
  | 6 => ⟨S4x512x16x7, .i32⟩
  | 7 => ⟨S4x512x16x7, .i1⟩
  | 8 => ⟨S_, .i32⟩
  | 9 => ⟨S4x512x16x7, .i32⟩
  | 10 => ⟨S4x512x16x7, .i32⟩
  | 11 => ⟨S4x512x16x7, .i32⟩
  | 12 => ⟨S4x512x16x7x1, .i32⟩
  | 13 => ⟨S1, .i32⟩
  | 14 => ⟨S_, .i32⟩
  | 15 => ⟨S4x512x16x7x1, .i32⟩
  | 16 => ⟨S4x512x16x7x1, .i1⟩
  | 17 => ⟨S1x1x1x1x1, .i32⟩
  | 18 => ⟨S4x512x16x7x1, .i32⟩
  | 19 => ⟨S4x512x16x7x1, .i1⟩
  | 20 => ⟨S4x512x16x7x1, .i1⟩
  | 21 => ⟨S_, .i1⟩
  | 22 => ⟨S4x512x16x7, .i1⟩
  | 23 => ⟨S4x512x16x7, .f32⟩
  | 24 => ⟨S_, .f32⟩
  | 25 => ⟨S4x512x16x7, .f32⟩
  | 26 => ⟨S4x512x16x7, .f32⟩
  | 27 => ⟨S1x1x1x7, .f32⟩
  | 28 => ⟨S4x512x16x7, .f32⟩
  | 29 => ⟨S4x512x16x7, .f32⟩
  | 30 => ⟨S_, .f32⟩
  | 31 => ⟨S4x512x16, .f32⟩
  | 32 => ⟨S4x512x16, .f32⟩
  | 33 => ⟨S4x512x16, .i1⟩
  | 34 => ⟨S_, .f32⟩
  | 35 => ⟨S_, .f32⟩
  | 36 => ⟨S4x512x16, .f32⟩
  | 37 => ⟨S4x512x16, .f32⟩
  | 38 => ⟨S4x512x16, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S4x512x10, .f32⟩

abbrev hbmTy (i : Nat) : BufTy := match i / 128 with
  | 0 => hbmTy0_0 i
  | 1 => hbmTy0_1 i
  | _ => ⟨S4x512x10, .f32⟩

abbrev bufTy : (tb : Table) → Fin (tcTables nBuf tb) → BufTy
  | .hbm, ⟨i, _⟩ => hbmTy i
  | _, _ => ⟨S4x512x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_v13 : Ref sig .tc := ⟨.hbm, 60, rfl⟩
abbrev main_v14 : Ref sig .tc := ⟨.hbm, 61, rfl⟩
abbrev main_cst_1 : Ref sig .tc := ⟨.hbm, 62, rfl⟩
abbrev main_v15 : Ref sig .tc := ⟨.hbm, 63, rfl⟩
abbrev main_cst_2 : Ref sig .tc := ⟨.hbm, 64, rfl⟩
abbrev main_v16 : Ref sig .tc := ⟨.hbm, 65, rfl⟩
abbrev main_cst_3 : Ref sig .tc := ⟨.hbm, 66, rfl⟩
abbrev main_v17 : Ref sig .tc := ⟨.hbm, 67, rfl⟩
abbrev main_v18 : Ref sig .tc := ⟨.hbm, 68, rfl⟩
abbrev main_call4_cst : Ref sig .tc := ⟨.hbm, 69, rfl⟩
abbrev main_call4_v0 : Ref sig .tc := ⟨.hbm, 70, rfl⟩
abbrev main_call4_cst_0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_v6 : Ref sig .tc := ⟨.hbm, 77, rfl⟩
abbrev main_call4_cst_1 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_v19 : Ref sig .tc := ⟨.hbm, 83, rfl⟩
abbrev main_c_4 : Ref sig .tc := ⟨.hbm, 84, rfl⟩
abbrev main_v20 : Ref sig .tc := ⟨.hbm, 85, rfl⟩
abbrev main_v21 : Ref sig .tc := ⟨.hbm, 86, rfl⟩
abbrev main_c_5 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_c_6 : Ref sig .tc := ⟨.hbm, 96, rfl⟩
abbrev main_c_7 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_v30 : Ref sig .tc := ⟨.hbm, 103, rfl⟩
abbrev main_v31 : Ref sig .tc := ⟨.hbm, 104, rfl⟩
abbrev main_c_8 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_cst_9 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_cst_10 : Ref sig .tc := ⟨.hbm, 114, rfl⟩
abbrev main_v39 : Ref sig .tc := ⟨.hbm, 115, rfl⟩
abbrev main_cst_11 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_c_12 : Ref sig .tc := ⟨.hbm, 125, rfl⟩
abbrev main_c_13 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_v48 : Ref sig .tc := ⟨.hbm, 132, rfl⟩
abbrev main_call7_c : Ref sig .tc := ⟨.hbm, 133, rfl⟩
abbrev main_call7_v0 : Ref sig .tc := ⟨.hbm, 134, rfl⟩
abbrev main_call7_v1 : Ref sig .tc := ⟨.hbm, 135, rfl⟩
abbrev main_call7_c_0 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_v5 : Ref sig .tc := ⟨.hbm, 140, rfl⟩
abbrev main_call7_c_1 : Ref sig .tc := ⟨.hbm, 141, rfl⟩
abbrev main_call7_c_2 : Ref sig .tc := ⟨.hbm, 142, rfl⟩
abbrev main_call7_v6 : Ref sig .tc := ⟨.hbm, 143, rfl⟩
abbrev main_call7_v7 : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_call7_v11 : Ref sig .tc := ⟨.hbm, 148, rfl⟩
abbrev main_call7_c_3 : Ref sig .tc := ⟨.hbm, 149, rfl⟩
abbrev main_call7_v12 : Ref sig .tc := ⟨.hbm, 150, rfl⟩
abbrev main_call7_v13 : Ref sig .tc := ⟨.hbm, 151, rfl⟩
abbrev main_call7_cst : Ref sig .tc := ⟨.hbm, 152, rfl⟩
abbrev main_call7_v14 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_cst_14 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_cst_15 : Ref sig .tc := ⟨.hbm, 162, rfl⟩
abbrev main_call8_v0 : Ref sig .tc := ⟨.hbm, 163, rfl⟩
abbrev main_call8_v1 : Ref sig .tc := ⟨.hbm, 164, rfl⟩
abbrev main_v56 : Ref sig .tc := ⟨.hbm, 165, rfl⟩
abbrev main_v57 : Ref sig .tc := ⟨.hbm, 166, rfl⟩
abbrev main_cst_16 : Ref sig .tc := ⟨.hbm, 167, rfl⟩
abbrev main_v58 : Ref sig .tc := ⟨.hbm, 168, rfl⟩
abbrev main_cst_17 : Ref sig .tc := ⟨.hbm, 169, rfl⟩
abbrev main_v59 : Ref sig .tc := ⟨.hbm, 170, rfl⟩
abbrev main_cst_18 : Ref sig .tc := ⟨.hbm, 171, rfl⟩
abbrev main_v60 : Ref sig .tc := ⟨.hbm, 172, rfl⟩
abbrev main_v61 : Ref sig .tc := ⟨.hbm, 173, rfl⟩
abbrev main_cst_19 : Ref sig .tc := ⟨.hbm, 174, rfl⟩
abbrev main_v62 : Ref sig .tc := ⟨.hbm, 175, rfl⟩
abbrev main_cst_20 : Ref sig .tc := ⟨.hbm, 176, rfl⟩
abbrev main_v63 : Ref sig .tc := ⟨.hbm, 177, rfl⟩
abbrev main_v64 : Ref sig .tc := ⟨.hbm, 178, rfl⟩

abbrev nD : Nat := 1
abbrev τ : Topo := Topo.v7x

variable {F : FTy → Type} [FloatOps F]

class Facts₀ : Prop where
  bcast_S_S4x512 : S_.BroadcastsInDim S4x512 (![] : Fin 0 → Fin S4x512.rank)
  natLt_1_32 : 1 < 32
  bcast_S_S_ : S_.BroadcastsInDim S_ (![] : Fin 0 → Fin S_.rank)
  reduceWindows_S4x512_S4x512_w1s1p0_0_w512s1p511_0 : S4x512.ReduceWindows (![1, 512] : Fin 2 → Nat) ![1, 1] ![0, 511] ![0, 0] S4x512
  h_S_ : 0 < S_.numel
  reducesTo_S4x512x10_S4x512_d2 : S4x512x10.ReducesTo [2] S4x512
  bcast_S4x512_S4x512x1_0_1 : S4x512.BroadcastsInDim S4x512x1 (![0, 1] : Fin 2 → Fin S4x512x1.rank)
  bcast_S4x512x1_S4x512x10_0_1_2 : S4x512x1.BroadcastsInDim S4x512x10 (![0, 1, 2] : Fin 3 → Fin S4x512x10.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  reducesTo_S4x512_S_d0_1 : S4x512.ReducesTo [0, 1] S_
  reducesTo_S4x512x16x8192_S4x512x16_d3 : S4x512x16x8192.ReducesTo [3] S4x512x16
  bcast_S_S4x512x16 : S_.BroadcastsInDim S4x512x16 (![] : Fin 0 → Fin S4x512x16.rank)
  bcast_S4x512x16_S4x512x16x1_0_1_2 : S4x512x16.BroadcastsInDim S4x512x16x1 (![0, 1, 2] : Fin 3 → Fin S4x512x16x1.rank)
  bcast_S4x512x16x1_S4x512x16x8192_0_1_2_3 : S4x512x16x1.BroadcastsInDim S4x512x16x8192 (![0, 1, 2, 3] : Fin 4 → Fin S4x512x16x8192.rank)
  bcast_S4x512x1_S4x512x16_0_1_2 : S4x512x1.BroadcastsInDim S4x512x16 (![0, 1, 2] : Fin 3 → Fin S4x512x16.rank)
  bcast_S_S7 : S_.BroadcastsInDim S7 (![] : Fin 0 → Fin S7.rank)
  reducesTo_S7_S_d0 : S7.ReducesTo [0] S_
  bcast_S7_S1x1x1x7_3 : S7.BroadcastsInDim S1x1x1x7 (![3] : Fin 1 → Fin S1x1x1x7.rank)
  bcast_S4x512x16x1_S4x512x16x7_0_1_2_3 : S4x512x16x1.BroadcastsInDim S4x512x16x7 (![0, 1, 2, 3] : Fin 4 → Fin S4x512x16x7.rank)
  bcast_S1x1x1x7_S4x512x16x7_0_1_2_3 : S1x1x1x7.BroadcastsInDim S4x512x16x7 (![0, 1, 2, 3] : Fin 4 → Fin S4x512x16x7.rank)
  bcast_S_S4x512x16x7 : S_.BroadcastsInDim S4x512x16x7 (![] : Fin 0 → Fin S4x512x16x7.rank)
  shapeCasts_S4x512x16x7_S4x512x16x7x1 : S4x512x16x7.ShapeCasts S4x512x16x7x1
  bcast_S_S4x512x16x7x1 : S_.BroadcastsInDim S4x512x16x7x1 (![] : Fin 0 → Fin S4x512x16x7x1.rank)
  bcast_S1_S1x1x1x1x1_4 : S1.BroadcastsInDim S1x1x1x1x1 (![4] : Fin 1 → Fin S1x1x1x1x1.rank)
  bcast_S1x1x1x1x1_S4x512x16x7x1_0_1_2_3_4 : S1x1x1x1x1.BroadcastsInDim S4x512x16x7x1 (![0, 1, 2, 3, 4] : Fin 5 → Fin S4x512x16x7x1.rank)
  reducesTo_S4x512x16x7x1_S4x512x16x7_d4 : S4x512x16x7x1.ReducesTo [4] S4x512x16x7
  reducesTo_S4x512x16x7_S4x512x16_d3 : S4x512x16x7.ReducesTo [3] S4x512x16
  reducesTo_S4x512x16_S_d0_1_2 : S4x512x16.ReducesTo [0, 1, 2] S_
  gather_S4x512x10_S4x512x1x1_S4x512x1_n_2_01_01_2_3_111_wf : GatherDims.WF S4x512x10 S4x512x1x1 S4x512x1 [] [2] [0, 1] [2] [0, 1] 3 ![1, 1, 1]
  gather_S10x16_S4x512x1_S4x512x16_2_0_n_n_0_2_116_wf : GatherDims.WF S10x16 S4x512x1 S4x512x16 [2] [0] [] [0] [] 2 ![1, 16]
  gather_S4x512x16x8192_S4x512x16x7x1_S4x512x16x7_n_3_012_012_3_4_1111_wf : GatherDims.WF S4x512x16x8192 S4x512x16x7x1 S4x512x16x7 [] [3] [0, 1, 2] [3] [0, 1, 2] 4 ![1, 1, 1, 1]

variable [Facts₀]

def gather_S4x512x10_S4x512x1x1_S4x512x1_n_2_01_01_2_3_111 : GatherDims S4x512x10 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x10_S4x512x1x1_S4x512x1_n_2_01_01_2_3_111_wf
def gather_S10x16_S4x512x1_S4x512x16_2_0_n_n_0_2_116 : GatherDims S10x16 S4x512x1 S4x512x16 where
  offsetDims := [2]
  collapsedSliceDims := [0]
  operandBatchingDims := []
  startIndicesBatchingDims := []
  startIndexMap := [0]
  indexVectorDim := 2
  sliceSizes := ![1, 16]
  wf := gather_S10x16_S4x512x1_S4x512x16_2_0_n_n_0_2_116_wf
def gather_S4x512x16x8192_S4x512x16x7x1_S4x512x16x7_n_3_012_012_3_4_1111 : GatherDims S4x512x16x8192 S4x512x16x7x1 S4x512x16x7 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x512x16x8192_S4x512x16x7x1_S4x512x16x7_n_3_012_012_3_4_1111_wf

class Facts : Prop extends Facts₀ where

variable [Facts]
-- ==== Proof.KFrame.lean ====
import proofs.«428594_j79611513799125_3_alg».proof.Proof.Gen.KernelIdeal.Launch
import proofs.«428594_j79611513799125_3_alg».proof.Proof.Gen.KernelIdeal.Skeleton
import proofs.«428594_j79611513799125_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The logsumexp kernel's program is: host operations (the command loss, the masks, the clipped targets, the
    logits re-laid as 2048 rows), ONE pipelined region (a grid of 128 points, each reading 16 rows of 16 x 8192 logits
    and writing their 16 x 16 log-partition values), and host operations that gather the window taps and combine. -/

/-- The host operations before the region, stretch by stretch. -/
abbrev preOps : List (List (HloOp τ sig (Elt F))) :=
  [hostOps0, hostOps0_1, hostOps0_2, hostOps0_3, hostOps0_4, hostOps0_5, hostOps0_6, hostOps0_7, hostOps0_8, hostOps0_9, hostOps0_10]
/-- The host operations after the region, stretch by stretch. -/
abbrev sfxOps : List (List (HloOp τ sig (Elt F))) :=
  [hostOps1, hostOps1_1, hostOps1_2, hostOps1_3, hostOps1_4, hostOps1_5]

/-- What core `c`'s buffers hold when the region is entered: the launch contents run through the earlier operations. -/
abbrev V0 (c : Dev nD) : Valuation τ sig (Elt F) := StableHlo.after (List.flatten preOps) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 16 x 16 x 8192 input block, as the body loads it. -/
abbrev rIn : Rect S16x16x8192 := Rect.unit (s := S16x16x8192) ![0, 0, 0] S16x16x8192.size inb_S16x16x8192_S16x16x8192_0_0_0
/-- The whole 16 x 16 output block, as the body stores it. -/
abbrev rOut : Rect S16x16 := Rect.unit (s := S16x16) ![0, 0] S16x16.size inb_S16x16_S16x16_0_0

/-- What the body leaves in the output window's buffer: its one store, of the log-partition payload of the loaded block. -/
def out0_1 (x0 : Vec F S16x16x8192 .f32) : Vec F S16x16 .f32 :=
  View.canon [⟨rOut, k0_pay1 (View.ld x0 rIn)⟩]

/-- The pipeline's proof data on core `c`: arrays as the region finds them; after the body the input buffer holds its
    block and the output buffer the payload of that block; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-! ## The host operations, as lists

Each stretch touches TensorCore references only and allocates nothing; the stretches before the region give the
contents the region finds, the stretches after it run on what the region leaves. -/

/-- A property of every operation of every stretch, read at a member of a member. -/
theorem forall_mem_of_forall₂ {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

/-- A property of every operation of the concatenated stretches, read at a member of a stretch. -/
theorem forall_mem_of_flatten {α : Type} {P : α → Prop} {L : List (List α)} (h : L.flatten.Forall P) :
    ∀ l ∈ L, ∀ a ∈ l, P a :=
  fun l hl a ha => List.forall_iff_forall_mem.mp h a (List.mem_flatten.mpr ⟨l, hl, ha⟩)

/-- The earlier stretches touch TensorCore references only. -/
theorem pre_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub⟩
/-- The later stretches touch TensorCore references only. -/
theorem sfx_tc : (sfxOps (F := F)).Forall fun ops => ops.Forall fun op => op.bufs ⊆ StableHlo.tcRefs τ sig :=
  ⟨hostOps1_sub, hostOps1_1_sub, hostOps1_2_sub, hostOps1_3_sub, hostOps1_4_sub, hostOps1_5_sub⟩

/-- No earlier operation allocates. -/
theorem pre_fresh : (preOps (F := F)).Forall fun ops => ops.Forall fun op => op.fresh = ∅ := by
  simp only [List.Forall]; repeat' constructor
/-- No later operation allocates. -/
theorem sfx_fresh_all : (sfxOps (F := F)).Forall fun ops => ops.Forall fun op => op.fresh = ∅ := by
  simp only [List.Forall]; repeat' constructor

/-- The program around its region: the earlier stretches take the launch contents to `V`, the region runs, and what is
    left to run is the chain of the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfxOps (F := F)).map StableHlo.seq)) :=
  Pipeline.hmain_around cfgs 0 defs₀ 𝒱₀ m main preOps sfxOps pre_sub pre_fresh main_chain

/-- The later operations touch the pipeline's two arrays and the buffers that bypass the region only: each touches unscoped
    TensorCore references, and with nothing prefetched every such reference is one or the other. -/
theorem sfx_sub : ∀ ops ∈ (sfxOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of_forall₂ sfx_tc ops hops op hop)
/-- They allocate nothing. -/
theorem sfx_fresh : ∀ ops ∈ (sfxOps (F := F)), ∀ op ∈ ops, op.fresh = ∅ :=
  forall_mem_of_forall₂ sfx_fresh_all

/-! ## What the host operations do not write

Every operation writes its own result buffer and nothing else; the results are the program's intermediate values, so the
five argument arrays are written by no operation at all, and the region's two arrays — the re-laid logits, written by the
last earlier operation, and the region's own result — by no later one. One pass over each list: the operation's written set
is a singleton, and two distinct references are distinct buffers. -/

/-- No earlier operation writes argument 0. -/
theorem pre_keeps_arg0 : (List.flatten (preOps (F := F))).Forall fun op => Proc.devRef (τ := τ) .tc main_arg0 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 1. -/
theorem pre_keeps_arg1 : (List.flatten (preOps (F := F))).Forall fun op => Proc.devRef (τ := τ) .tc main_arg1 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 2. -/
theorem pre_keeps_arg2 : (List.flatten (preOps (F := F))).Forall fun op => Proc.devRef (τ := τ) .tc main_arg2 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 3. -/
theorem pre_keeps_arg3 : (List.flatten (preOps (F := F))).Forall fun op => Proc.devRef (τ := τ) .tc main_arg3 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 4. -/
theorem pre_keeps_arg4 : (List.flatten (preOps (F := F))).Forall fun op => Proc.devRef (τ := τ) .tc main_arg4 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 0. -/
theorem sfx_keeps_arg0 : (List.flatten (sfxOps (F := F))).Forall fun op => Proc.devRef (τ := τ) .tc main_arg0 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 1. -/
theorem sfx_keeps_arg1 : (List.flatten (sfxOps (F := F))).Forall fun op => Proc.devRef (τ := τ) .tc main_arg1 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 2. -/
theorem sfx_keeps_arg2 : (List.flatten (sfxOps (F := F))).Forall fun op => Proc.devRef (τ := τ) .tc main_arg2 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 3. -/
theorem sfx_keeps_arg3 : (List.flatten (sfxOps (F := F))).Forall fun op => Proc.devRef (τ := τ) .tc main_arg3 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 4. -/
theorem sfx_keeps_arg4 : (List.flatten (sfxOps (F := F))).Forall fun op => Proc.devRef (τ := τ) .tc main_arg4 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes an array of the pipeline: not the re-laid logits, not the region's result. -/
theorem sfx_keeps_flat : (List.flatten (sfxOps (F := F))).Forall fun op =>
    ∀ w, Proc.devRef (τ := τ) .tc (Pipeline.arrRef spec0 w) ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact fun w => StableHlo.devRef_ne_of_ne ((by decide : ∀ w, Pipeline.arrRef spec0 w ≠ _) w)
theorem sfx_keeps : ∀ ops ∈ (sfxOps (F := F)), ∀ op ∈ ops,
    ∀ w, Proc.devRef (τ := τ) .tc (Pipeline.arrRef spec0 w) ∉ op.writes :=
  forall_mem_of_flatten sfx_keeps_flat

/-! ## The argument arrays, at the region's entry and at the end -/

/-- A buffer no earlier operation writes is found by the region as launched. -/
theorem V_of (b : Ref sig .tc) (hpre : (List.flatten (preOps (F := F))).Forall fun op => Proc.devRef (τ := τ) .tc b ∉ op.writes)
    (c : Dev nD) : V m c b = m ((c : Thread nD τ).loc b) :=
  StableHlo.after_of_forall_not_mem (b := Proc.devRef .tc b) _ _ (List.forall_iff_forall_mem.mp hpre)

/-- A buffer that is no array of the pipeline and that no operation writes, earlier or later, ends as launched: the later
    operations leave it at what the region left, the region at what it found, the earlier operations at the launch contents. -/
theorem W_of (b : Ref sig .tc) (hpre : (List.flatten (preOps (F := F))).Forall fun op => Proc.devRef (τ := τ) .tc b ∉ op.writes)
    (hsfx : (List.flatten (sfxOps (F := F))).Forall fun op => Proc.devRef (τ := τ) .tc b ∉ op.writes)
    (hb : ∀ w, Pipeline.arrRef spec0 w ≠ b) (c : Dev nD) :
    Pipeline.afterTail₀ cfgs (dats m) 0 (V0 m) sfxOps c b = m ((c : Thread nD τ).loc b) := by
  unfold Pipeline.afterTail₀
  rw [StableHlo.after_of_forall_not_mem (b := Proc.devRef .tc b) _ _ (List.forall_iff_forall_mem.mp hsfx),
    Pipeline.withArrays_of_ne _ c (V0 m c) _ b hb]
  exact V_of m b hpre c

/-! ## The windows' blocks -/

/-- The input window's current staging buffer holds its block at every point: the window is uncut and never idle, and the
    body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The body's one store is of the whole 16 x 16 block, so it covers it. -/
theorem cover0_1 (p0 : Vec F S16x16 .f32) (y : S16x16.Idx) :
    ∃ pc ∈ ([⟨rOut, p0⟩] : List (View.Piece (Elt F) S16x16 .f32)), y ∈ pc.1.set :=
  View.cover_of_tiled [⟨rOut, p0⟩] S16x16.size (by rfl) y

/-! ## The body's triple -/

set_option maxHeartbeats 1000000 in
/-- The kernel body on whole staging memrefs, the input's at read contents `x0` and the output's at anything: it loads the
    input block, loads the output block (a value it never uses, so any contents do), and stores the log-partition payload of
    the loaded input over the whole output block. It leaves the input's as it was and the output's at `out0_1 x0`. -/
theorem sound_kernel (c : Dev nD) (E : Set ℕ) (i : grid0.Coords) (arg1 : Memref sig .tc .vmem S16x16x8192 .f32) (harg1 : arg1.IsWhole)
    (arg2 : Memref sig .tc .vmem S16x16 .f32) (harg2 : arg2.IsWhole)
    (x0 : Vec F S16x16x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__logz_kernel i arg1 harg1 arg2 harg2) K := by
  simp only [cc0__logz_kernel_eq_skeleton]; unfold cc0__logz_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The body obligation, at a generic point -/

/-- What the body is called with at point `t`: the region's invariant, nothing owed, and the two staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, the output's holds something, so the body's triple applies; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the whole program terminates without a fault; afterwards the two arrays of the
    pipeline hold what the proof data say and every other unscoped buffer what the later host operations leave. -/
theorem run_main : θ_run defs (onTc (τ := τ) (main (F := F))) (s₀ m ρ)
    (Pipeline.FramePost cfgs (dats m) 0 (Pipeline.afterTail₀ cfgs (dats m) 0 (V0 m) sfxOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOps) (hsub := sfx_sub) (hfresh := sfx_fresh) (hkeep := sfx_keeps)
    (hmain := hmain m Variants.none) (hA := A_eq m) (hΦ := fun _ _ => rfl)

/-- The program runs to the end and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans
        (W_of m main_arg0 pre_keeps_arg0 sfx_keeps_arg0 (by decide) c),
      ((h c).2 main_arg1 (Pipeline.mem_restRefs_of main_arg1 (by decide) (by decide))).trans
        (W_of m main_arg1 pre_keeps_arg1 sfx_keeps_arg1 (by decide) c),
      ((h c).2 main_arg2 (Pipeline.mem_restRefs_of main_arg2 (by decide) (by decide))).trans
        (W_of m main_arg2 pre_keeps_arg2 sfx_keeps_arg2 (by decide) c),
      ((h c).2 main_arg3 (Pipeline.mem_restRefs_of main_arg3 (by decide) (by decide))).trans
        (W_of m main_arg3 pre_keeps_arg3 sfx_keeps_arg3 (by decide) c),
      ((h c).2 main_arg4 (Pipeline.mem_restRefs_of main_arg4 (by decide) (by decide))).trans
        (W_of m main_arg4 pre_keeps_arg4 sfx_keeps_arg4 (by decide) c)⟩) (run_main m ρ)

end Cert.KernelIdeal.Fr

end
-- ==== Proof.KFrameB.lean ====
import proofs.«428594_j79611513799125_3_alg».proof.Proof.Gen.Kernel.Launch
import proofs.«428594_j79611513799125_3_alg».proof.Proof.Gen.Kernel.Skeleton
import proofs.«428594_j79611513799125_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The logsumexp kernel's program is: host operations (the command loss, the masks, the clipped targets, the
    logits re-laid as 2048 rows), ONE pipelined region (a grid of 128 points, each reading 16 rows of 16 x 8192 logits
    and writing their 16 x 16 log-partition values), and host operations that gather the window taps and combine. -/

/-- The host operations before the region, stretch by stretch. -/
abbrev preOps : List (List (HloOp τ sig (Elt F))) :=
  [hostOps0, hostOps0_1, hostOps0_2, hostOps0_3, hostOps0_4, hostOps0_5, hostOps0_6, hostOps0_7, hostOps0_8, hostOps0_9, hostOps0_10]
/-- The host operations after the region, stretch by stretch. -/
abbrev sfxOps : List (List (HloOp τ sig (Elt F))) :=
  [hostOps1, hostOps1_1, hostOps1_2, hostOps1_3, hostOps1_4, hostOps1_5]

/-- What core `c`'s buffers hold when the region is entered: the launch contents run through the earlier operations. -/
abbrev V0 (c : Dev nD) : Valuation τ sig (Elt F) := StableHlo.after (List.flatten preOps) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 16 x 16 x 8192 input block, as the body loads it. -/
abbrev rIn : Rect S16x16x8192 := Rect.unit (s := S16x16x8192) ![0, 0, 0] S16x16x8192.size inb_S16x16x8192_S16x16x8192_0_0_0
/-- The whole 16 x 16 output block, as the body stores it. -/
abbrev rOut : Rect S16x16 := Rect.unit (s := S16x16) ![0, 0] S16x16.size inb_S16x16_S16x16_0_0

/-- What the body leaves in the output window's buffer: its one store, of the log-partition payload of the loaded block. -/
def out0_1 (x0 : Vec F S16x16x8192 .f32) : Vec F S16x16 .f32 :=
  View.canon [⟨rOut, k0_pay1 (View.ld x0 rIn)⟩]

/-- The pipeline's proof data on core `c`: arrays as the region finds them; after the body the input buffer holds its
    block and the output buffer the payload of that block; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-! ## The host operations, as lists

Each stretch touches TensorCore references only and allocates nothing; the stretches before the region give the
contents the region finds, the stretches after it run on what the region leaves. -/

/-- A property of every operation of every stretch, read at a member of a member. -/
theorem forall_mem_of_forall₂ {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

/-- A property of every operation of the concatenated stretches, read at a member of a stretch. -/
theorem forall_mem_of_flatten {α : Type} {P : α → Prop} {L : List (List α)} (h : L.flatten.Forall P) :
    ∀ l ∈ L, ∀ a ∈ l, P a :=
  fun l hl a ha => List.forall_iff_forall_mem.mp h a (List.mem_flatten.mpr ⟨l, hl, ha⟩)

/-- The earlier stretches touch TensorCore references only. -/
theorem pre_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub⟩
/-- The later stretches touch TensorCore references only. -/
theorem sfx_tc : (sfxOps (F := F)).Forall fun ops => ops.Forall fun op => op.bufs ⊆ StableHlo.tcRefs τ sig :=
  ⟨hostOps1_sub, hostOps1_1_sub, hostOps1_2_sub, hostOps1_3_sub, hostOps1_4_sub, hostOps1_5_sub⟩

/-- No earlier operation allocates. -/
theorem pre_fresh : (preOps (F := F)).Forall fun ops => ops.Forall fun op => op.fresh = ∅ := by
  simp only [List.Forall]; repeat' constructor
/-- No later operation allocates. -/
theorem sfx_fresh_all : (sfxOps (F := F)).Forall fun ops => ops.Forall fun op => op.fresh = ∅ := by
  simp only [List.Forall]; repeat' constructor

/-- The program around its region: the earlier stretches take the launch contents to `V`, the region runs, and what is
    left to run is the chain of the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfxOps (F := F)).map StableHlo.seq)) :=
  Pipeline.hmain_around cfgs 0 defs₀ 𝒱₀ m main preOps sfxOps pre_sub pre_fresh main_chain

/-- The later operations touch the pipeline's two arrays and the buffers that bypass the region only: each touches unscoped
    TensorCore references, and with nothing prefetched every such reference is one or the other. -/
theorem sfx_sub : ∀ ops ∈ (sfxOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of_forall₂ sfx_tc ops hops op hop)
/-- They allocate nothing. -/
theorem sfx_fresh : ∀ ops ∈ (sfxOps (F := F)), ∀ op ∈ ops, op.fresh = ∅ :=
  forall_mem_of_forall₂ sfx_fresh_all

/-! ## What the host operations do not write

Every operation writes its own result buffer and nothing else; the results are the program's intermediate values, so the
five argument arrays are written by no operation at all, and the region's two arrays — the re-laid logits, written by the
last earlier operation, and the region's own result — by no later one. One pass over each list: the operation's written set
is a singleton, and two distinct references are distinct buffers. -/

/-- No earlier operation writes argument 0. -/
theorem pre_keeps_arg0 : (List.flatten (preOps (F := F))).Forall fun op => Proc.devRef (τ := τ) .tc main_arg0 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 1. -/
theorem pre_keeps_arg1 : (List.flatten (preOps (F := F))).Forall fun op => Proc.devRef (τ := τ) .tc main_arg1 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 2. -/
theorem pre_keeps_arg2 : (List.flatten (preOps (F := F))).Forall fun op => Proc.devRef (τ := τ) .tc main_arg2 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 3. -/
theorem pre_keeps_arg3 : (List.flatten (preOps (F := F))).Forall fun op => Proc.devRef (τ := τ) .tc main_arg3 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No earlier operation writes argument 4. -/
theorem pre_keeps_arg4 : (List.flatten (preOps (F := F))).Forall fun op => Proc.devRef (τ := τ) .tc main_arg4 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 0. -/
theorem sfx_keeps_arg0 : (List.flatten (sfxOps (F := F))).Forall fun op => Proc.devRef (τ := τ) .tc main_arg0 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 1. -/
theorem sfx_keeps_arg1 : (List.flatten (sfxOps (F := F))).Forall fun op => Proc.devRef (τ := τ) .tc main_arg1 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 2. -/
theorem sfx_keeps_arg2 : (List.flatten (sfxOps (F := F))).Forall fun op => Proc.devRef (τ := τ) .tc main_arg2 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 3. -/
theorem sfx_keeps_arg3 : (List.flatten (sfxOps (F := F))).Forall fun op => Proc.devRef (τ := τ) .tc main_arg3 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes argument 4. -/
theorem sfx_keeps_arg4 : (List.flatten (sfxOps (F := F))).Forall fun op => Proc.devRef (τ := τ) .tc main_arg4 ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact StableHlo.devRef_ne_of_ne (by decide)

/-- No later operation writes an array of the pipeline: not the re-laid logits, not the region's result. -/
theorem sfx_keeps_flat : (List.flatten (sfxOps (F := F))).Forall fun op =>
    ∀ w, Proc.devRef (τ := τ) .tc (Pipeline.arrRef spec0 w) ∉ op.writes := by
  simp only [List.flatten_cons, List.flatten_nil, List.append_nil, List.cons_append, List.nil_append, List.Forall,
      StableHlo.nullary_writes, StableHlo.unary_writes, StableHlo.binary_writes, StableHlo.ternary_writes,
      StableHlo.reshape_writes, Finset.mem_singleton]
  repeat' apply And.intro
  all_goals exact fun w => StableHlo.devRef_ne_of_ne ((by decide : ∀ w, Pipeline.arrRef spec0 w ≠ _) w)
theorem sfx_keeps : ∀ ops ∈ (sfxOps (F := F)), ∀ op ∈ ops,
    ∀ w, Proc.devRef (τ := τ) .tc (Pipeline.arrRef spec0 w) ∉ op.writes :=
  forall_mem_of_flatten sfx_keeps_flat

/-! ## The argument arrays, at the region's entry and at the end -/

/-- A buffer no earlier operation writes is found by the region as launched. -/
theorem V_of (b : Ref sig .tc) (hpre : (List.flatten (preOps (F := F))).Forall fun op => Proc.devRef (τ := τ) .tc b ∉ op.writes)
    (c : Dev nD) : V m c b = m ((c : Thread nD τ).loc b) :=
  StableHlo.after_of_forall_not_mem (b := Proc.devRef .tc b) _ _ (List.forall_iff_forall_mem.mp hpre)

/-- A buffer that is no array of the pipeline and that no operation writes, earlier or later, ends as launched: the later
    operations leave it at what the region left, the region at what it found, the earlier operations at the launch contents. -/
theorem W_of (b : Ref sig .tc) (hpre : (List.flatten (preOps (F := F))).Forall fun op => Proc.devRef (τ := τ) .tc b ∉ op.writes)
    (hsfx : (List.flatten (sfxOps (F := F))).Forall fun op => Proc.devRef (τ := τ) .tc b ∉ op.writes)
    (hb : ∀ w, Pipeline.arrRef spec0 w ≠ b) (c : Dev nD) :
    Pipeline.afterTail₀ cfgs (dats m) 0 (V0 m) sfxOps c b = m ((c : Thread nD τ).loc b) := by
  unfold Pipeline.afterTail₀
  rw [StableHlo.after_of_forall_not_mem (b := Proc.devRef .tc b) _ _ (List.forall_iff_forall_mem.mp hsfx),
    Pipeline.withArrays_of_ne _ c (V0 m c) _ b hb]
  exact V_of m b hpre c

/-! ## The windows' blocks -/

/-- The input window's current staging buffer holds its block at every point: the window is uncut and never idle, and the
    body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The body's one store is of the whole 16 x 16 block, so it covers it. -/
theorem cover0_1 (p0 : Vec F S16x16 .f32) (y : S16x16.Idx) :
    ∃ pc ∈ ([⟨rOut, p0⟩] : List (View.Piece (Elt F) S16x16 .f32)), y ∈ pc.1.set :=
  View.cover_of_tiled [⟨rOut, p0⟩] S16x16.size (by rfl) y

/-! ## The body's triple -/

set_option maxHeartbeats 1000000 in
/-- The kernel body on whole staging memrefs, the input's at read contents `x0` and the output's at anything: it loads the
    input block, loads the output block (a value it never uses, so any contents do), and stores the log-partition payload of
    the loaded input over the whole output block. It leaves the input's as it was and the output's at `out0_1 x0`. -/
theorem sound_kernel (c : Dev nD) (E : Set ℕ) (i : grid0.Coords) (arg1 : Memref sig .tc .vmem S16x16x8192 .f32) (harg1 : arg1.IsWhole)
    (arg2 : Memref sig .tc .vmem S16x16 .f32) (harg2 : arg2.IsWhole)
    (x0 : Vec F S16x16x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__logz_kernel i arg1 harg1 arg2 harg2) K := by
  simp only [cc0__logz_kernel_eq_skeleton]; unfold cc0__logz_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The body obligation, at a generic point -/

/-- What the body is called with at point `t`: the region's invariant, nothing owed, and the two staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, the output's holds something, so the body's triple applies; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the whole program terminates without a fault; afterwards the two arrays of the
    pipeline hold what the proof data say and every other unscoped buffer what the later host operations leave. -/
theorem run_main : θ_run defs (onTc (τ := τ) (main (F := F))) (s₀ m ρ)
    (Pipeline.FramePost cfgs (dats m) 0 (Pipeline.afterTail₀ cfgs (dats m) 0 (V0 m) sfxOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOps) (hsub := sfx_sub) (hfresh := sfx_fresh) (hkeep := sfx_keeps)
    (hmain := hmain m Variants.none) (hA := A_eq m) (hΦ := fun _ _ => rfl)

/-- The program runs to the end and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans
        (W_of m main_arg0 pre_keeps_arg0 sfx_keeps_arg0 (by decide) c),
      ((h c).2 main_arg1 (Pipeline.mem_restRefs_of main_arg1 (by decide) (by decide))).trans
        (W_of m main_arg1 pre_keeps_arg1 sfx_keeps_arg1 (by decide) c),
      ((h c).2 main_arg2 (Pipeline.mem_restRefs_of main_arg2 (by decide) (by decide))).trans
        (W_of m main_arg2 pre_keeps_arg2 sfx_keeps_arg2 (by decide) c),
      ((h c).2 main_arg3 (Pipeline.mem_restRefs_of main_arg3 (by decide) (by decide))).trans
        (W_of m main_arg3 pre_keeps_arg3 sfx_keeps_arg3 (by decide) c),
      ((h c).2 main_arg4 (Pipeline.mem_restRefs_of main_arg4 (by decide) (by decide))).trans
        (W_of m main_arg4 pre_keeps_arg4 sfx_keeps_arg4 (by decide) c)⟩) (run_main m ρ)

end Cert.Kernel.Fr

end
-- ==== Proof.KStages.lean ====
import proofs.«428594_j79611513799125_3_alg».proof.Proof.Gen.KernelIdeal
import Idealize.ShloMosaic.Lib.StableHlo.Run

noncomputable section

namespace Cert.KernelIdeal.St

open Cert.KernelIdeal Cert.KernelIdeal.Gen Idealize.ShloMosaic Idealize.ShloMosaic.TcCoe Idealize.SL.Sem

variable {F : FTy → Type} [FloatOps F]

/-- 4 host operations (main), in order. -/
abbrev kst0_0 : List (HloOp τ sig (Elt F)) :=
  [ StableHlo.nullary main_c (constantI S_ 32 3#32),
    StableHlo.unary main_c main_v0 (broadcastInDim S4x512 ![] bcast_S_S4x512 : (⟨S_, .i32⟩ : BufTy).Contents (Elt F) → (⟨S4x512, .i32⟩ : BufTy).Contents (Elt F)),
    StableHlo.binary main_arg3 main_v0 main_v1 (cmpi .eq : (⟨S4x512, .i32⟩ : BufTy).Contents (Elt F) → (⟨S4x512, .i32⟩ : BufTy).Contents (Elt F) → (⟨S4x512, .i1⟩ : BufTy).Contents (Elt F)),
    StableHlo.unary main_v1 main_v2 ((extui 32 · natLt_1_32) : (⟨S4x512, .i1⟩ : BufTy).Contents (Elt F) → (⟨S4x512, .i32⟩ : BufTy).Contents (Elt F)) ]
/-- The buffers they write. -/
abbrev kst0_0_writes : List (Ref sig .tc) :=
  [main_c, main_v0, main_v1, main_v2]

/-- 3 host operations (fn_cumsum_0), in order. -/
abbrev kst0_1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v2 : StableHlo.TRef sig ⟨S4x512, .i32⟩) (.of main_call0_call0_v0 : StableHlo.TRef sig ⟨S_, .i32⟩) (.of main_v3 : StableHlo.TRef sig ⟨S4x512, .i32⟩) (fun x v => Host.reduceWindow IntOp.addi ![1, 512] ![1, 1] ![0, 511] ![0, 0] x v reduceWindows_S4x512_S4x512_w1s1p0_0_w512s1p511_0 h_S_) ]
/-- The buffers they write. -/
abbrev kst0_1_writes : List (Ref sig .tc) :=
  [main_call0_call0_c, main_call0_call0_v0, main_v3]

/-- 4 host operations (main), in order. -/
abbrev kst0_2 : List (HloOp τ sig (Elt F)) :=
  [ StableHlo.nullary main_c_0 (constantI S_ 32 1#32),
    StableHlo.unary main_c_0 main_v4 (broadcastInDim S4x512 ![] bcast_S_S4x512 : (⟨S_, .i32⟩ : BufTy).Contents (Elt F) → (⟨S4x512, .i32⟩ : BufTy).Contents (Elt F)),
    StableHlo.binary main_v3 main_v4 main_v5 (cmpi .sle : (⟨S4x512, .i32⟩ : BufTy).Contents (Elt F) → (⟨S4x512, .i32⟩ : BufTy).Contents (Elt F) → (⟨S4x512, .i1⟩ : BufTy).Contents (Elt F)),
    StableHlo.unary main_v5 main_v6 (uitofp .f32 : (⟨S4x512, .i1⟩ : BufTy).Contents (Elt F) → (⟨S4x512, .f32⟩ : BufTy).Contents (Elt F)) ]
/-- The buffers they write. -/
abbrev kst0_2_writes : List (Ref sig .tc) :=
  [main_c_0, main_v4, main_v5, main_v6]

/-- 15 host operations (fn_log_softmax), in order. -/
abbrev kst0_3 : List (HloOp τ sig (Elt F)) :=
  [ StableHlo.TRef.nullary (.of main_call1_cst : StableHlo.TRef sig ⟨S_, .f32⟩) (constant S_ .f32 0xFF800000#32),
    StableHlo.TRef.binary (.of main_arg0 : StableHlo.TRef sig ⟨S4x512x10, .f32⟩) (.of main_call1_cst : StableHlo.TRef sig ⟨S_, .f32⟩) (.of main_call1_v0 : StableHlo.TRef sig ⟨S4x512, .f32⟩) (fun x v => Host.reduce FloatOps.maximumf x v reducesTo_S4x512x10_S4x512_d2 h_S_),
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v1 : StableHlo.TRef sig ⟨S4x512, .f32⟩) (broadcastInDim S4x512 ![] bcast_S_S4x512),
    StableHlo.TRef.binary (.of main_call1_v1 : StableHlo.TRef sig ⟨S4x512, .f32⟩) (.of main_call1_v0 : StableHlo.TRef sig ⟨S4x512, .f32⟩) (.of main_call1_v2 : StableHlo.TRef sig ⟨S4x512, .f32⟩) maximumf,
    StableHlo.TRef.unary (.of main_call1_v2 : StableHlo.TRef sig ⟨S4x512, .f32⟩) (.of main_call1_v3 : StableHlo.TRef sig ⟨S4x512x1, .f32⟩) (broadcastInDim S4x512x1 ![0, 1] bcast_S4x512_S4x512x1_0_1),
    StableHlo.TRef.unary (.of main_call1_v3 : StableHlo.TRef sig ⟨S4x512x1, .f32⟩) (.of main_call1_v4 : StableHlo.TRef sig ⟨S4x512x10, .f32⟩) (broadcastInDim S4x512x10 ![0, 1, 2] bcast_S4x512x1_S4x512x10_0_1_2),
    StableHlo.TRef.binary (.of main_arg0 : StableHlo.TRef sig ⟨S4x512x10, .f32⟩) (.of main_call1_v4 : StableHlo.TRef sig ⟨S4x512x10, .f32⟩) (.of main_call1_v5 : StableHlo.TRef sig ⟨S4x512x10, .f32⟩) subf,
    StableHlo.TRef.unary (.of main_call1_v5 : StableHlo.TRef sig ⟨S4x512x10, .f32⟩) (.of main_call1_v6 : StableHlo.TRef sig ⟨S4x512x10, .f32⟩) Host.exp,
    StableHlo.TRef.nullary (.of main_call1_cst_1 : StableHlo.TRef sig ⟨S_, .f32⟩) (constant S_ .f32 0x00000000#32),
    StableHlo.TRef.binary (.of main_call1_v6 : StableHlo.TRef sig ⟨S4x512x10, .f32⟩) (.of main_call1_cst_1 : StableHlo.TRef sig ⟨S_, .f32⟩) (.of main_call1_v7 : StableHlo.TRef sig ⟨S4x512, .f32⟩) (fun x v => Host.reduceAdd x v reducesTo_S4x512x10_S4x512_d2 h_S_),
    StableHlo.TRef.unary (.of main_call1_v7 : StableHlo.TRef sig ⟨S4x512, .f32⟩) (.of main_call1_v8 : StableHlo.TRef sig ⟨S4x512x1, .f32⟩) (broadcastInDim S4x512x1 ![0, 1] bcast_S4x512_S4x512x1_0_1),
    StableHlo.TRef.unary (.of main_call1_v8 : StableHlo.TRef sig ⟨S4x512x1, .f32⟩) (.of main_call1_v9 : StableHlo.TRef sig ⟨S4x512x1, .f32⟩) Host.log,
    StableHlo.TRef.unary (.of main_call1_v9 : StableHlo.TRef sig ⟨S4x512x1, .f32⟩) (.of main_call1_v10 : StableHlo.TRef sig ⟨S4x512x10, .f32⟩) (broadcastInDim S4x512x10 ![0, 1, 2] bcast_S4x512x1_S4x512x10_0_1_2),
    StableHlo.TRef.binary (.of main_call1_v5 : StableHlo.TRef sig ⟨S4x512x10, .f32⟩) (.of main_call1_v10 : StableHlo.TRef sig ⟨S4x512x10, .f32⟩) (.of main_v7 : StableHlo.TRef sig ⟨S4x512x10, .f32⟩) subf ]
/-- The buffers they write. -/
abbrev kst0_3_writes : List (Ref sig .tc) :=
  [main_call1_cst, main_call1_v0, main_call1_cst_0, main_call1_v1, main_call1_v2, main_call1_v3, main_call1_v4, main_call1_v5, main_call1_v6, main_call1_cst_1, main_call1_v7, main_call1_v8, main_call1_v9, main_call1_v10, main_v7]

/-- 1 host operations (main), in order. -/
abbrev kst0_4 : List (HloOp τ sig (Elt F)) :=
  [ StableHlo.unary main_arg3 main_v8 (broadcastInDim S4x512x1 ![0, 1] bcast_S4x512_S4x512x1_0_1 : (⟨S4x512, .i32⟩ : BufTy).Contents (Elt F) → (⟨S4x512x1, .i32⟩ : BufTy).Contents (Elt F)) ]
/-- The buffers they write. -/
abbrev kst0_4_writes : List (Ref sig .tc) :=
  [main_v8]

/-- 22 host operations (fn_take_along_axis), in order. -/
abbrev kst0_5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x512x1, .i32⟩) (broadcastInDim S4x512x1 ![] bcast_S_S4x512x1),
    StableHlo.TRef.binary (.of main_v8 : StableHlo.TRef sig ⟨S4x512x1, .i32⟩) (.of main_call2_v0 : StableHlo.TRef sig ⟨S4x512x1, .i32⟩) (.of main_call2_v1 : StableHlo.TRef sig ⟨S4x512x1, .i1⟩) (cmpi .slt),
    StableHlo.TRef.nullary (.of main_call2_c_0 : StableHlo.TRef sig ⟨S_, .i32⟩) (constantI S_ 32 10#32),
    StableHlo.TRef.unary (.of main_call2_c_0 : StableHlo.TRef sig ⟨S_, .i32⟩) (.of main_call2_v2 : StableHlo.TRef sig ⟨S4x512x1, .i32⟩) (broadcastInDim S4x512x1 ![] bcast_S_S4x512x1),
    StableHlo.TRef.binary (.of main_v8 : StableHlo.TRef sig ⟨S4x512x1, .i32⟩) (.of main_call2_v2 : StableHlo.TRef sig ⟨S4x512x1, .i32⟩) (.of main_call2_v3 : StableHlo.TRef sig ⟨S4x512x1, .i32⟩) addi,
    StableHlo.TRef.ternary (.of main_call2_v1 : StableHlo.TRef sig ⟨S4x512x1, .i1⟩) (.of main_call2_v3 : StableHlo.TRef sig ⟨S4x512x1, .i32⟩) (.of main_v8 : StableHlo.TRef sig ⟨S4x512x1, .i32⟩) (.of main_call2_v4 : StableHlo.TRef sig ⟨S4x512x1, .i32⟩) select,
    StableHlo.TRef.reshape (.of main_call2_v4 : StableHlo.TRef sig ⟨S4x512x1, .i32⟩) (.of main_call2_v5 : StableHlo.TRef sig ⟨S4x512x1x1, .i32⟩) rfl shapeCasts_S4x512x1_S4x512x1x1,
    StableHlo.TRef.nullary (.of main_call2_c_1 : StableHlo.TRef sig ⟨S1, .i32⟩) (constantI S1 32 9#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4x512x1x1, .i32⟩) (broadcastInDim S4x512x1x1 ![] bcast_S_S4x512x1x1),
    StableHlo.TRef.binary (.of main_call2_v5 : StableHlo.TRef sig ⟨S4x512x1x1, .i32⟩) (.of main_call2_v6 : StableHlo.TRef sig ⟨S4x512x1x1, .i32⟩) (.of main_call2_v7 : StableHlo.TRef sig ⟨S4x512x1x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S4x512x1x1, .i32⟩) (broadcastInDim S4x512x1x1 ![0, 1, 2, 3] bcast_S1x1x1x1_S4x512x1x1_0_1_2_3),
    StableHlo.TRef.binary (.of main_call2_v5 : StableHlo.TRef sig ⟨S4x512x1x1, .i32⟩) (.of main_call2_v9 : StableHlo.TRef sig ⟨S4x512x1x1, .i32⟩) (.of main_call2_v10 : StableHlo.TRef sig ⟨S4x512x1x1, .i1⟩) (cmpi .sle),
    StableHlo.TRef.binary (.of main_call2_v7 : StableHlo.TRef sig ⟨S4x512x1x1, .i1⟩) (.of main_call2_v10 : StableHlo.TRef sig ⟨S4x512x1x1, .i1⟩) (.of main_call2_v11 : StableHlo.TRef sig ⟨S4x512x1x1, .i1⟩) andi,
    StableHlo.TRef.nullary (.of main_call2_c_3 : StableHlo.TRef sig ⟨S_, .i1⟩) (constantI S_ 1 1#1),
    StableHlo.TRef.binary (.of main_call2_v11 : StableHlo.TRef sig ⟨S4x512x1x1, .i1⟩) (.of main_call2_c_3 : StableHlo.TRef sig ⟨S_, .i1⟩) (.of main_call2_v12 : StableHlo.TRef sig ⟨S4x512x1, .i1⟩) (fun x v => Host.reduce IntOp.andi x v reducesTo_S4x512x1x1_S4x512x1_d3 h_S_),
    StableHlo.TRef.binary (.of main_v7 : StableHlo.TRef sig ⟨S4x512x10, .f32⟩) (.of main_call2_v5 : StableHlo.TRef sig ⟨S4x512x1x1, .i32⟩) (.of main_call2_v13 : StableHlo.TRef sig ⟨S4x512x1, .f32⟩) (fun x i => Host.gather gather_S4x512x10_S4x512x1x1_S4x512x1_n_2_01_01_2_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x512x1, .f32⟩) (broadcastInDim S4x512x1 ![] bcast_S_S4x512x1),
    StableHlo.TRef.ternary (.of main_call2_v12 : StableHlo.TRef sig ⟨S4x512x1, .i1⟩) (.of main_call2_v13 : StableHlo.TRef sig ⟨S4x512x1, .f32⟩) (.of main_call2_v14 : StableHlo.TRef sig ⟨S4x512x1, .f32⟩) (.of main_v9 : StableHlo.TRef sig ⟨S4x512x1, .f32⟩) select ]
/-- The buffers they write. -/
abbrev kst0_5_writes : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v9]

/-- 4 host operations (main), in order. -/
abbrev kst0_6 : List (HloOp τ sig (Elt F)) :=
  [ StableHlo.reshape main_v9 main_v10 rfl shapeCasts_S4x512x1_S4x512,
    StableHlo.unary main_v10 main_v11 (Host.negf : (⟨S4x512, .f32⟩ : BufTy).Contents (Elt F) → (⟨S4x512, .f32⟩ : BufTy).Contents (Elt F)),
    StableHlo.binary main_v11 main_v11 main_v12 (cmpf .une : (⟨S4x512, .f32⟩ : BufTy).Contents (Elt F) → (⟨S4x512, .f32⟩ : BufTy).Contents (Elt F) → (⟨S4x512, .i1⟩ : BufTy).Contents (Elt F)),
    StableHlo.nullary main_cst (constant S_ .f32 0x00000000#32) ]
/-- The buffers they write. -/
abbrev kst0_6_writes : List (Ref sig .tc) :=
  [main_v10, main_v11, main_v12, main_cst]

/-- 3 host operations (fn_where), in order. -/
abbrev kst0_7 : List (HloOp τ sig (Elt F)) :=
  [ StableHlo.TRef.unary (.of main_cst : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4x512, .f32⟩) (broadcastInDim S4x512 ![] bcast_S_S4x512),
    StableHlo.TRef.ternary (.of main_v12 : StableHlo.TRef sig ⟨S4x512, .i1⟩) (.of main_call3_v1 : StableHlo.TRef sig ⟨S4x512, .f32⟩) (.of main_v11 : StableHlo.TRef sig ⟨S4x512, .f32⟩) (.of main_v13 : StableHlo.TRef sig ⟨S4x512, .f32⟩) select ]
/-- The buffers they write. -/
abbrev kst0_7_writes : List (Ref sig .tc) :=
  [main_call3_v0, main_call3_v1, main_v13]

/-- 22 host operations (main), in order. -/
abbrev kst0_8 : List (HloOp τ sig (Elt F)) :=
  [ StableHlo.binary main_v13 main_v6 main_v14 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v14 main_cst_1 main_v15 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v6 main_cst_2 main_v16 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v16 main_cst_3 main_v17 (addf : (⟨S_, .f32⟩ : BufTy).Contents (Elt F) → (⟨S_, .f32⟩ : BufTy).Contents (Elt F) → (⟨S_, .f32⟩ : BufTy).Contents (Elt F)),
    StableHlo.binary main_v15 main_v17 main_v18 (Host.divf : (⟨S_, .f32⟩ : BufTy).Contents (Elt F) → (⟨S_, .f32⟩ : BufTy).Contents (Elt F) → (⟨S_, .f32⟩ : BufTy).Contents (Elt F)),
    StableHlo.nullary main_c_4 (constantI S_ 32 0#32),
    StableHlo.unary main_c_4 main_v19 (broadcastInDim S4x512 ![] bcast_S_S4x512 : (⟨S_, .i32⟩ : BufTy).Contents (Elt F) → (⟨S4x512, .i32⟩ : BufTy).Contents (Elt F)),
    StableHlo.binary main_arg3 main_v19 main_v20 (cmpi .slt : (⟨S4x512, .i32⟩ : BufTy).Contents (Elt F) → (⟨S4x512, .i32⟩ : BufTy).Contents (Elt F) → (⟨S4x512, .i1⟩ : BufTy).Contents (Elt F)),
    StableHlo.nullary main_c_5 (constantI S_ 32 10#32),
    StableHlo.unary main_c_5 main_v21 (broadcastInDim S4x512 ![] bcast_S_S4x512 : (⟨S_, .i32⟩ : BufTy).Contents (Elt F) → (⟨S4x512, .i32⟩ : BufTy).Contents (Elt F)),
    StableHlo.binary main_arg3 main_v21 main_v22 (addi : (⟨S4x512, .i32⟩ : BufTy).Contents (Elt F) → (⟨S4x512, .i32⟩ : BufTy).Contents (Elt F) → (⟨S4x512, .i32⟩ : BufTy).Contents (Elt F)),
    StableHlo.ternary main_v20 main_v22 main_arg3 main_v23 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_v23 main_v24 (broadcastInDim S4x512x1 ![0, 1] bcast_S4x512_S4x512x1_0_1 : (⟨S4x512, .i32⟩ : BufTy).Contents (Elt F) → (⟨S4x512x1, .i32⟩ : BufTy).Contents (Elt F)),
    StableHlo.binary main_arg2 main_v24 main_v25 ((fun x i => Host.gather gather_S10x16_S4x512x1_S4x512x16_2_0_n_n_0_2_116 x i) : (⟨S10x16, .f32⟩ : BufTy).Contents (Elt F) → (⟨S4x512x1, .i32⟩ : BufTy).Contents (Elt F) → (⟨S4x512x16, .f32⟩ : BufTy).Contents (Elt F)),
    StableHlo.unary main_v6 main_v26 (broadcastInDim S4x512x1 ![0, 1] bcast_S4x512_S4x512x1_0_1 : (⟨S4x512, .f32⟩ : BufTy).Contents (Elt F) → (⟨S4x512x1, .f32⟩ : BufTy).Contents (Elt F)),
    StableHlo.unary main_v26 main_v27 (broadcastInDim S4x512x16 ![0, 1, 2] bcast_S4x512x1_S4x512x16_0_1_2 : (⟨S4x512x1, .f32⟩ : BufTy).Contents (Elt F) → (⟨S4x512x16, .f32⟩ : BufTy).Contents (Elt F)),
    StableHlo.binary main_v27 main_v25 main_v28 (mulf : (⟨S4x512x16, .f32⟩ : BufTy).Contents (Elt F) → (⟨S4x512x16, .f32⟩ : BufTy).Contents (Elt F) → (⟨S4x512x16, .f32⟩ : BufTy).Contents (Elt F)),
    StableHlo.nullary main_c_6 (constantI S_ 32 0#32),
    StableHlo.nullary main_c_7 (constantI S_ 32 8191#32) ]
/-- The buffers they write. -/
abbrev kst0_8_writes : List (Ref sig .tc) :=
  [main_v14, main_cst_1, main_v15, main_cst_2, main_v16, main_cst_3, main_v17, main_v18, main_c_4, main_v19, main_v20, main_c_5, main_v21, main_v22, main_v23, main_v24, main_v25, main_v26, main_v27, main_v28, main_c_6, main_c_7]

/-- 6 host operations (fn_clip), in order. -/
abbrev kst0_9 : List (HloOp τ sig (Elt F)) :=
  [ StableHlo.TRef.unary (.of main_c_6 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S4x512x16, .i32⟩) (broadcastInDim S4x512x16 ![] bcast_S_S4x512x16),
    StableHlo.TRef.binary (.of main_call4_v1 : StableHlo.TRef sig ⟨S4x512x16, .i32⟩) (.of main_arg4 : StableHlo.TRef sig ⟨S4x512x16, .i32⟩) (.of main_call4_v2 : StableHlo.TRef sig ⟨S4x512x16, .i32⟩) maxsi,
    StableHlo.TRef.unary (.of main_c_7 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S4x512x16, .i32⟩) (broadcastInDim S4x512x16 ![] bcast_S_S4x512x16),
    StableHlo.TRef.binary (.of main_call4_v4 : StableHlo.TRef sig ⟨S4x512x16, .i32⟩) (.of main_call4_v2 : StableHlo.TRef sig ⟨S4x512x16, .i32⟩) (.of main_v29 : StableHlo.TRef sig ⟨S4x512x16, .i32⟩) minsi ]
/-- The buffers they write. -/
abbrev kst0_9_writes : List (Ref sig .tc) :=
  [main_call4_v0, main_call4_v1, main_call4_v2, main_call4_v3, main_call4_v4, main_v29]

/-- 1 host operations (main), in order. -/
abbrev kst0_10 : List (HloOp τ sig (Elt F)) :=
  [ StableHlo.reshape main_arg1 main_v30 rfl shapeCasts_S4x512x16x8192_S2048x16x8192 ]
/-- The buffers they write. -/
abbrev kst0_10_writes : List (Ref sig .tc) :=
  [main_v30]

/-- 26 host operations (main), in order. -/
abbrev kst1_0 : List (HloOp τ sig (Elt F)) :=
  [ StableHlo.reshape main_v31 main_v32 rfl shapeCasts_S2048x16_S4x512x16,
    StableHlo.nullary main_v33 (iotaInDim S7 32 0),
    StableHlo.nullary main_c_8 (constantI S_ 32 4294967293#32),
    StableHlo.unary main_c_8 main_v34 (broadcastInDim S7 ![] bcast_S_S7 : (⟨S_, .i32⟩ : BufTy).Contents (Elt F) → (⟨S7, .i32⟩ : BufTy).Contents (Elt F)),
    StableHlo.binary main_v34 main_v33 main_v35 (addi : (⟨S7, .i32⟩ : BufTy).Contents (Elt F) → (⟨S7, .i32⟩ : BufTy).Contents (Elt F) → (⟨S7, .i32⟩ : BufTy).Contents (Elt F)),
    StableHlo.unary main_v35 main_v36 (absi : (⟨S7, .i32⟩ : BufTy).Contents (Elt F) → (⟨S7, .i32⟩ : BufTy).Contents (Elt F)),
    StableHlo.unary main_v36 main_v37 (sitofp .f32 : (⟨S7, .i32⟩ : BufTy).Contents (Elt F) → (⟨S7, .f32⟩ : BufTy).Contents (Elt F)),
    StableHlo.nullary main_cst_9 (constant S_ .f32 0xC0000000#32),
    StableHlo.unary main_cst_9 main_v38 (broadcastInDim S7 ![] bcast_S_S7 : (⟨S_, .f32⟩ : BufTy).Contents (Elt F) → (⟨S7, .f32⟩ : BufTy).Contents (Elt F)),
    StableHlo.binary main_v38 main_v37 main_v39 (mulf : (⟨S7, .f32⟩ : BufTy).Contents (Elt F) → (⟨S7, .f32⟩ : BufTy).Contents (Elt F) → (⟨S7, .f32⟩ : BufTy).Contents (Elt F)),
    StableHlo.unary main_v39 main_v40 (Host.exp : (⟨S7, .f32⟩ : BufTy).Contents (Elt F) → (⟨S7, .f32⟩ : BufTy).Contents (Elt F)),
    StableHlo.nullary main_cst_10 (constant S_ .f32 0x00000000#32),
    StableHlo.binary main_v40 main_cst_10 main_v41 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.nullary main_cst_11 (constant S_ .f32 0x322BCC77#32),
    StableHlo.binary main_v41 main_cst_11 main_v42 (addf : (⟨S_, .f32⟩ : BufTy).Contents (Elt F) → (⟨S_, .f32⟩ : BufTy).Contents (Elt F) → (⟨S_, .f32⟩ : BufTy).Contents (Elt F)),
    StableHlo.unary main_v42 main_v43 (broadcastInDim S7 ![] bcast_S_S7 : (⟨S_, .f32⟩ : BufTy).Contents (Elt F) → (⟨S7, .f32⟩ : BufTy).Contents (Elt F)),
    StableHlo.binary main_v40 main_v43 main_v44 (Host.divf : (⟨S7, .f32⟩ : BufTy).Contents (Elt F) → (⟨S7, .f32⟩ : BufTy).Contents (Elt F) → (⟨S7, .f32⟩ : BufTy).Contents (Elt F)),
    StableHlo.nullary main_cst_12 (constant S_ .f32 0x00000000#32),
    StableHlo.binary main_v44 main_cst_12 main_v45 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.unary main_v29 main_v46 (broadcastInDim S4x512x16x1 ![0, 1, 2] bcast_S4x512x16_S4x512x16x1_0_1_2 : (⟨S4x512x16, .i32⟩ : BufTy).Contents (Elt F) → (⟨S4x512x16x1, .i32⟩ : BufTy).Contents (Elt F)),
    StableHlo.unary main_v35 main_v47 (broadcastInDim S1x1x1x7 ![3] bcast_S7_S1x1x1x7_3 : (⟨S7, .i32⟩ : BufTy).Contents (Elt F) → (⟨S1x1x1x7, .i32⟩ : BufTy).Contents (Elt F)),
    StableHlo.unary main_v46 main_v48 (broadcastInDim S4x512x16x7 ![0, 1, 2, 3] bcast_S4x512x16x1_S4x512x16x7_0_1_2_3 : (⟨S4x512x16x1, .i32⟩ : BufTy).Contents (Elt F) → (⟨S4x512x16x7, .i32⟩ : BufTy).Contents (Elt F)),
    StableHlo.unary main_v47 main_v49 (broadcastInDim S4x512x16x7 ![0, 1, 2, 3] bcast_S1x1x1x7_S4x512x16x7_0_1_2_3 : (⟨S1x1x1x7, .i32⟩ : BufTy).Contents (Elt F) → (⟨S4x512x16x7, .i32⟩ : BufTy).Contents (Elt F)),
    StableHlo.binary main_v48 main_v49 main_v50 (addi : (⟨S4x512x16x7, .i32⟩ : BufTy).Contents (Elt F) → (⟨S4x512x16x7, .i32⟩ : BufTy).Contents (Elt F) → (⟨S4x512x16x7, .i32⟩ : BufTy).Contents (Elt F)),
    StableHlo.nullary main_c_13 (constantI S_ 32 0#32),
    StableHlo.nullary main_c_14 (constantI S_ 32 8191#32) ]
/-- The buffers they write. -/
abbrev kst1_0_writes : List (Ref sig .tc) :=
  [main_v32, main_v33, main_c_8, main_v34, main_v35, main_v36, main_v37, main_cst_9, main_v38, main_v39, main_v40, main_cst_10, main_v41, main_cst_11, main_v42, main_v43, main_v44, main_cst_12, main_v45, main_v46, main_v47, main_v48, main_v49, main_v50, main_c_13, main_c_14]

/-- 6 host operations (fn_clip_1), in order. -/
abbrev kst1_1 : List (HloOp τ sig (Elt F)) :=
  [ StableHlo.TRef.unary (.of main_c_13 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4x512x16x7, .i32⟩) (broadcastInDim S4x512x16x7 ![] bcast_S_S4x512x16x7),
    StableHlo.TRef.binary (.of main_call5_v1 : StableHlo.TRef sig ⟨S4x512x16x7, .i32⟩) (.of main_v50 : StableHlo.TRef sig ⟨S4x512x16x7, .i32⟩) (.of main_call5_v2 : StableHlo.TRef sig ⟨S4x512x16x7, .i32⟩) maxsi,
    StableHlo.TRef.unary (.of main_c_14 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S4x512x16x7, .i32⟩) (broadcastInDim S4x512x16x7 ![] bcast_S_S4x512x16x7),
    StableHlo.TRef.binary (.of main_call5_v4 : StableHlo.TRef sig ⟨S4x512x16x7, .i32⟩) (.of main_call5_v2 : StableHlo.TRef sig ⟨S4x512x16x7, .i32⟩) (.of main_v51 : StableHlo.TRef sig ⟨S4x512x16x7, .i32⟩) minsi ]
/-- The buffers they write. -/
abbrev kst1_1_writes : List (Ref sig .tc) :=
  [main_call5_v0, main_call5_v1, main_call5_v2, main_call5_v3, main_call5_v4, main_v51]

/-- 22 host operations (fn_take_along_axis_2), in order. -/
abbrev kst1_2 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S4x512x16x7, .i32⟩) (broadcastInDim S4x512x16x7 ![] bcast_S_S4x512x16x7),
    StableHlo.TRef.binary (.of main_v51 : StableHlo.TRef sig ⟨S4x512x16x7, .i32⟩) (.of main_call6_v0 : StableHlo.TRef sig ⟨S4x512x16x7, .i32⟩) (.of main_call6_v1 : StableHlo.TRef sig ⟨S4x512x16x7, .i1⟩) (cmpi .slt),
    StableHlo.TRef.nullary (.of main_call6_c_0 : StableHlo.TRef sig ⟨S_, .i32⟩) (constantI S_ 32 8192#32),
    StableHlo.TRef.unary (.of main_call6_c_0 : StableHlo.TRef sig ⟨S_, .i32⟩) (.of main_call6_v2 : StableHlo.TRef sig ⟨S4x512x16x7, .i32⟩) (broadcastInDim S4x512x16x7 ![] bcast_S_S4x512x16x7),
    StableHlo.TRef.binary (.of main_v51 : StableHlo.TRef sig ⟨S4x512x16x7, .i32⟩) (.of main_call6_v2 : StableHlo.TRef sig ⟨S4x512x16x7, .i32⟩) (.of main_call6_v3 : StableHlo.TRef sig ⟨S4x512x16x7, .i32⟩) addi,
    StableHlo.TRef.ternary (.of main_call6_v1 : StableHlo.TRef sig ⟨S4x512x16x7, .i1⟩) (.of main_call6_v3 : StableHlo.TRef sig ⟨S4x512x16x7, .i32⟩) (.of main_v51 : StableHlo.TRef sig ⟨S4x512x16x7, .i32⟩) (.of main_call6_v4 : StableHlo.TRef sig ⟨S4x512x16x7, .i32⟩) select,
    StableHlo.TRef.reshape (.of main_call6_v4 : StableHlo.TRef sig ⟨S4x512x16x7, .i32⟩) (.of main_call6_v5 : StableHlo.TRef sig ⟨S4x512x16x7x1, .i32⟩) rfl shapeCasts_S4x512x16x7_S4x512x16x7x1,
    StableHlo.TRef.nullary (.of main_call6_c_1 : StableHlo.TRef sig ⟨S1, .i32⟩) (constantI S1 32 8191#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S4x512x16x7x1, .i32⟩) (broadcastInDim S4x512x16x7x1 ![] bcast_S_S4x512x16x7x1),
    StableHlo.TRef.binary (.of main_call6_v5 : StableHlo.TRef sig ⟨S4x512x16x7x1, .i32⟩) (.of main_call6_v6 : StableHlo.TRef sig ⟨S4x512x16x7x1, .i32⟩) (.of main_call6_v7 : StableHlo.TRef sig ⟨S4x512x16x7x1, .i1⟩) (cmpi .sge),
    StableHlo.TRef.unary (.of main_call6_c_1 : StableHlo.TRef sig ⟨S1, .i32⟩) (.of main_call6_v8 : StableHlo.TRef sig ⟨S1x1x1x1x1, .i32⟩) (broadcastInDim S1x1x1x1x1 ![4] bcast_S1_S1x1x1x1x1_4),
    StableHlo.TRef.unary (.of main_call6_v8 : StableHlo.TRef sig ⟨S1x1x1x1x1, .i32⟩) (.of main_call6_v9 : StableHlo.TRef sig ⟨S4x512x16x7x1, .i32⟩) (broadcastInDim S4x512x16x7x1 ![0, 1, 2, 3, 4] bcast_S1x1x1x1x1_S4x512x16x7x1_0_1_2_3_4),
    StableHlo.TRef.binary (.of main_call6_v5 : StableHlo.TRef sig ⟨S4x512x16x7x1, .i32⟩) (.of main_call6_v9 : StableHlo.TRef sig ⟨S4x512x16x7x1, .i32⟩) (.of main_call6_v10 : StableHlo.TRef sig ⟨S4x512x16x7x1, .i1⟩) (cmpi .sle),
    StableHlo.TRef.binary (.of main_call6_v7 : StableHlo.TRef sig ⟨S4x512x16x7x1, .i1⟩) (.of main_call6_v10 : StableHlo.TRef sig ⟨S4x512x16x7x1, .i1⟩) (.of main_call6_v11 : StableHlo.TRef sig ⟨S4x512x16x7x1, .i1⟩) andi,
    StableHlo.TRef.nullary (.of main_call6_c_3 : StableHlo.TRef sig ⟨S_, .i1⟩) (constantI S_ 1 1#1),
    StableHlo.TRef.binary (.of main_call6_v11 : StableHlo.TRef sig ⟨S4x512x16x7x1, .i1⟩) (.of main_call6_c_3 : StableHlo.TRef sig ⟨S_, .i1⟩) (.of main_call6_v12 : StableHlo.TRef sig ⟨S4x512x16x7, .i1⟩) (fun x v => Host.reduce IntOp.andi x v reducesTo_S4x512x16x7x1_S4x512x16x7_d4 h_S_),
    StableHlo.TRef.binary (.of main_arg1 : StableHlo.TRef sig ⟨S4x512x16x8192, .f32⟩) (.of main_call6_v5 : StableHlo.TRef sig ⟨S4x512x16x7x1, .i32⟩) (.of main_call6_v13 : StableHlo.TRef sig ⟨S4x512x16x7, .f32⟩) (fun x i => Host.gather gather_S4x512x16x8192_S4x512x16x7x1_S4x512x16x7_n_3_012_012_3_4_1111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S4x512x16x7, .f32⟩) (broadcastInDim S4x512x16x7 ![] bcast_S_S4x512x16x7),
    StableHlo.TRef.ternary (.of main_call6_v12 : StableHlo.TRef sig ⟨S4x512x16x7, .i1⟩) (.of main_call6_v13 : StableHlo.TRef sig ⟨S4x512x16x7, .f32⟩) (.of main_call6_v14 : StableHlo.TRef sig ⟨S4x512x16x7, .f32⟩) (.of main_v52 : StableHlo.TRef sig ⟨S4x512x16x7, .f32⟩) select ]
/-- The buffers they write. -/
abbrev kst1_2_writes : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v52]

/-- 11 host operations (main), in order. -/
abbrev kst1_3 : List (HloOp τ sig (Elt F)) :=
  [ StableHlo.unary main_v44 main_v53 (broadcastInDim S1x1x1x7 ![3] bcast_S7_S1x1x1x7_3 : (⟨S7, .f32⟩ : BufTy).Contents (Elt F) → (⟨S1x1x1x7, .f32⟩ : BufTy).Contents (Elt F)),
    StableHlo.unary main_v53 main_v54 (broadcastInDim S4x512x16x7 ![0, 1, 2, 3] bcast_S1x1x1x7_S4x512x16x7_0_1_2_3 : (⟨S1x1x1x7, .f32⟩ : BufTy).Contents (Elt F) → (⟨S4x512x16x7, .f32⟩ : BufTy).Contents (Elt F)),
    StableHlo.binary main_v52 main_v54 main_v55 (mulf : (⟨S4x512x16x7, .f32⟩ : BufTy).Contents (Elt F) → (⟨S4x512x16x7, .f32⟩ : BufTy).Contents (Elt F) → (⟨S4x512x16x7, .f32⟩ : BufTy).Contents (Elt F)),
    StableHlo.nullary main_cst_15 (constant S_ .f32 0x00000000#32),
    StableHlo.binary main_v55 main_cst_15 main_v56 ((fun x v => Host.reduceAdd x v reducesTo_S4x512x16x7_S4x512x16_d3 h_S_) : (⟨S4x512x16x7, .f32⟩ : BufTy).Contents (Elt F) → (⟨S_, .f32⟩ : BufTy).Contents (Elt F) → (⟨S4x512x16, .f32⟩ : BufTy).Contents (Elt F)),
    StableHlo.unary main_v45 main_v57 (broadcastInDim S4x512x16 ![] bcast_S_S4x512x16 : (⟨S_, .f32⟩ : BufTy).Contents (Elt F) → (⟨S4x512x16, .f32⟩ : BufTy).Contents (Elt F)),
    StableHlo.binary main_v57 main_v32 main_v58 (mulf : (⟨S4x512x16, .f32⟩ : BufTy).Contents (Elt F) → (⟨S4x512x16, .f32⟩ : BufTy).Contents (Elt F) → (⟨S4x512x16, .f32⟩ : BufTy).Contents (Elt F)),
    StableHlo.binary main_v56 main_v58 main_v59 (subf : (⟨S4x512x16, .f32⟩ : BufTy).Contents (Elt F) → (⟨S4x512x16, .f32⟩ : BufTy).Contents (Elt F) → (⟨S4x512x16, .f32⟩ : BufTy).Contents (Elt F)),
    StableHlo.unary main_v59 main_v60 (Host.negf : (⟨S4x512x16, .f32⟩ : BufTy).Contents (Elt F) → (⟨S4x512x16, .f32⟩ : BufTy).Contents (Elt F)),
    StableHlo.binary main_v60 main_v60 main_v61 (cmpf .une : (⟨S4x512x16, .f32⟩ : BufTy).Contents (Elt F) → (⟨S4x512x16, .f32⟩ : BufTy).Contents (Elt F) → (⟨S4x512x16, .i1⟩ : BufTy).Contents (Elt F)),
    StableHlo.nullary main_cst_16 (constant S_ .f32 0x00000000#32) ]
/-- The buffers they write. -/
abbrev kst1_3_writes : List (Ref sig .tc) :=
  [main_v53, main_v54, main_v55, main_cst_15, main_v56, main_v57, main_v58, main_v59, main_v60, main_v61, main_cst_16]

/-- 3 host operations (fn_where_3), in order. -/
abbrev kst1_4 : List (HloOp τ sig (Elt F)) :=
  [ StableHlo.TRef.unary (.of main_cst_16 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S4x512x16, .f32⟩) (broadcastInDim S4x512x16 ![] bcast_S_S4x512x16),
    StableHlo.TRef.ternary (.of main_v61 : StableHlo.TRef sig ⟨S4x512x16, .i1⟩) (.of main_call7_v1 : StableHlo.TRef sig ⟨S4x512x16, .f32⟩) (.of main_v60 : StableHlo.TRef sig ⟨S4x512x16, .f32⟩) (.of main_v62 : StableHlo.TRef sig ⟨S4x512x16, .f32⟩) select ]
/-- The buffers they write. -/
abbrev kst1_4_writes : List (Ref sig .tc) :=
  [main_call7_v0, main_call7_v1, main_v62]

/-- 13 host operations (main), in order. -/
abbrev kst1_5 : List (HloOp τ sig (Elt F)) :=
  [ StableHlo.binary main_v62 main_v28 main_v63 (mulf : (⟨S4x512x16, .f32⟩ : BufTy).Contents (Elt F) → (⟨S4x512x16, .f32⟩ : BufTy).Contents (Elt F) → (⟨S4x512x16, .f32⟩ : BufTy).Contents (Elt F)),
    StableHlo.nullary main_cst_17 (constant S_ .f32 0x00000000#32),
    StableHlo.binary main_v63 main_cst_17 main_v64 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_18 (constant S_ .f32 0x00000000#32),
    StableHlo.binary main_v28 main_cst_18 main_v65 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_19 (constant S_ .f32 0x322BCC77#32),
    StableHlo.binary main_v65 main_cst_19 main_v66 (addf : (⟨S_, .f32⟩ : BufTy).Contents (Elt F) → (⟨S_, .f32⟩ : BufTy).Contents (Elt F) → (⟨S_, .f32⟩ : BufTy).Contents (Elt F)),
    StableHlo.binary main_v64 main_v66 main_v67 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x3F800000#32),
    StableHlo.binary main_cst_20 main_v18 main_v68 (mulf : (⟨S_, .f32⟩ : BufTy).Contents (Elt F) → (⟨S_, .f32⟩ : BufTy).Contents (Elt F) → (⟨S_, .f32⟩ : BufTy).Contents (Elt F)),
    StableHlo.nullary main_cst_21 (constant S_ .f32 0x3F800000#32),
    StableHlo.binary main_cst_21 main_v67 main_v69 (mulf : (⟨S_, .f32⟩ : BufTy).Contents (Elt F) → (⟨S_, .f32⟩ : BufTy).Contents (Elt F) → (⟨S_, .f32⟩ : BufTy).Contents (Elt F)),
    StableHlo.binary main_v68 main_v69 main_v70 (addf : (⟨S_, .f32⟩ : BufTy).Contents (Elt F) → (⟨S_, .f32⟩ : BufTy).Contents (Elt F) → (⟨S_, .f32⟩ : BufTy).Contents (Elt F)) ]
/-- The buffers they write. -/
abbrev kst1_5_writes : List (Ref sig .tc) :=
  [main_v63, main_cst_17, main_v64, main_cst_18, main_v65, main_cst_19, main_v66, main_v67, main_cst_20, main_v68, main_cst_21, main_v69, main_v70]

/-- The stretches of part 0, in order. -/
abbrev kst0_all : List (List (HloOp τ sig (Elt F))) :=
  [kst0_0, kst0_1, kst0_2, kst0_3, kst0_4, kst0_5, kst0_6, kst0_7, kst0_8, kst0_9, kst0_10]

/-- The stretches of part 1, in order. -/
abbrev kst1_all : List (List (HloOp τ sig (Elt F))) :=
  [kst1_0, kst1_1, kst1_2, kst1_3, kst1_4, kst1_5]

/-- The program's host operations, stretch 0, calls inlined, in order. -/
abbrev kops0 : List (HloOp τ sig (Elt F)) :=
  [ StableHlo.nullary main_c (constantI S_ 32 3#32),
    StableHlo.unary main_c main_v0 (broadcastInDim S4x512 ![] bcast_S_S4x512 : (⟨S_, .i32⟩ : BufTy).Contents (Elt F) → (⟨S4x512, .i32⟩ : BufTy).Contents (Elt F)),
    StableHlo.binary main_arg3 main_v0 main_v1 (cmpi .eq : (⟨S4x512, .i32⟩ : BufTy).Contents (Elt F) → (⟨S4x512, .i32⟩ : BufTy).Contents (Elt F) → (⟨S4x512, .i1⟩ : BufTy).Contents (Elt F)),
    StableHlo.unary main_v1 main_v2 ((extui 32 · natLt_1_32) : (⟨S4x512, .i1⟩ : BufTy).Contents (Elt F) → (⟨S4x512, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v2 : StableHlo.TRef sig ⟨S4x512, .i32⟩) (.of main_call0_call0_v0 : StableHlo.TRef sig ⟨S_, .i32⟩) (.of main_v3 : StableHlo.TRef sig ⟨S4x512, .i32⟩) (fun x v => Host.reduceWindow IntOp.addi ![1, 512] ![1, 1] ![0, 511] ![0, 0] x v reduceWindows_S4x512_S4x512_w1s1p0_0_w512s1p511_0 h_S_),
    StableHlo.nullary main_c_0 (constantI S_ 32 1#32),
    StableHlo.unary main_c_0 main_v4 (broadcastInDim S4x512 ![] bcast_S_S4x512 : (⟨S_, .i32⟩ : BufTy).Contents (Elt F) → (⟨S4x512, .i32⟩ : BufTy).Contents (Elt F)),
    StableHlo.binary main_v3 main_v4 main_v5 (cmpi .sle : (⟨S4x512, .i32⟩ : BufTy).Contents (Elt F) → (⟨S4x512, .i32⟩ : BufTy).Contents (Elt F) → (⟨S4x512, .i1⟩ : BufTy).Contents (Elt F)),
    StableHlo.unary main_v5 main_v6 (uitofp .f32 : (⟨S4x512, .i1⟩ : BufTy).Contents (Elt F) → (⟨S4x512, .f32⟩ : BufTy).Contents (Elt F)),
    StableHlo.TRef.nullary (.of main_call1_cst : StableHlo.TRef sig ⟨S_, .f32⟩) (constant S_ .f32 0xFF800000#32),
    StableHlo.TRef.binary (.of main_arg0 : StableHlo.TRef sig ⟨S4x512x10, .f32⟩) (.of main_call1_cst : StableHlo.TRef sig ⟨S_, .f32⟩) (.of main_call1_v0 : StableHlo.TRef sig ⟨S4x512, .f32⟩) (fun x v => Host.reduce FloatOps.maximumf x v reducesTo_S4x512x10_S4x512_d2 h_S_),
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v1 : StableHlo.TRef sig ⟨S4x512, .f32⟩) (broadcastInDim S4x512 ![] bcast_S_S4x512),
    StableHlo.TRef.binary (.of main_call1_v1 : StableHlo.TRef sig ⟨S4x512, .f32⟩) (.of main_call1_v0 : StableHlo.TRef sig ⟨S4x512, .f32⟩) (.of main_call1_v2 : StableHlo.TRef sig ⟨S4x512, .f32⟩) maximumf,
    StableHlo.TRef.unary (.of main_call1_v2 : StableHlo.TRef sig ⟨S4x512, .f32⟩) (.of main_call1_v3 : StableHlo.TRef sig ⟨S4x512x1, .f32⟩) (broadcastInDim S4x512x1 ![0, 1] bcast_S4x512_S4x512x1_0_1),
    StableHlo.TRef.unary (.of main_call1_v3 : StableHlo.TRef sig ⟨S4x512x1, .f32⟩) (.of main_call1_v4 : StableHlo.TRef sig ⟨S4x512x10, .f32⟩) (broadcastInDim S4x512x10 ![0, 1, 2] bcast_S4x512x1_S4x512x10_0_1_2),
    StableHlo.TRef.binary (.of main_arg0 : StableHlo.TRef sig ⟨S4x512x10, .f32⟩) (.of main_call1_v4 : StableHlo.TRef sig ⟨S4x512x10, .f32⟩) (.of main_call1_v5 : StableHlo.TRef sig ⟨S4x512x10, .f32⟩) subf,
    StableHlo.TRef.unary (.of main_call1_v5 : StableHlo.TRef sig ⟨S4x512x10, .f32⟩) (.of main_call1_v6 : StableHlo.TRef sig ⟨S4x512x10, .f32⟩) Host.exp,
    StableHlo.TRef.nullary (.of main_call1_cst_1 : StableHlo.TRef sig ⟨S_, .f32⟩) (constant S_ .f32 0x00000000#32),
    StableHlo.TRef.binary (.of main_call1_v6 : StableHlo.TRef sig ⟨S4x512x10, .f32⟩) (.of main_call1_cst_1 : StableHlo.TRef sig ⟨S_, .f32⟩) (.of main_call1_v7 : StableHlo.TRef sig ⟨S4x512, .f32⟩) (fun x v => Host.reduceAdd x v reducesTo_S4x512x10_S4x512_d2 h_S_),
    StableHlo.TRef.unary (.of main_call1_v7 : StableHlo.TRef sig ⟨S4x512, .f32⟩) (.of main_call1_v8 : StableHlo.TRef sig ⟨S4x512x1, .f32⟩) (broadcastInDim S4x512x1 ![0, 1] bcast_S4x512_S4x512x1_0_1),
    StableHlo.TRef.unary (.of main_call1_v8 : StableHlo.TRef sig ⟨S4x512x1, .f32⟩) (.of main_call1_v9 : StableHlo.TRef sig ⟨S4x512x1, .f32⟩) Host.log,
    StableHlo.TRef.unary (.of main_call1_v9 : StableHlo.TRef sig ⟨S4x512x1, .f32⟩) (.of main_call1_v10 : StableHlo.TRef sig ⟨S4x512x10, .f32⟩) (broadcastInDim S4x512x10 ![0, 1, 2] bcast_S4x512x1_S4x512x10_0_1_2),
    StableHlo.TRef.binary (.of main_call1_v5 : StableHlo.TRef sig ⟨S4x512x10, .f32⟩) (.of main_call1_v10 : StableHlo.TRef sig ⟨S4x512x10, .f32⟩) (.of main_v7 : StableHlo.TRef sig ⟨S4x512x10, .f32⟩) subf,
    StableHlo.unary main_arg3 main_v8 (broadcastInDim S4x512x1 ![0, 1] bcast_S4x512_S4x512x1_0_1 : (⟨S4x512, .i32⟩ : BufTy).Contents (Elt F) → (⟨S4x512x1, .i32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x512x1, .i32⟩) (broadcastInDim S4x512x1 ![] bcast_S_S4x512x1),
    StableHlo.TRef.binary (.of main_v8 : StableHlo.TRef sig ⟨S4x512x1, .i32⟩) (.of main_call2_v0 : StableHlo.TRef sig ⟨S4x512x1, .i32⟩) (.of main_call2_v1 : StableHlo.TRef sig ⟨S4x512x1, .i1⟩) (cmpi .slt),
    StableHlo.TRef.nullary (.of main_call2_c_0 : StableHlo.TRef sig ⟨S_, .i32⟩) (constantI S_ 32 10#32),
    StableHlo.TRef.unary (.of main_call2_c_0 : StableHlo.TRef sig ⟨S_, .i32⟩) (.of main_call2_v2 : StableHlo.TRef sig ⟨S4x512x1, .i32⟩) (broadcastInDim S4x512x1 ![] bcast_S_S4x512x1),
    StableHlo.TRef.binary (.of main_v8 : StableHlo.TRef sig ⟨S4x512x1, .i32⟩) (.of main_call2_v2 : StableHlo.TRef sig ⟨S4x512x1, .i32⟩) (.of main_call2_v3 : StableHlo.TRef sig ⟨S4x512x1, .i32⟩) addi,
    StableHlo.TRef.ternary (.of main_call2_v1 : StableHlo.TRef sig ⟨S4x512x1, .i1⟩) (.of main_call2_v3 : StableHlo.TRef sig ⟨S4x512x1, .i32⟩) (.of main_v8 : StableHlo.TRef sig ⟨S4x512x1, .i32⟩) (.of main_call2_v4 : StableHlo.TRef sig ⟨S4x512x1, .i32⟩) select,
    StableHlo.TRef.reshape (.of main_call2_v4 : StableHlo.TRef sig ⟨S4x512x1, .i32⟩) (.of main_call2_v5 : StableHlo.TRef sig ⟨S4x512x1x1, .i32⟩) rfl shapeCasts_S4x512x1_S4x512x1x1,
    StableHlo.TRef.nullary (.of main_call2_c_1 : StableHlo.TRef sig ⟨S1, .i32⟩) (constantI S1 32 9#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4x512x1x1, .i32⟩) (broadcastInDim S4x512x1x1 ![] bcast_S_S4x512x1x1),
    StableHlo.TRef.binary (.of main_call2_v5 : StableHlo.TRef sig ⟨S4x512x1x1, .i32⟩) (.of main_call2_v6 : StableHlo.TRef sig ⟨S4x512x1x1, .i32⟩) (.of main_call2_v7 : StableHlo.TRef sig ⟨S4x512x1x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S4x512x1x1, .i32⟩) (broadcastInDim S4x512x1x1 ![0, 1, 2, 3] bcast_S1x1x1x1_S4x512x1x1_0_1_2_3),
    StableHlo.TRef.binary (.of main_call2_v5 : StableHlo.TRef sig ⟨S4x512x1x1, .i32⟩) (.of main_call2_v9 : StableHlo.TRef sig ⟨S4x512x1x1, .i32⟩) (.of main_call2_v10 : StableHlo.TRef sig ⟨S4x512x1x1, .i1⟩) (cmpi .sle),
    StableHlo.TRef.binary (.of main_call2_v7 : StableHlo.TRef sig ⟨S4x512x1x1, .i1⟩) (.of main_call2_v10 : StableHlo.TRef sig ⟨S4x512x1x1, .i1⟩) (.of main_call2_v11 : StableHlo.TRef sig ⟨S4x512x1x1, .i1⟩) andi,
    StableHlo.TRef.nullary (.of main_call2_c_3 : StableHlo.TRef sig ⟨S_, .i1⟩) (constantI S_ 1 1#1),
    StableHlo.TRef.binary (.of main_call2_v11 : StableHlo.TRef sig ⟨S4x512x1x1, .i1⟩) (.of main_call2_c_3 : StableHlo.TRef sig ⟨S_, .i1⟩) (.of main_call2_v12 : StableHlo.TRef sig ⟨S4x512x1, .i1⟩) (fun x v => Host.reduce IntOp.andi x v reducesTo_S4x512x1x1_S4x512x1_d3 h_S_),
    StableHlo.TRef.binary (.of main_v7 : StableHlo.TRef sig ⟨S4x512x10, .f32⟩) (.of main_call2_v5 : StableHlo.TRef sig ⟨S4x512x1x1, .i32⟩) (.of main_call2_v13 : StableHlo.TRef sig ⟨S4x512x1, .f32⟩) (fun x i => Host.gather gather_S4x512x10_S4x512x1x1_S4x512x1_n_2_01_01_2_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x512x1, .f32⟩) (broadcastInDim S4x512x1 ![] bcast_S_S4x512x1),
    StableHlo.TRef.ternary (.of main_call2_v12 : StableHlo.TRef sig ⟨S4x512x1, .i1⟩) (.of main_call2_v13 : StableHlo.TRef sig ⟨S4x512x1, .f32⟩) (.of main_call2_v14 : StableHlo.TRef sig ⟨S4x512x1, .f32⟩) (.of main_v9 : StableHlo.TRef sig ⟨S4x512x1, .f32⟩) select,
    StableHlo.reshape main_v9 main_v10 rfl shapeCasts_S4x512x1_S4x512,
    StableHlo.unary main_v10 main_v11 (Host.negf : (⟨S4x512, .f32⟩ : BufTy).Contents (Elt F) → (⟨S4x512, .f32⟩ : BufTy).Contents (Elt F)),
    StableHlo.binary main_v11 main_v11 main_v12 (cmpf .une : (⟨S4x512, .f32⟩ : BufTy).Contents (Elt F) → (⟨S4x512, .f32⟩ : BufTy).Contents (Elt F) → (⟨S4x512, .i1⟩ : BufTy).Contents (Elt F)),
    StableHlo.nullary main_cst (constant S_ .f32 0x00000000#32),
    StableHlo.TRef.unary (.of main_cst : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4x512, .f32⟩) (broadcastInDim S4x512 ![] bcast_S_S4x512),
    StableHlo.TRef.ternary (.of main_v12 : StableHlo.TRef sig ⟨S4x512, .i1⟩) (.of main_call3_v1 : StableHlo.TRef sig ⟨S4x512, .f32⟩) (.of main_v11 : StableHlo.TRef sig ⟨S4x512, .f32⟩) (.of main_v13 : StableHlo.TRef sig ⟨S4x512, .f32⟩) select,
    StableHlo.binary main_v13 main_v6 main_v14 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v14 main_cst_1 main_v15 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v6 main_cst_2 main_v16 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v16 main_cst_3 main_v17 (addf : (⟨S_, .f32⟩ : BufTy).Contents (Elt F) → (⟨S_, .f32⟩ : BufTy).Contents (Elt F) → (⟨S_, .f32⟩ : BufTy).Contents (Elt F)),
    StableHlo.binary main_v15 main_v17 main_v18 (Host.divf : (⟨S_, .f32⟩ : BufTy).Contents (Elt F) → (⟨S_, .f32⟩ : BufTy).Contents (Elt F) → (⟨S_, .f32⟩ : BufTy).Contents (Elt F)),
    StableHlo.nullary main_c_4 (constantI S_ 32 0#32),
    StableHlo.unary main_c_4 main_v19 (broadcastInDim S4x512 ![] bcast_S_S4x512 : (⟨S_, .i32⟩ : BufTy).Contents (Elt F) → (⟨S4x512, .i32⟩ : BufTy).Contents (Elt F)),
    StableHlo.binary main_arg3 main_v19 main_v20 (cmpi .slt : (⟨S4x512, .i32⟩ : BufTy).Contents (Elt F) → (⟨S4x512, .i32⟩ : BufTy).Contents (Elt F) → (⟨S4x512, .i1⟩ : BufTy).Contents (Elt F)),
    StableHlo.nullary main_c_5 (constantI S_ 32 10#32),
    StableHlo.unary main_c_5 main_v21 (broadcastInDim S4x512 ![] bcast_S_S4x512 : (⟨S_, .i32⟩ : BufTy).Contents (Elt F) → (⟨S4x512, .i32⟩ : BufTy).Contents (Elt F)),
    StableHlo.binary main_arg3 main_v21 main_v22 (addi : (⟨S4x512, .i32⟩ : BufTy).Contents (Elt F) → (⟨S4x512, .i32⟩ : BufTy).Contents (Elt F) → (⟨S4x512, .i32⟩ : BufTy).Contents (Elt F)),
    StableHlo.ternary main_v20 main_v22 main_arg3 main_v23 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_v23 main_v24 (broadcastInDim S4x512x1 ![0, 1] bcast_S4x512_S4x512x1_0_1 : (⟨S4x512, .i32⟩ : BufTy).Contents (Elt F) → (⟨S4x512x1, .i32⟩ : BufTy).Contents (Elt F)),
    StableHlo.binary main_arg2 main_v24 main_v25 ((fun x i => Host.gather gather_S10x16_S4x512x1_S4x512x16_2_0_n_n_0_2_116 x i) : (⟨S10x16, .f32⟩ : BufTy).Contents (Elt F) → (⟨S4x512x1, .i32⟩ : BufTy).Contents (Elt F) → (⟨S4x512x16, .f32⟩ : BufTy).Contents (Elt F)),
    StableHlo.unary main_v6 main_v26 (broadcastInDim S4x512x1 ![0, 1] bcast_S4x512_S4x512x1_0_1 : (⟨S4x512, .f32⟩ : BufTy).Contents (Elt F) → (⟨S4x512x1, .f32⟩ : BufTy).Contents (Elt F)),
    StableHlo.unary main_v26 main_v27 (broadcastInDim S4x512x16 ![0, 1, 2] bcast_S4x512x1_S4x512x16_0_1_2 : (⟨S4x512x1, .f32⟩ : BufTy).Contents (Elt F) → (⟨S4x512x16, .f32⟩ : BufTy).Contents (Elt F)),
    StableHlo.binary main_v27 main_v25 main_v28 (mulf : (⟨S4x512x16, .f32⟩ : BufTy).Contents (Elt F) → (⟨S4x512x16, .f32⟩ : BufTy).Contents (Elt F) → (⟨S4x512x16, .f32⟩ : BufTy).Contents (Elt F)),
    StableHlo.nullary main_c_6 (constantI S_ 32 0#32),
    StableHlo.nullary main_c_7 (constantI S_ 32 8191#32),
    StableHlo.TRef.unary (.of main_c_6 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S4x512x16, .i32⟩) (broadcastInDim S4x512x16 ![] bcast_S_S4x512x16),
    StableHlo.TRef.binary (.of main_call4_v1 : StableHlo.TRef sig ⟨S4x512x16, .i32⟩) (.of main_arg4 : StableHlo.TRef sig ⟨S4x512x16, .i32⟩) (.of main_call4_v2 : StableHlo.TRef sig ⟨S4x512x16, .i32⟩) maxsi,
    StableHlo.TRef.unary (.of main_c_7 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S4x512x16, .i32⟩) (broadcastInDim S4x512x16 ![] bcast_S_S4x512x16),
    StableHlo.TRef.binary (.of main_call4_v4 : StableHlo.TRef sig ⟨S4x512x16, .i32⟩) (.of main_call4_v2 : StableHlo.TRef sig ⟨S4x512x16, .i32⟩) (.of main_v29 : StableHlo.TRef sig ⟨S4x512x16, .i32⟩) minsi,
    StableHlo.reshape main_arg1 main_v30 rfl shapeCasts_S4x512x16x8192_S2048x16x8192 ]
theorem kops0_sub : (kops0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub ..⟩
/-- The buffers those operations write. -/
abbrev kops0_writes : List (Ref sig .tc) :=
  [main_c, main_v0, main_v1, main_v2, main_call0_call0_c, main_call0_call0_v0, main_v3, main_c_0, main_v4, main_v5, main_v6, main_call1_cst, main_call1_v0, main_call1_cst_0, main_call1_v1, main_call1_v2, main_call1_v3, main_call1_v4, main_call1_v5, main_call1_v6, main_call1_cst_1, main_call1_v7, main_call1_v8, main_call1_v9, main_call1_v10, main_v7, main_v8, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v9, main_v10, main_v11, main_v12, main_cst, main_call3_v0, main_call3_v1, main_v13, main_v14, main_cst_1, main_v15, main_cst_2, main_v16, main_cst_3, main_v17, main_v18, main_c_4, main_v19, main_v20, main_c_5, main_v21, main_v22, main_v23, main_v24, main_v25, main_v26, main_v27, main_v28, main_c_6, main_c_7, main_call4_v0, main_call4_v1, main_call4_v2, main_call4_v3, main_call4_v4, main_v29, main_v30]

/-- The program's host operations, stretch 1, calls inlined, in order. -/
abbrev kops1 : List (HloOp τ sig (Elt F)) :=
  [ StableHlo.reshape main_v31 main_v32 rfl shapeCasts_S2048x16_S4x512x16,
    StableHlo.nullary main_v33 (iotaInDim S7 32 0),
    StableHlo.nullary main_c_8 (constantI S_ 32 4294967293#32),
    StableHlo.unary main_c_8 main_v34 (broadcastInDim S7 ![] bcast_S_S7 : (⟨S_, .i32⟩ : BufTy).Contents (Elt F) → (⟨S7, .i32⟩ : BufTy).Contents (Elt F)),
    StableHlo.binary main_v34 main_v33 main_v35 (addi : (⟨S7, .i32⟩ : BufTy).Contents (Elt F) → (⟨S7, .i32⟩ : BufTy).Contents (Elt F) → (⟨S7, .i32⟩ : BufTy).Contents (Elt F)),
    StableHlo.unary main_v35 main_v36 (absi : (⟨S7, .i32⟩ : BufTy).Contents (Elt F) → (⟨S7, .i32⟩ : BufTy).Contents (Elt F)),
    StableHlo.unary main_v36 main_v37 (sitofp .f32 : (⟨S7, .i32⟩ : BufTy).Contents (Elt F) → (⟨S7, .f32⟩ : BufTy).Contents (Elt F)),
    StableHlo.nullary main_cst_9 (constant S_ .f32 0xC0000000#32),
    StableHlo.unary main_cst_9 main_v38 (broadcastInDim S7 ![] bcast_S_S7 : (⟨S_, .f32⟩ : BufTy).Contents (Elt F) → (⟨S7, .f32⟩ : BufTy).Contents (Elt F)),
    StableHlo.binary main_v38 main_v37 main_v39 (mulf : (⟨S7, .f32⟩ : BufTy).Contents (Elt F) → (⟨S7, .f32⟩ : BufTy).Contents (Elt F) → (⟨S7, .f32⟩ : BufTy).Contents (Elt F)),
    StableHlo.unary main_v39 main_v40 (Host.exp : (⟨S7, .f32⟩ : BufTy).Contents (Elt F) → (⟨S7, .f32⟩ : BufTy).Contents (Elt F)),
    StableHlo.nullary main_cst_10 (constant S_ .f32 0x00000000#32),
    StableHlo.binary main_v40 main_cst_10 main_v41 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.nullary main_cst_11 (constant S_ .f32 0x322BCC77#32),
    StableHlo.binary main_v41 main_cst_11 main_v42 (addf : (⟨S_, .f32⟩ : BufTy).Contents (Elt F) → (⟨S_, .f32⟩ : BufTy).Contents (Elt F) → (⟨S_, .f32⟩ : BufTy).Contents (Elt F)),
    StableHlo.unary main_v42 main_v43 (broadcastInDim S7 ![] bcast_S_S7 : (⟨S_, .f32⟩ : BufTy).Contents (Elt F) → (⟨S7, .f32⟩ : BufTy).Contents (Elt F)),
    StableHlo.binary main_v40 main_v43 main_v44 (Host.divf : (⟨S7, .f32⟩ : BufTy).Contents (Elt F) → (⟨S7, .f32⟩ : BufTy).Contents (Elt F) → (⟨S7, .f32⟩ : BufTy).Contents (Elt F)),
    StableHlo.nullary main_cst_12 (constant S_ .f32 0x00000000#32),
    StableHlo.binary main_v44 main_cst_12 main_v45 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.unary main_v29 main_v46 (broadcastInDim S4x512x16x1 ![0, 1, 2] bcast_S4x512x16_S4x512x16x1_0_1_2 : (⟨S4x512x16, .i32⟩ : BufTy).Contents (Elt F) → (⟨S4x512x16x1, .i32⟩ : BufTy).Contents (Elt F)),
    StableHlo.unary main_v35 main_v47 (broadcastInDim S1x1x1x7 ![3] bcast_S7_S1x1x1x7_3 : (⟨S7, .i32⟩ : BufTy).Contents (Elt F) → (⟨S1x1x1x7, .i32⟩ : BufTy).Contents (Elt F)),
    StableHlo.unary main_v46 main_v48 (broadcastInDim S4x512x16x7 ![0, 1, 2, 3] bcast_S4x512x16x1_S4x512x16x7_0_1_2_3 : (⟨S4x512x16x1, .i32⟩ : BufTy).Contents (Elt F) → (⟨S4x512x16x7, .i32⟩ : BufTy).Contents (Elt F)),
    StableHlo.unary main_v47 main_v49 (broadcastInDim S4x512x16x7 ![0, 1, 2, 3] bcast_S1x1x1x7_S4x512x16x7_0_1_2_3 : (⟨S1x1x1x7, .i32⟩ : BufTy).Contents (Elt F) → (⟨S4x512x16x7, .i32⟩ : BufTy).Contents (Elt F)),
    StableHlo.binary main_v48 main_v49 main_v50 (addi : (⟨S4x512x16x7, .i32⟩ : BufTy).Contents (Elt F) → (⟨S4x512x16x7, .i32⟩ : BufTy).Contents (Elt F) → (⟨S4x512x16x7, .i32⟩ : BufTy).Contents (Elt F)),
    StableHlo.nullary main_c_13 (constantI S_ 32 0#32),
    StableHlo.nullary main_c_14 (constantI S_ 32 8191#32),
    StableHlo.TRef.unary (.of main_c_13 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4x512x16x7, .i32⟩) (broadcastInDim S4x512x16x7 ![] bcast_S_S4x512x16x7),
    StableHlo.TRef.binary (.of main_call5_v1 : StableHlo.TRef sig ⟨S4x512x16x7, .i32⟩) (.of main_v50 : StableHlo.TRef sig ⟨S4x512x16x7, .i32⟩) (.of main_call5_v2 : StableHlo.TRef sig ⟨S4x512x16x7, .i32⟩) maxsi,
    StableHlo.TRef.unary (.of main_c_14 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S4x512x16x7, .i32⟩) (broadcastInDim S4x512x16x7 ![] bcast_S_S4x512x16x7),
    StableHlo.TRef.binary (.of main_call5_v4 : StableHlo.TRef sig ⟨S4x512x16x7, .i32⟩) (.of main_call5_v2 : StableHlo.TRef sig ⟨S4x512x16x7, .i32⟩) (.of main_v51 : StableHlo.TRef sig ⟨S4x512x16x7, .i32⟩) minsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S4x512x16x7, .i32⟩) (broadcastInDim S4x512x16x7 ![] bcast_S_S4x512x16x7),
    StableHlo.TRef.binary (.of main_v51 : StableHlo.TRef sig ⟨S4x512x16x7, .i32⟩) (.of main_call6_v0 : StableHlo.TRef sig ⟨S4x512x16x7, .i32⟩) (.of main_call6_v1 : StableHlo.TRef sig ⟨S4x512x16x7, .i1⟩) (cmpi .slt),
    StableHlo.TRef.nullary (.of main_call6_c_0 : StableHlo.TRef sig ⟨S_, .i32⟩) (constantI S_ 32 8192#32),
    StableHlo.TRef.unary (.of main_call6_c_0 : StableHlo.TRef sig ⟨S_, .i32⟩) (.of main_call6_v2 : StableHlo.TRef sig ⟨S4x512x16x7, .i32⟩) (broadcastInDim S4x512x16x7 ![] bcast_S_S4x512x16x7),
    StableHlo.TRef.binary (.of main_v51 : StableHlo.TRef sig ⟨S4x512x16x7, .i32⟩) (.of main_call6_v2 : StableHlo.TRef sig ⟨S4x512x16x7, .i32⟩) (.of main_call6_v3 : StableHlo.TRef sig ⟨S4x512x16x7, .i32⟩) addi,
    StableHlo.TRef.ternary (.of main_call6_v1 : StableHlo.TRef sig ⟨S4x512x16x7, .i1⟩) (.of main_call6_v3 : StableHlo.TRef sig ⟨S4x512x16x7, .i32⟩) (.of main_v51 : StableHlo.TRef sig ⟨S4x512x16x7, .i32⟩) (.of main_call6_v4 : StableHlo.TRef sig ⟨S4x512x16x7, .i32⟩) select,
    StableHlo.TRef.reshape (.of main_call6_v4 : StableHlo.TRef sig ⟨S4x512x16x7, .i32⟩) (.of main_call6_v5 : StableHlo.TRef sig ⟨S4x512x16x7x1, .i32⟩) rfl shapeCasts_S4x512x16x7_S4x512x16x7x1,
    StableHlo.TRef.nullary (.of main_call6_c_1 : StableHlo.TRef sig ⟨S1, .i32⟩) (constantI S1 32 8191#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S4x512x16x7x1, .i32⟩) (broadcastInDim S4x512x16x7x1 ![] bcast_S_S4x512x16x7x1),
    StableHlo.TRef.binary (.of main_call6_v5 : StableHlo.TRef sig ⟨S4x512x16x7x1, .i32⟩) (.of main_call6_v6 : StableHlo.TRef sig ⟨S4x512x16x7x1, .i32⟩) (.of main_call6_v7 : StableHlo.TRef sig ⟨S4x512x16x7x1, .i1⟩) (cmpi .sge),
    StableHlo.TRef.unary (.of main_call6_c_1 : StableHlo.TRef sig ⟨S1, .i32⟩) (.of main_call6_v8 : StableHlo.TRef sig ⟨S1x1x1x1x1, .i32⟩) (broadcastInDim S1x1x1x1x1 ![4] bcast_S1_S1x1x1x1x1_4),
    StableHlo.TRef.unary (.of main_call6_v8 : StableHlo.TRef sig ⟨S1x1x1x1x1, .i32⟩) (.of main_call6_v9 : StableHlo.TRef sig ⟨S4x512x16x7x1, .i32⟩) (broadcastInDim S4x512x16x7x1 ![0, 1, 2, 3, 4] bcast_S1x1x1x1x1_S4x512x16x7x1_0_1_2_3_4),
    StableHlo.TRef.binary (.of main_call6_v5 : StableHlo.TRef sig ⟨S4x512x16x7x1, .i32⟩) (.of main_call6_v9 : StableHlo.TRef sig ⟨S4x512x16x7x1, .i32⟩) (.of main_call6_v10 : StableHlo.TRef sig ⟨S4x512x16x7x1, .i1⟩) (cmpi .sle),
    StableHlo.TRef.binary (.of main_call6_v7 : StableHlo.TRef sig ⟨S4x512x16x7x1, .i1⟩) (.of main_call6_v10 : StableHlo.TRef sig ⟨S4x512x16x7x1, .i1⟩) (.of main_call6_v11 : StableHlo.TRef sig ⟨S4x512x16x7x1, .i1⟩) andi,
    StableHlo.TRef.nullary (.of main_call6_c_3 : StableHlo.TRef sig ⟨S_, .i1⟩) (constantI S_ 1 1#1),
    StableHlo.TRef.binary (.of main_call6_v11 : StableHlo.TRef sig ⟨S4x512x16x7x1, .i1⟩) (.of main_call6_c_3 : StableHlo.TRef sig ⟨S_, .i1⟩) (.of main_call6_v12 : StableHlo.TRef sig ⟨S4x512x16x7, .i1⟩) (fun x v => Host.reduce IntOp.andi x v reducesTo_S4x512x16x7x1_S4x512x16x7_d4 h_S_),
    StableHlo.TRef.binary (.of main_arg1 : StableHlo.TRef sig ⟨S4x512x16x8192, .f32⟩) (.of main_call6_v5 : StableHlo.TRef sig ⟨S4x512x16x7x1, .i32⟩) (.of main_call6_v13 : StableHlo.TRef sig ⟨S4x512x16x7, .f32⟩) (fun x i => Host.gather gather_S4x512x16x8192_S4x512x16x7x1_S4x512x16x7_n_3_012_012_3_4_1111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S4x512x16x7, .f32⟩) (broadcastInDim S4x512x16x7 ![] bcast_S_S4x512x16x7),
    StableHlo.TRef.ternary (.of main_call6_v12 : StableHlo.TRef sig ⟨S4x512x16x7, .i1⟩) (.of main_call6_v13 : StableHlo.TRef sig ⟨S4x512x16x7, .f32⟩) (.of main_call6_v14 : StableHlo.TRef sig ⟨S4x512x16x7, .f32⟩) (.of main_v52 : StableHlo.TRef sig ⟨S4x512x16x7, .f32⟩) select,
    StableHlo.unary main_v44 main_v53 (broadcastInDim S1x1x1x7 ![3] bcast_S7_S1x1x1x7_3 : (⟨S7, .f32⟩ : BufTy).Contents (Elt F) → (⟨S1x1x1x7, .f32⟩ : BufTy).Contents (Elt F)),
    StableHlo.unary main_v53 main_v54 (broadcastInDim S4x512x16x7 ![0, 1, 2, 3] bcast_S1x1x1x7_S4x512x16x7_0_1_2_3 : (⟨S1x1x1x7, .f32⟩ : BufTy).Contents (Elt F) → (⟨S4x512x16x7, .f32⟩ : BufTy).Contents (Elt F)),
    StableHlo.binary main_v52 main_v54 main_v55 (mulf : (⟨S4x512x16x7, .f32⟩ : BufTy).Contents (Elt F) → (⟨S4x512x16x7, .f32⟩ : BufTy).Contents (Elt F) → (⟨S4x512x16x7, .f32⟩ : BufTy).Contents (Elt F)),
    StableHlo.nullary main_cst_15 (constant S_ .f32 0x00000000#32),
    StableHlo.binary main_v55 main_cst_15 main_v56 ((fun x v => Host.reduceAdd x v reducesTo_S4x512x16x7_S4x512x16_d3 h_S_) : (⟨S4x512x16x7, .f32⟩ : BufTy).Contents (Elt F) → (⟨S_, .f32⟩ : BufTy).Contents (Elt F) → (⟨S4x512x16, .f32⟩ : BufTy).Contents (Elt F)),
    StableHlo.unary main_v45 main_v57 (broadcastInDim S4x512x16 ![] bcast_S_S4x512x16 : (⟨S_, .f32⟩ : BufTy).Contents (Elt F) → (⟨S4x512x16, .f32⟩ : BufTy).Contents (Elt F)),
    StableHlo.binary main_v57 main_v32 main_v58 (mulf : (⟨S4x512x16, .f32⟩ : BufTy).Contents (Elt F) → (⟨S4x512x16, .f32⟩ : BufTy).Contents (Elt F) → (⟨S4x512x16, .f32⟩ : BufTy).Contents (Elt F)),
    StableHlo.binary main_v56 main_v58 main_v59 (subf : (⟨S4x512x16, .f32⟩ : BufTy).Contents (Elt F) → (⟨S4x512x16, .f32⟩ : BufTy).Contents (Elt F) → (⟨S4x512x16, .f32⟩ : BufTy).Contents (Elt F)),
    StableHlo.unary main_v59 main_v60 (Host.negf : (⟨S4x512x16, .f32⟩ : BufTy).Contents (Elt F) → (⟨S4x512x16, .f32⟩ : BufTy).Contents (Elt F)),
    StableHlo.binary main_v60 main_v60 main_v61 (cmpf .une : (⟨S4x512x16, .f32⟩ : BufTy).Contents (Elt F) → (⟨S4x512x16, .f32⟩ : BufTy).Contents (Elt F) → (⟨S4x512x16, .i1⟩ : BufTy).Contents (Elt F)),
    StableHlo.nullary main_cst_16 (constant S_ .f32 0x00000000#32),
    StableHlo.TRef.unary (.of main_cst_16 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S4x512x16, .f32⟩) (broadcastInDim S4x512x16 ![] bcast_S_S4x512x16),
    StableHlo.TRef.ternary (.of main_v61 : StableHlo.TRef sig ⟨S4x512x16, .i1⟩) (.of main_call7_v1 : StableHlo.TRef sig ⟨S4x512x16, .f32⟩) (.of main_v60 : StableHlo.TRef sig ⟨S4x512x16, .f32⟩) (.of main_v62 : StableHlo.TRef sig ⟨S4x512x16, .f32⟩) select,
    StableHlo.binary main_v62 main_v28 main_v63 (mulf : (⟨S4x512x16, .f32⟩ : BufTy).Contents (Elt F) → (⟨S4x512x16, .f32⟩ : BufTy).Contents (Elt F) → (⟨S4x512x16, .f32⟩ : BufTy).Contents (Elt F)),
    StableHlo.nullary main_cst_17 (constant S_ .f32 0x00000000#32),
    StableHlo.binary main_v63 main_cst_17 main_v64 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_18 (constant S_ .f32 0x00000000#32),
    StableHlo.binary main_v28 main_cst_18 main_v65 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_19 (constant S_ .f32 0x322BCC77#32),
    StableHlo.binary main_v65 main_cst_19 main_v66 (addf : (⟨S_, .f32⟩ : BufTy).Contents (Elt F) → (⟨S_, .f32⟩ : BufTy).Contents (Elt F) → (⟨S_, .f32⟩ : BufTy).Contents (Elt F)),
    StableHlo.binary main_v64 main_v66 main_v67 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x3F800000#32),
    StableHlo.binary main_cst_20 main_v18 main_v68 (mulf : (⟨S_, .f32⟩ : BufTy).Contents (Elt F) → (⟨S_, .f32⟩ : BufTy).Contents (Elt F) → (⟨S_, .f32⟩ : BufTy).Contents (Elt F)),
    StableHlo.nullary main_cst_21 (constant S_ .f32 0x3F800000#32),
    StableHlo.binary main_cst_21 main_v67 main_v69 (mulf : (⟨S_, .f32⟩ : BufTy).Contents (Elt F) → (⟨S_, .f32⟩ : BufTy).Contents (Elt F) → (⟨S_, .f32⟩ : BufTy).Contents (Elt F)),
    StableHlo.binary main_v68 main_v69 main_v70 (addf : (⟨S_, .f32⟩ : BufTy).Contents (Elt F) → (⟨S_, .f32⟩ : BufTy).Contents (Elt F) → (⟨S_, .f32⟩ : BufTy).Contents (Elt F)) ]
theorem kops1_sub : (kops1 : List (HloOp τ sig (Elt F))).Forall fun op => op.bufs ⊆ StableHlo.tcRefs τ sig :=
  ⟨StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
/-- The buffers those operations write. -/
abbrev kops1_writes : List (Ref sig .tc) :=
  [main_v32, main_v33, main_c_8, main_v34, main_v35, main_v36, main_v37, main_cst_9, main_v38, main_v39, main_v40, main_cst_10, main_v41, main_cst_11, main_v42, main_v43, main_v44, main_cst_12, main_v45, main_v46, main_v47, main_v48, main_v49, main_v50, main_c_13, main_c_14, main_call5_v0, main_call5_v1, main_call5_v2, main_call5_v3, main_call5_v4, main_v51, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v52, main_v53, main_v54, main_v55, main_cst_15, main_v56, main_v57, main_v58, main_v59, main_v60, main_v61, main_cst_16, main_call7_v0, main_call7_v1, main_v62, main_v63, main_cst_17, main_v64, main_cst_18, main_v65, main_cst_19, main_v66, main_v67, main_cst_20, main_v68, main_cst_21, main_v69, main_v70]

/-- The valid-position mask: 1 up to and including the first end-of-sequence command of a row (a running count of end-of-sequence commands at most 1), else 0. -/
def validMask (a3 : (⟨S4x512, .i32⟩ : BufTy).Contents (Elt F)) : (⟨S4x512, .f32⟩ : BufTy).Contents (Elt F) :=
  let main_c : (⟨S_, .i32⟩ : BufTy).Contents (Elt F) := (constantI S_ 32 3#32)
  let main_v0 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c)
  let main_v1 : (⟨S4x512, .i1⟩ : BufTy).Contents (Elt F) := (((cmpi .eq) : (⟨S4x512, .i32⟩ : BufTy).Contents (Elt F) → (⟨S4x512, .i32⟩ : BufTy).Contents (Elt F) → (⟨S4x512, .i1⟩ : BufTy).Contents (Elt F)) a3 main_v0)
  let main_v2 : (⟨S4x512, .i32⟩ : BufTy).Contents (Elt F) := ((((extui 32 · natLt_1_32)) : (⟨S4x512, .i1⟩ : BufTy).Contents (Elt F) → (⟨S4x512, .i32⟩ : BufTy).Contents (Elt F)) main_v1)
  let main_call0_call0_c : (⟨S_, .i32⟩ : BufTy).Contents (Elt F) := (constantI S_ 32 0#32)
  let main_call0_call0_v0 : (⟨S_, .i32⟩ : BufTy).Contents (Elt F) := (((broadcastInDim S_ ![] bcast_S_S_) : (⟨S_, .i32⟩ : BufTy).Contents (Elt F) → (⟨S_, .i32⟩ : BufTy).Contents (Elt F)) main_call0_call0_c)
  let main_v3 : (⟨S4x512, .i32⟩ : BufTy).Contents (Elt F) := (((fun x v => Host.reduceWindow IntOp.addi ![1, 512] ![1, 1] ![0, 511] ![0, 0] x v reduceWindows_S4x512_S4x512_w1s1p0_0_w512s1p511_0 h_S_) : (⟨S4x512, .i32⟩ : BufTy).Contents (Elt F) → (⟨S_, .i32⟩ : BufTy).Contents (Elt F) → (⟨S4x512, .i32⟩ : BufTy).Contents (Elt F)) main_v2 main_call0_call0_v0)
  let main_c_0 : (⟨S_, .i32⟩ : BufTy).Contents (Elt F) := (constantI S_ 32 1#32)
  let main_v4 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_0)
  let main_v5 : (⟨S4x512, .i1⟩ : BufTy).Contents (Elt F) := (((cmpi .sle) : (⟨S4x512, .i32⟩ : BufTy).Contents (Elt F) → (⟨S4x512, .i32⟩ : BufTy).Contents (Elt F) → (⟨S4x512, .i1⟩ : BufTy).Contents (Elt F)) main_v3 main_v4)
  let main_v6 : (⟨S4x512, .f32⟩ : BufTy).Contents (Elt F) := (((uitofp .f32) : (⟨S4x512, .i1⟩ : BufTy).Contents (Elt F) → (⟨S4x512, .f32⟩ : BufTy).Contents (Elt F)) main_v5)
  main_v6

/-- The command cross-entropy loss: minus the log-softmax of the command logits taken at the command, masked, summed, over the mask's sum plus 1e-8. -/
def cmdLoss (a0 : (⟨S4x512x10, .f32⟩ : BufTy).Contents (Elt F)) (a3 : (⟨S4x512, .i32⟩ : BufTy).Contents (Elt F)) : (⟨S_, .f32⟩ : BufTy).Contents (Elt F) :=
  let main_c : (⟨S_, .i32⟩ : BufTy).Contents (Elt F) := (constantI S_ 32 3#32)
  let main_v0 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c)
  let main_v1 : (⟨S4x512, .i1⟩ : BufTy).Contents (Elt F) := (((cmpi .eq) : (⟨S4x512, .i32⟩ : BufTy).Contents (Elt F) → (⟨S4x512, .i32⟩ : BufTy).Contents (Elt F) → (⟨S4x512, .i1⟩ : BufTy).Contents (Elt F)) a3 main_v0)
  let main_v2 : (⟨S4x512, .i32⟩ : BufTy).Contents (Elt F) := ((((extui 32 · natLt_1_32)) : (⟨S4x512, .i1⟩ : BufTy).Contents (Elt F) → (⟨S4x512, .i32⟩ : BufTy).Contents (Elt F)) main_v1)
  let main_call0_call0_c : (⟨S_, .i32⟩ : BufTy).Contents (Elt F) := (constantI S_ 32 0#32)
  let main_call0_call0_v0 : (⟨S_, .i32⟩ : BufTy).Contents (Elt F) := (((broadcastInDim S_ ![] bcast_S_S_) : (⟨S_, .i32⟩ : BufTy).Contents (Elt F) → (⟨S_, .i32⟩ : BufTy).Contents (Elt F)) main_call0_call0_c)
  let main_v3 : (⟨S4x512, .i32⟩ : BufTy).Contents (Elt F) := (((fun x v => Host.reduceWindow IntOp.addi ![1, 512] ![1, 1] ![0, 511] ![0, 0] x v reduceWindows_S4x512_S4x512_w1s1p0_0_w512s1p511_0 h_S_) : (⟨S4x512, .i32⟩ : BufTy).Contents (Elt F) → (⟨S_, .i32⟩ : BufTy).Contents (Elt F) → (⟨S4x512, .i32⟩ : BufTy).Contents (Elt F)) main_v2 main_call0_call0_v0)
  let main_c_0 : (⟨S_, .i32⟩ : BufTy).Contents (Elt F) := (constantI S_ 32 1#32)
  let main_v4 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_0)
  let main_v5 : (⟨S4x512, .i1⟩ : BufTy).Contents (Elt F) := (((cmpi .sle) : (⟨S4x512, .i32⟩ : BufTy).Contents (Elt F) → (⟨S4x512, .i32⟩ : BufTy).Contents (Elt F) → (⟨S4x512, .i1⟩ : BufTy).Contents (Elt F)) main_v3 main_v4)
  let main_v6 : (⟨S4x512, .f32⟩ : BufTy).Contents (Elt F) := (((uitofp .f32) : (⟨S4x512, .i1⟩ : BufTy).Contents (Elt F) → (⟨S4x512, .f32⟩ : BufTy).Contents (Elt F)) main_v5)
  let main_call1_cst : (⟨S_, .f32⟩ : BufTy).Contents (Elt F) := (constant S_ .f32 0xFF800000#32)
  let main_call1_v0 : (⟨S4x512, .f32⟩ : BufTy).Contents (Elt F) := (((fun x v => Host.reduce FloatOps.maximumf x v reducesTo_S4x512x10_S4x512_d2 h_S_) : (⟨S4x512x10, .f32⟩ : BufTy).Contents (Elt F) → (⟨S_, .f32⟩ : BufTy).Contents (Elt F) → (⟨S4x512, .f32⟩ : BufTy).Contents (Elt F)) a0 main_call1_cst)
  let main_call1_cst_0 : (⟨S_, .f32⟩ : BufTy).Contents (Elt F) := (constant S_ .f32 0xFF800000#32)
  let main_call1_v1 : (⟨S4x512, .f32⟩ : BufTy).Contents (Elt F) := (((broadcastInDim S4x512 ![] bcast_S_S4x512) : (⟨S_, .f32⟩ : BufTy).Contents (Elt F) → (⟨S4x512, .f32⟩ : BufTy).Contents (Elt F)) main_call1_cst_0)
  let main_call1_v2 : (⟨S4x512, .f32⟩ : BufTy).Contents (Elt F) := ((maximumf : (⟨S4x512, .f32⟩ : BufTy).Contents (Elt F) → (⟨S4x512, .f32⟩ : BufTy).Contents (Elt F) → (⟨S4x512, .f32⟩ : BufTy).Contents (Elt F)) main_call1_v1 main_call1_v0)
  let main_call1_v3 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_call1_v2)
  let main_call1_v4 : (⟨S4x512x10, .f32⟩ : BufTy).Contents (Elt F) := (((broadcastInDim S4x512x10 ![0, 1, 2] bcast_S4x512x1_S4x512x10_0_1_2) : (⟨S4x512x1, .f32⟩ : BufTy).Contents (Elt F) → (⟨S4x512x10, .f32⟩ : BufTy).Contents (Elt F)) main_call1_v3)
  let main_call1_v5 : (⟨S4x512x10, .f32⟩ : BufTy).Contents (Elt F) := ((subf : (⟨S4x512x10, .f32⟩ : BufTy).Contents (Elt F) → (⟨S4x512x10, .f32⟩ : BufTy).Contents (Elt F) → (⟨S4x512x10, .f32⟩ : BufTy).Contents (Elt F)) a0 main_call1_v4)
  let main_call1_v6 : (⟨S4x512x10, .f32⟩ : BufTy).Contents (Elt F) := ((Host.exp : (⟨S4x512x10, .f32⟩ : BufTy).Contents (Elt F) → (⟨S4x512x10, .f32⟩ : BufTy).Contents (Elt F)) main_call1_v5)
  let main_call1_cst_1 : (⟨S_, .f32⟩ : BufTy).Contents (Elt F) := (constant S_ .f32 0x00000000#32)
  let main_call1_v7 : (⟨S4x512, .f32⟩ : BufTy).Contents (Elt F) := (((fun x v => Host.reduceAdd x v reducesTo_S4x512x10_S4x512_d2 h_S_) : (⟨S4x512x10, .f32⟩ : BufTy).Contents (Elt F) → (⟨S_, .f32⟩ : BufTy).Contents (Elt F) → (⟨S4x512, .f32⟩ : BufTy).Contents (Elt F)) main_call1_v6 main_call1_cst_1)
  let main_call1_v8 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_call1_v7)
  let main_call1_v9 : (⟨S4x512x1, .f32⟩ : BufTy).Contents (Elt F) := ((Host.log : (⟨S4x512x1, .f32⟩ : BufTy).Contents (Elt F) → (⟨S4x512x1, .f32⟩ : BufTy).Contents (Elt F)) main_call1_v8)
  let main_call1_v10 : (⟨S4x512x10, .f32⟩ : BufTy).Contents (Elt F) := (((broadcastInDim S4x512x10 ![0, 1, 2] bcast_S4x512x1_S4x512x10_0_1_2) : (⟨S4x512x1, .f32⟩ : BufTy).Contents (Elt F) → (⟨S4x512x10, .f32⟩ : BufTy).Contents (Elt F)) main_call1_v9)
  let main_v7 : (⟨S4x512x10, .f32⟩ : BufTy).Contents (Elt F) := ((subf : (⟨S4x512x10, .f32⟩ : BufTy).Contents (Elt F) → (⟨S4x512x10, .f32⟩ : BufTy).Contents (Elt F) → (⟨S4x512x10, .f32⟩ : BufTy).Contents (Elt F)) main_call1_v5 main_call1_v10)
  let main_v8 : (⟨S4x512x1, .i32⟩ : BufTy).Contents (Elt F) := (((broadcastInDim S4x512x1 ![0, 1] bcast_S4x512_S4x512x1_0_1) : (⟨S4x512, .i32⟩ : BufTy).Contents (Elt F) → (⟨S4x512x1, .i32⟩ : BufTy).Contents (Elt F)) a3)
  let main_call2_c : (⟨S_, .i32⟩ : BufTy).Contents (Elt F) := (constantI S_ 32 0#32)
  let main_call2_v0 : (⟨S4x512x1, .i32⟩ : BufTy).Contents (Elt F) := (((broadcastInDim S4x512x1 ![] bcast_S_S4x512x1) : (⟨S_, .i32⟩ : BufTy).Contents (Elt F) → (⟨S4x512x1, .i32⟩ : BufTy).Contents (Elt F)) main_call2_c)
  let main_call2_v1 : (⟨S4x512x1, .i1⟩ : BufTy).Contents (Elt F) := (((cmpi .slt) : (⟨S4x512x1, .i32⟩ : BufTy).Contents (Elt F) → (⟨S4x512x1, .i32⟩ : BufTy).Contents (Elt F) → (⟨S4x512x1, .i1⟩ : BufTy).Contents (Elt F)) main_v8 main_call2_v0)
  let main_call2_c_0 : (⟨S_, .i32⟩ : BufTy).Contents (Elt F) := (constantI S_ 32 10#32)
  let main_call2_v2 : (⟨S4x512x1, .i32⟩ : BufTy).Contents (Elt F) := (((broadcastInDim S4x512x1 ![] bcast_S_S4x512x1) : (⟨S_, .i32⟩ : BufTy).Contents (Elt F) → (⟨S4x512x1, .i32⟩ : BufTy).Contents (Elt F)) main_call2_c_0)
  let main_call2_v3 : (⟨S4x512x1, .i32⟩ : BufTy).Contents (Elt F) := ((addi : (⟨S4x512x1, .i32⟩ : BufTy).Contents (Elt F) → (⟨S4x512x1, .i32⟩ : BufTy).Contents (Elt F) → (⟨S4x512x1, .i32⟩ : BufTy).Contents (Elt F)) main_v8 main_call2_v2)
  let main_call2_v4 : (⟨S4x512x1, .i32⟩ : BufTy).Contents (Elt F) := ((select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)) main_call2_v1 main_call2_v3 main_v8)
  let main_call2_v5 : (⟨S4x512x1x1, .i32⟩ : BufTy).Contents (Elt F) := (fun q__ => shapeCast S4x512x1x1 main_call2_v4 shapeCasts_S4x512x1_S4x512x1x1 q__)
  let main_call2_c_1 : (⟨S1, .i32⟩ : BufTy).Contents (Elt F) := (constantI S1 32 9#32)
  let main_call2_c_2 : (⟨S_, .i32⟩ : BufTy).Contents (Elt F) := (constantI S_ 32 0#32)
  let main_call2_v6 : (⟨S4x512x1x1, .i32⟩ : BufTy).Contents (Elt F) := (((broadcastInDim S4x512x1x1 ![] bcast_S_S4x512x1x1) : (⟨S_, .i32⟩ : BufTy).Contents (Elt F) → (⟨S4x512x1x1, .i32⟩ : BufTy).Contents (Elt F)) main_call2_c_2)
  let main_call2_v7 : (⟨S4x512x1x1, .i1⟩ : BufTy).Contents (Elt F) := (((cmpi .sge) : (⟨S4x512x1x1, .i32⟩ : BufTy).Contents (Elt F) → (⟨S4x512x1x1, .i32⟩ : BufTy).Contents (Elt F) → (⟨S4x512x1x1, .i1⟩ : BufTy).Contents (Elt F)) main_call2_v5 main_call2_v6)
  let main_call2_v8 : (⟨S1x1x1x1, .i32⟩ : BufTy).Contents (Elt F) := (((broadcastInDim S1x1x1x1 ![3] bcast_S1_S1x1x1x1_3) : (⟨S1, .i32⟩ : BufTy).Contents (Elt F) → (⟨S1x1x1x1, .i32⟩ : BufTy).Contents (Elt F)) main_call2_c_1)
  let main_call2_v9 : (⟨S4x512x1x1, .i32⟩ : BufTy).Contents (Elt F) := (((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)) main_call2_v8)
  let main_call2_v10 : (⟨S4x512x1x1, .i1⟩ : BufTy).Contents (Elt F) := (((cmpi .sle) : (⟨S4x512x1x1, .i32⟩ : BufTy).Contents (Elt F) → (⟨S4x512x1x1, .i32⟩ : BufTy).Contents (Elt F) → (⟨S4x512x1x1, .i1⟩ : BufTy).Contents (Elt F)) main_call2_v5 main_call2_v9)
  let main_call2_v11 : (⟨S4x512x1x1, .i1⟩ : BufTy).Contents (Elt F) := ((andi : (⟨S4x512x1x1, .i1⟩ : BufTy).Contents (Elt F) → (⟨S4x512x1x1, .i1⟩ : BufTy).Contents (Elt F) → (⟨S4x512x1x1, .i1⟩ : BufTy).Contents (Elt F)) main_call2_v7 main_call2_v10)
  let main_call2_c_3 : (⟨S_, .i1⟩ : BufTy).Contents (Elt F) := (constantI S_ 1 1#1)
  let main_call2_v12 : (⟨S4x512x1, .i1⟩ : BufTy).Contents (Elt F) := (((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)) main_call2_v11 main_call2_c_3)
  let main_call2_v13 : (⟨S4x512x1, .f32⟩ : BufTy).Contents (Elt F) := (((fun x i => Host.gather gather_S4x512x10_S4x512x1x1_S4x512x1_n_2_01_01_2_3_111 x i) : (⟨S4x512x10, .f32⟩ : BufTy).Contents (Elt F) → (⟨S4x512x1x1, .i32⟩ : BufTy).Contents (Elt F) → (⟨S4x512x1, .f32⟩ : BufTy).Contents (Elt F)) main_v7 main_call2_v5)
  let main_call2_cst : (⟨S_, .f32⟩ : BufTy).Contents (Elt F) := (constant S_ .f32 0x7FC00000#32)
  let main_call2_v14 : (⟨S4x512x1, .f32⟩ : BufTy).Contents (Elt F) := (((broadcastInDim S4x512x1 ![] bcast_S_S4x512x1) : (⟨S_, .f32⟩ : BufTy).Contents (Elt F) → (⟨S4x512x1, .f32⟩ : BufTy).Contents (Elt F)) main_call2_cst)
  let main_v9 : (⟨S4x512x1, .f32⟩ : BufTy).Contents (Elt F) := ((select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)) main_call2_v12 main_call2_v13 main_call2_v14)
  let main_v10 : (⟨S4x512, .f32⟩ : BufTy).Contents (Elt F) := (fun q__ => shapeCast S4x512 main_v9 shapeCasts_S4x512x1_S4x512 q__)
  let main_v11 : (⟨S4x512, .f32⟩ : BufTy).Contents (Elt F) := (((Host.negf) : (⟨S4x512, .f32⟩ : BufTy).Contents (Elt F) → (⟨S4x512, .f32⟩ : BufTy).Contents (Elt F)) main_v10)
  let main_v12 : (⟨S4x512, .i1⟩ : BufTy).Contents (Elt F) := (((cmpf .une) : (⟨S4x512, .f32⟩ : BufTy).Contents (Elt F) → (⟨S4x512, .f32⟩ : BufTy).Contents (Elt F) → (⟨S4x512, .i1⟩ : BufTy).Contents (Elt F)) main_v11 main_v11)
  let main_cst : (⟨S_, .f32⟩ : BufTy).Contents (Elt F) := (constant S_ .f32 0x00000000#32)
  let main_call3_v0 : (⟨S_, .f32⟩ : BufTy).Contents (Elt F) := ((id : (⟨S_, .f32⟩ : BufTy).Contents (Elt F) → (⟨S_, .f32⟩ : BufTy).Contents (Elt F)) main_cst)
  let main_call3_v1 : (⟨S4x512, .f32⟩ : BufTy).Contents (Elt F) := (((broadcastInDim S4x512 ![] bcast_S_S4x512) : (⟨S_, .f32⟩ : BufTy).Contents (Elt F) → (⟨S4x512, .f32⟩ : BufTy).Contents (Elt F)) main_call3_v0)
  let main_v13 : (⟨S4x512, .f32⟩ : BufTy).Contents (Elt F) := ((select : (⟨S4x512, .i1⟩ : BufTy).Contents (Elt F) → (⟨S4x512, .f32⟩ : BufTy).Contents (Elt F) → (⟨S4x512, .f32⟩ : BufTy).Contents (Elt F) → (⟨S4x512, .f32⟩ : BufTy).Contents (Elt F)) main_v12 main_call3_v1 main_v11)
  let main_v14 : (⟨S4x512, .f32⟩ : BufTy).Contents (Elt F) := (((mulf) : (⟨S4x512, .f32⟩ : BufTy).Contents (Elt F) → (⟨S4x512, .f32⟩ : BufTy).Contents (Elt F) → (⟨S4x512, .f32⟩ : BufTy).Contents (Elt F)) main_v13 main_v6)
  let main_cst_1 : (⟨S_, .f32⟩ : BufTy).Contents (Elt F) := (constant S_ .f32 0x00000000#32)
  let main_v15 : (⟨S_, .f32⟩ : BufTy).Contents (Elt F) := ((((fun x v => Host.reduceAdd x v reducesTo_S4x512_S_d0_1 h_S_)) : (⟨S4x512, .f32⟩ : BufTy).Contents (Elt F) → (⟨S_, .f32⟩ : BufTy).Contents (Elt F) → (⟨S_, .f32⟩ : BufTy).Contents (Elt F)) main_v14 main_cst_1)
  let main_cst_2 : (⟨S_, .f32⟩ : BufTy).Contents (Elt F) := (constant S_ .f32 0x00000000#32)
  let main_v16 : (⟨S_, .f32⟩ : BufTy).Contents (Elt F) := ((((fun x v => Host.reduceAdd x v reducesTo_S4x512_S_d0_1 h_S_)) : (⟨S4x512, .f32⟩ : BufTy).Contents (Elt F) → (⟨S_, .f32⟩ : BufTy).Contents (Elt F) → (⟨S_, .f32⟩ : BufTy).Contents (Elt F)) main_v6 main_cst_2)
  let main_cst_3 : (⟨S_, .f32⟩ : BufTy).Contents (Elt F) := (constant S_ .f32 0x322BCC77#32)
  let main_v17 : (⟨S_, .f32⟩ : BufTy).Contents (Elt F) := (((addf) : (⟨S_, .f32⟩ : BufTy).Contents (Elt F) → (⟨S_, .f32⟩ : BufTy).Contents (Elt F) → (⟨S_, .f32⟩ : BufTy).Contents (Elt F)) main_v16 main_cst_3)
  let main_v18 : (⟨S_, .f32⟩ : BufTy).Contents (Elt F) := (((Host.divf) : (⟨S_, .f32⟩ : BufTy).Contents (Elt F) → (⟨S_, .f32⟩ : BufTy).Contents (Elt F) → (⟨S_, .f32⟩ : BufTy).Contents (Elt F)) main_v15 main_v17)
  main_v18

/-- The combined argument mask: the valid-position mask times the per-command argument mask row. -/
def argMask (a2 : (⟨S10x16, .f32⟩ : BufTy).Contents (Elt F)) (a3 : (⟨S4x512, .i32⟩ : BufTy).Contents (Elt F)) : (⟨S4x512x16, .f32⟩ : BufTy).Contents (Elt F) :=
  let main_c : (⟨S_, .i32⟩ : BufTy).Contents (Elt F) := (constantI S_ 32 3#32)
  let main_v0 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c)
  let main_v1 : (⟨S4x512, .i1⟩ : BufTy).Contents (Elt F) := (((cmpi .eq) : (⟨S4x512, .i32⟩ : BufTy).Contents (Elt F) → (⟨S4x512, .i32⟩ : BufTy).Contents (Elt F) → (⟨S4x512, .i1⟩ : BufTy).Contents (Elt F)) a3 main_v0)
  let main_v2 : (⟨S4x512, .i32⟩ : BufTy).Contents (Elt F) := ((((extui 32 · natLt_1_32)) : (⟨S4x512, .i1⟩ : BufTy).Contents (Elt F) → (⟨S4x512, .i32⟩ : BufTy).Contents (Elt F)) main_v1)
  let main_call0_call0_c : (⟨S_, .i32⟩ : BufTy).Contents (Elt F) := (constantI S_ 32 0#32)
  let main_call0_call0_v0 : (⟨S_, .i32⟩ : BufTy).Contents (Elt F) := (((broadcastInDim S_ ![] bcast_S_S_) : (⟨S_, .i32⟩ : BufTy).Contents (Elt F) → (⟨S_, .i32⟩ : BufTy).Contents (Elt F)) main_call0_call0_c)
  let main_v3 : (⟨S4x512, .i32⟩ : BufTy).Contents (Elt F) := (((fun x v => Host.reduceWindow IntOp.addi ![1, 512] ![1, 1] ![0, 511] ![0, 0] x v reduceWindows_S4x512_S4x512_w1s1p0_0_w512s1p511_0 h_S_) : (⟨S4x512, .i32⟩ : BufTy).Contents (Elt F) → (⟨S_, .i32⟩ : BufTy).Contents (Elt F) → (⟨S4x512, .i32⟩ : BufTy).Contents (Elt F)) main_v2 main_call0_call0_v0)
  let main_c_0 : (⟨S_, .i32⟩ : BufTy).Contents (Elt F) := (constantI S_ 32 1#32)
  let main_v4 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_0)
  let main_v5 : (⟨S4x512, .i1⟩ : BufTy).Contents (Elt F) := (((cmpi .sle) : (⟨S4x512, .i32⟩ : BufTy).Contents (Elt F) → (⟨S4x512, .i32⟩ : BufTy).Contents (Elt F) → (⟨S4x512, .i1⟩ : BufTy).Contents (Elt F)) main_v3 main_v4)
  let main_v6 : (⟨S4x512, .f32⟩ : BufTy).Contents (Elt F) := (((uitofp .f32) : (⟨S4x512, .i1⟩ : BufTy).Contents (Elt F) → (⟨S4x512, .f32⟩ : BufTy).Contents (Elt F)) main_v5)
  let main_c_4 : (⟨S_, .i32⟩ : BufTy).Contents (Elt F) := (constantI S_ 32 0#32)
  let main_v19 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_4)
  let main_v20 : (⟨S4x512, .i1⟩ : BufTy).Contents (Elt F) := (((cmpi .slt) : (⟨S4x512, .i32⟩ : BufTy).Contents (Elt F) → (⟨S4x512, .i32⟩ : BufTy).Contents (Elt F) → (⟨S4x512, .i1⟩ : BufTy).Contents (Elt F)) a3 main_v19)
  let main_c_5 : (⟨S_, .i32⟩ : BufTy).Contents (Elt F) := (constantI S_ 32 10#32)
  let main_v21 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_5)
  let main_v22 : (⟨S4x512, .i32⟩ : BufTy).Contents (Elt F) := (((addi) : (⟨S4x512, .i32⟩ : BufTy).Contents (Elt F) → (⟨S4x512, .i32⟩ : BufTy).Contents (Elt F) → (⟨S4x512, .i32⟩ : BufTy).Contents (Elt F)) a3 main_v21)
  let main_v23 : (⟨S4x512, .i32⟩ : BufTy).Contents (Elt F) := (((select) : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)) main_v20 main_v22 a3)
  let main_v24 : (⟨S4x512x1, .i32⟩ : BufTy).Contents (Elt F) := (((broadcastInDim S4x512x1 ![0, 1] bcast_S4x512_S4x512x1_0_1) : (⟨S4x512, .i32⟩ : BufTy).Contents (Elt F) → (⟨S4x512x1, .i32⟩ : BufTy).Contents (Elt F)) main_v23)
  let main_v25 : (⟨S4x512x16, .f32⟩ : BufTy).Contents (Elt F) := ((((fun x i => Host.gather gather_S10x16_S4x512x1_S4x512x16_2_0_n_n_0_2_116 x i)) : (⟨S10x16, .f32⟩ : BufTy).Contents (Elt F) → (⟨S4x512x1, .i32⟩ : BufTy).Contents (Elt F) → (⟨S4x512x16, .f32⟩ : BufTy).Contents (Elt F)) a2 main_v24)
  let main_v26 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_v6)
  let main_v27 : (⟨S4x512x16, .f32⟩ : BufTy).Contents (Elt F) := (((broadcastInDim S4x512x16 ![0, 1, 2] bcast_S4x512x1_S4x512x16_0_1_2) : (⟨S4x512x1, .f32⟩ : BufTy).Contents (Elt F) → (⟨S4x512x16, .f32⟩ : BufTy).Contents (Elt F)) main_v26)
  let main_v28 : (⟨S4x512x16, .f32⟩ : BufTy).Contents (Elt F) := (((mulf) : (⟨S4x512x16, .f32⟩ : BufTy).Contents (Elt F) → (⟨S4x512x16, .f32⟩ : BufTy).Contents (Elt F) → (⟨S4x512x16, .f32⟩ : BufTy).Contents (Elt F)) main_v27 main_v25)
  main_v28

/-- The argument tokens clipped into [0, 8191]. -/
def tgtClip (a4 : (⟨S4x512x16, .i32⟩ : BufTy).Contents (Elt F)) : (⟨S4x512x16, .i32⟩ : BufTy).Contents (Elt F) :=
  let main_c_6 : (⟨S_, .i32⟩ : BufTy).Contents (Elt F) := (constantI S_ 32 0#32)
  let main_c_7 : (⟨S_, .i32⟩ : BufTy).Contents (Elt F) := (constantI S_ 32 8191#32)
  let main_call4_v0 : (⟨S_, .i32⟩ : BufTy).Contents (Elt F) := ((id : (⟨S_, .i32⟩ : BufTy).Contents (Elt F) → (⟨S_, .i32⟩ : BufTy).Contents (Elt F)) main_c_6)
  let main_call4_v1 : (⟨S4x512x16, .i32⟩ : BufTy).Contents (Elt F) := (((broadcastInDim S4x512x16 ![] bcast_S_S4x512x16) : (⟨S_, .i32⟩ : BufTy).Contents (Elt F) → (⟨S4x512x16, .i32⟩ : BufTy).Contents (Elt F)) main_call4_v0)
  let main_call4_v2 : (⟨S4x512x16, .i32⟩ : BufTy).Contents (Elt F) := ((maxsi : (⟨S4x512x16, .i32⟩ : BufTy).Contents (Elt F) → (⟨S4x512x16, .i32⟩ : BufTy).Contents (Elt F) → (⟨S4x512x16, .i32⟩ : BufTy).Contents (Elt F)) main_call4_v1 a4)
  let main_call4_v3 : (⟨S_, .i32⟩ : BufTy).Contents (Elt F) := ((id : (⟨S_, .i32⟩ : BufTy).Contents (Elt F) → (⟨S_, .i32⟩ : BufTy).Contents (Elt F)) main_c_7)
  let main_call4_v4 : (⟨S4x512x16, .i32⟩ : BufTy).Contents (Elt F) := (((broadcastInDim S4x512x16 ![] bcast_S_S4x512x16) : (⟨S_, .i32⟩ : BufTy).Contents (Elt F) → (⟨S4x512x16, .i32⟩ : BufTy).Contents (Elt F)) main_call4_v3)
  let main_v29 : (⟨S4x512x16, .i32⟩ : BufTy).Contents (Elt F) := ((minsi : (⟨S4x512x16, .i32⟩ : BufTy).Contents (Elt F) → (⟨S4x512x16, .i32⟩ : BufTy).Contents (Elt F) → (⟨S4x512x16, .i32⟩ : BufTy).Contents (Elt F)) main_call4_v4 main_call4_v2)
  main_v29

/-- The argument logits re-laid as 2048 rows of 16 x 8192. -/
def flatRows (x : (⟨S4x512x16x8192, .f32⟩ : BufTy).Contents (Elt F)) : (⟨S2048x16x8192, .f32⟩ : BufTy).Contents (Elt F) :=
  let main_v30 : (⟨S2048x16x8192, .f32⟩ : BufTy).Contents (Elt F) := (fun q__ => shapeCast S2048x16x8192 x shapeCasts_S4x512x16x8192_S2048x16x8192 q__)
  main_v30

/-- The 2048 x 16 log-partition values re-laid as 4 x 512 x 16. -/
def unflatRows (lz : (⟨S2048x16, .f32⟩ : BufTy).Contents (Elt F)) : (⟨S4x512x16, .f32⟩ : BufTy).Contents (Elt F) :=
  let main_v32 : (⟨S4x512x16, .f32⟩ : BufTy).Contents (Elt F) := (fun q__ => shapeCast S4x512x16 lz shapeCasts_S2048x16_S4x512x16 q__)
  main_v32

/-- The seven window weights exp(-2|s|), s = -3..3, over their sum plus 1e-8. -/
def wnorm  : (⟨S7, .f32⟩ : BufTy).Contents (Elt F) :=
  let main_v33 : (⟨S7, .i32⟩ : BufTy).Contents (Elt F) := (iotaInDim S7 32 0)
  let main_c_8 : (⟨S_, .i32⟩ : BufTy).Contents (Elt F) := (constantI S_ 32 4294967293#32)
  let main_v34 : (⟨S7, .i32⟩ : BufTy).Contents (Elt F) := (((broadcastInDim S7 ![] bcast_S_S7) : (⟨S_, .i32⟩ : BufTy).Contents (Elt F) → (⟨S7, .i32⟩ : BufTy).Contents (Elt F)) main_c_8)
  let main_v35 : (⟨S7, .i32⟩ : BufTy).Contents (Elt F) := (((addi) : (⟨S7, .i32⟩ : BufTy).Contents (Elt F) → (⟨S7, .i32⟩ : BufTy).Contents (Elt F) → (⟨S7, .i32⟩ : BufTy).Contents (Elt F)) main_v34 main_v33)
  let main_v36 : (⟨S7, .i32⟩ : BufTy).Contents (Elt F) := (((absi) : (⟨S7, .i32⟩ : BufTy).Contents (Elt F) → (⟨S7, .i32⟩ : BufTy).Contents (Elt F)) main_v35)
  let main_v37 : (⟨S7, .f32⟩ : BufTy).Contents (Elt F) := (((sitofp .f32) : (⟨S7, .i32⟩ : BufTy).Contents (Elt F) → (⟨S7, .f32⟩ : BufTy).Contents (Elt F)) main_v36)
  let main_cst_9 : (⟨S_, .f32⟩ : BufTy).Contents (Elt F) := (constant S_ .f32 0xC0000000#32)
  let main_v38 : (⟨S7, .f32⟩ : BufTy).Contents (Elt F) := (((broadcastInDim S7 ![] bcast_S_S7) : (⟨S_, .f32⟩ : BufTy).Contents (Elt F) → (⟨S7, .f32⟩ : BufTy).Contents (Elt F)) main_cst_9)
  let main_v39 : (⟨S7, .f32⟩ : BufTy).Contents (Elt F) := (((mulf) : (⟨S7, .f32⟩ : BufTy).Contents (Elt F) → (⟨S7, .f32⟩ : BufTy).Contents (Elt F) → (⟨S7, .f32⟩ : BufTy).Contents (Elt F)) main_v38 main_v37)
  let main_v40 : (⟨S7, .f32⟩ : BufTy).Contents (Elt F) := (((Host.exp) : (⟨S7, .f32⟩ : BufTy).Contents (Elt F) → (⟨S7, .f32⟩ : BufTy).Contents (Elt F)) main_v39)
  let main_cst_10 : (⟨S_, .f32⟩ : BufTy).Contents (Elt F) := (constant S_ .f32 0x00000000#32)
  let main_v41 : (⟨S_, .f32⟩ : BufTy).Contents (Elt F) := ((((fun x v => Host.reduceAdd x v reducesTo_S7_S_d0 h_S_)) : (⟨S7, .f32⟩ : BufTy).Contents (Elt F) → (⟨S_, .f32⟩ : BufTy).Contents (Elt F) → (⟨S_, .f32⟩ : BufTy).Contents (Elt F)) main_v40 main_cst_10)
  let main_cst_11 : (⟨S_, .f32⟩ : BufTy).Contents (Elt F) := (constant S_ .f32 0x322BCC77#32)
  let main_v42 : (⟨S_, .f32⟩ : BufTy).Contents (Elt F) := (((addf) : (⟨S_, .f32⟩ : BufTy).Contents (Elt F) → (⟨S_, .f32⟩ : BufTy).Contents (Elt F) → (⟨S_, .f32⟩ : BufTy).Contents (Elt F)) main_v41 main_cst_11)
  let main_v43 : (⟨S7, .f32⟩ : BufTy).Contents (Elt F) := (((broadcastInDim S7 ![] bcast_S_S7) : (⟨S_, .f32⟩ : BufTy).Contents (Elt F) → (⟨S7, .f32⟩ : BufTy).Contents (Elt F)) main_v42)
  let main_v44 : (⟨S7, .f32⟩ : BufTy).Contents (Elt F) := (((Host.divf) : (⟨S7, .f32⟩ : BufTy).Contents (Elt F) → (⟨S7, .f32⟩ : BufTy).Contents (Elt F) → (⟨S7, .f32⟩ : BufTy).Contents (Elt F)) main_v40 main_v43)
  main_v44

/-- The sum of the window weights. -/
def wsumOf (wn : (⟨S7, .f32⟩ : BufTy).Contents (Elt F)) : (⟨S_, .f32⟩ : BufTy).Contents (Elt F) :=
  let main_cst_12 : (⟨S_, .f32⟩ : BufTy).Contents (Elt F) := (constant S_ .f32 0x00000000#32)
  let main_v45 : (⟨S_, .f32⟩ : BufTy).Contents (Elt F) := ((((fun x v => Host.reduceAdd x v reducesTo_S7_S_d0 h_S_)) : (⟨S7, .f32⟩ : BufTy).Contents (Elt F) → (⟨S_, .f32⟩ : BufTy).Contents (Elt F) → (⟨S_, .f32⟩ : BufTy).Contents (Elt F)) wn main_cst_12)
  main_v45

/-- The seven window positions target + s, s = -3..3, clipped into [0, 8191]. -/
def idx7 (tg : (⟨S4x512x16, .i32⟩ : BufTy).Contents (Elt F)) : (⟨S4x512x16x7, .i32⟩ : BufTy).Contents (Elt F) :=
  let main_v33 : (⟨S7, .i32⟩ : BufTy).Contents (Elt F) := (iotaInDim S7 32 0)
  let main_c_8 : (⟨S_, .i32⟩ : BufTy).Contents (Elt F) := (constantI S_ 32 4294967293#32)
  let main_v34 : (⟨S7, .i32⟩ : BufTy).Contents (Elt F) := (((broadcastInDim S7 ![] bcast_S_S7) : (⟨S_, .i32⟩ : BufTy).Contents (Elt F) → (⟨S7, .i32⟩ : BufTy).Contents (Elt F)) main_c_8)
  let main_v35 : (⟨S7, .i32⟩ : BufTy).Contents (Elt F) := (((addi) : (⟨S7, .i32⟩ : BufTy).Contents (Elt F) → (⟨S7, .i32⟩ : BufTy).Contents (Elt F) → (⟨S7, .i32⟩ : BufTy).Contents (Elt F)) main_v34 main_v33)
  let main_v46 : (⟨S4x512x16x1, .i32⟩ : BufTy).Contents (Elt F) := (((broadcastInDim S4x512x16x1 ![0, 1, 2] bcast_S4x512x16_S4x512x16x1_0_1_2) : (⟨S4x512x16, .i32⟩ : BufTy).Contents (Elt F) → (⟨S4x512x16x1, .i32⟩ : BufTy).Contents (Elt F)) tg)
  let main_v47 : (⟨S1x1x1x7, .i32⟩ : BufTy).Contents (Elt F) := (((broadcastInDim S1x1x1x7 ![3] bcast_S7_S1x1x1x7_3) : (⟨S7, .i32⟩ : BufTy).Contents (Elt F) → (⟨S1x1x1x7, .i32⟩ : BufTy).Contents (Elt F)) main_v35)
  let main_v48 : (⟨S4x512x16x7, .i32⟩ : BufTy).Contents (Elt F) := (((broadcastInDim S4x512x16x7 ![0, 1, 2, 3] bcast_S4x512x16x1_S4x512x16x7_0_1_2_3) : (⟨S4x512x16x1, .i32⟩ : BufTy).Contents (Elt F) → (⟨S4x512x16x7, .i32⟩ : BufTy).Contents (Elt F)) main_v46)
  let main_v49 : (⟨S4x512x16x7, .i32⟩ : BufTy).Contents (Elt F) := (((broadcastInDim S4x512x16x7 ![0, 1, 2, 3] bcast_S1x1x1x7_S4x512x16x7_0_1_2_3) : (⟨S1x1x1x7, .i32⟩ : BufTy).Contents (Elt F) → (⟨S4x512x16x7, .i32⟩ : BufTy).Contents (Elt F)) main_v47)
  let main_v50 : (⟨S4x512x16x7, .i32⟩ : BufTy).Contents (Elt F) := (((addi) : (⟨S4x512x16x7, .i32⟩ : BufTy).Contents (Elt F) → (⟨S4x512x16x7, .i32⟩ : BufTy).Contents (Elt F) → (⟨S4x512x16x7, .i32⟩ : BufTy).Contents (Elt F)) main_v48 main_v49)
  let main_c_13 : (⟨S_, .i32⟩ : BufTy).Contents (Elt F) := (constantI S_ 32 0#32)
  let main_c_14 : (⟨S_, .i32⟩ : BufTy).Contents (Elt F) := (constantI S_ 32 8191#32)
  let main_call5_v0 : (⟨S_, .i32⟩ : BufTy).Contents (Elt F) := ((id : (⟨S_, .i32⟩ : BufTy).Contents (Elt F) → (⟨S_, .i32⟩ : BufTy).Contents (Elt F)) main_c_13)
  let main_call5_v1 : (⟨S4x512x16x7, .i32⟩ : BufTy).Contents (Elt F) := (((broadcastInDim S4x512x16x7 ![] bcast_S_S4x512x16x7) : (⟨S_, .i32⟩ : BufTy).Contents (Elt F) → (⟨S4x512x16x7, .i32⟩ : BufTy).Contents (Elt F)) main_call5_v0)
  let main_call5_v2 : (⟨S4x512x16x7, .i32⟩ : BufTy).Contents (Elt F) := ((maxsi : (⟨S4x512x16x7, .i32⟩ : BufTy).Contents (Elt F) → (⟨S4x512x16x7, .i32⟩ : BufTy).Contents (Elt F) → (⟨S4x512x16x7, .i32⟩ : BufTy).Contents (Elt F)) main_call5_v1 main_v50)
  let main_call5_v3 : (⟨S_, .i32⟩ : BufTy).Contents (Elt F) := ((id : (⟨S_, .i32⟩ : BufTy).Contents (Elt F) → (⟨S_, .i32⟩ : BufTy).Contents (Elt F)) main_c_14)
  let main_call5_v4 : (⟨S4x512x16x7, .i32⟩ : BufTy).Contents (Elt F) := (((broadcastInDim S4x512x16x7 ![] bcast_S_S4x512x16x7) : (⟨S_, .i32⟩ : BufTy).Contents (Elt F) → (⟨S4x512x16x7, .i32⟩ : BufTy).Contents (Elt F)) main_call5_v3)
  let main_v51 : (⟨S4x512x16x7, .i32⟩ : BufTy).Contents (Elt F) := ((minsi : (⟨S4x512x16x7, .i32⟩ : BufTy).Contents (Elt F) → (⟨S4x512x16x7, .i32⟩ : BufTy).Contents (Elt F) → (⟨S4x512x16x7, .i32⟩ : BufTy).Contents (Elt F)) main_call5_v4 main_call5_v2)
  main_v51

/-- The entries of x along its last axis at the positions i (a negative position counted from the end; NaN where out of range). -/
def takeLast (x : (⟨S4x512x16x8192, .f32⟩ : BufTy).Contents (Elt F)) (i : (⟨S4x512x16x7, .i32⟩ : BufTy).Contents (Elt F)) : (⟨S4x512x16x7, .f32⟩ : BufTy).Contents (Elt F) :=
  let main_call6_c : (⟨S_, .i32⟩ : BufTy).Contents (Elt F) := (constantI S_ 32 0#32)
  let main_call6_v0 : (⟨S4x512x16x7, .i32⟩ : BufTy).Contents (Elt F) := (((broadcastInDim S4x512x16x7 ![] bcast_S_S4x512x16x7) : (⟨S_, .i32⟩ : BufTy).Contents (Elt F) → (⟨S4x512x16x7, .i32⟩ : BufTy).Contents (Elt F)) main_call6_c)
  let main_call6_v1 : (⟨S4x512x16x7, .i1⟩ : BufTy).Contents (Elt F) := (((cmpi .slt) : (⟨S4x512x16x7, .i32⟩ : BufTy).Contents (Elt F) → (⟨S4x512x16x7, .i32⟩ : BufTy).Contents (Elt F) → (⟨S4x512x16x7, .i1⟩ : BufTy).Contents (Elt F)) i main_call6_v0)
  let main_call6_c_0 : (⟨S_, .i32⟩ : BufTy).Contents (Elt F) := (constantI S_ 32 8192#32)
  let main_call6_v2 : (⟨S4x512x16x7, .i32⟩ : BufTy).Contents (Elt F) := (((broadcastInDim S4x512x16x7 ![] bcast_S_S4x512x16x7) : (⟨S_, .i32⟩ : BufTy).Contents (Elt F) → (⟨S4x512x16x7, .i32⟩ : BufTy).Contents (Elt F)) main_call6_c_0)
  let main_call6_v3 : (⟨S4x512x16x7, .i32⟩ : BufTy).Contents (Elt F) := ((addi : (⟨S4x512x16x7, .i32⟩ : BufTy).Contents (Elt F) → (⟨S4x512x16x7, .i32⟩ : BufTy).Contents (Elt F) → (⟨S4x512x16x7, .i32⟩ : BufTy).Contents (Elt F)) i main_call6_v2)
  let main_call6_v4 : (⟨S4x512x16x7, .i32⟩ : BufTy).Contents (Elt F) := ((select : (⟨S4x512x16x7, .i1⟩ : BufTy).Contents (Elt F) → (⟨S4x512x16x7, .i32⟩ : BufTy).Contents (Elt F) → (⟨S4x512x16x7, .i32⟩ : BufTy).Contents (Elt F) → (⟨S4x512x16x7, .i32⟩ : BufTy).Contents (Elt F)) main_call6_v1 main_call6_v3 i)
  let main_call6_v5 : (⟨S4x512x16x7x1, .i32⟩ : BufTy).Contents (Elt F) := (fun q__ => shapeCast S4x512x16x7x1 main_call6_v4 shapeCasts_S4x512x16x7_S4x512x16x7x1 q__)
  let main_call6_c_1 : (⟨S1, .i32⟩ : BufTy).Contents (Elt F) := (constantI S1 32 8191#32)
  let main_call6_c_2 : (⟨S_, .i32⟩ : BufTy).Contents (Elt F) := (constantI S_ 32 0#32)
  let main_call6_v6 : (⟨S4x512x16x7x1, .i32⟩ : BufTy).Contents (Elt F) := (((broadcastInDim S4x512x16x7x1 ![] bcast_S_S4x512x16x7x1) : (⟨S_, .i32⟩ : BufTy).Contents (Elt F) → (⟨S4x512x16x7x1, .i32⟩ : BufTy).Contents (Elt F)) main_call6_c_2)
  let main_call6_v7 : (⟨S4x512x16x7x1, .i1⟩ : BufTy).Contents (Elt F) := (((cmpi .sge) : (⟨S4x512x16x7x1, .i32⟩ : BufTy).Contents (Elt F) → (⟨S4x512x16x7x1, .i32⟩ : BufTy).Contents (Elt F) → (⟨S4x512x16x7x1, .i1⟩ : BufTy).Contents (Elt F)) main_call6_v5 main_call6_v6)
  let main_call6_v8 : (⟨S1x1x1x1x1, .i32⟩ : BufTy).Contents (Elt F) := (((broadcastInDim S1x1x1x1x1 ![4] bcast_S1_S1x1x1x1x1_4) : (⟨S1, .i32⟩ : BufTy).Contents (Elt F) → (⟨S1x1x1x1x1, .i32⟩ : BufTy).Contents (Elt F)) main_call6_c_1)
  let main_call6_v9 : (⟨S4x512x16x7x1, .i32⟩ : BufTy).Contents (Elt F) := (((broadcastInDim S4x512x16x7x1 ![0, 1, 2, 3, 4] bcast_S1x1x1x1x1_S4x512x16x7x1_0_1_2_3_4) : (⟨S1x1x1x1x1, .i32⟩ : BufTy).Contents (Elt F) → (⟨S4x512x16x7x1, .i32⟩ : BufTy).Contents (Elt F)) main_call6_v8)
  let main_call6_v10 : (⟨S4x512x16x7x1, .i1⟩ : BufTy).Contents (Elt F) := (((cmpi .sle) : (⟨S4x512x16x7x1, .i32⟩ : BufTy).Contents (Elt F) → (⟨S4x512x16x7x1, .i32⟩ : BufTy).Contents (Elt F) → (⟨S4x512x16x7x1, .i1⟩ : BufTy).Contents (Elt F)) main_call6_v5 main_call6_v9)
  let main_call6_v11 : (⟨S4x512x16x7x1, .i1⟩ : BufTy).Contents (Elt F) := ((andi : (⟨S4x512x16x7x1, .i1⟩ : BufTy).Contents (Elt F) → (⟨S4x512x16x7x1, .i1⟩ : BufTy).Contents (Elt F) → (⟨S4x512x16x7x1, .i1⟩ : BufTy).Contents (Elt F)) main_call6_v7 main_call6_v10)
  let main_call6_c_3 : (⟨S_, .i1⟩ : BufTy).Contents (Elt F) := (constantI S_ 1 1#1)
  let main_call6_v12 : (⟨S4x512x16x7, .i1⟩ : BufTy).Contents (Elt F) := (((fun x v => Host.reduce IntOp.andi x v reducesTo_S4x512x16x7x1_S4x512x16x7_d4 h_S_) : (⟨S4x512x16x7x1, .i1⟩ : BufTy).Contents (Elt F) → (⟨S_, .i1⟩ : BufTy).Contents (Elt F) → (⟨S4x512x16x7, .i1⟩ : BufTy).Contents (Elt F)) main_call6_v11 main_call6_c_3)
  let main_call6_v13 : (⟨S4x512x16x7, .f32⟩ : BufTy).Contents (Elt F) := (((fun x i => Host.gather gather_S4x512x16x8192_S4x512x16x7x1_S4x512x16x7_n_3_012_012_3_4_1111 x i) : (⟨S4x512x16x8192, .f32⟩ : BufTy).Contents (Elt F) → (⟨S4x512x16x7x1, .i32⟩ : BufTy).Contents (Elt F) → (⟨S4x512x16x7, .f32⟩ : BufTy).Contents (Elt F)) x main_call6_v5)
  let main_call6_cst : (⟨S_, .f32⟩ : BufTy).Contents (Elt F) := (constant S_ .f32 0x7FC00000#32)
  let main_call6_v14 : (⟨S4x512x16x7, .f32⟩ : BufTy).Contents (Elt F) := (((broadcastInDim S4x512x16x7 ![] bcast_S_S4x512x16x7) : (⟨S_, .f32⟩ : BufTy).Contents (Elt F) → (⟨S4x512x16x7, .f32⟩ : BufTy).Contents (Elt F)) main_call6_cst)
  let main_v52 : (⟨S4x512x16x7, .f32⟩ : BufTy).Contents (Elt F) := ((select : (⟨S4x512x16x7, .i1⟩ : BufTy).Contents (Elt F) → (⟨S4x512x16x7, .f32⟩ : BufTy).Contents (Elt F) → (⟨S4x512x16x7, .f32⟩ : BufTy).Contents (Elt F) → (⟨S4x512x16x7, .f32⟩ : BufTy).Contents (Elt F)) main_call6_v12 main_call6_v13 main_call6_v14)
  main_v52

/-- The per-position loss from the gathered raw logits g and the log-partition values lz: minus (the weighted window sum of g minus the total weight times lz). -/
def lossK (g : (⟨S4x512x16x7, .f32⟩ : BufTy).Contents (Elt F)) (wn : (⟨S7, .f32⟩ : BufTy).Contents (Elt F)) (ws : (⟨S_, .f32⟩ : BufTy).Contents (Elt F)) (lz : (⟨S4x512x16, .f32⟩ : BufTy).Contents (Elt F)) : (⟨S4x512x16, .f32⟩ : BufTy).Contents (Elt F) :=
  let main_v53 : (⟨S1x1x1x7, .f32⟩ : BufTy).Contents (Elt F) := (((broadcastInDim S1x1x1x7 ![3] bcast_S7_S1x1x1x7_3) : (⟨S7, .f32⟩ : BufTy).Contents (Elt F) → (⟨S1x1x1x7, .f32⟩ : BufTy).Contents (Elt F)) wn)
  let main_v54 : (⟨S4x512x16x7, .f32⟩ : BufTy).Contents (Elt F) := (((broadcastInDim S4x512x16x7 ![0, 1, 2, 3] bcast_S1x1x1x7_S4x512x16x7_0_1_2_3) : (⟨S1x1x1x7, .f32⟩ : BufTy).Contents (Elt F) → (⟨S4x512x16x7, .f32⟩ : BufTy).Contents (Elt F)) main_v53)
  let main_v55 : (⟨S4x512x16x7, .f32⟩ : BufTy).Contents (Elt F) := (((mulf) : (⟨S4x512x16x7, .f32⟩ : BufTy).Contents (Elt F) → (⟨S4x512x16x7, .f32⟩ : BufTy).Contents (Elt F) → (⟨S4x512x16x7, .f32⟩ : BufTy).Contents (Elt F)) g main_v54)
  let main_cst_15 : (⟨S_, .f32⟩ : BufTy).Contents (Elt F) := (constant S_ .f32 0x00000000#32)
  let main_v56 : (⟨S4x512x16, .f32⟩ : BufTy).Contents (Elt F) := ((((fun x v => Host.reduceAdd x v reducesTo_S4x512x16x7_S4x512x16_d3 h_S_)) : (⟨S4x512x16x7, .f32⟩ : BufTy).Contents (Elt F) → (⟨S_, .f32⟩ : BufTy).Contents (Elt F) → (⟨S4x512x16, .f32⟩ : BufTy).Contents (Elt F)) main_v55 main_cst_15)
  let main_v57 : (⟨S4x512x16, .f32⟩ : BufTy).Contents (Elt F) := (((broadcastInDim S4x512x16 ![] bcast_S_S4x512x16) : (⟨S_, .f32⟩ : BufTy).Contents (Elt F) → (⟨S4x512x16, .f32⟩ : BufTy).Contents (Elt F)) ws)
  let main_v58 : (⟨S4x512x16, .f32⟩ : BufTy).Contents (Elt F) := (((mulf) : (⟨S4x512x16, .f32⟩ : BufTy).Contents (Elt F) → (⟨S4x512x16, .f32⟩ : BufTy).Contents (Elt F) → (⟨S4x512x16, .f32⟩ : BufTy).Contents (Elt F)) main_v57 lz)
  let main_v59 : (⟨S4x512x16, .f32⟩ : BufTy).Contents (Elt F) := (((subf) : (⟨S4x512x16, .f32⟩ : BufTy).Contents (Elt F) → (⟨S4x512x16, .f32⟩ : BufTy).Contents (Elt F) → (⟨S4x512x16, .f32⟩ : BufTy).Contents (Elt F)) main_v56 main_v58)
  let main_v60 : (⟨S4x512x16, .f32⟩ : BufTy).Contents (Elt F) := (((Host.negf) : (⟨S4x512x16, .f32⟩ : BufTy).Contents (Elt F) → (⟨S4x512x16, .f32⟩ : BufTy).Contents (Elt F)) main_v59)
  main_v60

/-- The argument loss from the per-position loss L and the mask mk: NaN entries of L replaced by 0, times mk, summed, over mk's sum plus 1e-8. -/
def lossTail (L : (⟨S4x512x16, .f32⟩ : BufTy).Contents (Elt F)) (mk : (⟨S4x512x16, .f32⟩ : BufTy).Contents (Elt F)) : (⟨S_, .f32⟩ : BufTy).Contents (Elt F) :=
  let main_v61 : (⟨S4x512x16, .i1⟩ : BufTy).Contents (Elt F) := (((cmpf .une) : (⟨S4x512x16, .f32⟩ : BufTy).Contents (Elt F) → (⟨S4x512x16, .f32⟩ : BufTy).Contents (Elt F) → (⟨S4x512x16, .i1⟩ : BufTy).Contents (Elt F)) L L)
  let main_cst_16 : (⟨S_, .f32⟩ : BufTy).Contents (Elt F) := (constant S_ .f32 0x00000000#32)
  let main_call7_v0 : (⟨S_, .f32⟩ : BufTy).Contents (Elt F) := ((id : (⟨S_, .f32⟩ : BufTy).Contents (Elt F) → (⟨S_, .f32⟩ : BufTy).Contents (Elt F)) main_cst_16)
  let main_call7_v1 : (⟨S4x512x16, .f32⟩ : BufTy).Contents (Elt F) := (((broadcastInDim S4x512x16 ![] bcast_S_S4x512x16) : (⟨S_, .f32⟩ : BufTy).Contents (Elt F) → (⟨S4x512x16, .f32⟩ : BufTy).Contents (Elt F)) main_call7_v0)
  let main_v62 : (⟨S4x512x16, .f32⟩ : BufTy).Contents (Elt F) := ((select : (⟨S4x512x16, .i1⟩ : BufTy).Contents (Elt F) → (⟨S4x512x16, .f32⟩ : BufTy).Contents (Elt F) → (⟨S4x512x16, .f32⟩ : BufTy).Contents (Elt F) → (⟨S4x512x16, .f32⟩ : BufTy).Contents (Elt F)) main_v61 main_call7_v1 L)
  let main_v63 : (⟨S4x512x16, .f32⟩ : BufTy).Contents (Elt F) := (((mulf) : (⟨S4x512x16, .f32⟩ : BufTy).Contents (Elt F) → (⟨S4x512x16, .f32⟩ : BufTy).Contents (Elt F) → (⟨S4x512x16, .f32⟩ : BufTy).Contents (Elt F)) main_v62 mk)
  let main_cst_17 : (⟨S_, .f32⟩ : BufTy).Contents (Elt F) := (constant S_ .f32 0x00000000#32)
  let main_v64 : (⟨S_, .f32⟩ : BufTy).Contents (Elt F) := ((((fun x v => Host.reduceAdd x v reducesTo_S4x512x16_S_d0_1_2 h_S_)) : (⟨S4x512x16, .f32⟩ : BufTy).Contents (Elt F) → (⟨S_, .f32⟩ : BufTy).Contents (Elt F) → (⟨S_, .f32⟩ : BufTy).Contents (Elt F)) main_v63 main_cst_17)
  let main_cst_18 : (⟨S_, .f32⟩ : BufTy).Contents (Elt F) := (constant S_ .f32 0x00000000#32)
  let main_v65 : (⟨S_, .f32⟩ : BufTy).Contents (Elt F) := ((((fun x v => Host.reduceAdd x v reducesTo_S4x512x16_S_d0_1_2 h_S_)) : (⟨S4x512x16, .f32⟩ : BufTy).Contents (Elt F) → (⟨S_, .f32⟩ : BufTy).Contents (Elt F) → (⟨S_, .f32⟩ : BufTy).Contents (Elt F)) mk main_cst_18)
  let main_cst_19 : (⟨S_, .f32⟩ : BufTy).Contents (Elt F) := (constant S_ .f32 0x322BCC77#32)
  let main_v66 : (⟨S_, .f32⟩ : BufTy).Contents (Elt F) := (((addf) : (⟨S_, .f32⟩ : BufTy).Contents (Elt F) → (⟨S_, .f32⟩ : BufTy).Contents (Elt F) → (⟨S_, .f32⟩ : BufTy).Contents (Elt F)) main_v65 main_cst_19)
  let main_v67 : (⟨S_, .f32⟩ : BufTy).Contents (Elt F) := (((Host.divf) : (⟨S_, .f32⟩ : BufTy).Contents (Elt F) → (⟨S_, .f32⟩ : BufTy).Contents (Elt F) → (⟨S_, .f32⟩ : BufTy).Contents (Elt F)) main_v64 main_v66)
  main_v67

/-- The total loss 1 * command loss + 1 * argument loss. -/
def total (lc : (⟨S_, .f32⟩ : BufTy).Contents (Elt F)) (la : (⟨S_, .f32⟩ : BufTy).Contents (Elt F)) : (⟨S_, .f32⟩ : BufTy).Contents (Elt F) :=
  let main_cst_20 : (⟨S_, .f32⟩ : BufTy).Contents (Elt F) := (constant S_ .f32 0x3F800000#32)
  let main_v68 : (⟨S_, .f32⟩ : BufTy).Contents (Elt F) := (((mulf) : (⟨S_, .f32⟩ : BufTy).Contents (Elt F) → (⟨S_, .f32⟩ : BufTy).Contents (Elt F) → (⟨S_, .f32⟩ : BufTy).Contents (Elt F)) main_cst_20 lc)
  let main_cst_21 : (⟨S_, .f32⟩ : BufTy).Contents (Elt F) := (constant S_ .f32 0x3F800000#32)
  let main_v69 : (⟨S_, .f32⟩ : BufTy).Contents (Elt F) := (((mulf) : (⟨S_, .f32⟩ : BufTy).Contents (Elt F) → (⟨S_, .f32⟩ : BufTy).Contents (Elt F) → (⟨S_, .f32⟩ : BufTy).Contents (Elt F)) main_cst_21 la)
  let main_v70 : (⟨S_, .f32⟩ : BufTy).Contents (Elt F) := (((addf) : (⟨S_, .f32⟩ : BufTy).Contents (Elt F) → (⟨S_, .f32⟩ : BufTy).Contents (Elt F) → (⟨S_, .f32⟩ : BufTy).Contents (Elt F)) main_v68 main_v69)
  main_v70

end Cert.KernelIdeal.St

end
-- ==== Proof.KAfterPre.lean ====
import proofs.«428594_j79611513799125_3_alg».proof.Proof.KStages

set_option maxRecDepth 8192

noncomputable section

namespace Cert.KernelIdeal.Af

open Idealize.ShloMosaic Idealize.ShloMosaic.TcCoe Idealize.SL.Sem Idealize.ShloMosaic.StableHlo Cert.KernelIdeal Cert.KernelIdeal.Gen Cert.KernelIdeal.St

variable {F : FTy → Type} [FloatOps F]

/-! ## The fold through a concatenation, and the earlier operations as their stretches -/

/-- The contents after a concatenation: after the first list, then after the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The earlier host operations are their eleven stretches, in order. -/
theorem kops0_eq : (kops0 : List (HloOp τ sig (Elt F)))
    = kst0_0 ++ kst0_1 ++ kst0_2 ++ kst0_3 ++ kst0_4 ++ kst0_5 ++ kst0_6 ++ kst0_7 ++ kst0_8 ++ kst0_9 ++ kst0_10 := rfl

/-- Every operation of a literal stretch writes only buffers of the stretch's list: each operation writes its one
    result buffer, and that reference is in the list. -/
local macro "writes_sub" : tactic =>
  `(tactic| (simp only [List.Forall]
             repeat' apply And.intro
             all_goals (simp only [nullary_writes, unary_writes, binary_writes, ternary_writes, reshape_writes,
                          Finset.singleton_subset_iff, List.mem_toFinset]
                        exact List.mem_map_of_mem (by decide))))

/-! ## A buffer a stretch does not write keeps its contents -/

theorem keep0 (V : Valuation τ sig (Elt F)) (r : Ref sig .tc) (hr : r ∉ kst0_0_writes) :
    after kst0_0 V (Proc.devRef .tc r) = V (Proc.devRef .tc r) :=
  after_of_writes_sub (W := kst0_0_writes) kst0_0 V (by writes_sub) hr
theorem keep1 (V : Valuation τ sig (Elt F)) (r : Ref sig .tc) (hr : r ∉ kst0_1_writes) :
    after kst0_1 V (Proc.devRef .tc r) = V (Proc.devRef .tc r) :=
  after_of_writes_sub (W := kst0_1_writes) kst0_1 V (by writes_sub) hr
theorem keep2 (V : Valuation τ sig (Elt F)) (r : Ref sig .tc) (hr : r ∉ kst0_2_writes) :
    after kst0_2 V (Proc.devRef .tc r) = V (Proc.devRef .tc r) :=
  after_of_writes_sub (W := kst0_2_writes) kst0_2 V (by writes_sub) hr
theorem keep3 (V : Valuation τ sig (Elt F)) (r : Ref sig .tc) (hr : r ∉ kst0_3_writes) :
    after kst0_3 V (Proc.devRef .tc r) = V (Proc.devRef .tc r) :=
  after_of_writes_sub (W := kst0_3_writes) kst0_3 V (by writes_sub) hr
theorem keep4 (V : Valuation τ sig (Elt F)) (r : Ref sig .tc) (hr : r ∉ kst0_4_writes) :
    after kst0_4 V (Proc.devRef .tc r) = V (Proc.devRef .tc r) :=
  after_of_writes_sub (W := kst0_4_writes) kst0_4 V (by writes_sub) hr
theorem keep5 (V : Valuation τ sig (Elt F)) (r : Ref sig .tc) (hr : r ∉ kst0_5_writes) :
    after kst0_5 V (Proc.devRef .tc r) = V (Proc.devRef .tc r) :=
  after_of_writes_sub (W := kst0_5_writes) kst0_5 V (by writes_sub) hr
theorem keep6 (V : Valuation τ sig (Elt F)) (r : Ref sig .tc) (hr : r ∉ kst0_6_writes) :
    after kst0_6 V (Proc.devRef .tc r) = V (Proc.devRef .tc r) :=
  after_of_writes_sub (W := kst0_6_writes) kst0_6 V (by writes_sub) hr
theorem keep7 (V : Valuation τ sig (Elt F)) (r : Ref sig .tc) (hr : r ∉ kst0_7_writes) :
    after kst0_7 V (Proc.devRef .tc r) = V (Proc.devRef .tc r) :=
  after_of_writes_sub (W := kst0_7_writes) kst0_7 V (by writes_sub) hr
theorem keep8 (V : Valuation τ sig (Elt F)) (r : Ref sig .tc) (hr : r ∉ kst0_8_writes) :
    after kst0_8 V (Proc.devRef .tc r) = V (Proc.devRef .tc r) :=
  after_of_writes_sub (W := kst0_8_writes) kst0_8 V (by writes_sub) hr
theorem keep9 (V : Valuation τ sig (Elt F)) (r : Ref sig .tc) (hr : r ∉ kst0_9_writes) :
    after kst0_9 V (Proc.devRef .tc r) = V (Proc.devRef .tc r) :=
  after_of_writes_sub (W := kst0_9_writes) kst0_9 V (by writes_sub) hr
theorem keep10 (V : Valuation τ sig (Elt F)) (r : Ref sig .tc) (hr : r ∉ kst0_10_writes) :
    after kst0_10 V (Proc.devRef .tc r) = V (Proc.devRef .tc r) :=
  after_of_writes_sub (W := kst0_10_writes) kst0_10 V (by writes_sub) hr

/-! ## The values between the stretches

The command loss is the composition: log-softmax of the command logits over the last axis (`lsm10`), its entry at the
command (`cmdAt`), negated with a NaN replaced by zero (`negNan`), then the masked mean (`cmdTail`) against the
valid-position mask; the argument mask is the valid-position mask times the command's mask row (`argTail`). Each
definition is the operations of its stretches, one `let` per operation, in the order of the list. -/

/-- Log-softmax over the last axis of the 4 x 512 x 10 command logits: the logits minus their row maximum, minus the
    logarithm of the row sum of the exponentials of that difference. -/
def lsm10 (a0 : (⟨S4x512x10, .f32⟩ : BufTy).Contents (Elt F)) : (⟨S4x512x10, .f32⟩ : BufTy).Contents (Elt F) :=
  let main_call1_cst : (⟨S_, .f32⟩ : BufTy).Contents (Elt F) := (constant S_ .f32 0xFF800000#32)
  let main_call1_v0 : (⟨S4x512, .f32⟩ : BufTy).Contents (Elt F) := (((fun x v => Host.reduce FloatOps.maximumf x v reducesTo_S4x512x10_S4x512_d2 h_S_) : (⟨S4x512x10, .f32⟩ : BufTy).Contents (Elt F) → (⟨S_, .f32⟩ : BufTy).Contents (Elt F) → (⟨S4x512, .f32⟩ : BufTy).Contents (Elt F)) a0 main_call1_cst)
  let main_call1_cst_0 : (⟨S_, .f32⟩ : BufTy).Contents (Elt F) := (constant S_ .f32 0xFF800000#32)
  let main_call1_v1 : (⟨S4x512, .f32⟩ : BufTy).Contents (Elt F) := (((broadcastInDim S4x512 ![] bcast_S_S4x512) : (⟨S_, .f32⟩ : BufTy).Contents (Elt F) → (⟨S4x512, .f32⟩ : BufTy).Contents (Elt F)) main_call1_cst_0)
  let main_call1_v2 : (⟨S4x512, .f32⟩ : BufTy).Contents (Elt F) := ((maximumf : (⟨S4x512, .f32⟩ : BufTy).Contents (Elt F) → (⟨S4x512, .f32⟩ : BufTy).Contents (Elt F) → (⟨S4x512, .f32⟩ : BufTy).Contents (Elt F)) main_call1_v1 main_call1_v0)
  let main_call1_v3 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_call1_v2)
  let main_call1_v4 : (⟨S4x512x10, .f32⟩ : BufTy).Contents (Elt F) := (((broadcastInDim S4x512x10 ![0, 1, 2] bcast_S4x512x1_S4x512x10_0_1_2) : (⟨S4x512x1, .f32⟩ : BufTy).Contents (Elt F) → (⟨S4x512x10, .f32⟩ : BufTy).Contents (Elt F)) main_call1_v3)
  let main_call1_v5 : (⟨S4x512x10, .f32⟩ : BufTy).Contents (Elt F) := ((subf : (⟨S4x512x10, .f32⟩ : BufTy).Contents (Elt F) → (⟨S4x512x10, .f32⟩ : BufTy).Contents (Elt F) → (⟨S4x512x10, .f32⟩ : BufTy).Contents (Elt F)) a0 main_call1_v4)
  let main_call1_v6 : (⟨S4x512x10, .f32⟩ : BufTy).Contents (Elt F) := ((Host.exp : (⟨S4x512x10, .f32⟩ : BufTy).Contents (Elt F) → (⟨S4x512x10, .f32⟩ : BufTy).Contents (Elt F)) main_call1_v5)
  let main_call1_cst_1 : (⟨S_, .f32⟩ : BufTy).Contents (Elt F) := (constant S_ .f32 0x00000000#32)
  let main_call1_v7 : (⟨S4x512, .f32⟩ : BufTy).Contents (Elt F) := (((fun x v => Host.reduceAdd x v reducesTo_S4x512x10_S4x512_d2 h_S_) : (⟨S4x512x10, .f32⟩ : BufTy).Contents (Elt F) → (⟨S_, .f32⟩ : BufTy).Contents (Elt F) → (⟨S4x512, .f32⟩ : BufTy).Contents (Elt F)) main_call1_v6 main_call1_cst_1)
  let main_call1_v8 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_call1_v7)
  let main_call1_v9 : (⟨S4x512x1, .f32⟩ : BufTy).Contents (Elt F) := ((Host.log : (⟨S4x512x1, .f32⟩ : BufTy).Contents (Elt F) → (⟨S4x512x1, .f32⟩ : BufTy).Contents (Elt F)) main_call1_v8)
  let main_call1_v10 : (⟨S4x512x10, .f32⟩ : BufTy).Contents (Elt F) := (((broadcastInDim S4x512x10 ![0, 1, 2] bcast_S4x512x1_S4x512x10_0_1_2) : (⟨S4x512x1, .f32⟩ : BufTy).Contents (Elt F) → (⟨S4x512x10, .f32⟩ : BufTy).Contents (Elt F)) main_call1_v9)
  let main_v7 : (⟨S4x512x10, .f32⟩ : BufTy).Contents (Elt F) := ((subf : (⟨S4x512x10, .f32⟩ : BufTy).Contents (Elt F) → (⟨S4x512x10, .f32⟩ : BufTy).Contents (Elt F) → (⟨S4x512x10, .f32⟩ : BufTy).Contents (Elt F)) main_call1_v5 main_call1_v10)
  main_v7

/-- The entry of each row of `main_v7` at the row's command (a negative command counted from the end; NaN where the
    command is outside 0..9). -/
def cmdAt (main_v7 : (⟨S4x512x10, .f32⟩ : BufTy).Contents (Elt F)) (a3 : (⟨S4x512, .i32⟩ : BufTy).Contents (Elt F)) : (⟨S4x512x1, .f32⟩ : BufTy).Contents (Elt F) :=
  let main_v8 : (⟨S4x512x1, .i32⟩ : BufTy).Contents (Elt F) := (((broadcastInDim S4x512x1 ![0, 1] bcast_S4x512_S4x512x1_0_1) : (⟨S4x512, .i32⟩ : BufTy).Contents (Elt F) → (⟨S4x512x1, .i32⟩ : BufTy).Contents (Elt F)) a3)
  let main_call2_c : (⟨S_, .i32⟩ : BufTy).Contents (Elt F) := (constantI S_ 32 0#32)
  let main_call2_v0 : (⟨S4x512x1, .i32⟩ : BufTy).Contents (Elt F) := (((broadcastInDim S4x512x1 ![] bcast_S_S4x512x1) : (⟨S_, .i32⟩ : BufTy).Contents (Elt F) → (⟨S4x512x1, .i32⟩ : BufTy).Contents (Elt F)) main_call2_c)
  let main_call2_v1 : (⟨S4x512x1, .i1⟩ : BufTy).Contents (Elt F) := (((cmpi .slt) : (⟨S4x512x1, .i32⟩ : BufTy).Contents (Elt F) → (⟨S4x512x1, .i32⟩ : BufTy).Contents (Elt F) → (⟨S4x512x1, .i1⟩ : BufTy).Contents (Elt F)) main_v8 main_call2_v0)
  let main_call2_c_0 : (⟨S_, .i32⟩ : BufTy).Contents (Elt F) := (constantI S_ 32 10#32)
  let main_call2_v2 : (⟨S4x512x1, .i32⟩ : BufTy).Contents (Elt F) := (((broadcastInDim S4x512x1 ![] bcast_S_S4x512x1) : (⟨S_, .i32⟩ : BufTy).Contents (Elt F) → (⟨S4x512x1, .i32⟩ : BufTy).Contents (Elt F)) main_call2_c_0)
  let main_call2_v3 : (⟨S4x512x1, .i32⟩ : BufTy).Contents (Elt F) := ((addi : (⟨S4x512x1, .i32⟩ : BufTy).Contents (Elt F) → (⟨S4x512x1, .i32⟩ : BufTy).Contents (Elt F) → (⟨S4x512x1, .i32⟩ : BufTy).Contents (Elt F)) main_v8 main_call2_v2)
  let main_call2_v4 : (⟨S4x512x1, .i32⟩ : BufTy).Contents (Elt F) := ((select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)) main_call2_v1 main_call2_v3 main_v8)
  let main_call2_v5 : (⟨S4x512x1x1, .i32⟩ : BufTy).Contents (Elt F) := (fun q__ => shapeCast S4x512x1x1 main_call2_v4 shapeCasts_S4x512x1_S4x512x1x1 q__)
  let main_call2_c_1 : (⟨S1, .i32⟩ : BufTy).Contents (Elt F) := (constantI S1 32 9#32)
  let main_call2_c_2 : (⟨S_, .i32⟩ : BufTy).Contents (Elt F) := (constantI S_ 32 0#32)
  let main_call2_v6 : (⟨S4x512x1x1, .i32⟩ : BufTy).Contents (Elt F) := (((broadcastInDim S4x512x1x1 ![] bcast_S_S4x512x1x1) : (⟨S_, .i32⟩ : BufTy).Contents (Elt F) → (⟨S4x512x1x1, .i32⟩ : BufTy).Contents (Elt F)) main_call2_c_2)
  let main_call2_v7 : (⟨S4x512x1x1, .i1⟩ : BufTy).Contents (Elt F) := (((cmpi .sge) : (⟨S4x512x1x1, .i32⟩ : BufTy).Contents (Elt F) → (⟨S4x512x1x1, .i32⟩ : BufTy).Contents (Elt F) → (⟨S4x512x1x1, .i1⟩ : BufTy).Contents (Elt F)) main_call2_v5 main_call2_v6)
  let main_call2_v8 : (⟨S1x1x1x1, .i32⟩ : BufTy).Contents (Elt F) := (((broadcastInDim S1x1x1x1 ![3] bcast_S1_S1x1x1x1_3) : (⟨S1, .i32⟩ : BufTy).Contents (Elt F) → (⟨S1x1x1x1, .i32⟩ : BufTy).Contents (Elt F)) main_call2_c_1)
  let main_call2_v9 : (⟨S4x512x1x1, .i32⟩ : BufTy).Contents (Elt F) := (((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)) main_call2_v8)
  let main_call2_v10 : (⟨S4x512x1x1, .i1⟩ : BufTy).Contents (Elt F) := (((cmpi .sle) : (⟨S4x512x1x1, .i32⟩ : BufTy).Contents (Elt F) → (⟨S4x512x1x1, .i32⟩ : BufTy).Contents (Elt F) → (⟨S4x512x1x1, .i1⟩ : BufTy).Contents (Elt F)) main_call2_v5 main_call2_v9)
  let main_call2_v11 : (⟨S4x512x1x1, .i1⟩ : BufTy).Contents (Elt F) := ((andi : (⟨S4x512x1x1, .i1⟩ : BufTy).Contents (Elt F) → (⟨S4x512x1x1, .i1⟩ : BufTy).Contents (Elt F) → (⟨S4x512x1x1, .i1⟩ : BufTy).Contents (Elt F)) main_call2_v7 main_call2_v10)
  let main_call2_c_3 : (⟨S_, .i1⟩ : BufTy).Contents (Elt F) := (constantI S_ 1 1#1)
  let main_call2_v12 : (⟨S4x512x1, .i1⟩ : BufTy).Contents (Elt F) := (((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)) main_call2_v11 main_call2_c_3)
  let main_call2_v13 : (⟨S4x512x1, .f32⟩ : BufTy).Contents (Elt F) := (((fun x i => Host.gather gather_S4x512x10_S4x512x1x1_S4x512x1_n_2_01_01_2_3_111 x i) : (⟨S4x512x10, .f32⟩ : BufTy).Contents (Elt F) → (⟨S4x512x1x1, .i32⟩ : BufTy).Contents (Elt F) → (⟨S4x512x1, .f32⟩ : BufTy).Contents (Elt F)) main_v7 main_call2_v5)
  let main_call2_cst : (⟨S_, .f32⟩ : BufTy).Contents (Elt F) := (constant S_ .f32 0x7FC00000#32)
  let main_call2_v14 : (⟨S4x512x1, .f32⟩ : BufTy).Contents (Elt F) := (((broadcastInDim S4x512x1 ![] bcast_S_S4x512x1) : (⟨S_, .f32⟩ : BufTy).Contents (Elt F) → (⟨S4x512x1, .f32⟩ : BufTy).Contents (Elt F)) main_call2_cst)
  let main_v9 : (⟨S4x512x1, .f32⟩ : BufTy).Contents (Elt F) := ((select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)) main_call2_v12 main_call2_v13 main_call2_v14)
  main_v9

/-- The negation of the 4 x 512 entries, a NaN replaced by zero. -/
def negNan (main_v9 : (⟨S4x512x1, .f32⟩ : BufTy).Contents (Elt F)) : (⟨S4x512, .f32⟩ : BufTy).Contents (Elt F) :=
  let main_v10 : (⟨S4x512, .f32⟩ : BufTy).Contents (Elt F) := (fun q__ => shapeCast S4x512 main_v9 shapeCasts_S4x512x1_S4x512 q__)
  let main_v11 : (⟨S4x512, .f32⟩ : BufTy).Contents (Elt F) := (((Host.negf) : (⟨S4x512, .f32⟩ : BufTy).Contents (Elt F) → (⟨S4x512, .f32⟩ : BufTy).Contents (Elt F)) main_v10)
  let main_v12 : (⟨S4x512, .i1⟩ : BufTy).Contents (Elt F) := (((cmpf .une) : (⟨S4x512, .f32⟩ : BufTy).Contents (Elt F) → (⟨S4x512, .f32⟩ : BufTy).Contents (Elt F) → (⟨S4x512, .i1⟩ : BufTy).Contents (Elt F)) main_v11 main_v11)
  let main_cst : (⟨S_, .f32⟩ : BufTy).Contents (Elt F) := (constant S_ .f32 0x00000000#32)
  let main_call3_v0 : (⟨S_, .f32⟩ : BufTy).Contents (Elt F) := ((id : (⟨S_, .f32⟩ : BufTy).Contents (Elt F) → (⟨S_, .f32⟩ : BufTy).Contents (Elt F)) main_cst)
  let main_call3_v1 : (⟨S4x512, .f32⟩ : BufTy).Contents (Elt F) := (((broadcastInDim S4x512 ![] bcast_S_S4x512) : (⟨S_, .f32⟩ : BufTy).Contents (Elt F) → (⟨S4x512, .f32⟩ : BufTy).Contents (Elt F)) main_call3_v0)
  let main_v13 : (⟨S4x512, .f32⟩ : BufTy).Contents (Elt F) := ((select : (⟨S4x512, .i1⟩ : BufTy).Contents (Elt F) → (⟨S4x512, .f32⟩ : BufTy).Contents (Elt F) → (⟨S4x512, .f32⟩ : BufTy).Contents (Elt F) → (⟨S4x512, .f32⟩ : BufTy).Contents (Elt F)) main_v12 main_call3_v1 main_v11)
  main_v13

/-- The masked mean: the sum of the entries times the mask, over the mask's sum plus 1e-8. -/
def cmdTail (main_v13 main_v6 : (⟨S4x512, .f32⟩ : BufTy).Contents (Elt F)) : (⟨S_, .f32⟩ : BufTy).Contents (Elt F) :=
  let main_v14 : (⟨S4x512, .f32⟩ : BufTy).Contents (Elt F) := (((mulf) : (⟨S4x512, .f32⟩ : BufTy).Contents (Elt F) → (⟨S4x512, .f32⟩ : BufTy).Contents (Elt F) → (⟨S4x512, .f32⟩ : BufTy).Contents (Elt F)) main_v13 main_v6)
  let main_cst_1 : (⟨S_, .f32⟩ : BufTy).Contents (Elt F) := (constant S_ .f32 0x00000000#32)
  let main_v15 : (⟨S_, .f32⟩ : BufTy).Contents (Elt F) := ((((fun x v => Host.reduceAdd x v reducesTo_S4x512_S_d0_1 h_S_)) : (⟨S4x512, .f32⟩ : BufTy).Contents (Elt F) → (⟨S_, .f32⟩ : BufTy).Contents (Elt F) → (⟨S_, .f32⟩ : BufTy).Contents (Elt F)) main_v14 main_cst_1)
  let main_cst_2 : (⟨S_, .f32⟩ : BufTy).Contents (Elt F) := (constant S_ .f32 0x00000000#32)
  let main_v16 : (⟨S_, .f32⟩ : BufTy).Contents (Elt F) := ((((fun x v => Host.reduceAdd x v reducesTo_S4x512_S_d0_1 h_S_)) : (⟨S4x512, .f32⟩ : BufTy).Contents (Elt F) → (⟨S_, .f32⟩ : BufTy).Contents (Elt F) → (⟨S_, .f32⟩ : BufTy).Contents (Elt F)) main_v6 main_cst_2)
  let main_cst_3 : (⟨S_, .f32⟩ : BufTy).Contents (Elt F) := (constant S_ .f32 0x322BCC77#32)
  let main_v17 : (⟨S_, .f32⟩ : BufTy).Contents (Elt F) := (((addf) : (⟨S_, .f32⟩ : BufTy).Contents (Elt F) → (⟨S_, .f32⟩ : BufTy).Contents (Elt F) → (⟨S_, .f32⟩ : BufTy).Contents (Elt F)) main_v16 main_cst_3)
  let main_v18 : (⟨S_, .f32⟩ : BufTy).Contents (Elt F) := (((Host.divf) : (⟨S_, .f32⟩ : BufTy).Contents (Elt F) → (⟨S_, .f32⟩ : BufTy).Contents (Elt F) → (⟨S_, .f32⟩ : BufTy).Contents (Elt F)) main_v15 main_v17)
  main_v18

/-- The valid-position mask `main_v6` times the row of the argument-mask table at each position's command. -/
def argTail (a2 : (⟨S10x16, .f32⟩ : BufTy).Contents (Elt F)) (a3 : (⟨S4x512, .i32⟩ : BufTy).Contents (Elt F)) (main_v6 : (⟨S4x512, .f32⟩ : BufTy).Contents (Elt F)) : (⟨S4x512x16, .f32⟩ : BufTy).Contents (Elt F) :=
  let main_c_4 : (⟨S_, .i32⟩ : BufTy).Contents (Elt F) := (constantI S_ 32 0#32)
  let main_v19 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_4)
  let main_v20 : (⟨S4x512, .i1⟩ : BufTy).Contents (Elt F) := (((cmpi .slt) : (⟨S4x512, .i32⟩ : BufTy).Contents (Elt F) → (⟨S4x512, .i32⟩ : BufTy).Contents (Elt F) → (⟨S4x512, .i1⟩ : BufTy).Contents (Elt F)) a3 main_v19)
  let main_c_5 : (⟨S_, .i32⟩ : BufTy).Contents (Elt F) := (constantI S_ 32 10#32)
  let main_v21 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_5)
  let main_v22 : (⟨S4x512, .i32⟩ : BufTy).Contents (Elt F) := (((addi) : (⟨S4x512, .i32⟩ : BufTy).Contents (Elt F) → (⟨S4x512, .i32⟩ : BufTy).Contents (Elt F) → (⟨S4x512, .i32⟩ : BufTy).Contents (Elt F)) a3 main_v21)
  let main_v23 : (⟨S4x512, .i32⟩ : BufTy).Contents (Elt F) := (((select) : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)) main_v20 main_v22 a3)
  let main_v24 : (⟨S4x512x1, .i32⟩ : BufTy).Contents (Elt F) := (((broadcastInDim S4x512x1 ![0, 1] bcast_S4x512_S4x512x1_0_1) : (⟨S4x512, .i32⟩ : BufTy).Contents (Elt F) → (⟨S4x512x1, .i32⟩ : BufTy).Contents (Elt F)) main_v23)
  let main_v25 : (⟨S4x512x16, .f32⟩ : BufTy).Contents (Elt F) := ((((fun x i => Host.gather gather_S10x16_S4x512x1_S4x512x16_2_0_n_n_0_2_116 x i)) : (⟨S10x16, .f32⟩ : BufTy).Contents (Elt F) → (⟨S4x512x1, .i32⟩ : BufTy).Contents (Elt F) → (⟨S4x512x16, .f32⟩ : BufTy).Contents (Elt F)) a2 main_v24)
  let main_v26 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_v6)
  let main_v27 : (⟨S4x512x16, .f32⟩ : BufTy).Contents (Elt F) := (((broadcastInDim S4x512x16 ![0, 1, 2] bcast_S4x512x1_S4x512x16_0_1_2) : (⟨S4x512x1, .f32⟩ : BufTy).Contents (Elt F) → (⟨S4x512x16, .f32⟩ : BufTy).Contents (Elt F)) main_v26)
  let main_v28 : (⟨S4x512x16, .f32⟩ : BufTy).Contents (Elt F) := (((mulf) : (⟨S4x512x16, .f32⟩ : BufTy).Contents (Elt F) → (⟨S4x512x16, .f32⟩ : BufTy).Contents (Elt F) → (⟨S4x512x16, .f32⟩ : BufTy).Contents (Elt F)) main_v27 main_v25)
  main_v28

/-- The command loss is that composition. -/
theorem cmdLoss_eq (a0 : (⟨S4x512x10, .f32⟩ : BufTy).Contents (Elt F)) (a3 : (⟨S4x512, .i32⟩ : BufTy).Contents (Elt F)) :
    cmdLoss a0 a3 = cmdTail (negNan (cmdAt (lsm10 a0) a3)) (validMask a3) := rfl

/-- The argument mask is the valid-position mask carried through `argTail`. -/
theorem argMask_eq (a2 : (⟨S10x16, .f32⟩ : BufTy).Contents (Elt F)) (a3 : (⟨S4x512, .i32⟩ : BufTy).Contents (Elt F)) :
    argMask a2 a3 = argTail a2 a3 (validMask a3) := rfl

/-! ## What each stretch computes, from any contents -/

attribute [local irreducible] Host.reduceWindow in
/-- Stretches 0 to 2: the valid-position mask of the commands. -/
theorem st_v6 (V : Valuation τ sig (Elt F)) :
    after kst0_2 (after kst0_1 (after kst0_0 V)) (Proc.devRef .tc main_v6) = validMask (V (Proc.devRef .tc main_arg3)) := by
  unfold validMask; after_results_simp <;> rfl

attribute [local irreducible] Host.reduce Host.reduceAdd Host.exp Host.log in
/-- Stretch 3: the log-softmax of the command logits. -/
theorem st_v7 (V : Valuation τ sig (Elt F)) :
    after kst0_3 V (Proc.devRef .tc main_v7) = lsm10 (V (Proc.devRef .tc main_arg0)) := by
  unfold lsm10; after_results_simp <;> rfl

/-- Stretches 4 and 5: its entry at the command. -/
theorem st_v9 (V : Valuation τ sig (Elt F)) :
    after kst0_5 (after kst0_4 V) (Proc.devRef .tc main_v9)
      = cmdAt (V (Proc.devRef .tc main_v7)) (V (Proc.devRef .tc main_arg3)) := by
  unfold cmdAt; after_results_simp <;> rfl

/-- Stretches 6 and 7: negated, a NaN replaced by zero. -/
theorem st_v13 (V : Valuation τ sig (Elt F)) :
    after kst0_7 (after kst0_6 V) (Proc.devRef .tc main_v13) = negNan (V (Proc.devRef .tc main_v9)) := by
  unfold negNan; after_results_simp <;> rfl

/-- Stretch 8: the masked mean, -/
theorem st_v18 (V : Valuation τ sig (Elt F)) :
    after kst0_8 V (Proc.devRef .tc main_v18) = cmdTail (V (Proc.devRef .tc main_v13)) (V (Proc.devRef .tc main_v6)) := by
  unfold cmdTail; after_results_simp <;> rfl

/-- and the argument mask from the valid-position mask. -/
theorem st_v28 (V : Valuation τ sig (Elt F)) :
    after kst0_8 V (Proc.devRef .tc main_v28)
      = argTail (V (Proc.devRef .tc main_arg2)) (V (Proc.devRef .tc main_arg3)) (V (Proc.devRef .tc main_v6)) := by
  unfold argTail; after_results_simp <;> rfl

/-- Stretches 8 and 9: the targets clipped between the two constants stretch 8 makes. -/
theorem st_v29 (V : Valuation τ sig (Elt F)) :
    after kst0_9 (after kst0_8 V) (Proc.devRef .tc main_v29) = tgtClip (V (Proc.devRef .tc main_arg4)) := by
  unfold tgtClip; after_results_simp <;> rfl

/-- Stretch 10: the logits re-laid as 2048 rows. -/
theorem st_v30 (V : Valuation τ sig (Elt F)) :
    after kst0_10 V (Proc.devRef .tc main_v30) = flatRows (V (Proc.devRef .tc main_arg1)) := by
  unfold flatRows; after_results_simp <;> rfl

/-! ## After all the earlier operations -/

/-- The buffers the earlier operations write are the stretches' lists, in order. -/
theorem kops0_writes_eq : kops0_writes
    = kst0_0_writes ++ (kst0_1_writes ++ (kst0_2_writes ++ (kst0_3_writes ++ (kst0_4_writes ++ (kst0_5_writes
        ++ (kst0_6_writes ++ (kst0_7_writes ++ (kst0_8_writes ++ (kst0_9_writes ++ kst0_10_writes))))))))) := rfl

/-- A buffer the earlier host operations do not write keeps its contents. -/
theorem pre_keep (V : Valuation τ sig (Elt F)) (r : Ref sig .tc) (hr : r ∉ kops0_writes) :
    after kops0 V (Proc.devRef .tc r) = V (Proc.devRef .tc r) := by
  rw [kops0_writes_eq] at hr
  simp only [List.mem_append, not_or] at hr
  obtain ⟨h0, h1, h2, h3, h4, h5, h6, h7, h8, h9, h10⟩ := hr
  rw [kops0_eq]
  simp only [after_append]
  rw [keep10 _ r h10, keep9 _ r h9, keep8 _ r h8, keep7 _ r h7, keep6 _ r h6, keep5 _ r h5, keep4 _ r h4, keep3 _ r h3,
    keep2 _ r h2, keep1 _ r h1, keep0 _ r h0]

/-- After the earlier host operations: the command loss, -/
theorem pre_v18 (V : Valuation τ sig (Elt F)) :
    after kops0 V (Proc.devRef .tc main_v18) = cmdLoss (V (Proc.devRef .tc main_arg0)) (V (Proc.devRef .tc main_arg3)) := by
  rw [kops0_eq]
  simp only [after_append]
  rw [keep10 _ main_v18 (by decide), keep9 _ main_v18 (by decide), st_v18, st_v13, st_v9, st_v7,
    keep2 _ main_arg0 (by decide), keep1 _ main_arg0 (by decide), keep0 _ main_arg0 (by decide),
    keep3 _ main_arg3 (by decide), keep2 _ main_arg3 (by decide), keep1 _ main_arg3 (by decide), keep0 _ main_arg3 (by decide),
    keep7 _ main_v6 (by decide), keep6 _ main_v6 (by decide), keep5 _ main_v6 (by decide), keep4 _ main_v6 (by decide),
    keep3 _ main_v6 (by decide), st_v6, cmdLoss_eq]
/-- the combined argument mask, -/
theorem pre_v28 (V : Valuation τ sig (Elt F)) :
    after kops0 V (Proc.devRef .tc main_v28) = argMask (V (Proc.devRef .tc main_arg2)) (V (Proc.devRef .tc main_arg3)) := by
  rw [kops0_eq]
  simp only [after_append]
  rw [keep10 _ main_v28 (by decide), keep9 _ main_v28 (by decide), st_v28,
    keep7 _ main_arg2 (by decide), keep6 _ main_arg2 (by decide), keep5 _ main_arg2 (by decide), keep4 _ main_arg2 (by decide),
    keep3 _ main_arg2 (by decide), keep2 _ main_arg2 (by decide), keep1 _ main_arg2 (by decide), keep0 _ main_arg2 (by decide),
    keep7 _ main_arg3 (by decide), keep6 _ main_arg3 (by decide), keep5 _ main_arg3 (by decide), keep4 _ main_arg3 (by decide),
    keep3 _ main_arg3 (by decide), keep2 _ main_arg3 (by decide), keep1 _ main_arg3 (by decide), keep0 _ main_arg3 (by decide),
    keep7 _ main_v6 (by decide), keep6 _ main_v6 (by decide), keep5 _ main_v6 (by decide), keep4 _ main_v6 (by decide),
    keep3 _ main_v6 (by decide), st_v6, argMask_eq]
/-- the clipped targets, -/
theorem pre_v29 (V : Valuation τ sig (Elt F)) :
    after kops0 V (Proc.devRef .tc main_v29) = tgtClip (V (Proc.devRef .tc main_arg4)) := by
  rw [kops0_eq]
  simp only [after_append]
  rw [keep10 _ main_v29 (by decide), st_v29,
    keep7 _ main_arg4 (by decide), keep6 _ main_arg4 (by decide), keep5 _ main_arg4 (by decide), keep4 _ main_arg4 (by decide),
    keep3 _ main_arg4 (by decide), keep2 _ main_arg4 (by decide), keep1 _ main_arg4 (by decide), keep0 _ main_arg4 (by decide)]
/-- and the logits re-laid as 2048 rows. -/
theorem pre_v30 (V : Valuation τ sig (Elt F)) :
    after kops0 V (Proc.devRef .tc main_v30) = flatRows (V (Proc.devRef .tc main_arg1)) := by
  rw [kops0_eq]
  simp only [after_append]
  rw [st_v30,
    keep9 _ main_arg1 (by decide), keep8 _ main_arg1 (by decide),
    keep7 _ main_arg1 (by decide), keep6 _ main_arg1 (by decide), keep5 _ main_arg1 (by decide), keep4 _ main_arg1 (by decide),
    keep3 _ main_arg1 (by decide), keep2 _ main_arg1 (by decide), keep1 _ main_arg1 (by decide), keep0 _ main_arg1 (by decide)]

end Cert.KernelIdeal.Af

end
-- ==== Proof.KAfterSuf.lean ====
import proofs.«428594_j79611513799125_3_alg».proof.Proof.KStages

set_option maxRecDepth 8192

noncomputable section

namespace Cert.KernelIdeal.Af

open Idealize.ShloMosaic Idealize.ShloMosaic.TcCoe Idealize.SL.Sem Idealize.ShloMosaic.StableHlo Cert.KernelIdeal Cert.KernelIdeal.Gen Cert.KernelIdeal.St

variable {F : FTy → Type} [FloatOps F]

namespace Suf

/-! ## The fold over a concatenation, and the list cut where the stage functions cut it

The 81 later operations are read in three groups: the first two stretches (the region's result re-laid, the window weights and
their sum, the shifted targets and their clip: everything `idx7`, `wnorm`, `wsumOf` and `unflatRows` name), the take-along-axis
stretch (`takeLast`), and the last three stretches (the per-position loss, its NaN entries zeroed, the masked mean and the
total: `lossK`, `lossTail`, `total`). Each group's result buffers are computed once, over an arbitrary valuation, and the
groups are then threaded. -/

/-- Running a concatenation is running its second part from where the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first group: 32 operations. -/
abbrev gA : List (HloOp τ sig (Elt F)) := kst1_0 ++ kst1_1
/-- The buffers it writes. -/
abbrev gA_writes : List (Ref sig .tc) := kst1_0_writes ++ kst1_1_writes
/-- The last group: 27 operations. -/
abbrev gC : List (HloOp τ sig (Elt F)) := kst1_3 ++ (kst1_4 ++ kst1_5)

/-- The later operations are the three groups in order. -/
theorem kops1_eq : (kops1 : List (HloOp τ sig (Elt F))) = gA ++ (kst1_2 ++ gC) := rfl

/-! ## What each group leaves alone

Every operation writes its own result buffer only, and that buffer is in the group's list of written buffers. -/

/-- A result buffer listed among `L` is, as a set of device buffers, inside `L`'s. -/
theorem single_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- All 81 operations write within the listed buffers. -/
theorem kops1_hW : (kops1 : List (HloOp τ sig (Elt F))).Forall fun op =>
    op.writes ⊆ ((kops1_writes).map (Proc.devRef (τ := τ) .tc)).toFinset := by
  simp only [List.cons_append, List.nil_append, List.Forall, nullary_writes, unary_writes, binary_writes, ternary_writes, reshape_writes]
  repeat' apply And.intro
  all_goals exact single_sub_of_mem (by decide)

/-- The first group writes within its list. -/
theorem gA_hW : (gA : List (HloOp τ sig (Elt F))).Forall fun op =>
    op.writes ⊆ ((gA_writes).map (Proc.devRef (τ := τ) .tc)).toFinset := by
  simp only [List.cons_append, List.nil_append, List.Forall, nullary_writes, unary_writes, binary_writes, ternary_writes, reshape_writes]
  repeat' apply And.intro
  all_goals exact single_sub_of_mem (by decide)

/-- The take-along-axis stretch writes within its list. -/
theorem gB_hW : (kst1_2 : List (HloOp τ sig (Elt F))).Forall fun op =>
    op.writes ⊆ ((kst1_2_writes).map (Proc.devRef (τ := τ) .tc)).toFinset := by
  simp only [List.cons_append, List.nil_append, List.Forall, nullary_writes, unary_writes, binary_writes, ternary_writes, reshape_writes]
  repeat' apply And.intro
  all_goals exact single_sub_of_mem (by decide)

/-- A buffer the first group does not write keeps its contents through it; -/
theorem keepA (V : Valuation τ sig (Elt F)) (r : Ref sig .tc) (hr : r ∉ gA_writes) :
    after gA V (Proc.devRef .tc r) = V (Proc.devRef .tc r) := after_of_writes_sub gA V gA_hW hr
/-- likewise through the take-along-axis stretch. -/
theorem keepB (V : Valuation τ sig (Elt F)) (r : Ref sig .tc) (hr : r ∉ kst1_2_writes) :
    after kst1_2 V (Proc.devRef .tc r) = V (Proc.devRef .tc r) := after_of_writes_sub kst1_2 V gB_hW hr

/-! ## What each group computes

Each is the fold unrolled at one result buffer: every operation's result at its own buffer is its function of its operands'
contents, and at any other buffer what was there; what is left is the stage function's own sequence of operations. The
reductions and the gather are kept closed, so that the two sides are compared as written. -/

attribute [local irreducible] Host.reduce Host.reduceAdd Host.gather in
/-- After the first group, the region's result re-laid as 4 x 512 x 16; -/
theorem gA_v32 (V : Valuation τ sig (Elt F)) :
    after gA V (Proc.devRef .tc main_v32) = unflatRows (V (Proc.devRef .tc main_v31)) := by
  unfold unflatRows
  simp only [List.cons_append, List.nil_append]
  after_results_simp
  rfl

attribute [local irreducible] Host.reduce Host.reduceAdd Host.gather in
/-- the seven window weights; -/
theorem gA_v44 (V : Valuation τ sig (Elt F)) :
    after gA V (Proc.devRef .tc main_v44) = wnorm := by
  unfold wnorm
  simp only [List.cons_append, List.nil_append]
  after_results_simp

attribute [local irreducible] Host.reduce Host.reduceAdd Host.gather in
/-- their sum; -/
theorem gA_v45 (V : Valuation τ sig (Elt F)) :
    after gA V (Proc.devRef .tc main_v45) = wsumOf wnorm := by
  unfold wsumOf wnorm
  simp only [List.cons_append, List.nil_append]
  after_results_simp

attribute [local irreducible] Host.reduce Host.reduceAdd Host.gather in
/-- and the seven clipped window positions of the targets. -/
theorem gA_v51 (V : Valuation τ sig (Elt F)) :
    after gA V (Proc.devRef .tc main_v51) = idx7 (V (Proc.devRef .tc main_v29)) := by
  unfold idx7
  simp only [List.cons_append, List.nil_append]
  after_results_simp
  rfl

attribute [local irreducible] Host.reduce Host.reduceAdd Host.gather in
/-- After the take-along-axis stretch, the raw logits gathered at the positions it finds in `main_v51`. -/
theorem gB_v52 (V : Valuation τ sig (Elt F)) :
    after kst1_2 V (Proc.devRef .tc main_v52) = takeLast (V (Proc.devRef .tc main_arg1)) (V (Proc.devRef .tc main_v51)) := by
  unfold takeLast
  after_results_simp
  rfl

attribute [local irreducible] Host.reduce Host.reduceAdd Host.gather in
/-- After the last group, the argument loss, from the gathered logits, the weights, their sum, the log-partition values and
    the mask it finds; -/
theorem gC_v67 (V : Valuation τ sig (Elt F)) :
    after gC V (Proc.devRef .tc main_v67)
      = lossTail (lossK (V (Proc.devRef .tc main_v52)) (V (Proc.devRef .tc main_v44)) (V (Proc.devRef .tc main_v45)) (V (Proc.devRef .tc main_v32))) (V (Proc.devRef .tc main_v28)) := by
  unfold lossTail lossK
  simp only [List.cons_append, List.nil_append]
  after_results_simp
  rfl

attribute [local irreducible] Host.reduce Host.reduceAdd Host.gather in
/-- and the total loss, from those and the command loss it finds. -/
theorem gC_v70 (V : Valuation τ sig (Elt F)) :
    after gC V (Proc.devRef .tc main_v70)
      = total (V (Proc.devRef .tc main_v18)) (lossTail (lossK (V (Proc.devRef .tc main_v52)) (V (Proc.devRef .tc main_v44)) (V (Proc.devRef .tc main_v45)) (V (Proc.devRef .tc main_v32))) (V (Proc.devRef .tc main_v28))) := by
  unfold total lossTail lossK
  simp only [List.cons_append, List.nil_append]
  after_results_simp
  rfl

/-! ## The groups threaded

The last group reads `main_v52` from the take-along-axis stretch, which reads `main_arg1` (never written) and `main_v51` from the first
group; the weights, their sum and the re-laid log-partition values come from the first group through the middle stretch
untouched; the mask and the command loss come from before the region, untouched throughout. -/

/-- What the last group finds, after the first two, in each buffer it reads. -/
theorem mid (W : Valuation τ sig (Elt F)) :
    after kst1_2 (after gA W) (Proc.devRef .tc main_v52) = takeLast (W (Proc.devRef .tc main_arg1)) (idx7 (W (Proc.devRef .tc main_v29)))
    ∧ after kst1_2 (after gA W) (Proc.devRef .tc main_v44) = wnorm
    ∧ after kst1_2 (after gA W) (Proc.devRef .tc main_v45) = wsumOf wnorm
    ∧ after kst1_2 (after gA W) (Proc.devRef .tc main_v32) = unflatRows (W (Proc.devRef .tc main_v31))
    ∧ after kst1_2 (after gA W) (Proc.devRef .tc main_v28) = W (Proc.devRef .tc main_v28)
    ∧ after kst1_2 (after gA W) (Proc.devRef .tc main_v18) = W (Proc.devRef .tc main_v18) := by
  refine ⟨?_, ?_, ?_, ?_, ?_, ?_⟩
  · rw [gB_v52, keepA _ main_arg1 (by decide), gA_v51]
  · rw [keepB _ main_v44 (by decide), gA_v44]
  · rw [keepB _ main_v45 (by decide), gA_v45]
  · rw [keepB _ main_v32 (by decide), gA_v32]
  · rw [keepB _ main_v28 (by decide), keepA _ main_v28 (by decide)]
  · rw [keepB _ main_v18 (by decide), keepA _ main_v18 (by decide)]

end Suf

open Suf

/-! ## What the later host operations leave -/

/-- A buffer the later host operations do not write keeps its contents. -/
theorem suf_keep (W : Valuation τ sig (Elt F)) (r : Ref sig .tc) (hr : r ∉ kops1_writes) :
    after kops1 W (Proc.devRef .tc r) = W (Proc.devRef .tc r) :=
  after_of_writes_sub kops1 W kops1_hW hr

/-- After the later host operations, the argument loss: the loss tail of the per-position loss built from the raw logits
    gathered at the clipped window positions and the region's log-partition values, under the mask; -/
theorem suf_v67 (W : Valuation τ sig (Elt F)) :
    after kops1 W (Proc.devRef .tc main_v67) = lossTail (lossK (takeLast (W (Proc.devRef .tc main_arg1)) (idx7 (W (Proc.devRef .tc main_v29)))) wnorm (wsumOf wnorm) (unflatRows (W (Proc.devRef .tc main_v31)))) (W (Proc.devRef .tc main_v28)) := by
  obtain ⟨h52, h44, h45, h32, h28, -⟩ := mid W
  rw [kops1_eq, after_append, after_append, gC_v67, h52, h44, h45, h32, h28]
/-- and the total loss. -/
theorem suf_v70 (W : Valuation τ sig (Elt F)) :
    after kops1 W (Proc.devRef .tc main_v70) = total (W (Proc.devRef .tc main_v18)) (lossTail (lossK (takeLast (W (Proc.devRef .tc main_arg1)) (idx7 (W (Proc.devRef .tc main_v29)))) wnorm (wsumOf wnorm) (unflatRows (W (Proc.devRef .tc main_v31)))) (W (Proc.devRef .tc main_v28))) := by
  obtain ⟨h52, h44, h45, h32, h28, h18⟩ := mid W
  rw [kops1_eq, after_append, after_append, gC_v70, h52, h44, h45, h32, h28, h18]

end Cert.KernelIdeal.Af

end
-- ==== Proof.RowDefs.lean ====
/-
  The row-wise quantities both programs compute over the last axis of the [4, 512, 16, 8192] logits: a row's maximum, its
  log-partition value (maximum plus the log of the sum of the shifted exponentials), and the window position a tap reads.
-/
import Idealize.ShloMosaic.PureOps.Ideal
import Idealize.ShloMosaic.Lib.ValueIdx

noncomputable section

namespace Cert.Rows

open Idealize.ShloMosaic Idealize.ShloMosaic.ValueIdx

/-- The maximum of a row of 8192 extended reals (from −∞). -/
def rmax (r : Fin 8192 → EReal) : EReal := (Finset.univ : Finset (Fin 8192)).fold max (⊥ : EReal) r

/-- A row's log-partition value: its maximum plus the log of the sum of the exponentials of the entries less the maximum. -/
def lse (r : Fin 8192 → EReal) : EReal := rmax r + Ideal.log (∑ u : Fin 8192, Ideal.exp (r u - rmax r))

/-- Row (b, s, n) of a [4, 512, 16, 8192] array. -/
abbrev row4 (x : (⟨4, ![4, 512, 16, 8192]⟩ : Shape).Idx → EReal) (b : Fin 4) (s : Fin 512) (n : Fin 16) : Fin 8192 → EReal :=
  fun u => x (ix4 b s n u)

/-- Row (r, n) of a [2048, 16, 8192] array. -/
abbrev row3 (X : (⟨3, ![2048, 16, 8192]⟩ : Shape).Idx → EReal) (r : Fin 2048) (n : Fin 16) : Fin 8192 → EReal :=
  fun u => X (ix3 r n u)

/-- The [2048, 16] array of the rows' log-partition values. -/
def logzRows (X : (⟨3, ![2048, 16, 8192]⟩ : Shape).Idx → EReal) : (⟨2, ![2048, 16]⟩ : Shape).Idx → EReal :=
  fun i => lse (row3 X (i 0) (i 1))

/-- The position in [0, 8191] a window tap reads: the tap's signed index clamped into the row. -/
def tapPos (i : (⟨4, ![4, 512, 16, 7]⟩ : Shape).Idx → BitVec 32) (b : Fin 4) (s : Fin 512) (n : Fin 16) (j : Fin 7) : Fin 8192 :=
  ⟨min (i (ix4 b s n j)).toInt.toNat 8191, by omega⟩

end Cert.Rows

end
-- ==== Proof.PayRead.lean ====
import proofs.«428594_j79611513799125_3_alg».proof.Proof.Gen.KernelIdeal.Skeleton
import proofs.«428594_j79611513799125_3_alg».proof.Proof.RowDefs
import Idealize.ShloMosaic.PureOps.Ideal.Laws
import Idealize.ShloMosaic.Lib.Pipeline.Value
import Idealize.ShloMosaic.Lib.ValueLayout

noncomputable section

namespace Cert.KernelIdeal.Rd

open Idealize.ShloMosaic Idealize.ShloMosaic.ValueIdx Idealize.SL.Sem Cert.KernelIdeal Cert.KernelIdeal.Gen Cert.Rows

/-- The bit pattern 0xFF800000 is −∞. -/
theorem pay_ofBits_neg_inf : Ideal.ofBits .f32 0xFF800000#32 = (⊥ : EReal) := by
  simp [Ideal.ofBits, Ideal.ieee]

/-- The index (p, q) of the 16 x 16 block with the coordinate u of the reduced last axis inserted is (p, q, u). -/
theorem pay_lift_eq (p q : Fin 16) (u : Fin 8192) :
    reduces_S16x16x8192_S16x16.lift (ix2 p q) u = ix3 p q u := by
  funext c
  apply Fin.ext
  match c with
  | ⟨0, _⟩ => rfl
  | ⟨1, _⟩ => rfl
  | ⟨2, _⟩ => rfl

/-- The maximum reduction over the last axis, from −∞, reads at (p, q) the maximum of row (p, q). -/
theorem pay_max_apply (x : FVec Ideal S16x16x8192 .f32) (p q : Fin 16) :
    multiReduction (F := Ideal) .maximumf [2] S16x16 x 0xFF800000#32 reduces_S16x16x8192_S16x16 (.inl rfl) rfl (ix2 p q)
      = rmax (fun u : Fin 8192 => x (ix3 p q u)) := by
  refine (Ideal.multiReduction_maximumf_single x _ reduces_S16x16x8192_S16x16 _ _ (ix2 p q)).trans ?_
  rw [Ideal.ofBits_def, pay_ofBits_neg_inf]
  exact congrArg (fun f : Fin 8192 → EReal => (Finset.univ : Finset (Fin 8192)).fold max (⊥ : EReal) f)
    (funext fun u => congrArg x (pay_lift_eq p q u))

/-- The sum reduction over the last axis reads at (p, q) the sum of row (p, q). -/
theorem pay_sum_apply (x : FVec Ideal S16x16x8192 .f32) (p q : Fin 16) :
    multiReduction (F := Ideal) .add [2] S16x16 x 0x00000000#32 reduces_S16x16x8192_S16x16 (.inl rfl) rfl (ix2 p q)
      = ∑ u : Fin 8192, x (ix3 p q u) := by
  refine (Ideal.multiReduction_add_single x _ reduces_S16x16x8192_S16x16 _ _ (ix2 p q)).trans ?_
  show ∑ u : Fin 8192, x (reduces_S16x16x8192_S16x16.lift (ix2 p q) u) = _
  simp only [pay_lift_eq]

/-- Inserting a trailing unit axis: the [16,16,1] view at (p, q, 0) is the [16,16] value at (p, q). -/
theorem pay_cast_in_apply {α : Type} (x : S16x16.Idx → α) (p q : Fin 16) (z : Fin 1) :
    shapeCast S16x16x1 x shapeCasts_S16x16_S16x16x1 (ix3 p q z) = x (ix2 p q) := by
  apply shapeCast_apply
  rw [Shape.rowMajor_val_two, Shape.rowMajor_val_three]
  simp

/-- Dropping the trailing unit axis: the [16,16] view at (p, q) is the [16,16,1] value at (p, q, 0). -/
theorem pay_cast_out_apply {α : Type} (x : S16x16x1.Idx → α) (p q : Fin 16) :
    shapeCast S16x16 x shapeCasts_S16x16x1_S16x16 (ix2 p q) = x (ix3 p q 0) := by
  apply shapeCast_apply
  rw [Shape.rowMajor_val_two, Shape.rowMajor_val_three]
  simp

/-- Broadcasting along the trailing axis: the [16,16,8192] value at (p, q, u) is the [16,16,1] value at (p, q, 0). -/
theorem pay_bcast_apply {α : Type} (x : S16x16x1.Idx → α) (p q : Fin 16) (u : Fin 8192) :
    broadcastTo S16x16x8192 x broadcasts_S16x16x1_S16x16x8192 (ix3 p q u) = x (ix3 p q 0) := by
  apply broadcastTo_apply
  intro a
  match a with
  | ⟨0, _⟩ => rfl
  | ⟨1, _⟩ => rfl
  | ⟨2, _⟩ => rfl

/-- The kernel body's stored value at (p, q) of its 16 x 16 block: the log-partition value of row (p, q) of the loaded
    16 x 16 x 8192 block (its maximum from −∞, plus the log of the sum of the exponentials of the entries less the maximum). -/
theorem pay_apply (x0 : Vec Ideal S16x16x8192 .f32) (p q : Fin 16) :
    k0_pay1 (F := Ideal) x0 (ix2 p q) = lse (fun u : Fin 8192 => x0 (ix3 p q u)) := by
  unfold k0_pay1
  simp only []
  rw [pay_cast_out_apply, addf_apply, pay_cast_in_apply, shapeCast_self, pay_max_apply]
  show _ + Ideal.log _ = _
  rw [pay_cast_in_apply, pay_sum_apply]
  unfold lse
  refine congrArg (fun s => rmax (fun u : Fin 8192 => x0 (ix3 p q u)) + Ideal.log s) ?_
  refine Finset.sum_congr rfl fun u _ => ?_
  show Ideal.exp (_ - _) = _
  rw [pay_bcast_apply, pay_cast_in_apply, pay_max_apply]

end Cert.KernelIdeal.Rd

end
-- ==== Proof.KLogz.lean ====
import proofs.«428594_j79611513799125_3_alg».proof.Proof.KFrame
import proofs.«428594_j79611513799125_3_alg».proof.Proof.PayRead
import Idealize.ShloMosaic.Lib.Pipeline.Value

noncomputable section

namespace Cert.KernelIdeal.Rd

open Idealize.ShloMosaic Idealize.ShloMosaic.ValueIdx Idealize.SL.Sem Cert.KernelIdeal Cert.KernelIdeal.Gen Cert.Rows Idealize.ShloMosaic.TcCoe

variable (m : (ℓ : Loc nD τ sig) → Buf (Elt Ideal) ℓ)

/-- The zero offsets of a whole 16 x 16 block. -/
theorem zero_off2 : (![0, 0] : Fin 2 → Nat) = fun _ => 0 := funext fun a => by fin_cases a <;> rfl
/-- The zero offsets of a whole 16 x 16 x 8192 block. -/
theorem zero_off3 : (![0, 0, 0] : Fin 3 → Nat) = fun _ => 0 := funext fun a => by fin_cases a <;> rfl

/-- What a grid point leaves in its 16 x 16 output block, entry by entry: at (p, q) the log-partition value of row (p, q)
    of the 16 x 16 x 8192 input block it loaded. -/
theorem out_block (x0 : Vec Ideal S16x16x8192 .f32) :
    Fr.out0_1 (F := Ideal) x0 = fun y : S16x16.Idx => lse (fun u : Fin 8192 => x0 (ix3 (y 0) (y 1) u)) := by
  unfold Fr.out0_1
  rw [View.canon_unit_zero zero_off2]
  simp only [View.ld_unit_zero (S := S16x16x8192) zero_off3]
  funext y
  obtain ⟨p, q, rfl⟩ : ∃ p q, y = ix2 p q := ⟨y 0, y 1, eq_ix2 y⟩
  exact pay_apply x0 p q

/-- The two index maps over the grid: point t's input block and output block both start at block row t, and at block 0
    on every other axis. -/
theorem block_rows : ∀ t : Fin cfg0.N, win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0 :=
  (by decide +kernel : ∀ t : Fin grid0.N, _)

/-- Point t's input block is rows 16 t … 16 t + 15 of the input array: its entry (p, q, u) is the array's entry
    (16 t + p, q, u). -/
theorem in_block_apply (c : Dev nD) (t : Fin cfg0.N) (p q : Fin 16) (u : Fin 8192) (r : Fin 2048) (n : Fin 16)
    (hr : r.val = 16 * t.val + p.val) (hn : n.val = q.val) :
    (Fr.iblk (F := Ideal) m c 0 t : Vec Ideal S16x16x8192 .f32) (ix3 p q u)
      = (Fr.V (F := Ideal) m c main_v30 : S2048x16x8192.Idx → Elt Ideal .f32) (ix3 r n u) := by
  obtain ⟨e0, e1, e2, -, -⟩ := block_rows t
  unfold Fr.iblk
  rw [View.read_apply]
  show Fr.V (F := Ideal) m c main_v30 _ = Fr.V (F := Ideal) m c main_v30 _
  congr 1
  funext a
  apply Fin.ext
  match a with
  | ⟨0, _⟩ => show win0_0.index t (0 : Fin 3) * 16 + 1 * p.val = r.val; rw [e0, hr]; omega
  | ⟨1, _⟩ => show win0_0.index t (1 : Fin 3) * 16 + 1 * q.val = n.val; rw [e1, hn]; omega
  | ⟨2, _⟩ => show win0_0.index t (2 : Fin 3) * 8192 + 1 * u.val = u.val; rw [e2]; omega

/-- What point t writes back is block t of the array of the rows' log-partition values. -/
theorem flushed_logz (c : Dev nD) (t : Fin cfg0.N) :
    (Fr.dats (F := Ideal) m 0 c).flushed 1 t
      = ((cfg0.win 1).blk t).view.read (Elt Ideal) (logzRows (Fr.V (F := Ideal) m c main_v30)) := by
  show (cfg0.win 1).cut (grid0.coords t) ((Fr.dats (F := Ideal) m 0 c).after 1 t) = _
  rw [Fr.after0_1]
  rw [out_block]
  obtain ⟨-, -, -, e3, e4⟩ := block_rows t
  funext j
  refine congrArg lse (funext fun u => ?_)
  refine in_block_apply m c t _ _ u _ _ ?_ ?_
  · show win0_1.index t (0 : Fin 2) * 16 + 1 * (j 0).val = 16 * t.val + (j 0).val
    rw [e3]; omega
  · show win0_1.index t (1 : Fin 2) * 16 + 1 * (j 1).val = (j 1).val
    rw [e4]; omega

/-- An index of the output array is in point t's block iff each coordinate is in the block's range on its axis. -/
theorem mem_out_block (t : Fin cfg0.N) (i : S2048x16.Idx) :
    i ∈ ((cfg0.win 1).blk t).view.set
      ↔ ∀ a : Fin 2, win0_1.index t a * S16x16.size a ≤ (i a).val ∧ (i a).val < win0_1.index t a * S16x16.size a + S16x16.size a := by
  show i ∈ ((View.whole main_v31).slice (win0_1.rect t)).set ↔ _
  rw [View.set_slice_whole, Rect.mem_set_unit]
  exact Iff.rfl

/-- Every index of the 2048 x 16 output array is in some point's block: row r is in the block of point r / 16. -/
theorem out_cover (i : S2048x16.Idx) :
    ∃ t : Fin cfg0.N, (cfg0.win 1).flush t = true ∧ i ∈ ((cfg0.win 1).blk t).view.set := by
  have hi0 : (i 0).val < 2048 := (i 0).isLt
  have hi1 : (i 1).val < 16 := (i 1).isLt
  have hN : cfg0.N = 128 := N_0
  refine ⟨⟨(i 0).val / 16, by rw [hN]; omega⟩, flush0_1 _, ?_⟩
  rw [mem_out_block]
  obtain ⟨-, -, -, e3, e4⟩ := block_rows ⟨(i 0).val / 16, by rw [hN]; omega⟩
  intro a
  match a with
  | ⟨0, _⟩ =>
    show win0_1.index _ (0 : Fin 2) * 16 ≤ (i 0).val ∧ (i 0).val < win0_1.index _ (0 : Fin 2) * 16 + 16
    rw [e3]; show (i 0).val / 16 * 16 ≤ (i 0).val ∧ (i 0).val < (i 0).val / 16 * 16 + 16; omega
  | ⟨1, _⟩ =>
    show win0_1.index _ (1 : Fin 2) * 16 ≤ (i 1).val ∧ (i 1).val < win0_1.index _ (1 : Fin 2) * 16 + 16
    rw [e4]; omega

/-- After the region's 128 grid points the output array holds, row by row, the log-partition values of the 2048 x 16 rows
    of the input array as the region found it: point t writes rows 16 t … 16 t + 15 from the input's rows 16 t … 16 t + 15,
    and the 128 blocks cover the array. -/
theorem arr_logz (c : Dev nD) :
    (Fr.dats (F := Ideal) m 0 c).arrAt 1 cfg0.N = logzRows (Fr.V (F := Ideal) m c main_v30) :=
  (Fr.dats (F := Ideal) m 0 c).arrAt_eq_of_cover 1 (logzRows (Fr.V (F := Ideal) m c main_v30))
    (fun t _ => flushed_logz m c t) out_cover

end Cert.KernelIdeal.Rd

end
-- ==== Proof.KValue.lean ====
/-
  What the kernel's program leaves in its three result buffers at the ideal values, as the stage functions of the launch
  contents of its arguments: the host operations before the region give the command loss, the mask, the clipped targets
  and the logits re-laid as rows; the region turns the rows into their log-partition values; the host operations after it
  gather, weight and combine.
-/
import proofs.«428594_j79611513799125_3_alg».proof.Proof.KFrame
import proofs.«428594_j79611513799125_3_alg».proof.Proof.KAfterPre
import proofs.«428594_j79611513799125_3_alg».proof.Proof.KAfterSuf
import proofs.«428594_j79611513799125_3_alg».proof.Proof.KLogz

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.St Cert.Rows

variable (m : (ℓ : Loc nD τ sig) → Buf (Elt Ideal) ℓ) (ρ : Dev nD → PrngReg)

/-- The region-entry contents are the earlier operations' fold over the launch contents. -/
theorem V0_eq (c : Dev nD) : Fr.V0 (F := Ideal) m c = after kops0 (fun b => m (c, b)) := rfl

theorem V_arg (c : Dev nD) (r : Ref sig .tc) (hr : r ∉ kops0_writes) :
    Fr.V0 (F := Ideal) m c (Proc.devRef .tc r) = m ((c.tc : Thread nD τ).loc r) := by
  rw [V0_eq, Af.pre_keep _ r hr]

theorem V_v18 (c : Dev nD) : Fr.V0 (F := Ideal) m c (Proc.devRef .tc main_v18) = cmdLoss (m ((c.tc : Thread nD τ).loc main_arg0)) (m ((c.tc : Thread nD τ).loc main_arg3)) := by
  rw [V0_eq, Af.pre_v18]
theorem V_v28 (c : Dev nD) : Fr.V0 (F := Ideal) m c (Proc.devRef .tc main_v28)
    = argMask (m ((c.tc : Thread nD τ).loc main_arg2)) (m ((c.tc : Thread nD τ).loc main_arg3)) := by
  rw [V0_eq, Af.pre_v28]
theorem V_v29 (c : Dev nD) : Fr.V0 (F := Ideal) m c (Proc.devRef .tc main_v29) = tgtClip (m ((c.tc : Thread nD τ).loc main_arg4)) := by
  rw [V0_eq, Af.pre_v29]
theorem V_v30 (c : Dev nD) : Fr.V (F := Ideal) m c main_v30 = flatRows (m ((c.tc : Thread nD τ).loc main_arg1)) := by
  show Fr.V0 (F := Ideal) m c (Proc.devRef .tc main_v30) = _
  rw [V0_eq, Af.pre_v30]

/-- The contents the later operations start from: the two arrays of the pipeline as the region leaves them, every other
    buffer as the region found it. -/
abbrev W (c : Dev nD) : Valuation τ sig (Elt Ideal) :=
  Pipeline.withArrays (cfgs 0).spec c (Fr.V0 (F := Ideal) m c) fun w => (Fr.dats (F := Ideal) m 0 c).arrAt w (cfgs 0).N

theorem W_rest (c : Dev nD) (r : Ref sig .tc) (hr : ∀ w, Pipeline.arrRef spec0 w ≠ r) :
    W m c (Proc.devRef .tc r) = Fr.V0 (F := Ideal) m c (Proc.devRef .tc r) :=
  Pipeline.withArrays_of_ne _ c (Fr.V0 (F := Ideal) m c) _ r hr

theorem W_v31 (c : Dev nD) : W m c (Proc.devRef .tc main_v31) = logzRows (flatRows (m ((c.tc : Thread nD τ).loc main_arg1))) := by
  have h := Pipeline.withArrays_arr (cfgs 0).spec launch0.win.arr_inj c (Fr.V0 (F := Ideal) m c)
    (fun w => (Fr.dats (F := Ideal) m 0 c).arrAt w (cfgs 0).N) (1 : Fin 2)
  refine h.trans ?_
  rw [show (Fr.dats (F := Ideal) m 0 c).arrAt 1 (cfgs 0).N = logzRows (Fr.V (F := Ideal) m c main_v30) from Rd.arr_logz m c, V_v30]

/-- The later operations' fold is over the flattened stretches. -/
theorem tail_eq (c : Dev nD) (b : Ref sig .tc) :
    Pipeline.afterTail₀ cfgs (Fr.dats (F := Ideal) m) 0 (Fr.V0 (F := Ideal) m) Fr.sfxOps c b = after kops1 (W m c) (Proc.devRef .tc b) := rfl

theorem k_v67 (c : Dev nD) :
    Pipeline.afterTail₀ cfgs (Fr.dats (F := Ideal) m) 0 (Fr.V0 (F := Ideal) m) Fr.sfxOps c main_v67 = lossTail (lossK (takeLast (m ((c.tc : Thread nD τ).loc main_arg1)) (idx7 (tgtClip (m ((c.tc : Thread nD τ).loc main_arg4))))) wnorm (wsumOf wnorm) (unflatRows (logzRows (flatRows (m ((c.tc : Thread nD τ).loc main_arg1)))))) (argMask (m ((c.tc : Thread nD τ).loc main_arg2)) (m ((c.tc : Thread nD τ).loc main_arg3))) := by
  rw [tail_eq, Af.suf_v67, W_rest m c main_arg1 (by decide), W_rest m c main_v29 (by decide), W_rest m c main_v28 (by decide), W_v31,
    V_arg m c main_arg1 (by decide), V_v29, V_v28]

theorem k_v70 (c : Dev nD) :
    Pipeline.afterTail₀ cfgs (Fr.dats (F := Ideal) m) 0 (Fr.V0 (F := Ideal) m) Fr.sfxOps c main_v70 = total (cmdLoss (m ((c.tc : Thread nD τ).loc main_arg0)) (m ((c.tc : Thread nD τ).loc main_arg3))) (lossTail (lossK (takeLast (m ((c.tc : Thread nD τ).loc main_arg1)) (idx7 (tgtClip (m ((c.tc : Thread nD τ).loc main_arg4))))) wnorm (wsumOf wnorm) (unflatRows (logzRows (flatRows (m ((c.tc : Thread nD τ).loc main_arg1)))))) (argMask (m ((c.tc : Thread nD τ).loc main_arg2)) (m ((c.tc : Thread nD τ).loc main_arg3)))) := by
  rw [tail_eq, Af.suf_v70, W_rest m c main_arg1 (by decide), W_rest m c main_v29 (by decide), W_rest m c main_v28 (by decide),
    W_rest m c main_v18 (by decide), W_v31, V_arg m c main_arg1 (by decide), V_v29, V_v28, V_v18]

theorem k_v18 (c : Dev nD) :
    Pipeline.afterTail₀ cfgs (Fr.dats (F := Ideal) m) 0 (Fr.V0 (F := Ideal) m) Fr.sfxOps c main_v18 = cmdLoss (m ((c.tc : Thread nD τ).loc main_arg0)) (m ((c.tc : Thread nD τ).loc main_arg3)) := by
  rw [tail_eq, Af.suf_keep _ main_v18 (by decide), W_rest m c main_v18 (by decide), V_v18]

/-- The kernel's program at the ideal values: it runs to the end, its results the stage functions of the arguments, its
    arguments unchanged. -/
theorem run : θ_run defs (onTc (τ := τ) (main (F := Ideal))) ⟨m, fun _ => 0, ρ⟩ (fun r => ∀ c : Dev nD,
      r.2.mem ((c.tc : Thread nD τ).loc main_v70) = total (cmdLoss (m ((c.tc : Thread nD τ).loc main_arg0)) (m ((c.tc : Thread nD τ).loc main_arg3))) (lossTail (lossK (takeLast (m ((c.tc : Thread nD τ).loc main_arg1)) (idx7 (tgtClip (m ((c.tc : Thread nD τ).loc main_arg4))))) wnorm (wsumOf wnorm) (unflatRows (logzRows (flatRows (m ((c.tc : Thread nD τ).loc main_arg1)))))) (argMask (m ((c.tc : Thread nD τ).loc main_arg2)) (m ((c.tc : Thread nD τ).loc main_arg3))))
      ∧ r.2.mem ((c.tc : Thread nD τ).loc main_v18) = cmdLoss (m ((c.tc : Thread nD τ).loc main_arg0)) (m ((c.tc : Thread nD τ).loc main_arg3))
      ∧ r.2.mem ((c.tc : Thread nD τ).loc main_v67) = lossTail (lossK (takeLast (m ((c.tc : Thread nD τ).loc main_arg1)) (idx7 (tgtClip (m ((c.tc : Thread nD τ).loc main_arg4))))) wnorm (wsumOf wnorm) (unflatRows (logzRows (flatRows (m ((c.tc : Thread nD τ).loc main_arg1)))))) (argMask (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v70 (Pipeline.mem_restRefs_of main_v70 (by decide) (by decide))).trans (k_v70 m c),
     ((h c).2 main_v18 (Pipeline.mem_restRefs_of main_v18 (by decide) (by decide))).trans (k_v18 m c),
     ((h c).2 main_v67 (Pipeline.mem_restRefs_of main_v67 (by decide) (by decide))).trans (k_v67 m c),
     ((h c).2 main_arg0 (Pipeline.mem_restRefs_of main_arg0 (by decide) (by decide))).trans (Fr.W_of m main_arg0 Fr.pre_keeps_arg0 Fr.sfx_keeps_arg0 (by decide) c),
     ((h c).2 main_arg1 (Pipeline.mem_restRefs_of main_arg1 (by decide) (by decide))).trans (Fr.W_of m main_arg1 Fr.pre_keeps_arg1 Fr.sfx_keeps_arg1 (by decide) c),
     ((h c).2 main_arg2 (Pipeline.mem_restRefs_of main_arg2 (by decide) (by decide))).trans (Fr.W_of m main_arg2 Fr.pre_keeps_arg2 Fr.sfx_keeps_arg2 (by decide) c),
     ((h c).2 main_arg3 (Pipeline.mem_restRefs_of main_arg3 (by decide) (by decide))).trans (Fr.W_of m main_arg3 Fr.pre_keeps_arg3 Fr.sfx_keeps_arg3 (by decide) c),
     ((h c).2 main_arg4 (Pipeline.mem_restRefs_of main_arg4 (by decide) (by decide))).trans (Fr.W_of m main_arg4 Fr.pre_keeps_arg4 Fr.sfx_keeps_arg4 (by decide) c)⟩)
    (Fr.run_main (F := Ideal) m ρ)

end Cert.KernelIdeal.Val

end
-- ==== Proof.RStages.lean ====
import proofs.«428594_j79611513799125_3_alg».proof.Proof.Gen.ReferenceIdeal
import Idealize.ShloMosaic.Lib.StableHlo.Run

noncomputable section

namespace Cert.ReferenceIdeal.St

open Cert.ReferenceIdeal Cert.ReferenceIdeal.Gen Idealize.ShloMosaic Idealize.ShloMosaic.TcCoe Idealize.SL.Sem

variable {F : FTy → Type} [FloatOps F]

/-- 4 host operations (main), in order. -/
abbrev rst_0 : List (HloOp τ sig (Elt F)) :=
  [ StableHlo.nullary main_c (constantI S_ 32 3#32),
    StableHlo.unary main_c main_v0 (broadcastInDim S4x512 ![] bcast_S_S4x512 : (⟨S_, .i32⟩ : BufTy).Contents (Elt F) → (⟨S4x512, .i32⟩ : BufTy).Contents (Elt F)),
    StableHlo.binary main_arg3 main_v0 main_v1 (cmpi .eq : (⟨S4x512, .i32⟩ : BufTy).Contents (Elt F) → (⟨S4x512, .i32⟩ : BufTy).Contents (Elt F) → (⟨S4x512, .i1⟩ : BufTy).Contents (Elt F)),
    StableHlo.unary main_v1 main_v2 ((extui 32 · natLt_1_32) : (⟨S4x512, .i1⟩ : BufTy).Contents (Elt F) → (⟨S4x512, .i32⟩ : BufTy).Contents (Elt F)) ]
/-- The buffers they write. -/
abbrev rst_0_writes : List (Ref sig .tc) :=
  [main_c, main_v0, main_v1, main_v2]

/-- 3 host operations (fn_cumsum_0), in order. -/
abbrev rst_1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v2 : StableHlo.TRef sig ⟨S4x512, .i32⟩) (.of main_call0_call0_v0 : StableHlo.TRef sig ⟨S_, .i32⟩) (.of main_v3 : StableHlo.TRef sig ⟨S4x512, .i32⟩) (fun x v => Host.reduceWindow IntOp.addi ![1, 512] ![1, 1] ![0, 511] ![0, 0] x v reduceWindows_S4x512_S4x512_w1s1p0_0_w512s1p511_0 h_S_) ]
/-- The buffers they write. -/
abbrev rst_1_writes : List (Ref sig .tc) :=
  [main_call0_call0_c, main_call0_call0_v0, main_v3]

/-- 4 host operations (main), in order. -/
abbrev rst_2 : List (HloOp τ sig (Elt F)) :=
  [ StableHlo.nullary main_c_0 (constantI S_ 32 1#32),
    StableHlo.unary main_c_0 main_v4 (broadcastInDim S4x512 ![] bcast_S_S4x512 : (⟨S_, .i32⟩ : BufTy).Contents (Elt F) → (⟨S4x512, .i32⟩ : BufTy).Contents (Elt F)),
    StableHlo.binary main_v3 main_v4 main_v5 (cmpi .sle : (⟨S4x512, .i32⟩ : BufTy).Contents (Elt F) → (⟨S4x512, .i32⟩ : BufTy).Contents (Elt F) → (⟨S4x512, .i1⟩ : BufTy).Contents (Elt F)),
    StableHlo.unary main_v5 main_v6 (uitofp .f32 : (⟨S4x512, .i1⟩ : BufTy).Contents (Elt F) → (⟨S4x512, .f32⟩ : BufTy).Contents (Elt F)) ]
/-- The buffers they write. -/
abbrev rst_2_writes : List (Ref sig .tc) :=
  [main_c_0, main_v4, main_v5, main_v6]

/-- 15 host operations (fn_log_softmax), in order. -/
abbrev rst_3 : List (HloOp τ sig (Elt F)) :=
  [ StableHlo.TRef.nullary (.of main_call1_cst : StableHlo.TRef sig ⟨S_, .f32⟩) (constant S_ .f32 0xFF800000#32),
    StableHlo.TRef.binary (.of main_arg0 : StableHlo.TRef sig ⟨S4x512x10, .f32⟩) (.of main_call1_cst : StableHlo.TRef sig ⟨S_, .f32⟩) (.of main_call1_v0 : StableHlo.TRef sig ⟨S4x512, .f32⟩) (fun x v => Host.reduce FloatOps.maximumf x v reducesTo_S4x512x10_S4x512_d2 h_S_),
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v1 : StableHlo.TRef sig ⟨S4x512, .f32⟩) (broadcastInDim S4x512 ![] bcast_S_S4x512),
    StableHlo.TRef.binary (.of main_call1_v1 : StableHlo.TRef sig ⟨S4x512, .f32⟩) (.of main_call1_v0 : StableHlo.TRef sig ⟨S4x512, .f32⟩) (.of main_call1_v2 : StableHlo.TRef sig ⟨S4x512, .f32⟩) maximumf,
    StableHlo.TRef.unary (.of main_call1_v2 : StableHlo.TRef sig ⟨S4x512, .f32⟩) (.of main_call1_v3 : StableHlo.TRef sig ⟨S4x512x1, .f32⟩) (broadcastInDim S4x512x1 ![0, 1] bcast_S4x512_S4x512x1_0_1),
    StableHlo.TRef.unary (.of main_call1_v3 : StableHlo.TRef sig ⟨S4x512x1, .f32⟩) (.of main_call1_v4 : StableHlo.TRef sig ⟨S4x512x10, .f32⟩) (broadcastInDim S4x512x10 ![0, 1, 2] bcast_S4x512x1_S4x512x10_0_1_2),
    StableHlo.TRef.binary (.of main_arg0 : StableHlo.TRef sig ⟨S4x512x10, .f32⟩) (.of main_call1_v4 : StableHlo.TRef sig ⟨S4x512x10, .f32⟩) (.of main_call1_v5 : StableHlo.TRef sig ⟨S4x512x10, .f32⟩) subf,
    StableHlo.TRef.unary (.of main_call1_v5 : StableHlo.TRef sig ⟨S4x512x10, .f32⟩) (.of main_call1_v6 : StableHlo.TRef sig ⟨S4x512x10, .f32⟩) Host.exp,
    StableHlo.TRef.nullary (.of main_call1_cst_1 : StableHlo.TRef sig ⟨S_, .f32⟩) (constant S_ .f32 0x00000000#32),
    StableHlo.TRef.binary (.of main_call1_v6 : StableHlo.TRef sig ⟨S4x512x10, .f32⟩) (.of main_call1_cst_1 : StableHlo.TRef sig ⟨S_, .f32⟩) (.of main_call1_v7 : StableHlo.TRef sig ⟨S4x512, .f32⟩) (fun x v => Host.reduceAdd x v reducesTo_S4x512x10_S4x512_d2 h_S_),
    StableHlo.TRef.unary (.of main_call1_v7 : StableHlo.TRef sig ⟨S4x512, .f32⟩) (.of main_call1_v8 : StableHlo.TRef sig ⟨S4x512x1, .f32⟩) (broadcastInDim S4x512x1 ![0, 1] bcast_S4x512_S4x512x1_0_1),
    StableHlo.TRef.unary (.of main_call1_v8 : StableHlo.TRef sig ⟨S4x512x1, .f32⟩) (.of main_call1_v9 : StableHlo.TRef sig ⟨S4x512x1, .f32⟩) Host.log,
    StableHlo.TRef.unary (.of main_call1_v9 : StableHlo.TRef sig ⟨S4x512x1, .f32⟩) (.of main_call1_v10 : StableHlo.TRef sig ⟨S4x512x10, .f32⟩) (broadcastInDim S4x512x10 ![0, 1, 2] bcast_S4x512x1_S4x512x10_0_1_2),
    StableHlo.TRef.binary (.of main_call1_v5 : StableHlo.TRef sig ⟨S4x512x10, .f32⟩) (.of main_call1_v10 : StableHlo.TRef sig ⟨S4x512x10, .f32⟩) (.of main_v7 : StableHlo.TRef sig ⟨S4x512x10, .f32⟩) subf ]
/-- The buffers they write. -/
abbrev rst_3_writes : List (Ref sig .tc) :=
  [main_call1_cst, main_call1_v0, main_call1_cst_0, main_call1_v1, main_call1_v2, main_call1_v3, main_call1_v4, main_call1_v5, main_call1_v6, main_call1_cst_1, main_call1_v7, main_call1_v8, main_call1_v9, main_call1_v10, main_v7]

/-- 1 host operations (main), in order. -/
abbrev rst_4 : List (HloOp τ sig (Elt F)) :=
  [ StableHlo.unary main_arg3 main_v8 (broadcastInDim S4x512x1 ![0, 1] bcast_S4x512_S4x512x1_0_1 : (⟨S4x512, .i32⟩ : BufTy).Contents (Elt F) → (⟨S4x512x1, .i32⟩ : BufTy).Contents (Elt F)) ]
/-- The buffers they write. -/
abbrev rst_4_writes : List (Ref sig .tc) :=
  [main_v8]

/-- 22 host operations (fn_take_along_axis), in order. -/
abbrev rst_5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x512x1, .i32⟩) (broadcastInDim S4x512x1 ![] bcast_S_S4x512x1),
    StableHlo.TRef.binary (.of main_v8 : StableHlo.TRef sig ⟨S4x512x1, .i32⟩) (.of main_call2_v0 : StableHlo.TRef sig ⟨S4x512x1, .i32⟩) (.of main_call2_v1 : StableHlo.TRef sig ⟨S4x512x1, .i1⟩) (cmpi .slt),
    StableHlo.TRef.nullary (.of main_call2_c_0 : StableHlo.TRef sig ⟨S_, .i32⟩) (constantI S_ 32 10#32),
    StableHlo.TRef.unary (.of main_call2_c_0 : StableHlo.TRef sig ⟨S_, .i32⟩) (.of main_call2_v2 : StableHlo.TRef sig ⟨S4x512x1, .i32⟩) (broadcastInDim S4x512x1 ![] bcast_S_S4x512x1),
    StableHlo.TRef.binary (.of main_v8 : StableHlo.TRef sig ⟨S4x512x1, .i32⟩) (.of main_call2_v2 : StableHlo.TRef sig ⟨S4x512x1, .i32⟩) (.of main_call2_v3 : StableHlo.TRef sig ⟨S4x512x1, .i32⟩) addi,
    StableHlo.TRef.ternary (.of main_call2_v1 : StableHlo.TRef sig ⟨S4x512x1, .i1⟩) (.of main_call2_v3 : StableHlo.TRef sig ⟨S4x512x1, .i32⟩) (.of main_v8 : StableHlo.TRef sig ⟨S4x512x1, .i32⟩) (.of main_call2_v4 : StableHlo.TRef sig ⟨S4x512x1, .i32⟩) select,
    StableHlo.TRef.reshape (.of main_call2_v4 : StableHlo.TRef sig ⟨S4x512x1, .i32⟩) (.of main_call2_v5 : StableHlo.TRef sig ⟨S4x512x1x1, .i32⟩) rfl shapeCasts_S4x512x1_S4x512x1x1,
    StableHlo.TRef.nullary (.of main_call2_c_1 : StableHlo.TRef sig ⟨S1, .i32⟩) (constantI S1 32 9#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4x512x1x1, .i32⟩) (broadcastInDim S4x512x1x1 ![] bcast_S_S4x512x1x1),
    StableHlo.TRef.binary (.of main_call2_v5 : StableHlo.TRef sig ⟨S4x512x1x1, .i32⟩) (.of main_call2_v6 : StableHlo.TRef sig ⟨S4x512x1x1, .i32⟩) (.of main_call2_v7 : StableHlo.TRef sig ⟨S4x512x1x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S4x512x1x1, .i32⟩) (broadcastInDim S4x512x1x1 ![0, 1, 2, 3] bcast_S1x1x1x1_S4x512x1x1_0_1_2_3),
    StableHlo.TRef.binary (.of main_call2_v5 : StableHlo.TRef sig ⟨S4x512x1x1, .i32⟩) (.of main_call2_v9 : StableHlo.TRef sig ⟨S4x512x1x1, .i32⟩) (.of main_call2_v10 : StableHlo.TRef sig ⟨S4x512x1x1, .i1⟩) (cmpi .sle),
    StableHlo.TRef.binary (.of main_call2_v7 : StableHlo.TRef sig ⟨S4x512x1x1, .i1⟩) (.of main_call2_v10 : StableHlo.TRef sig ⟨S4x512x1x1, .i1⟩) (.of main_call2_v11 : StableHlo.TRef sig ⟨S4x512x1x1, .i1⟩) andi,
    StableHlo.TRef.nullary (.of main_call2_c_3 : StableHlo.TRef sig ⟨S_, .i1⟩) (constantI S_ 1 1#1),
    StableHlo.TRef.binary (.of main_call2_v11 : StableHlo.TRef sig ⟨S4x512x1x1, .i1⟩) (.of main_call2_c_3 : StableHlo.TRef sig ⟨S_, .i1⟩) (.of main_call2_v12 : StableHlo.TRef sig ⟨S4x512x1, .i1⟩) (fun x v => Host.reduce IntOp.andi x v reducesTo_S4x512x1x1_S4x512x1_d3 h_S_),
    StableHlo.TRef.binary (.of main_v7 : StableHlo.TRef sig ⟨S4x512x10, .f32⟩) (.of main_call2_v5 : StableHlo.TRef sig ⟨S4x512x1x1, .i32⟩) (.of main_call2_v13 : StableHlo.TRef sig ⟨S4x512x1, .f32⟩) (fun x i => Host.gather gather_S4x512x10_S4x512x1x1_S4x512x1_n_2_01_01_2_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x512x1, .f32⟩) (broadcastInDim S4x512x1 ![] bcast_S_S4x512x1),
    StableHlo.TRef.ternary (.of main_call2_v12 : StableHlo.TRef sig ⟨S4x512x1, .i1⟩) (.of main_call2_v13 : StableHlo.TRef sig ⟨S4x512x1, .f32⟩) (.of main_call2_v14 : StableHlo.TRef sig ⟨S4x512x1, .f32⟩) (.of main_v9 : StableHlo.TRef sig ⟨S4x512x1, .f32⟩) select ]
/-- The buffers they write. -/
abbrev rst_5_writes : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v9]

/-- 4 host operations (main), in order. -/
abbrev rst_6 : List (HloOp τ sig (Elt F)) :=
  [ StableHlo.reshape main_v9 main_v10 rfl shapeCasts_S4x512x1_S4x512,
    StableHlo.unary main_v10 main_v11 (Host.negf : (⟨S4x512, .f32⟩ : BufTy).Contents (Elt F) → (⟨S4x512, .f32⟩ : BufTy).Contents (Elt F)),
    StableHlo.binary main_v11 main_v11 main_v12 (cmpf .une : (⟨S4x512, .f32⟩ : BufTy).Contents (Elt F) → (⟨S4x512, .f32⟩ : BufTy).Contents (Elt F) → (⟨S4x512, .i1⟩ : BufTy).Contents (Elt F)),
    StableHlo.nullary main_cst (constant S_ .f32 0x00000000#32) ]
/-- The buffers they write. -/
abbrev rst_6_writes : List (Ref sig .tc) :=
  [main_v10, main_v11, main_v12, main_cst]

/-- 3 host operations (fn_where), in order. -/
abbrev rst_7 : List (HloOp τ sig (Elt F)) :=
  [ StableHlo.TRef.unary (.of main_cst : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4x512, .f32⟩) (broadcastInDim S4x512 ![] bcast_S_S4x512),
    StableHlo.TRef.ternary (.of main_v12 : StableHlo.TRef sig ⟨S4x512, .i1⟩) (.of main_call3_v1 : StableHlo.TRef sig ⟨S4x512, .f32⟩) (.of main_v11 : StableHlo.TRef sig ⟨S4x512, .f32⟩) (.of main_v13 : StableHlo.TRef sig ⟨S4x512, .f32⟩) select ]
/-- The buffers they write. -/
abbrev rst_7_writes : List (Ref sig .tc) :=
  [main_call3_v0, main_call3_v1, main_v13]

/-- 8 host operations (main), in order. -/
abbrev rst_8 : List (HloOp τ sig (Elt F)) :=
  [ StableHlo.binary main_v13 main_v6 main_v14 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v14 main_cst_1 main_v15 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v6 main_cst_2 main_v16 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v16 main_cst_3 main_v17 (addf : (⟨S_, .f32⟩ : BufTy).Contents (Elt F) → (⟨S_, .f32⟩ : BufTy).Contents (Elt F) → (⟨S_, .f32⟩ : BufTy).Contents (Elt F)),
    StableHlo.binary main_v15 main_v17 main_v18 (Host.divf : (⟨S_, .f32⟩ : BufTy).Contents (Elt F) → (⟨S_, .f32⟩ : BufTy).Contents (Elt F) → (⟨S_, .f32⟩ : BufTy).Contents (Elt F)) ]
/-- The buffers they write. -/
abbrev rst_8_writes : List (Ref sig .tc) :=
  [main_v14, main_cst_1, main_v15, main_cst_2, main_v16, main_cst_3, main_v17, main_v18]

/-- 15 host operations (fn_log_softmax_1), in order. -/
abbrev rst_9 : List (HloOp τ sig (Elt F)) :=
  [ StableHlo.TRef.nullary (.of main_call4_cst : StableHlo.TRef sig ⟨S_, .f32⟩) (constant S_ .f32 0xFF800000#32),
    StableHlo.TRef.binary (.of main_arg1 : StableHlo.TRef sig ⟨S4x512x16x8192, .f32⟩) (.of main_call4_cst : StableHlo.TRef sig ⟨S_, .f32⟩) (.of main_call4_v0 : StableHlo.TRef sig ⟨S4x512x16, .f32⟩) (fun x v => Host.reduce FloatOps.maximumf x v reducesTo_S4x512x16x8192_S4x512x16_d3 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S4x512x16, .f32⟩) (broadcastInDim S4x512x16 ![] bcast_S_S4x512x16),
    StableHlo.TRef.binary (.of main_call4_v1 : StableHlo.TRef sig ⟨S4x512x16, .f32⟩) (.of main_call4_v0 : StableHlo.TRef sig ⟨S4x512x16, .f32⟩) (.of main_call4_v2 : StableHlo.TRef sig ⟨S4x512x16, .f32⟩) maximumf,
    StableHlo.TRef.unary (.of main_call4_v2 : StableHlo.TRef sig ⟨S4x512x16, .f32⟩) (.of main_call4_v3 : StableHlo.TRef sig ⟨S4x512x16x1, .f32⟩) (broadcastInDim S4x512x16x1 ![0, 1, 2] bcast_S4x512x16_S4x512x16x1_0_1_2),
    StableHlo.TRef.unary (.of main_call4_v3 : StableHlo.TRef sig ⟨S4x512x16x1, .f32⟩) (.of main_call4_v4 : StableHlo.TRef sig ⟨S4x512x16x8192, .f32⟩) (broadcastInDim S4x512x16x8192 ![0, 1, 2, 3] bcast_S4x512x16x1_S4x512x16x8192_0_1_2_3),
    StableHlo.TRef.binary (.of main_arg1 : StableHlo.TRef sig ⟨S4x512x16x8192, .f32⟩) (.of main_call4_v4 : StableHlo.TRef sig ⟨S4x512x16x8192, .f32⟩) (.of main_call4_v5 : StableHlo.TRef sig ⟨S4x512x16x8192, .f32⟩) subf,
    StableHlo.TRef.unary (.of main_call4_v5 : StableHlo.TRef sig ⟨S4x512x16x8192, .f32⟩) (.of main_call4_v6 : StableHlo.TRef sig ⟨S4x512x16x8192, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S4x512x16x8192, .f32⟩) (.of main_call4_cst_1 : StableHlo.TRef sig ⟨S_, .f32⟩) (.of main_call4_v7 : StableHlo.TRef sig ⟨S4x512x16, .f32⟩) (fun x v => Host.reduceAdd x v reducesTo_S4x512x16x8192_S4x512x16_d3 h_S_),
    StableHlo.TRef.unary (.of main_call4_v7 : StableHlo.TRef sig ⟨S4x512x16, .f32⟩) (.of main_call4_v8 : StableHlo.TRef sig ⟨S4x512x16x1, .f32⟩) (broadcastInDim S4x512x16x1 ![0, 1, 2] bcast_S4x512x16_S4x512x16x1_0_1_2),
    StableHlo.TRef.unary (.of main_call4_v8 : StableHlo.TRef sig ⟨S4x512x16x1, .f32⟩) (.of main_call4_v9 : StableHlo.TRef sig ⟨S4x512x16x1, .f32⟩) Host.log,
    StableHlo.TRef.unary (.of main_call4_v9 : StableHlo.TRef sig ⟨S4x512x16x1, .f32⟩) (.of main_call4_v10 : StableHlo.TRef sig ⟨S4x512x16x8192, .f32⟩) (broadcastInDim S4x512x16x8192 ![0, 1, 2, 3] bcast_S4x512x16x1_S4x512x16x8192_0_1_2_3),
    StableHlo.TRef.binary (.of main_call4_v5 : StableHlo.TRef sig ⟨S4x512x16x8192, .f32⟩) (.of main_call4_v10 : StableHlo.TRef sig ⟨S4x512x16x8192, .f32⟩) (.of main_v19 : StableHlo.TRef sig ⟨S4x512x16x8192, .f32⟩) subf ]
/-- The buffers they write. -/
abbrev rst_9_writes : List (Ref sig .tc) :=
  [main_call4_cst, main_call4_v0, main_call4_cst_0, main_call4_v1, main_call4_v2, main_call4_v3, main_call4_v4, main_call4_v5, main_call4_v6, main_call4_cst_1, main_call4_v7, main_call4_v8, main_call4_v9, main_call4_v10, main_v19]

/-- 14 host operations (main), in order. -/
abbrev rst_10 : List (HloOp τ sig (Elt F)) :=
  [ StableHlo.nullary main_c_4 (constantI S_ 32 0#32),
    StableHlo.unary main_c_4 main_v20 (broadcastInDim S4x512 ![] bcast_S_S4x512 : (⟨S_, .i32⟩ : BufTy).Contents (Elt F) → (⟨S4x512, .i32⟩ : BufTy).Contents (Elt F)),
    StableHlo.binary main_arg3 main_v20 main_v21 (cmpi .slt : (⟨S4x512, .i32⟩ : BufTy).Contents (Elt F) → (⟨S4x512, .i32⟩ : BufTy).Contents (Elt F) → (⟨S4x512, .i1⟩ : BufTy).Contents (Elt F)),
    StableHlo.nullary main_c_5 (constantI S_ 32 10#32),
    StableHlo.unary main_c_5 main_v22 (broadcastInDim S4x512 ![] bcast_S_S4x512 : (⟨S_, .i32⟩ : BufTy).Contents (Elt F) → (⟨S4x512, .i32⟩ : BufTy).Contents (Elt F)),
    StableHlo.binary main_arg3 main_v22 main_v23 (addi : (⟨S4x512, .i32⟩ : BufTy).Contents (Elt F) → (⟨S4x512, .i32⟩ : BufTy).Contents (Elt F) → (⟨S4x512, .i32⟩ : BufTy).Contents (Elt F)),
    StableHlo.ternary main_v21 main_v23 main_arg3 main_v24 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_v24 main_v25 (broadcastInDim S4x512x1 ![0, 1] bcast_S4x512_S4x512x1_0_1 : (⟨S4x512, .i32⟩ : BufTy).Contents (Elt F) → (⟨S4x512x1, .i32⟩ : BufTy).Contents (Elt F)),
    StableHlo.binary main_arg2 main_v25 main_v26 ((fun x i => Host.gather gather_S10x16_S4x512x1_S4x512x16_2_0_n_n_0_2_116 x i) : (⟨S10x16, .f32⟩ : BufTy).Contents (Elt F) → (⟨S4x512x1, .i32⟩ : BufTy).Contents (Elt F) → (⟨S4x512x16, .f32⟩ : BufTy).Contents (Elt F)),
    StableHlo.unary main_v6 main_v27 (broadcastInDim S4x512x1 ![0, 1] bcast_S4x512_S4x512x1_0_1 : (⟨S4x512, .f32⟩ : BufTy).Contents (Elt F) → (⟨S4x512x1, .f32⟩ : BufTy).Contents (Elt F)),
    StableHlo.unary main_v27 main_v28 (broadcastInDim S4x512x16 ![0, 1, 2] bcast_S4x512x1_S4x512x16_0_1_2 : (⟨S4x512x1, .f32⟩ : BufTy).Contents (Elt F) → (⟨S4x512x16, .f32⟩ : BufTy).Contents (Elt F)),
    StableHlo.binary main_v28 main_v26 main_v29 (mulf : (⟨S4x512x16, .f32⟩ : BufTy).Contents (Elt F) → (⟨S4x512x16, .f32⟩ : BufTy).Contents (Elt F) → (⟨S4x512x16, .f32⟩ : BufTy).Contents (Elt F)),
    StableHlo.nullary main_c_6 (constantI S_ 32 0#32),
    StableHlo.nullary main_c_7 (constantI S_ 32 8191#32) ]
/-- The buffers they write. -/
abbrev rst_10_writes : List (Ref sig .tc) :=
  [main_c_4, main_v20, main_v21, main_c_5, main_v22, main_v23, main_v24, main_v25, main_v26, main_v27, main_v28, main_v29, main_c_6, main_c_7]

/-- 6 host operations (fn_clip), in order. -/
abbrev rst_11 : List (HloOp τ sig (Elt F)) :=
  [ StableHlo.TRef.unary (.of main_c_6 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4x512x16, .i32⟩) (broadcastInDim S4x512x16 ![] bcast_S_S4x512x16),
    StableHlo.TRef.binary (.of main_call5_v1 : StableHlo.TRef sig ⟨S4x512x16, .i32⟩) (.of main_arg4 : StableHlo.TRef sig ⟨S4x512x16, .i32⟩) (.of main_call5_v2 : StableHlo.TRef sig ⟨S4x512x16, .i32⟩) maxsi,
    StableHlo.TRef.unary (.of main_c_7 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S4x512x16, .i32⟩) (broadcastInDim S4x512x16 ![] bcast_S_S4x512x16),
    StableHlo.TRef.binary (.of main_call5_v4 : StableHlo.TRef sig ⟨S4x512x16, .i32⟩) (.of main_call5_v2 : StableHlo.TRef sig ⟨S4x512x16, .i32⟩) (.of main_v30 : StableHlo.TRef sig ⟨S4x512x16, .i32⟩) minsi ]
/-- The buffers they write. -/
abbrev rst_11_writes : List (Ref sig .tc) :=
  [main_call5_v0, main_call5_v1, main_call5_v2, main_call5_v3, main_call5_v4, main_v30]

/-- 23 host operations (main), in order. -/
abbrev rst_12 : List (HloOp τ sig (Elt F)) :=
  [ StableHlo.nullary main_v31 (iotaInDim S7 32 0),
    StableHlo.nullary main_c_8 (constantI S_ 32 4294967293#32),
    StableHlo.unary main_c_8 main_v32 (broadcastInDim S7 ![] bcast_S_S7 : (⟨S_, .i32⟩ : BufTy).Contents (Elt F) → (⟨S7, .i32⟩ : BufTy).Contents (Elt F)),
    StableHlo.binary main_v32 main_v31 main_v33 (addi : (⟨S7, .i32⟩ : BufTy).Contents (Elt F) → (⟨S7, .i32⟩ : BufTy).Contents (Elt F) → (⟨S7, .i32⟩ : BufTy).Contents (Elt F)),
    StableHlo.unary main_v33 main_v34 (absi : (⟨S7, .i32⟩ : BufTy).Contents (Elt F) → (⟨S7, .i32⟩ : BufTy).Contents (Elt F)),
    StableHlo.unary main_v34 main_v35 (sitofp .f32 : (⟨S7, .i32⟩ : BufTy).Contents (Elt F) → (⟨S7, .f32⟩ : BufTy).Contents (Elt F)),
    StableHlo.nullary main_cst_9 (constant S_ .f32 0xC0000000#32),
    StableHlo.unary main_cst_9 main_v36 (broadcastInDim S7 ![] bcast_S_S7 : (⟨S_, .f32⟩ : BufTy).Contents (Elt F) → (⟨S7, .f32⟩ : BufTy).Contents (Elt F)),
    StableHlo.binary main_v36 main_v35 main_v37 (mulf : (⟨S7, .f32⟩ : BufTy).Contents (Elt F) → (⟨S7, .f32⟩ : BufTy).Contents (Elt F) → (⟨S7, .f32⟩ : BufTy).Contents (Elt F)),
    StableHlo.unary main_v37 main_v38 (Host.exp : (⟨S7, .f32⟩ : BufTy).Contents (Elt F) → (⟨S7, .f32⟩ : BufTy).Contents (Elt F)),
    StableHlo.nullary main_cst_10 (constant S_ .f32 0x00000000#32),
    StableHlo.binary main_v38 main_cst_10 main_v39 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.nullary main_cst_11 (constant S_ .f32 0x322BCC77#32),
    StableHlo.binary main_v39 main_cst_11 main_v40 (addf : (⟨S_, .f32⟩ : BufTy).Contents (Elt F) → (⟨S_, .f32⟩ : BufTy).Contents (Elt F) → (⟨S_, .f32⟩ : BufTy).Contents (Elt F)),
    StableHlo.unary main_v40 main_v41 (broadcastInDim S7 ![] bcast_S_S7 : (⟨S_, .f32⟩ : BufTy).Contents (Elt F) → (⟨S7, .f32⟩ : BufTy).Contents (Elt F)),
    StableHlo.binary main_v38 main_v41 main_v42 (Host.divf : (⟨S7, .f32⟩ : BufTy).Contents (Elt F) → (⟨S7, .f32⟩ : BufTy).Contents (Elt F) → (⟨S7, .f32⟩ : BufTy).Contents (Elt F)),
    StableHlo.unary main_v30 main_v43 (broadcastInDim S4x512x16x1 ![0, 1, 2] bcast_S4x512x16_S4x512x16x1_0_1_2 : (⟨S4x512x16, .i32⟩ : BufTy).Contents (Elt F) → (⟨S4x512x16x1, .i32⟩ : BufTy).Contents (Elt F)),
    StableHlo.unary main_v33 main_v44 (broadcastInDim S1x1x1x7 ![3] bcast_S7_S1x1x1x7_3 : (⟨S7, .i32⟩ : BufTy).Contents (Elt F) → (⟨S1x1x1x7, .i32⟩ : BufTy).Contents (Elt F)),
    StableHlo.unary main_v43 main_v45 (broadcastInDim S4x512x16x7 ![0, 1, 2, 3] bcast_S4x512x16x1_S4x512x16x7_0_1_2_3 : (⟨S4x512x16x1, .i32⟩ : BufTy).Contents (Elt F) → (⟨S4x512x16x7, .i32⟩ : BufTy).Contents (Elt F)),
    StableHlo.unary main_v44 main_v46 (broadcastInDim S4x512x16x7 ![0, 1, 2, 3] bcast_S1x1x1x7_S4x512x16x7_0_1_2_3 : (⟨S1x1x1x7, .i32⟩ : BufTy).Contents (Elt F) → (⟨S4x512x16x7, .i32⟩ : BufTy).Contents (Elt F)),
    StableHlo.binary main_v45 main_v46 main_v47 (addi : (⟨S4x512x16x7, .i32⟩ : BufTy).Contents (Elt F) → (⟨S4x512x16x7, .i32⟩ : BufTy).Contents (Elt F) → (⟨S4x512x16x7, .i32⟩ : BufTy).Contents (Elt F)),
    StableHlo.nullary main_c_12 (constantI S_ 32 0#32),
    StableHlo.nullary main_c_13 (constantI S_ 32 8191#32) ]
/-- The buffers they write. -/
abbrev rst_12_writes : List (Ref sig .tc) :=
  [main_v31, main_c_8, main_v32, main_v33, main_v34, main_v35, main_cst_9, main_v36, main_v37, main_v38, main_cst_10, main_v39, main_cst_11, main_v40, main_v41, main_v42, main_v43, main_v44, main_v45, main_v46, main_v47, main_c_12, main_c_13]

/-- 6 host operations (fn_clip_2), in order. -/
abbrev rst_13 : List (HloOp τ sig (Elt F)) :=
  [ StableHlo.TRef.unary (.of main_c_12 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S4x512x16x7, .i32⟩) (broadcastInDim S4x512x16x7 ![] bcast_S_S4x512x16x7),
    StableHlo.TRef.binary (.of main_call6_v1 : StableHlo.TRef sig ⟨S4x512x16x7, .i32⟩) (.of main_v47 : StableHlo.TRef sig ⟨S4x512x16x7, .i32⟩) (.of main_call6_v2 : StableHlo.TRef sig ⟨S4x512x16x7, .i32⟩) maxsi,
    StableHlo.TRef.unary (.of main_c_13 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S4x512x16x7, .i32⟩) (broadcastInDim S4x512x16x7 ![] bcast_S_S4x512x16x7),
    StableHlo.TRef.binary (.of main_call6_v4 : StableHlo.TRef sig ⟨S4x512x16x7, .i32⟩) (.of main_call6_v2 : StableHlo.TRef sig ⟨S4x512x16x7, .i32⟩) (.of main_v48 : StableHlo.TRef sig ⟨S4x512x16x7, .i32⟩) minsi ]
/-- The buffers they write. -/
abbrev rst_13_writes : List (Ref sig .tc) :=
  [main_call6_v0, main_call6_v1, main_call6_v2, main_call6_v3, main_call6_v4, main_v48]

/-- 22 host operations (fn_take_along_axis_3), in order. -/
abbrev rst_14 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S4x512x16x7, .i32⟩) (broadcastInDim S4x512x16x7 ![] bcast_S_S4x512x16x7),
    StableHlo.TRef.binary (.of main_v48 : StableHlo.TRef sig ⟨S4x512x16x7, .i32⟩) (.of main_call7_v0 : StableHlo.TRef sig ⟨S4x512x16x7, .i32⟩) (.of main_call7_v1 : StableHlo.TRef sig ⟨S4x512x16x7, .i1⟩) (cmpi .slt),
    StableHlo.TRef.nullary (.of main_call7_c_0 : StableHlo.TRef sig ⟨S_, .i32⟩) (constantI S_ 32 8192#32),
    StableHlo.TRef.unary (.of main_call7_c_0 : StableHlo.TRef sig ⟨S_, .i32⟩) (.of main_call7_v2 : StableHlo.TRef sig ⟨S4x512x16x7, .i32⟩) (broadcastInDim S4x512x16x7 ![] bcast_S_S4x512x16x7),
    StableHlo.TRef.binary (.of main_v48 : StableHlo.TRef sig ⟨S4x512x16x7, .i32⟩) (.of main_call7_v2 : StableHlo.TRef sig ⟨S4x512x16x7, .i32⟩) (.of main_call7_v3 : StableHlo.TRef sig ⟨S4x512x16x7, .i32⟩) addi,
    StableHlo.TRef.ternary (.of main_call7_v1 : StableHlo.TRef sig ⟨S4x512x16x7, .i1⟩) (.of main_call7_v3 : StableHlo.TRef sig ⟨S4x512x16x7, .i32⟩) (.of main_v48 : StableHlo.TRef sig ⟨S4x512x16x7, .i32⟩) (.of main_call7_v4 : StableHlo.TRef sig ⟨S4x512x16x7, .i32⟩) select,
    StableHlo.TRef.reshape (.of main_call7_v4 : StableHlo.TRef sig ⟨S4x512x16x7, .i32⟩) (.of main_call7_v5 : StableHlo.TRef sig ⟨S4x512x16x7x1, .i32⟩) rfl shapeCasts_S4x512x16x7_S4x512x16x7x1,
    StableHlo.TRef.nullary (.of main_call7_c_1 : StableHlo.TRef sig ⟨S1, .i32⟩) (constantI S1 32 8191#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S4x512x16x7x1, .i32⟩) (broadcastInDim S4x512x16x7x1 ![] bcast_S_S4x512x16x7x1),
    StableHlo.TRef.binary (.of main_call7_v5 : StableHlo.TRef sig ⟨S4x512x16x7x1, .i32⟩) (.of main_call7_v6 : StableHlo.TRef sig ⟨S4x512x16x7x1, .i32⟩) (.of main_call7_v7 : StableHlo.TRef sig ⟨S4x512x16x7x1, .i1⟩) (cmpi .sge),
    StableHlo.TRef.unary (.of main_call7_c_1 : StableHlo.TRef sig ⟨S1, .i32⟩) (.of main_call7_v8 : StableHlo.TRef sig ⟨S1x1x1x1x1, .i32⟩) (broadcastInDim S1x1x1x1x1 ![4] bcast_S1_S1x1x1x1x1_4),
    StableHlo.TRef.unary (.of main_call7_v8 : StableHlo.TRef sig ⟨S1x1x1x1x1, .i32⟩) (.of main_call7_v9 : StableHlo.TRef sig ⟨S4x512x16x7x1, .i32⟩) (broadcastInDim S4x512x16x7x1 ![0, 1, 2, 3, 4] bcast_S1x1x1x1x1_S4x512x16x7x1_0_1_2_3_4),
    StableHlo.TRef.binary (.of main_call7_v5 : StableHlo.TRef sig ⟨S4x512x16x7x1, .i32⟩) (.of main_call7_v9 : StableHlo.TRef sig ⟨S4x512x16x7x1, .i32⟩) (.of main_call7_v10 : StableHlo.TRef sig ⟨S4x512x16x7x1, .i1⟩) (cmpi .sle),
    StableHlo.TRef.binary (.of main_call7_v7 : StableHlo.TRef sig ⟨S4x512x16x7x1, .i1⟩) (.of main_call7_v10 : StableHlo.TRef sig ⟨S4x512x16x7x1, .i1⟩) (.of main_call7_v11 : StableHlo.TRef sig ⟨S4x512x16x7x1, .i1⟩) andi,
    StableHlo.TRef.nullary (.of main_call7_c_3 : StableHlo.TRef sig ⟨S_, .i1⟩) (constantI S_ 1 1#1),
    StableHlo.TRef.binary (.of main_call7_v11 : StableHlo.TRef sig ⟨S4x512x16x7x1, .i1⟩) (.of main_call7_c_3 : StableHlo.TRef sig ⟨S_, .i1⟩) (.of main_call7_v12 : StableHlo.TRef sig ⟨S4x512x16x7, .i1⟩) (fun x v => Host.reduce IntOp.andi x v reducesTo_S4x512x16x7x1_S4x512x16x7_d4 h_S_),
    StableHlo.TRef.binary (.of main_v19 : StableHlo.TRef sig ⟨S4x512x16x8192, .f32⟩) (.of main_call7_v5 : StableHlo.TRef sig ⟨S4x512x16x7x1, .i32⟩) (.of main_call7_v13 : StableHlo.TRef sig ⟨S4x512x16x7, .f32⟩) (fun x i => Host.gather gather_S4x512x16x8192_S4x512x16x7x1_S4x512x16x7_n_3_012_012_3_4_1111 x i),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S4x512x16x7, .f32⟩) (broadcastInDim S4x512x16x7 ![] bcast_S_S4x512x16x7),
    StableHlo.TRef.ternary (.of main_call7_v12 : StableHlo.TRef sig ⟨S4x512x16x7, .i1⟩) (.of main_call7_v13 : StableHlo.TRef sig ⟨S4x512x16x7, .f32⟩) (.of main_call7_v14 : StableHlo.TRef sig ⟨S4x512x16x7, .f32⟩) (.of main_v49 : StableHlo.TRef sig ⟨S4x512x16x7, .f32⟩) select ]
/-- The buffers they write. -/
abbrev rst_14_writes : List (Ref sig .tc) :=
  [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v49]

/-- 8 host operations (main), in order. -/
abbrev rst_15 : List (HloOp τ sig (Elt F)) :=
  [ StableHlo.unary main_v42 main_v50 (broadcastInDim S1x1x1x7 ![3] bcast_S7_S1x1x1x7_3 : (⟨S7, .f32⟩ : BufTy).Contents (Elt F) → (⟨S1x1x1x7, .f32⟩ : BufTy).Contents (Elt F)),
    StableHlo.unary main_v50 main_v51 (broadcastInDim S4x512x16x7 ![0, 1, 2, 3] bcast_S1x1x1x7_S4x512x16x7_0_1_2_3 : (⟨S1x1x1x7, .f32⟩ : BufTy).Contents (Elt F) → (⟨S4x512x16x7, .f32⟩ : BufTy).Contents (Elt F)),
    StableHlo.binary main_v49 main_v51 main_v52 (mulf : (⟨S4x512x16x7, .f32⟩ : BufTy).Contents (Elt F) → (⟨S4x512x16x7, .f32⟩ : BufTy).Contents (Elt F) → (⟨S4x512x16x7, .f32⟩ : BufTy).Contents (Elt F)),
    StableHlo.nullary main_cst_14 (constant S_ .f32 0x00000000#32),
    StableHlo.binary main_v52 main_cst_14 main_v53 ((fun x v => Host.reduceAdd x v reducesTo_S4x512x16x7_S4x512x16_d3 h_S_) : (⟨S4x512x16x7, .f32⟩ : BufTy).Contents (Elt F) → (⟨S_, .f32⟩ : BufTy).Contents (Elt F) → (⟨S4x512x16, .f32⟩ : BufTy).Contents (Elt F)),
    StableHlo.unary main_v53 main_v54 (Host.negf : (⟨S4x512x16, .f32⟩ : BufTy).Contents (Elt F) → (⟨S4x512x16, .f32⟩ : BufTy).Contents (Elt F)),
    StableHlo.binary main_v54 main_v54 main_v55 (cmpf .une : (⟨S4x512x16, .f32⟩ : BufTy).Contents (Elt F) → (⟨S4x512x16, .f32⟩ : BufTy).Contents (Elt F) → (⟨S4x512x16, .i1⟩ : BufTy).Contents (Elt F)),
    StableHlo.nullary main_cst_15 (constant S_ .f32 0x00000000#32) ]
/-- The buffers they write. -/
abbrev rst_15_writes : List (Ref sig .tc) :=
  [main_v50, main_v51, main_v52, main_cst_14, main_v53, main_v54, main_v55, main_cst_15]

/-- 3 host operations (fn_where_4), in order. -/
abbrev rst_16 : List (HloOp τ sig (Elt F)) :=
  [ StableHlo.TRef.unary (.of main_cst_15 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S4x512x16, .f32⟩) (broadcastInDim S4x512x16 ![] bcast_S_S4x512x16),
    StableHlo.TRef.ternary (.of main_v55 : StableHlo.TRef sig ⟨S4x512x16, .i1⟩) (.of main_call8_v1 : StableHlo.TRef sig ⟨S4x512x16, .f32⟩) (.of main_v54 : StableHlo.TRef sig ⟨S4x512x16, .f32⟩) (.of main_v56 : StableHlo.TRef sig ⟨S4x512x16, .f32⟩) select ]
/-- The buffers they write. -/
abbrev rst_16_writes : List (Ref sig .tc) :=
  [main_call8_v0, main_call8_v1, main_v56]

/-- 13 host operations (main), in order. -/
abbrev rst_17 : List (HloOp τ sig (Elt F)) :=
  [ StableHlo.binary main_v56 main_v29 main_v57 (mulf : (⟨S4x512x16, .f32⟩ : BufTy).Contents (Elt F) → (⟨S4x512x16, .f32⟩ : BufTy).Contents (Elt F) → (⟨S4x512x16, .f32⟩ : BufTy).Contents (Elt F)),
    StableHlo.nullary main_cst_16 (constant S_ .f32 0x00000000#32),
    StableHlo.binary main_v57 main_cst_16 main_v58 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v29 main_cst_17 main_v59 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_18 (constant S_ .f32 0x322BCC77#32),
    StableHlo.binary main_v59 main_cst_18 main_v60 (addf : (⟨S_, .f32⟩ : BufTy).Contents (Elt F) → (⟨S_, .f32⟩ : BufTy).Contents (Elt F) → (⟨S_, .f32⟩ : BufTy).Contents (Elt F)),
    StableHlo.binary main_v58 main_v60 main_v61 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x3F800000#32),
    StableHlo.binary main_cst_19 main_v18 main_v62 (mulf : (⟨S_, .f32⟩ : BufTy).Contents (Elt F) → (⟨S_, .f32⟩ : BufTy).Contents (Elt F) → (⟨S_, .f32⟩ : BufTy).Contents (Elt F)),
    StableHlo.nullary main_cst_20 (constant S_ .f32 0x3F800000#32),
    StableHlo.binary main_cst_20 main_v61 main_v63 (mulf : (⟨S_, .f32⟩ : BufTy).Contents (Elt F) → (⟨S_, .f32⟩ : BufTy).Contents (Elt F) → (⟨S_, .f32⟩ : BufTy).Contents (Elt F)),
    StableHlo.binary main_v62 main_v63 main_v64 (addf : (⟨S_, .f32⟩ : BufTy).Contents (Elt F) → (⟨S_, .f32⟩ : BufTy).Contents (Elt F) → (⟨S_, .f32⟩ : BufTy).Contents (Elt F)) ]
/-- The buffers they write. -/
abbrev rst_17_writes : List (Ref sig .tc) :=
  [main_v57, main_cst_16, main_v58, main_cst_17, main_v59, main_cst_18, main_v60, main_v61, main_cst_19, main_v62, main_cst_20, main_v63, main_v64]

/-- The stretches, in order. -/
abbrev rst_all : List (List (HloOp τ sig (Elt F))) :=
  [rst_0, rst_1, rst_2, rst_3, rst_4, rst_5, rst_6, rst_7, rst_8, rst_9, rst_10, rst_11, rst_12, rst_13, rst_14, rst_15, rst_16, rst_17]

/-- The program's host operations, calls inlined, in order. -/
abbrev rops : List (HloOp τ sig (Elt F)) :=
  [ StableHlo.nullary main_c (constantI S_ 32 3#32),
    StableHlo.unary main_c main_v0 (broadcastInDim S4x512 ![] bcast_S_S4x512 : (⟨S_, .i32⟩ : BufTy).Contents (Elt F) → (⟨S4x512, .i32⟩ : BufTy).Contents (Elt F)),
    StableHlo.binary main_arg3 main_v0 main_v1 (cmpi .eq : (⟨S4x512, .i32⟩ : BufTy).Contents (Elt F) → (⟨S4x512, .i32⟩ : BufTy).Contents (Elt F) → (⟨S4x512, .i1⟩ : BufTy).Contents (Elt F)),
    StableHlo.unary main_v1 main_v2 ((extui 32 · natLt_1_32) : (⟨S4x512, .i1⟩ : BufTy).Contents (Elt F) → (⟨S4x512, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v2 : StableHlo.TRef sig ⟨S4x512, .i32⟩) (.of main_call0_call0_v0 : StableHlo.TRef sig ⟨S_, .i32⟩) (.of main_v3 : StableHlo.TRef sig ⟨S4x512, .i32⟩) (fun x v => Host.reduceWindow IntOp.addi ![1, 512] ![1, 1] ![0, 511] ![0, 0] x v reduceWindows_S4x512_S4x512_w1s1p0_0_w512s1p511_0 h_S_),
    StableHlo.nullary main_c_0 (constantI S_ 32 1#32),
    StableHlo.unary main_c_0 main_v4 (broadcastInDim S4x512 ![] bcast_S_S4x512 : (⟨S_, .i32⟩ : BufTy).Contents (Elt F) → (⟨S4x512, .i32⟩ : BufTy).Contents (Elt F)),
    StableHlo.binary main_v3 main_v4 main_v5 (cmpi .sle : (⟨S4x512, .i32⟩ : BufTy).Contents (Elt F) → (⟨S4x512, .i32⟩ : BufTy).Contents (Elt F) → (⟨S4x512, .i1⟩ : BufTy).Contents (Elt F)),
    StableHlo.unary main_v5 main_v6 (uitofp .f32 : (⟨S4x512, .i1⟩ : BufTy).Contents (Elt F) → (⟨S4x512, .f32⟩ : BufTy).Contents (Elt F)),
    StableHlo.TRef.nullary (.of main_call1_cst : StableHlo.TRef sig ⟨S_, .f32⟩) (constant S_ .f32 0xFF800000#32),
    StableHlo.TRef.binary (.of main_arg0 : StableHlo.TRef sig ⟨S4x512x10, .f32⟩) (.of main_call1_cst : StableHlo.TRef sig ⟨S_, .f32⟩) (.of main_call1_v0 : StableHlo.TRef sig ⟨S4x512, .f32⟩) (fun x v => Host.reduce FloatOps.maximumf x v reducesTo_S4x512x10_S4x512_d2 h_S_),
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v1 : StableHlo.TRef sig ⟨S4x512, .f32⟩) (broadcastInDim S4x512 ![] bcast_S_S4x512),
    StableHlo.TRef.binary (.of main_call1_v1 : StableHlo.TRef sig ⟨S4x512, .f32⟩) (.of main_call1_v0 : StableHlo.TRef sig ⟨S4x512, .f32⟩) (.of main_call1_v2 : StableHlo.TRef sig ⟨S4x512, .f32⟩) maximumf,
    StableHlo.TRef.unary (.of main_call1_v2 : StableHlo.TRef sig ⟨S4x512, .f32⟩) (.of main_call1_v3 : StableHlo.TRef sig ⟨S4x512x1, .f32⟩) (broadcastInDim S4x512x1 ![0, 1] bcast_S4x512_S4x512x1_0_1),
    StableHlo.TRef.unary (.of main_call1_v3 : StableHlo.TRef sig ⟨S4x512x1, .f32⟩) (.of main_call1_v4 : StableHlo.TRef sig ⟨S4x512x10, .f32⟩) (broadcastInDim S4x512x10 ![0, 1, 2] bcast_S4x512x1_S4x512x10_0_1_2),
    StableHlo.TRef.binary (.of main_arg0 : StableHlo.TRef sig ⟨S4x512x10, .f32⟩) (.of main_call1_v4 : StableHlo.TRef sig ⟨S4x512x10, .f32⟩) (.of main_call1_v5 : StableHlo.TRef sig ⟨S4x512x10, .f32⟩) subf,
    StableHlo.TRef.unary (.of main_call1_v5 : StableHlo.TRef sig ⟨S4x512x10, .f32⟩) (.of main_call1_v6 : StableHlo.TRef sig ⟨S4x512x10, .f32⟩) Host.exp,
    StableHlo.TRef.nullary (.of main_call1_cst_1 : StableHlo.TRef sig ⟨S_, .f32⟩) (constant S_ .f32 0x00000000#32),
    StableHlo.TRef.binary (.of main_call1_v6 : StableHlo.TRef sig ⟨S4x512x10, .f32⟩) (.of main_call1_cst_1 : StableHlo.TRef sig ⟨S_, .f32⟩) (.of main_call1_v7 : StableHlo.TRef sig ⟨S4x512, .f32⟩) (fun x v => Host.reduceAdd x v reducesTo_S4x512x10_S4x512_d2 h_S_),
    StableHlo.TRef.unary (.of main_call1_v7 : StableHlo.TRef sig ⟨S4x512, .f32⟩) (.of main_call1_v8 : StableHlo.TRef sig ⟨S4x512x1, .f32⟩) (broadcastInDim S4x512x1 ![0, 1] bcast_S4x512_S4x512x1_0_1),
    StableHlo.TRef.unary (.of main_call1_v8 : StableHlo.TRef sig ⟨S4x512x1, .f32⟩) (.of main_call1_v9 : StableHlo.TRef sig ⟨S4x512x1, .f32⟩) Host.log,
    StableHlo.TRef.unary (.of main_call1_v9 : StableHlo.TRef sig ⟨S4x512x1, .f32⟩) (.of main_call1_v10 : StableHlo.TRef sig ⟨S4x512x10, .f32⟩) (broadcastInDim S4x512x10 ![0, 1, 2] bcast_S4x512x1_S4x512x10_0_1_2),
    StableHlo.TRef.binary (.of main_call1_v5 : StableHlo.TRef sig ⟨S4x512x10, .f32⟩) (.of main_call1_v10 : StableHlo.TRef sig ⟨S4x512x10, .f32⟩) (.of main_v7 : StableHlo.TRef sig ⟨S4x512x10, .f32⟩) subf,
    StableHlo.unary main_arg3 main_v8 (broadcastInDim S4x512x1 ![0, 1] bcast_S4x512_S4x512x1_0_1 : (⟨S4x512, .i32⟩ : BufTy).Contents (Elt F) → (⟨S4x512x1, .i32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x512x1, .i32⟩) (broadcastInDim S4x512x1 ![] bcast_S_S4x512x1),
    StableHlo.TRef.binary (.of main_v8 : StableHlo.TRef sig ⟨S4x512x1, .i32⟩) (.of main_call2_v0 : StableHlo.TRef sig ⟨S4x512x1, .i32⟩) (.of main_call2_v1 : StableHlo.TRef sig ⟨S4x512x1, .i1⟩) (cmpi .slt),
    StableHlo.TRef.nullary (.of main_call2_c_0 : StableHlo.TRef sig ⟨S_, .i32⟩) (constantI S_ 32 10#32),
    StableHlo.TRef.unary (.of main_call2_c_0 : StableHlo.TRef sig ⟨S_, .i32⟩) (.of main_call2_v2 : StableHlo.TRef sig ⟨S4x512x1, .i32⟩) (broadcastInDim S4x512x1 ![] bcast_S_S4x512x1),
    StableHlo.TRef.binary (.of main_v8 : StableHlo.TRef sig ⟨S4x512x1, .i32⟩) (.of main_call2_v2 : StableHlo.TRef sig ⟨S4x512x1, .i32⟩) (.of main_call2_v3 : StableHlo.TRef sig ⟨S4x512x1, .i32⟩) addi,
    StableHlo.TRef.ternary (.of main_call2_v1 : StableHlo.TRef sig ⟨S4x512x1, .i1⟩) (.of main_call2_v3 : StableHlo.TRef sig ⟨S4x512x1, .i32⟩) (.of main_v8 : StableHlo.TRef sig ⟨S4x512x1, .i32⟩) (.of main_call2_v4 : StableHlo.TRef sig ⟨S4x512x1, .i32⟩) select,
    StableHlo.TRef.reshape (.of main_call2_v4 : StableHlo.TRef sig ⟨S4x512x1, .i32⟩) (.of main_call2_v5 : StableHlo.TRef sig ⟨S4x512x1x1, .i32⟩) rfl shapeCasts_S4x512x1_S4x512x1x1,
    StableHlo.TRef.nullary (.of main_call2_c_1 : StableHlo.TRef sig ⟨S1, .i32⟩) (constantI S1 32 9#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4x512x1x1, .i32⟩) (broadcastInDim S4x512x1x1 ![] bcast_S_S4x512x1x1),
    StableHlo.TRef.binary (.of main_call2_v5 : StableHlo.TRef sig ⟨S4x512x1x1, .i32⟩) (.of main_call2_v6 : StableHlo.TRef sig ⟨S4x512x1x1, .i32⟩) (.of main_call2_v7 : StableHlo.TRef sig ⟨S4x512x1x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S4x512x1x1, .i32⟩) (broadcastInDim S4x512x1x1 ![0, 1, 2, 3] bcast_S1x1x1x1_S4x512x1x1_0_1_2_3),
    StableHlo.TRef.binary (.of main_call2_v5 : StableHlo.TRef sig ⟨S4x512x1x1, .i32⟩) (.of main_call2_v9 : StableHlo.TRef sig ⟨S4x512x1x1, .i32⟩) (.of main_call2_v10 : StableHlo.TRef sig ⟨S4x512x1x1, .i1⟩) (cmpi .sle),
    StableHlo.TRef.binary (.of main_call2_v7 : StableHlo.TRef sig ⟨S4x512x1x1, .i1⟩) (.of main_call2_v10 : StableHlo.TRef sig ⟨S4x512x1x1, .i1⟩) (.of main_call2_v11 : StableHlo.TRef sig ⟨S4x512x1x1, .i1⟩) andi,
    StableHlo.TRef.nullary (.of main_call2_c_3 : StableHlo.TRef sig ⟨S_, .i1⟩) (constantI S_ 1 1#1),
    StableHlo.TRef.binary (.of main_call2_v11 : StableHlo.TRef sig ⟨S4x512x1x1, .i1⟩) (.of main_call2_c_3 : StableHlo.TRef sig ⟨S_, .i1⟩) (.of main_call2_v12 : StableHlo.TRef sig ⟨S4x512x1, .i1⟩) (fun x v => Host.reduce IntOp.andi x v reducesTo_S4x512x1x1_S4x512x1_d3 h_S_),
    StableHlo.TRef.binary (.of main_v7 : StableHlo.TRef sig ⟨S4x512x10, .f32⟩) (.of main_call2_v5 : StableHlo.TRef sig ⟨S4x512x1x1, .i32⟩) (.of main_call2_v13 : StableHlo.TRef sig ⟨S4x512x1, .f32⟩) (fun x i => Host.gather gather_S4x512x10_S4x512x1x1_S4x512x1_n_2_01_01_2_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x512x1, .f32⟩) (broadcastInDim S4x512x1 ![] bcast_S_S4x512x1),
    StableHlo.TRef.ternary (.of main_call2_v12 : StableHlo.TRef sig ⟨S4x512x1, .i1⟩) (.of main_call2_v13 : StableHlo.TRef sig ⟨S4x512x1, .f32⟩) (.of main_call2_v14 : StableHlo.TRef sig ⟨S4x512x1, .f32⟩) (.of main_v9 : StableHlo.TRef sig ⟨S4x512x1, .f32⟩) select,
    StableHlo.reshape main_v9 main_v10 rfl shapeCasts_S4x512x1_S4x512,
    StableHlo.unary main_v10 main_v11 (Host.negf : (⟨S4x512, .f32⟩ : BufTy).Contents (Elt F) → (⟨S4x512, .f32⟩ : BufTy).Contents (Elt F)),
    StableHlo.binary main_v11 main_v11 main_v12 (cmpf .une : (⟨S4x512, .f32⟩ : BufTy).Contents (Elt F) → (⟨S4x512, .f32⟩ : BufTy).Contents (Elt F) → (⟨S4x512, .i1⟩ : BufTy).Contents (Elt F)),
    StableHlo.nullary main_cst (constant S_ .f32 0x00000000#32),
    StableHlo.TRef.unary (.of main_cst : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4x512, .f32⟩) (broadcastInDim S4x512 ![] bcast_S_S4x512),
    StableHlo.TRef.ternary (.of main_v12 : StableHlo.TRef sig ⟨S4x512, .i1⟩) (.of main_call3_v1 : StableHlo.TRef sig ⟨S4x512, .f32⟩) (.of main_v11 : StableHlo.TRef sig ⟨S4x512, .f32⟩) (.of main_v13 : StableHlo.TRef sig ⟨S4x512, .f32⟩) select,
    StableHlo.binary main_v13 main_v6 main_v14 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v14 main_cst_1 main_v15 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v6 main_cst_2 main_v16 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v16 main_cst_3 main_v17 (addf : (⟨S_, .f32⟩ : BufTy).Contents (Elt F) → (⟨S_, .f32⟩ : BufTy).Contents (Elt F) → (⟨S_, .f32⟩ : BufTy).Contents (Elt F)),
    StableHlo.binary main_v15 main_v17 main_v18 (Host.divf : (⟨S_, .f32⟩ : BufTy).Contents (Elt F) → (⟨S_, .f32⟩ : BufTy).Contents (Elt F) → (⟨S_, .f32⟩ : BufTy).Contents (Elt F)),
    StableHlo.TRef.nullary (.of main_call4_cst : StableHlo.TRef sig ⟨S_, .f32⟩) (constant S_ .f32 0xFF800000#32),
    StableHlo.TRef.binary (.of main_arg1 : StableHlo.TRef sig ⟨S4x512x16x8192, .f32⟩) (.of main_call4_cst : StableHlo.TRef sig ⟨S_, .f32⟩) (.of main_call4_v0 : StableHlo.TRef sig ⟨S4x512x16, .f32⟩) (fun x v => Host.reduce FloatOps.maximumf x v reducesTo_S4x512x16x8192_S4x512x16_d3 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S4x512x16, .f32⟩) (broadcastInDim S4x512x16 ![] bcast_S_S4x512x16),
    StableHlo.TRef.binary (.of main_call4_v1 : StableHlo.TRef sig ⟨S4x512x16, .f32⟩) (.of main_call4_v0 : StableHlo.TRef sig ⟨S4x512x16, .f32⟩) (.of main_call4_v2 : StableHlo.TRef sig ⟨S4x512x16, .f32⟩) maximumf,
    StableHlo.TRef.unary (.of main_call4_v2 : StableHlo.TRef sig ⟨S4x512x16, .f32⟩) (.of main_call4_v3 : StableHlo.TRef sig ⟨S4x512x16x1, .f32⟩) (broadcastInDim S4x512x16x1 ![0, 1, 2] bcast_S4x512x16_S4x512x16x1_0_1_2),
    StableHlo.TRef.unary (.of main_call4_v3 : StableHlo.TRef sig ⟨S4x512x16x1, .f32⟩) (.of main_call4_v4 : StableHlo.TRef sig ⟨S4x512x16x8192, .f32⟩) (broadcastInDim S4x512x16x8192 ![0, 1, 2, 3] bcast_S4x512x16x1_S4x512x16x8192_0_1_2_3),
    StableHlo.TRef.binary (.of main_arg1 : StableHlo.TRef sig ⟨S4x512x16x8192, .f32⟩) (.of main_call4_v4 : StableHlo.TRef sig ⟨S4x512x16x8192, .f32⟩) (.of main_call4_v5 : StableHlo.TRef sig ⟨S4x512x16x8192, .f32⟩) subf,
    StableHlo.TRef.unary (.of main_call4_v5 : StableHlo.TRef sig ⟨S4x512x16x8192, .f32⟩) (.of main_call4_v6 : StableHlo.TRef sig ⟨S4x512x16x8192, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S4x512x16x8192, .f32⟩) (.of main_call4_cst_1 : StableHlo.TRef sig ⟨S_, .f32⟩) (.of main_call4_v7 : StableHlo.TRef sig ⟨S4x512x16, .f32⟩) (fun x v => Host.reduceAdd x v reducesTo_S4x512x16x8192_S4x512x16_d3 h_S_),
    StableHlo.TRef.unary (.of main_call4_v7 : StableHlo.TRef sig ⟨S4x512x16, .f32⟩) (.of main_call4_v8 : StableHlo.TRef sig ⟨S4x512x16x1, .f32⟩) (broadcastInDim S4x512x16x1 ![0, 1, 2] bcast_S4x512x16_S4x512x16x1_0_1_2),
    StableHlo.TRef.unary (.of main_call4_v8 : StableHlo.TRef sig ⟨S4x512x16x1, .f32⟩) (.of main_call4_v9 : StableHlo.TRef sig ⟨S4x512x16x1, .f32⟩) Host.log,
    StableHlo.TRef.unary (.of main_call4_v9 : StableHlo.TRef sig ⟨S4x512x16x1, .f32⟩) (.of main_call4_v10 : StableHlo.TRef sig ⟨S4x512x16x8192, .f32⟩) (broadcastInDim S4x512x16x8192 ![0, 1, 2, 3] bcast_S4x512x16x1_S4x512x16x8192_0_1_2_3),
    StableHlo.TRef.binary (.of main_call4_v5 : StableHlo.TRef sig ⟨S4x512x16x8192, .f32⟩) (.of main_call4_v10 : StableHlo.TRef sig ⟨S4x512x16x8192, .f32⟩) (.of main_v19 : StableHlo.TRef sig ⟨S4x512x16x8192, .f32⟩) subf,
    StableHlo.nullary main_c_4 (constantI S_ 32 0#32),
    StableHlo.unary main_c_4 main_v20 (broadcastInDim S4x512 ![] bcast_S_S4x512 : (⟨S_, .i32⟩ : BufTy).Contents (Elt F) → (⟨S4x512, .i32⟩ : BufTy).Contents (Elt F)),
    StableHlo.binary main_arg3 main_v20 main_v21 (cmpi .slt : (⟨S4x512, .i32⟩ : BufTy).Contents (Elt F) → (⟨S4x512, .i32⟩ : BufTy).Contents (Elt F) → (⟨S4x512, .i1⟩ : BufTy).Contents (Elt F)),
    StableHlo.nullary main_c_5 (constantI S_ 32 10#32),
    StableHlo.unary main_c_5 main_v22 (broadcastInDim S4x512 ![] bcast_S_S4x512 : (⟨S_, .i32⟩ : BufTy).Contents (Elt F) → (⟨S4x512, .i32⟩ : BufTy).Contents (Elt F)),
    StableHlo.binary main_arg3 main_v22 main_v23 (addi : (⟨S4x512, .i32⟩ : BufTy).Contents (Elt F) → (⟨S4x512, .i32⟩ : BufTy).Contents (Elt F) → (⟨S4x512, .i32⟩ : BufTy).Contents (Elt F)),
    StableHlo.ternary main_v21 main_v23 main_arg3 main_v24 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_v24 main_v25 (broadcastInDim S4x512x1 ![0, 1] bcast_S4x512_S4x512x1_0_1 : (⟨S4x512, .i32⟩ : BufTy).Contents (Elt F) → (⟨S4x512x1, .i32⟩ : BufTy).Contents (Elt F)),
    StableHlo.binary main_arg2 main_v25 main_v26 ((fun x i => Host.gather gather_S10x16_S4x512x1_S4x512x16_2_0_n_n_0_2_116 x i) : (⟨S10x16, .f32⟩ : BufTy).Contents (Elt F) → (⟨S4x512x1, .i32⟩ : BufTy).Contents (Elt F) → (⟨S4x512x16, .f32⟩ : BufTy).Contents (Elt F)),
    StableHlo.unary main_v6 main_v27 (broadcastInDim S4x512x1 ![0, 1] bcast_S4x512_S4x512x1_0_1 : (⟨S4x512, .f32⟩ : BufTy).Contents (Elt F) → (⟨S4x512x1, .f32⟩ : BufTy).Contents (Elt F)),
    StableHlo.unary main_v27 main_v28 (broadcastInDim S4x512x16 ![0, 1, 2] bcast_S4x512x1_S4x512x16_0_1_2 : (⟨S4x512x1, .f32⟩ : BufTy).Contents (Elt F) → (⟨S4x512x16, .f32⟩ : BufTy).Contents (Elt F)),
    StableHlo.binary main_v28 main_v26 main_v29 (mulf : (⟨S4x512x16, .f32⟩ : BufTy).Contents (Elt F) → (⟨S4x512x16, .f32⟩ : BufTy).Contents (Elt F) → (⟨S4x512x16, .f32⟩ : BufTy).Contents (Elt F)),
    StableHlo.nullary main_c_6 (constantI S_ 32 0#32),
    StableHlo.nullary main_c_7 (constantI S_ 32 8191#32),
    StableHlo.TRef.unary (.of main_c_6 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4x512x16, .i32⟩) (broadcastInDim S4x512x16 ![] bcast_S_S4x512x16),
    StableHlo.TRef.binary (.of main_call5_v1 : StableHlo.TRef sig ⟨S4x512x16, .i32⟩) (.of main_arg4 : StableHlo.TRef sig ⟨S4x512x16, .i32⟩) (.of main_call5_v2 : StableHlo.TRef sig ⟨S4x512x16, .i32⟩) maxsi,
    StableHlo.TRef.unary (.of main_c_7 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S4x512x16, .i32⟩) (broadcastInDim S4x512x16 ![] bcast_S_S4x512x16),
    StableHlo.TRef.binary (.of main_call5_v4 : StableHlo.TRef sig ⟨S4x512x16, .i32⟩) (.of main_call5_v2 : StableHlo.TRef sig ⟨S4x512x16, .i32⟩) (.of main_v30 : StableHlo.TRef sig ⟨S4x512x16, .i32⟩) minsi,
    StableHlo.nullary main_v31 (iotaInDim S7 32 0),
    StableHlo.nullary main_c_8 (constantI S_ 32 4294967293#32),
    StableHlo.unary main_c_8 main_v32 (broadcastInDim S7 ![] bcast_S_S7 : (⟨S_, .i32⟩ : BufTy).Contents (Elt F) → (⟨S7, .i32⟩ : BufTy).Contents (Elt F)),
    StableHlo.binary main_v32 main_v31 main_v33 (addi : (⟨S7, .i32⟩ : BufTy).Contents (Elt F) → (⟨S7, .i32⟩ : BufTy).Contents (Elt F) → (⟨S7, .i32⟩ : BufTy).Contents (Elt F)),
    StableHlo.unary main_v33 main_v34 (absi : (⟨S7, .i32⟩ : BufTy).Contents (Elt F) → (⟨S7, .i32⟩ : BufTy).Contents (Elt F)),
    StableHlo.unary main_v34 main_v35 (sitofp .f32 : (⟨S7, .i32⟩ : BufTy).Contents (Elt F) → (⟨S7, .f32⟩ : BufTy).Contents (Elt F)),
    StableHlo.nullary main_cst_9 (constant S_ .f32 0xC0000000#32),
    StableHlo.unary main_cst_9 main_v36 (broadcastInDim S7 ![] bcast_S_S7 : (⟨S_, .f32⟩ : BufTy).Contents (Elt F) → (⟨S7, .f32⟩ : BufTy).Contents (Elt F)),
    StableHlo.binary main_v36 main_v35 main_v37 (mulf : (⟨S7, .f32⟩ : BufTy).Contents (Elt F) → (⟨S7, .f32⟩ : BufTy).Contents (Elt F) → (⟨S7, .f32⟩ : BufTy).Contents (Elt F)),
    StableHlo.unary main_v37 main_v38 (Host.exp : (⟨S7, .f32⟩ : BufTy).Contents (Elt F) → (⟨S7, .f32⟩ : BufTy).Contents (Elt F)),
    StableHlo.nullary main_cst_10 (constant S_ .f32 0x00000000#32),
    StableHlo.binary main_v38 main_cst_10 main_v39 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.nullary main_cst_11 (constant S_ .f32 0x322BCC77#32),
    StableHlo.binary main_v39 main_cst_11 main_v40 (addf : (⟨S_, .f32⟩ : BufTy).Contents (Elt F) → (⟨S_, .f32⟩ : BufTy).Contents (Elt F) → (⟨S_, .f32⟩ : BufTy).Contents (Elt F)),
    StableHlo.unary main_v40 main_v41 (broadcastInDim S7 ![] bcast_S_S7 : (⟨S_, .f32⟩ : BufTy).Contents (Elt F) → (⟨S7, .f32⟩ : BufTy).Contents (Elt F)),
    StableHlo.binary main_v38 main_v41 main_v42 (Host.divf : (⟨S7, .f32⟩ : BufTy).Contents (Elt F) → (⟨S7, .f32⟩ : BufTy).Contents (Elt F) → (⟨S7, .f32⟩ : BufTy).Contents (Elt F)),
    StableHlo.unary main_v30 main_v43 (broadcastInDim S4x512x16x1 ![0, 1, 2] bcast_S4x512x16_S4x512x16x1_0_1_2 : (⟨S4x512x16, .i32⟩ : BufTy).Contents (Elt F) → (⟨S4x512x16x1, .i32⟩ : BufTy).Contents (Elt F)),
    StableHlo.unary main_v33 main_v44 (broadcastInDim S1x1x1x7 ![3] bcast_S7_S1x1x1x7_3 : (⟨S7, .i32⟩ : BufTy).Contents (Elt F) → (⟨S1x1x1x7, .i32⟩ : BufTy).Contents (Elt F)),
    StableHlo.unary main_v43 main_v45 (broadcastInDim S4x512x16x7 ![0, 1, 2, 3] bcast_S4x512x16x1_S4x512x16x7_0_1_2_3 : (⟨S4x512x16x1, .i32⟩ : BufTy).Contents (Elt F) → (⟨S4x512x16x7, .i32⟩ : BufTy).Contents (Elt F)),
    StableHlo.unary main_v44 main_v46 (broadcastInDim S4x512x16x7 ![0, 1, 2, 3] bcast_S1x1x1x7_S4x512x16x7_0_1_2_3 : (⟨S1x1x1x7, .i32⟩ : BufTy).Contents (Elt F) → (⟨S4x512x16x7, .i32⟩ : BufTy).Contents (Elt F)),
    StableHlo.binary main_v45 main_v46 main_v47 (addi : (⟨S4x512x16x7, .i32⟩ : BufTy).Contents (Elt F) → (⟨S4x512x16x7, .i32⟩ : BufTy).Contents (Elt F) → (⟨S4x512x16x7, .i32⟩ : BufTy).Contents (Elt F)),
    StableHlo.nullary main_c_12 (constantI S_ 32 0#32),
    StableHlo.nullary main_c_13 (constantI S_ 32 8191#32),
    StableHlo.TRef.unary (.of main_c_12 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S4x512x16x7, .i32⟩) (broadcastInDim S4x512x16x7 ![] bcast_S_S4x512x16x7),
    StableHlo.TRef.binary (.of main_call6_v1 : StableHlo.TRef sig ⟨S4x512x16x7, .i32⟩) (.of main_v47 : StableHlo.TRef sig ⟨S4x512x16x7, .i32⟩) (.of main_call6_v2 : StableHlo.TRef sig ⟨S4x512x16x7, .i32⟩) maxsi,
    StableHlo.TRef.unary (.of main_c_13 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S4x512x16x7, .i32⟩) (broadcastInDim S4x512x16x7 ![] bcast_S_S4x512x16x7),
    StableHlo.TRef.binary (.of main_call6_v4 : StableHlo.TRef sig ⟨S4x512x16x7, .i32⟩) (.of main_call6_v2 : StableHlo.TRef sig ⟨S4x512x16x7, .i32⟩) (.of main_v48 : StableHlo.TRef sig ⟨S4x512x16x7, .i32⟩) minsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S4x512x16x7, .i32⟩) (broadcastInDim S4x512x16x7 ![] bcast_S_S4x512x16x7),
    StableHlo.TRef.binary (.of main_v48 : StableHlo.TRef sig ⟨S4x512x16x7, .i32⟩) (.of main_call7_v0 : StableHlo.TRef sig ⟨S4x512x16x7, .i32⟩) (.of main_call7_v1 : StableHlo.TRef sig ⟨S4x512x16x7, .i1⟩) (cmpi .slt),
    StableHlo.TRef.nullary (.of main_call7_c_0 : StableHlo.TRef sig ⟨S_, .i32⟩) (constantI S_ 32 8192#32),
    StableHlo.TRef.unary (.of main_call7_c_0 : StableHlo.TRef sig ⟨S_, .i32⟩) (.of main_call7_v2 : StableHlo.TRef sig ⟨S4x512x16x7, .i32⟩) (broadcastInDim S4x512x16x7 ![] bcast_S_S4x512x16x7),
    StableHlo.TRef.binary (.of main_v48 : StableHlo.TRef sig ⟨S4x512x16x7, .i32⟩) (.of main_call7_v2 : StableHlo.TRef sig ⟨S4x512x16x7, .i32⟩) (.of main_call7_v3 : StableHlo.TRef sig ⟨S4x512x16x7, .i32⟩) addi,
    StableHlo.TRef.ternary (.of main_call7_v1 : StableHlo.TRef sig ⟨S4x512x16x7, .i1⟩) (.of main_call7_v3 : StableHlo.TRef sig ⟨S4x512x16x7, .i32⟩) (.of main_v48 : StableHlo.TRef sig ⟨S4x512x16x7, .i32⟩) (.of main_call7_v4 : StableHlo.TRef sig ⟨S4x512x16x7, .i32⟩) select,
    StableHlo.TRef.reshape (.of main_call7_v4 : StableHlo.TRef sig ⟨S4x512x16x7, .i32⟩) (.of main_call7_v5 : StableHlo.TRef sig ⟨S4x512x16x7x1, .i32⟩) rfl shapeCasts_S4x512x16x7_S4x512x16x7x1,
    StableHlo.TRef.nullary (.of main_call7_c_1 : StableHlo.TRef sig ⟨S1, .i32⟩) (constantI S1 32 8191#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S4x512x16x7x1, .i32⟩) (broadcastInDim S4x512x16x7x1 ![] bcast_S_S4x512x16x7x1),
    StableHlo.TRef.binary (.of main_call7_v5 : StableHlo.TRef sig ⟨S4x512x16x7x1, .i32⟩) (.of main_call7_v6 : StableHlo.TRef sig ⟨S4x512x16x7x1, .i32⟩) (.of main_call7_v7 : StableHlo.TRef sig ⟨S4x512x16x7x1, .i1⟩) (cmpi .sge),
    StableHlo.TRef.unary (.of main_call7_c_1 : StableHlo.TRef sig ⟨S1, .i32⟩) (.of main_call7_v8 : StableHlo.TRef sig ⟨S1x1x1x1x1, .i32⟩) (broadcastInDim S1x1x1x1x1 ![4] bcast_S1_S1x1x1x1x1_4),
    StableHlo.TRef.unary (.of main_call7_v8 : StableHlo.TRef sig ⟨S1x1x1x1x1, .i32⟩) (.of main_call7_v9 : StableHlo.TRef sig ⟨S4x512x16x7x1, .i32⟩) (broadcastInDim S4x512x16x7x1 ![0, 1, 2, 3, 4] bcast_S1x1x1x1x1_S4x512x16x7x1_0_1_2_3_4),
    StableHlo.TRef.binary (.of main_call7_v5 : StableHlo.TRef sig ⟨S4x512x16x7x1, .i32⟩) (.of main_call7_v9 : StableHlo.TRef sig ⟨S4x512x16x7x1, .i32⟩) (.of main_call7_v10 : StableHlo.TRef sig ⟨S4x512x16x7x1, .i1⟩) (cmpi .sle),
    StableHlo.TRef.binary (.of main_call7_v7 : StableHlo.TRef sig ⟨S4x512x16x7x1, .i1⟩) (.of main_call7_v10 : StableHlo.TRef sig ⟨S4x512x16x7x1, .i1⟩) (.of main_call7_v11 : StableHlo.TRef sig ⟨S4x512x16x7x1, .i1⟩) andi,
    StableHlo.TRef.nullary (.of main_call7_c_3 : StableHlo.TRef sig ⟨S_, .i1⟩) (constantI S_ 1 1#1),
    StableHlo.TRef.binary (.of main_call7_v11 : StableHlo.TRef sig ⟨S4x512x16x7x1, .i1⟩) (.of main_call7_c_3 : StableHlo.TRef sig ⟨S_, .i1⟩) (.of main_call7_v12 : StableHlo.TRef sig ⟨S4x512x16x7, .i1⟩) (fun x v => Host.reduce IntOp.andi x v reducesTo_S4x512x16x7x1_S4x512x16x7_d4 h_S_),
    StableHlo.TRef.binary (.of main_v19 : StableHlo.TRef sig ⟨S4x512x16x8192, .f32⟩) (.of main_call7_v5 : StableHlo.TRef sig ⟨S4x512x16x7x1, .i32⟩) (.of main_call7_v13 : StableHlo.TRef sig ⟨S4x512x16x7, .f32⟩) (fun x i => Host.gather gather_S4x512x16x8192_S4x512x16x7x1_S4x512x16x7_n_3_012_012_3_4_1111 x i),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S4x512x16x7, .f32⟩) (broadcastInDim S4x512x16x7 ![] bcast_S_S4x512x16x7),
    StableHlo.TRef.ternary (.of main_call7_v12 : StableHlo.TRef sig ⟨S4x512x16x7, .i1⟩) (.of main_call7_v13 : StableHlo.TRef sig ⟨S4x512x16x7, .f32⟩) (.of main_call7_v14 : StableHlo.TRef sig ⟨S4x512x16x7, .f32⟩) (.of main_v49 : StableHlo.TRef sig ⟨S4x512x16x7, .f32⟩) select,
    StableHlo.unary main_v42 main_v50 (broadcastInDim S1x1x1x7 ![3] bcast_S7_S1x1x1x7_3 : (⟨S7, .f32⟩ : BufTy).Contents (Elt F) → (⟨S1x1x1x7, .f32⟩ : BufTy).Contents (Elt F)),
    StableHlo.unary main_v50 main_v51 (broadcastInDim S4x512x16x7 ![0, 1, 2, 3] bcast_S1x1x1x7_S4x512x16x7_0_1_2_3 : (⟨S1x1x1x7, .f32⟩ : BufTy).Contents (Elt F) → (⟨S4x512x16x7, .f32⟩ : BufTy).Contents (Elt F)),
    StableHlo.binary main_v49 main_v51 main_v52 (mulf : (⟨S4x512x16x7, .f32⟩ : BufTy).Contents (Elt F) → (⟨S4x512x16x7, .f32⟩ : BufTy).Contents (Elt F) → (⟨S4x512x16x7, .f32⟩ : BufTy).Contents (Elt F)),
    StableHlo.nullary main_cst_14 (constant S_ .f32 0x00000000#32),
    StableHlo.binary main_v52 main_cst_14 main_v53 ((fun x v => Host.reduceAdd x v reducesTo_S4x512x16x7_S4x512x16_d3 h_S_) : (⟨S4x512x16x7, .f32⟩ : BufTy).Contents (Elt F) → (⟨S_, .f32⟩ : BufTy).Contents (Elt F) → (⟨S4x512x16, .f32⟩ : BufTy).Contents (Elt F)),
    StableHlo.unary main_v53 main_v54 (Host.negf : (⟨S4x512x16, .f32⟩ : BufTy).Contents (Elt F) → (⟨S4x512x16, .f32⟩ : BufTy).Contents (Elt F)),
    StableHlo.binary main_v54 main_v54 main_v55 (cmpf .une : (⟨S4x512x16, .f32⟩ : BufTy).Contents (Elt F) → (⟨S4x512x16, .f32⟩ : BufTy).Contents (Elt F) → (⟨S4x512x16, .i1⟩ : BufTy).Contents (Elt F)),
    StableHlo.nullary main_cst_15 (constant S_ .f32 0x00000000#32),
    StableHlo.TRef.unary (.of main_cst_15 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S4x512x16, .f32⟩) (broadcastInDim S4x512x16 ![] bcast_S_S4x512x16),
    StableHlo.TRef.ternary (.of main_v55 : StableHlo.TRef sig ⟨S4x512x16, .i1⟩) (.of main_call8_v1 : StableHlo.TRef sig ⟨S4x512x16, .f32⟩) (.of main_v54 : StableHlo.TRef sig ⟨S4x512x16, .f32⟩) (.of main_v56 : StableHlo.TRef sig ⟨S4x512x16, .f32⟩) select,
    StableHlo.binary main_v56 main_v29 main_v57 (mulf : (⟨S4x512x16, .f32⟩ : BufTy).Contents (Elt F) → (⟨S4x512x16, .f32⟩ : BufTy).Contents (Elt F) → (⟨S4x512x16, .f32⟩ : BufTy).Contents (Elt F)),
    StableHlo.nullary main_cst_16 (constant S_ .f32 0x00000000#32),
    StableHlo.binary main_v57 main_cst_16 main_v58 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v29 main_cst_17 main_v59 ((fun x v => Host.reduceAdd x v reducesTo_S4x512x16_S_d0_1_2 h_S_) : (⟨S4x512x16, .f32⟩ : BufTy).Contents (Elt F) → (⟨S_, .f32⟩ : BufTy).Contents (Elt F) → (⟨S_, .f32⟩ : BufTy).Contents (Elt F)),
    StableHlo.nullary main_cst_18 (constant S_ .f32 0x322BCC77#32),
    StableHlo.binary main_v59 main_cst_18 main_v60 (addf : (⟨S_, .f32⟩ : BufTy).Contents (Elt F) → (⟨S_, .f32⟩ : BufTy).Contents (Elt F) → (⟨S_, .f32⟩ : BufTy).Contents (Elt F)),
    StableHlo.binary main_v58 main_v60 main_v61 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x3F800000#32),
    StableHlo.binary main_cst_19 main_v18 main_v62 (mulf : (⟨S_, .f32⟩ : BufTy).Contents (Elt F) → (⟨S_, .f32⟩ : BufTy).Contents (Elt F) → (⟨S_, .f32⟩ : BufTy).Contents (Elt F)),
    StableHlo.nullary main_cst_20 (constant S_ .f32 0x3F800000#32),
    StableHlo.binary main_cst_20 main_v61 main_v63 (mulf : (⟨S_, .f32⟩ : BufTy).Contents (Elt F) → (⟨S_, .f32⟩ : BufTy).Contents (Elt F) → (⟨S_, .f32⟩ : BufTy).Contents (Elt F)),
    StableHlo.binary main_v62 main_v63 main_v64 (addf : (⟨S_, .f32⟩ : BufTy).Contents (Elt F) → (⟨S_, .f32⟩ : BufTy).Contents (Elt F) → (⟨S_, .f32⟩ : BufTy).Contents (Elt F)) ]
theorem rops_sub : (rops : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
/-- The buffers those operations write. -/
abbrev rops_writes : List (Ref sig .tc) :=
  [main_c, main_v0, main_v1, main_v2, main_call0_call0_c, main_call0_call0_v0, main_v3, main_c_0, main_v4, main_v5, main_v6, main_call1_cst, main_call1_v0, main_call1_cst_0, main_call1_v1, main_call1_v2, main_call1_v3, main_call1_v4, main_call1_v5, main_call1_v6, main_call1_cst_1, main_call1_v7, main_call1_v8, main_call1_v9, main_call1_v10, main_v7, main_v8, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v9, main_v10, main_v11, main_v12, main_cst, main_call3_v0, main_call3_v1, main_v13, main_v14, main_cst_1, main_v15, main_cst_2, main_v16, main_cst_3, main_v17, main_v18, main_call4_cst, main_call4_v0, main_call4_cst_0, main_call4_v1, main_call4_v2, main_call4_v3, main_call4_v4, main_call4_v5, main_call4_v6, main_call4_cst_1, main_call4_v7, main_call4_v8, main_call4_v9, main_call4_v10, main_v19, main_c_4, main_v20, main_v21, main_c_5, main_v22, main_v23, main_v24, main_v25, main_v26, main_v27, main_v28, main_v29, main_c_6, main_c_7, main_call5_v0, main_call5_v1, main_call5_v2, main_call5_v3, main_call5_v4, main_v30, main_v31, main_c_8, main_v32, main_v33, main_v34, main_v35, main_cst_9, main_v36, main_v37, main_v38, main_cst_10, main_v39, main_cst_11, main_v40, main_v41, main_v42, main_v43, main_v44, main_v45, main_v46, main_v47, main_c_12, main_c_13, main_call6_v0, main_call6_v1, main_call6_v2, main_call6_v3, main_call6_v4, main_v48, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v49, main_v50, main_v51, main_v52, main_cst_14, main_v53, main_v54, main_v55, main_cst_15, main_call8_v0, main_call8_v1, main_v56, main_v57, main_cst_16, main_v58, main_cst_17, main_v59, main_cst_18, main_v60, main_v61, main_cst_19, main_v62, main_cst_20, main_v63, main_v64]

/-- The log-softmax of x along its last axis: x minus the row maximum, minus the log of the sum of the exponentials of that difference. -/
def logSoftmaxLast (x : (⟨S4x512x16x8192, .f32⟩ : BufTy).Contents (Elt F)) : (⟨S4x512x16x8192, .f32⟩ : BufTy).Contents (Elt F) :=
  let main_call4_cst : (⟨S_, .f32⟩ : BufTy).Contents (Elt F) := (constant S_ .f32 0xFF800000#32)
  let main_call4_v0 : (⟨S4x512x16, .f32⟩ : BufTy).Contents (Elt F) := (((fun x v => Host.reduce FloatOps.maximumf x v reducesTo_S4x512x16x8192_S4x512x16_d3 h_S_) : (⟨S4x512x16x8192, .f32⟩ : BufTy).Contents (Elt F) → (⟨S_, .f32⟩ : BufTy).Contents (Elt F) → (⟨S4x512x16, .f32⟩ : BufTy).Contents (Elt F)) x main_call4_cst)
  let main_call4_cst_0 : (⟨S_, .f32⟩ : BufTy).Contents (Elt F) := (constant S_ .f32 0xFF800000#32)
  let main_call4_v1 : (⟨S4x512x16, .f32⟩ : BufTy).Contents (Elt F) := (((broadcastInDim S4x512x16 ![] bcast_S_S4x512x16) : (⟨S_, .f32⟩ : BufTy).Contents (Elt F) → (⟨S4x512x16, .f32⟩ : BufTy).Contents (Elt F)) main_call4_cst_0)
  let main_call4_v2 : (⟨S4x512x16, .f32⟩ : BufTy).Contents (Elt F) := ((maximumf : (⟨S4x512x16, .f32⟩ : BufTy).Contents (Elt F) → (⟨S4x512x16, .f32⟩ : BufTy).Contents (Elt F) → (⟨S4x512x16, .f32⟩ : BufTy).Contents (Elt F)) main_call4_v1 main_call4_v0)
  let main_call4_v3 : (⟨S4x512x16x1, .f32⟩ : BufTy).Contents (Elt F) := (((broadcastInDim S4x512x16x1 ![0, 1, 2] bcast_S4x512x16_S4x512x16x1_0_1_2) : (⟨S4x512x16, .f32⟩ : BufTy).Contents (Elt F) → (⟨S4x512x16x1, .f32⟩ : BufTy).Contents (Elt F)) main_call4_v2)
  let main_call4_v4 : (⟨S4x512x16x8192, .f32⟩ : BufTy).Contents (Elt F) := (((broadcastInDim S4x512x16x8192 ![0, 1, 2, 3] bcast_S4x512x16x1_S4x512x16x8192_0_1_2_3) : (⟨S4x512x16x1, .f32⟩ : BufTy).Contents (Elt F) → (⟨S4x512x16x8192, .f32⟩ : BufTy).Contents (Elt F)) main_call4_v3)
  let main_call4_v5 : (⟨S4x512x16x8192, .f32⟩ : BufTy).Contents (Elt F) := ((subf : (⟨S4x512x16x8192, .f32⟩ : BufTy).Contents (Elt F) → (⟨S4x512x16x8192, .f32⟩ : BufTy).Contents (Elt F) → (⟨S4x512x16x8192, .f32⟩ : BufTy).Contents (Elt F)) x main_call4_v4)
  let main_call4_v6 : (⟨S4x512x16x8192, .f32⟩ : BufTy).Contents (Elt F) := ((Host.exp : (⟨S4x512x16x8192, .f32⟩ : BufTy).Contents (Elt F) → (⟨S4x512x16x8192, .f32⟩ : BufTy).Contents (Elt F)) main_call4_v5)
  let main_call4_cst_1 : (⟨S_, .f32⟩ : BufTy).Contents (Elt F) := (constant S_ .f32 0x00000000#32)
  let main_call4_v7 : (⟨S4x512x16, .f32⟩ : BufTy).Contents (Elt F) := (((fun x v => Host.reduceAdd x v reducesTo_S4x512x16x8192_S4x512x16_d3 h_S_) : (⟨S4x512x16x8192, .f32⟩ : BufTy).Contents (Elt F) → (⟨S_, .f32⟩ : BufTy).Contents (Elt F) → (⟨S4x512x16, .f32⟩ : BufTy).Contents (Elt F)) main_call4_v6 main_call4_cst_1)
  let main_call4_v8 : (⟨S4x512x16x1, .f32⟩ : BufTy).Contents (Elt F) := (((broadcastInDim S4x512x16x1 ![0, 1, 2] bcast_S4x512x16_S4x512x16x1_0_1_2) : (⟨S4x512x16, .f32⟩ : BufTy).Contents (Elt F) → (⟨S4x512x16x1, .f32⟩ : BufTy).Contents (Elt F)) main_call4_v7)
  let main_call4_v9 : (⟨S4x512x16x1, .f32⟩ : BufTy).Contents (Elt F) := ((Host.log : (⟨S4x512x16x1, .f32⟩ : BufTy).Contents (Elt F) → (⟨S4x512x16x1, .f32⟩ : BufTy).Contents (Elt F)) main_call4_v8)
  let main_call4_v10 : (⟨S4x512x16x8192, .f32⟩ : BufTy).Contents (Elt F) := (((broadcastInDim S4x512x16x8192 ![0, 1, 2, 3] bcast_S4x512x16x1_S4x512x16x8192_0_1_2_3) : (⟨S4x512x16x1, .f32⟩ : BufTy).Contents (Elt F) → (⟨S4x512x16x8192, .f32⟩ : BufTy).Contents (Elt F)) main_call4_v9)
  let main_v19 : (⟨S4x512x16x8192, .f32⟩ : BufTy).Contents (Elt F) := ((subf : (⟨S4x512x16x8192, .f32⟩ : BufTy).Contents (Elt F) → (⟨S4x512x16x8192, .f32⟩ : BufTy).Contents (Elt F) → (⟨S4x512x16x8192, .f32⟩ : BufTy).Contents (Elt F)) main_call4_v5 main_call4_v10)
  main_v19

/-- The per-position loss from the gathered log-softmax values g: minus their weighted window sum. -/
def lossR (g : (⟨S4x512x16x7, .f32⟩ : BufTy).Contents (Elt F)) (wn : (⟨S7, .f32⟩ : BufTy).Contents (Elt F)) : (⟨S4x512x16, .f32⟩ : BufTy).Contents (Elt F) :=
  let main_v50 : (⟨S1x1x1x7, .f32⟩ : BufTy).Contents (Elt F) := (((broadcastInDim S1x1x1x7 ![3] bcast_S7_S1x1x1x7_3) : (⟨S7, .f32⟩ : BufTy).Contents (Elt F) → (⟨S1x1x1x7, .f32⟩ : BufTy).Contents (Elt F)) wn)
  let main_v51 : (⟨S4x512x16x7, .f32⟩ : BufTy).Contents (Elt F) := (((broadcastInDim S4x512x16x7 ![0, 1, 2, 3] bcast_S1x1x1x7_S4x512x16x7_0_1_2_3) : (⟨S1x1x1x7, .f32⟩ : BufTy).Contents (Elt F) → (⟨S4x512x16x7, .f32⟩ : BufTy).Contents (Elt F)) main_v50)
  let main_v52 : (⟨S4x512x16x7, .f32⟩ : BufTy).Contents (Elt F) := (((mulf) : (⟨S4x512x16x7, .f32⟩ : BufTy).Contents (Elt F) → (⟨S4x512x16x7, .f32⟩ : BufTy).Contents (Elt F) → (⟨S4x512x16x7, .f32⟩ : BufTy).Contents (Elt F)) g main_v51)
  let main_cst_14 : (⟨S_, .f32⟩ : BufTy).Contents (Elt F) := (constant S_ .f32 0x00000000#32)
  let main_v53 : (⟨S4x512x16, .f32⟩ : BufTy).Contents (Elt F) := ((((fun x v => Host.reduceAdd x v reducesTo_S4x512x16x7_S4x512x16_d3 h_S_)) : (⟨S4x512x16x7, .f32⟩ : BufTy).Contents (Elt F) → (⟨S_, .f32⟩ : BufTy).Contents (Elt F) → (⟨S4x512x16, .f32⟩ : BufTy).Contents (Elt F)) main_v52 main_cst_14)
  let main_v54 : (⟨S4x512x16, .f32⟩ : BufTy).Contents (Elt F) := (((Host.negf) : (⟨S4x512x16, .f32⟩ : BufTy).Contents (Elt F) → (⟨S4x512x16, .f32⟩ : BufTy).Contents (Elt F)) main_v53)
  main_v54

end Cert.ReferenceIdeal.St

end
-- ==== Proof.RRun.lean ====
import proofs.«428594_j79611513799125_3_alg».proof.Proof.RStages
import Idealize.ShloMosaic.Adequacy
import Idealize.ShloMosaic.Init
import Idealize.ShloMosaic.Lib.Pipeline.Regions
set_option maxRecDepth 8192

noncomputable section

namespace Cert.ReferenceIdeal.Af

open Idealize.ShloMosaic Idealize.ShloMosaic.TcCoe Idealize.SL.Sem Idealize.ShloMosaic.StableHlo Cert.ReferenceIdeal Cert.ReferenceIdeal.Gen Cert.ReferenceIdeal.St

variable {F : FTy → Type} [FloatOps F]

/-- The reference's @main is the straight line of its host operations, the calls inlined. -/
theorem main_eq (c : Dev nD) : main (F := F) c = seq rops := by
  chain_rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line determines its results (none allocates a buffer at contents not chosen). -/
theorem rops_fresh : (rops : List (HloOp τ sig (Elt F))).Forall fun op => op.fresh = ∅ := by
  simp only [List.Forall]; repeat' constructor

/-- Every weakly fair execution of the reference terminates without a fault, each buffer ending at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after rops (launchContents m c) (Proc.devRef .tc b) :=
  run_seq scopedRefs_eq scopedSems_eq defs main (fun _ => rops) main_eq (fun _ => rops_sub) m ρ
    (fun _ => List.forall_iff_forall_mem.1 rops_fresh)

/-- When operation k of a line writes exactly the k-th reference of a list, every operation's writes lie in that list. -/
theorem writes_sub_of_forall₂ {ops : List (HloOp τ sig (Elt F))} {L : List (Ref sig .tc)}
    (h : List.Forall₂ (fun (op : HloOp τ sig (Elt F)) (y : Ref sig .tc) => op.writes = {Proc.devRef (τ := τ) .tc y}) ops L) :
    ∀ op ∈ ops, op.writes ⊆ (L.map (Proc.devRef (τ := τ) .tc)).toFinset := by
  induction h with
  | nil => intro op hop; exact absurd hop List.not_mem_nil
  | @cons op y ops L hy _ ih =>
    intro o ho
    rcases List.mem_cons.1 ho with rfl | ho
    · rw [hy, Finset.singleton_subset_iff, List.mem_toFinset]
      exact List.mem_map.2 ⟨y, List.mem_cons_self, rfl⟩
    · intro b hb
      have hb' := List.mem_toFinset.1 (ih o ho hb)
      exact List.mem_toFinset.2 (by rw [List.map_cons]; exact List.mem_cons_of_mem _ hb')

/-- Operation k of the line writes the k-th listed reference, so the list holds every reference the line writes. -/
theorem rops_writes_sub :
    (rops : List (HloOp τ sig (Elt F))).Forall fun op => op.writes ⊆ (rops_writes.map (Proc.devRef (τ := τ) .tc)).toFinset := by
  refine List.forall_iff_forall_mem.2 (writes_sub_of_forall₂ ?_)
  repeat (first | exact List.Forall₂.nil | refine List.Forall₂.cons rfl ?_)

/-- A buffer the operations do not write keeps its contents. -/
theorem r_keep (V : Valuation τ sig (Elt F)) (r : Ref sig .tc) (hr : r ∉ rops_writes) :
    after rops V (Proc.devRef .tc r) = V (Proc.devRef .tc r) :=
  after_of_writes_sub rops V rops_writes_sub hr

end Cert.ReferenceIdeal.Af

end
-- ==== Proof.RAfter.lean ====
import proofs.«428594_j79611513799125_3_alg».proof.Proof.RStages
import proofs.«428594_j79611513799125_3_alg».proof.Proof.KStages

set_option maxRecDepth 8192

noncomputable section

namespace Cert.ReferenceIdeal.Af

open Idealize.ShloMosaic Idealize.ShloMosaic.TcCoe Idealize.SL.Sem Idealize.ShloMosaic.StableHlo Cert.ReferenceIdeal Cert.ReferenceIdeal.Gen Cert.ReferenceIdeal.St

variable {F : FTy → Type} [FloatOps F]

/-! ## The command loss and the combined mask, in pieces

The command loss is a composite of four values: the valid-position mask (1 up to and including the first end command of a
row, 0 after), the log-softmax of the command logits, its entries taken at the commands, and the masked mean of minus
those entries. The combined mask is the valid-position mask times the argument-mask row of each position's command. -/

/-- The valid-position mask of the commands a3: 1 where the running count of end commands (command 3) up to and
    including the position is at most 1, else 0. -/
def vmask (a3 : (⟨S4x512, .i32⟩ : BufTy).Contents (Elt F)) : (⟨S4x512, .f32⟩ : BufTy).Contents (Elt F) :=
  let main_c : (⟨S_, .i32⟩ : BufTy).Contents (Elt F) := (constantI S_ 32 3#32)
  let main_v0 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c)
  let main_v1 : (⟨S4x512, .i1⟩ : BufTy).Contents (Elt F) := (((cmpi .eq) : (⟨S4x512, .i32⟩ : BufTy).Contents (Elt F) → (⟨S4x512, .i32⟩ : BufTy).Contents (Elt F) → (⟨S4x512, .i1⟩ : BufTy).Contents (Elt F)) a3 main_v0)
  let main_v2 : (⟨S4x512, .i32⟩ : BufTy).Contents (Elt F) := ((((extui 32 · natLt_1_32)) : (⟨S4x512, .i1⟩ : BufTy).Contents (Elt F) → (⟨S4x512, .i32⟩ : BufTy).Contents (Elt F)) main_v1)
  let main_call0_call0_c : (⟨S_, .i32⟩ : BufTy).Contents (Elt F) := (constantI S_ 32 0#32)
  let main_call0_call0_v0 : (⟨S_, .i32⟩ : BufTy).Contents (Elt F) := (((broadcastInDim S_ ![] bcast_S_S_) : (⟨S_, .i32⟩ : BufTy).Contents (Elt F) → (⟨S_, .i32⟩ : BufTy).Contents (Elt F)) main_call0_call0_c)
  let main_v3 : (⟨S4x512, .i32⟩ : BufTy).Contents (Elt F) := (((fun x v => Host.reduceWindow IntOp.addi ![1, 512] ![1, 1] ![0, 511] ![0, 0] x v reduceWindows_S4x512_S4x512_w1s1p0_0_w512s1p511_0 h_S_) : (⟨S4x512, .i32⟩ : BufTy).Contents (Elt F) → (⟨S_, .i32⟩ : BufTy).Contents (Elt F) → (⟨S4x512, .i32⟩ : BufTy).Contents (Elt F)) main_v2 main_call0_call0_v0)
  let main_c_0 : (⟨S_, .i32⟩ : BufTy).Contents (Elt F) := (constantI S_ 32 1#32)
  let main_v4 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_0)
  let main_v5 : (⟨S4x512, .i1⟩ : BufTy).Contents (Elt F) := (((cmpi .sle) : (⟨S4x512, .i32⟩ : BufTy).Contents (Elt F) → (⟨S4x512, .i32⟩ : BufTy).Contents (Elt F) → (⟨S4x512, .i1⟩ : BufTy).Contents (Elt F)) main_v3 main_v4)
  let main_v6 : (⟨S4x512, .f32⟩ : BufTy).Contents (Elt F) := (((uitofp .f32) : (⟨S4x512, .i1⟩ : BufTy).Contents (Elt F) → (⟨S4x512, .f32⟩ : BufTy).Contents (Elt F)) main_v5)
  main_v6

/-- The log-softmax of the command logits a0 along their last axis. -/
def lsmCmd (a0 : (⟨S4x512x10, .f32⟩ : BufTy).Contents (Elt F)) : (⟨S4x512x10, .f32⟩ : BufTy).Contents (Elt F) :=
  let main_call1_cst : (⟨S_, .f32⟩ : BufTy).Contents (Elt F) := (constant S_ .f32 0xFF800000#32)
  let main_call1_v0 : (⟨S4x512, .f32⟩ : BufTy).Contents (Elt F) := (((fun x v => Host.reduce FloatOps.maximumf x v reducesTo_S4x512x10_S4x512_d2 h_S_) : (⟨S4x512x10, .f32⟩ : BufTy).Contents (Elt F) → (⟨S_, .f32⟩ : BufTy).Contents (Elt F) → (⟨S4x512, .f32⟩ : BufTy).Contents (Elt F)) a0 main_call1_cst)
  let main_call1_cst_0 : (⟨S_, .f32⟩ : BufTy).Contents (Elt F) := (constant S_ .f32 0xFF800000#32)
  let main_call1_v1 : (⟨S4x512, .f32⟩ : BufTy).Contents (Elt F) := (((broadcastInDim S4x512 ![] bcast_S_S4x512) : (⟨S_, .f32⟩ : BufTy).Contents (Elt F) → (⟨S4x512, .f32⟩ : BufTy).Contents (Elt F)) main_call1_cst_0)
  let main_call1_v2 : (⟨S4x512, .f32⟩ : BufTy).Contents (Elt F) := ((maximumf : (⟨S4x512, .f32⟩ : BufTy).Contents (Elt F) → (⟨S4x512, .f32⟩ : BufTy).Contents (Elt F) → (⟨S4x512, .f32⟩ : BufTy).Contents (Elt F)) main_call1_v1 main_call1_v0)
  let main_call1_v3 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_call1_v2)
  let main_call1_v4 : (⟨S4x512x10, .f32⟩ : BufTy).Contents (Elt F) := (((broadcastInDim S4x512x10 ![0, 1, 2] bcast_S4x512x1_S4x512x10_0_1_2) : (⟨S4x512x1, .f32⟩ : BufTy).Contents (Elt F) → (⟨S4x512x10, .f32⟩ : BufTy).Contents (Elt F)) main_call1_v3)
  let main_call1_v5 : (⟨S4x512x10, .f32⟩ : BufTy).Contents (Elt F) := ((subf : (⟨S4x512x10, .f32⟩ : BufTy).Contents (Elt F) → (⟨S4x512x10, .f32⟩ : BufTy).Contents (Elt F) → (⟨S4x512x10, .f32⟩ : BufTy).Contents (Elt F)) a0 main_call1_v4)
  let main_call1_v6 : (⟨S4x512x10, .f32⟩ : BufTy).Contents (Elt F) := ((Host.exp : (⟨S4x512x10, .f32⟩ : BufTy).Contents (Elt F) → (⟨S4x512x10, .f32⟩ : BufTy).Contents (Elt F)) main_call1_v5)
  let main_call1_cst_1 : (⟨S_, .f32⟩ : BufTy).Contents (Elt F) := (constant S_ .f32 0x00000000#32)
  let main_call1_v7 : (⟨S4x512, .f32⟩ : BufTy).Contents (Elt F) := (((fun x v => Host.reduceAdd x v reducesTo_S4x512x10_S4x512_d2 h_S_) : (⟨S4x512x10, .f32⟩ : BufTy).Contents (Elt F) → (⟨S_, .f32⟩ : BufTy).Contents (Elt F) → (⟨S4x512, .f32⟩ : BufTy).Contents (Elt F)) main_call1_v6 main_call1_cst_1)
  let main_call1_v8 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_call1_v7)
  let main_call1_v9 : (⟨S4x512x1, .f32⟩ : BufTy).Contents (Elt F) := ((Host.log : (⟨S4x512x1, .f32⟩ : BufTy).Contents (Elt F) → (⟨S4x512x1, .f32⟩ : BufTy).Contents (Elt F)) main_call1_v8)
  let main_call1_v10 : (⟨S4x512x10, .f32⟩ : BufTy).Contents (Elt F) := (((broadcastInDim S4x512x10 ![0, 1, 2] bcast_S4x512x1_S4x512x10_0_1_2) : (⟨S4x512x1, .f32⟩ : BufTy).Contents (Elt F) → (⟨S4x512x10, .f32⟩ : BufTy).Contents (Elt F)) main_call1_v9)
  let main_v7 : (⟨S4x512x10, .f32⟩ : BufTy).Contents (Elt F) := ((subf : (⟨S4x512x10, .f32⟩ : BufTy).Contents (Elt F) → (⟨S4x512x10, .f32⟩ : BufTy).Contents (Elt F) → (⟨S4x512x10, .f32⟩ : BufTy).Contents (Elt F)) main_call1_v5 main_call1_v10)
  main_v7

/-- The entries of main_v7 along its last axis at the commands a3 (a negative command counted from the end; NaN where out
    of range). -/
def takeCmd (main_v7 : (⟨S4x512x10, .f32⟩ : BufTy).Contents (Elt F)) (a3 : (⟨S4x512, .i32⟩ : BufTy).Contents (Elt F)) : (⟨S4x512x1, .f32⟩ : BufTy).Contents (Elt F) :=
  let main_v8 : (⟨S4x512x1, .i32⟩ : BufTy).Contents (Elt F) := (((broadcastInDim S4x512x1 ![0, 1] bcast_S4x512_S4x512x1_0_1) : (⟨S4x512, .i32⟩ : BufTy).Contents (Elt F) → (⟨S4x512x1, .i32⟩ : BufTy).Contents (Elt F)) a3)
  let main_call2_c : (⟨S_, .i32⟩ : BufTy).Contents (Elt F) := (constantI S_ 32 0#32)
  let main_call2_v0 : (⟨S4x512x1, .i32⟩ : BufTy).Contents (Elt F) := (((broadcastInDim S4x512x1 ![] bcast_S_S4x512x1) : (⟨S_, .i32⟩ : BufTy).Contents (Elt F) → (⟨S4x512x1, .i32⟩ : BufTy).Contents (Elt F)) main_call2_c)
  let main_call2_v1 : (⟨S4x512x1, .i1⟩ : BufTy).Contents (Elt F) := (((cmpi .slt) : (⟨S4x512x1, .i32⟩ : BufTy).Contents (Elt F) → (⟨S4x512x1, .i32⟩ : BufTy).Contents (Elt F) → (⟨S4x512x1, .i1⟩ : BufTy).Contents (Elt F)) main_v8 main_call2_v0)
  let main_call2_c_0 : (⟨S_, .i32⟩ : BufTy).Contents (Elt F) := (constantI S_ 32 10#32)
  let main_call2_v2 : (⟨S4x512x1, .i32⟩ : BufTy).Contents (Elt F) := (((broadcastInDim S4x512x1 ![] bcast_S_S4x512x1) : (⟨S_, .i32⟩ : BufTy).Contents (Elt F) → (⟨S4x512x1, .i32⟩ : BufTy).Contents (Elt F)) main_call2_c_0)
  let main_call2_v3 : (⟨S4x512x1, .i32⟩ : BufTy).Contents (Elt F) := ((addi : (⟨S4x512x1, .i32⟩ : BufTy).Contents (Elt F) → (⟨S4x512x1, .i32⟩ : BufTy).Contents (Elt F) → (⟨S4x512x1, .i32⟩ : BufTy).Contents (Elt F)) main_v8 main_call2_v2)
  let main_call2_v4 : (⟨S4x512x1, .i32⟩ : BufTy).Contents (Elt F) := ((select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)) main_call2_v1 main_call2_v3 main_v8)
  let main_call2_v5 : (⟨S4x512x1x1, .i32⟩ : BufTy).Contents (Elt F) := (fun q__ => shapeCast S4x512x1x1 main_call2_v4 shapeCasts_S4x512x1_S4x512x1x1 q__)
  let main_call2_c_1 : (⟨S1, .i32⟩ : BufTy).Contents (Elt F) := (constantI S1 32 9#32)
  let main_call2_c_2 : (⟨S_, .i32⟩ : BufTy).Contents (Elt F) := (constantI S_ 32 0#32)
  let main_call2_v6 : (⟨S4x512x1x1, .i32⟩ : BufTy).Contents (Elt F) := (((broadcastInDim S4x512x1x1 ![] bcast_S_S4x512x1x1) : (⟨S_, .i32⟩ : BufTy).Contents (Elt F) → (⟨S4x512x1x1, .i32⟩ : BufTy).Contents (Elt F)) main_call2_c_2)
  let main_call2_v7 : (⟨S4x512x1x1, .i1⟩ : BufTy).Contents (Elt F) := (((cmpi .sge) : (⟨S4x512x1x1, .i32⟩ : BufTy).Contents (Elt F) → (⟨S4x512x1x1, .i32⟩ : BufTy).Contents (Elt F) → (⟨S4x512x1x1, .i1⟩ : BufTy).Contents (Elt F)) main_call2_v5 main_call2_v6)
  let main_call2_v8 : (⟨S1x1x1x1, .i32⟩ : BufTy).Contents (Elt F) := (((broadcastInDim S1x1x1x1 ![3] bcast_S1_S1x1x1x1_3) : (⟨S1, .i32⟩ : BufTy).Contents (Elt F) → (⟨S1x1x1x1, .i32⟩ : BufTy).Contents (Elt F)) main_call2_c_1)
  let main_call2_v9 : (⟨S4x512x1x1, .i32⟩ : BufTy).Contents (Elt F) := (((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)) main_call2_v8)
  let main_call2_v10 : (⟨S4x512x1x1, .i1⟩ : BufTy).Contents (Elt F) := (((cmpi .sle) : (⟨S4x512x1x1, .i32⟩ : BufTy).Contents (Elt F) → (⟨S4x512x1x1, .i32⟩ : BufTy).Contents (Elt F) → (⟨S4x512x1x1, .i1⟩ : BufTy).Contents (Elt F)) main_call2_v5 main_call2_v9)
  let main_call2_v11 : (⟨S4x512x1x1, .i1⟩ : BufTy).Contents (Elt F) := ((andi : (⟨S4x512x1x1, .i1⟩ : BufTy).Contents (Elt F) → (⟨S4x512x1x1, .i1⟩ : BufTy).Contents (Elt F) → (⟨S4x512x1x1, .i1⟩ : BufTy).Contents (Elt F)) main_call2_v7 main_call2_v10)
  let main_call2_c_3 : (⟨S_, .i1⟩ : BufTy).Contents (Elt F) := (constantI S_ 1 1#1)
  let main_call2_v12 : (⟨S4x512x1, .i1⟩ : BufTy).Contents (Elt F) := (((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)) main_call2_v11 main_call2_c_3)
  let main_call2_v13 : (⟨S4x512x1, .f32⟩ : BufTy).Contents (Elt F) := (((fun x i => Host.gather gather_S4x512x10_S4x512x1x1_S4x512x1_n_2_01_01_2_3_111 x i) : (⟨S4x512x10, .f32⟩ : BufTy).Contents (Elt F) → (⟨S4x512x1x1, .i32⟩ : BufTy).Contents (Elt F) → (⟨S4x512x1, .f32⟩ : BufTy).Contents (Elt F)) main_v7 main_call2_v5)
  let main_call2_cst : (⟨S_, .f32⟩ : BufTy).Contents (Elt F) := (constant S_ .f32 0x7FC00000#32)
  let main_call2_v14 : (⟨S4x512x1, .f32⟩ : BufTy).Contents (Elt F) := (((broadcastInDim S4x512x1 ![] bcast_S_S4x512x1) : (⟨S_, .f32⟩ : BufTy).Contents (Elt F) → (⟨S4x512x1, .f32⟩ : BufTy).Contents (Elt F)) main_call2_cst)
  let main_v9 : (⟨S4x512x1, .f32⟩ : BufTy).Contents (Elt F) := ((select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)) main_call2_v12 main_call2_v13 main_call2_v14)
  main_v9

/-- The masked mean of minus the taken entries main_v9 under the mask main_v6: NaN entries replaced by 0, times the mask,
    summed, over the mask's sum plus 1e-8. -/
def cmdTail (main_v9 : (⟨S4x512x1, .f32⟩ : BufTy).Contents (Elt F)) (main_v6 : (⟨S4x512, .f32⟩ : BufTy).Contents (Elt F)) : (⟨S_, .f32⟩ : BufTy).Contents (Elt F) :=
  let main_v10 : (⟨S4x512, .f32⟩ : BufTy).Contents (Elt F) := (fun q__ => shapeCast S4x512 main_v9 shapeCasts_S4x512x1_S4x512 q__)
  let main_v11 : (⟨S4x512, .f32⟩ : BufTy).Contents (Elt F) := (((Host.negf) : (⟨S4x512, .f32⟩ : BufTy).Contents (Elt F) → (⟨S4x512, .f32⟩ : BufTy).Contents (Elt F)) main_v10)
  let main_v12 : (⟨S4x512, .i1⟩ : BufTy).Contents (Elt F) := (((cmpf .une) : (⟨S4x512, .f32⟩ : BufTy).Contents (Elt F) → (⟨S4x512, .f32⟩ : BufTy).Contents (Elt F) → (⟨S4x512, .i1⟩ : BufTy).Contents (Elt F)) main_v11 main_v11)
  let main_cst : (⟨S_, .f32⟩ : BufTy).Contents (Elt F) := (constant S_ .f32 0x00000000#32)
  let main_call3_v0 : (⟨S_, .f32⟩ : BufTy).Contents (Elt F) := ((id : (⟨S_, .f32⟩ : BufTy).Contents (Elt F) → (⟨S_, .f32⟩ : BufTy).Contents (Elt F)) main_cst)
  let main_call3_v1 : (⟨S4x512, .f32⟩ : BufTy).Contents (Elt F) := (((broadcastInDim S4x512 ![] bcast_S_S4x512) : (⟨S_, .f32⟩ : BufTy).Contents (Elt F) → (⟨S4x512, .f32⟩ : BufTy).Contents (Elt F)) main_call3_v0)
  let main_v13 : (⟨S4x512, .f32⟩ : BufTy).Contents (Elt F) := ((select : (⟨S4x512, .i1⟩ : BufTy).Contents (Elt F) → (⟨S4x512, .f32⟩ : BufTy).Contents (Elt F) → (⟨S4x512, .f32⟩ : BufTy).Contents (Elt F) → (⟨S4x512, .f32⟩ : BufTy).Contents (Elt F)) main_v12 main_call3_v1 main_v11)
  let main_v14 : (⟨S4x512, .f32⟩ : BufTy).Contents (Elt F) := (((mulf) : (⟨S4x512, .f32⟩ : BufTy).Contents (Elt F) → (⟨S4x512, .f32⟩ : BufTy).Contents (Elt F) → (⟨S4x512, .f32⟩ : BufTy).Contents (Elt F)) main_v13 main_v6)
  let main_cst_1 : (⟨S_, .f32⟩ : BufTy).Contents (Elt F) := (constant S_ .f32 0x00000000#32)
  let main_v15 : (⟨S_, .f32⟩ : BufTy).Contents (Elt F) := ((((fun x v => Host.reduceAdd x v reducesTo_S4x512_S_d0_1 h_S_)) : (⟨S4x512, .f32⟩ : BufTy).Contents (Elt F) → (⟨S_, .f32⟩ : BufTy).Contents (Elt F) → (⟨S_, .f32⟩ : BufTy).Contents (Elt F)) main_v14 main_cst_1)
  let main_cst_2 : (⟨S_, .f32⟩ : BufTy).Contents (Elt F) := (constant S_ .f32 0x00000000#32)
  let main_v16 : (⟨S_, .f32⟩ : BufTy).Contents (Elt F) := ((((fun x v => Host.reduceAdd x v reducesTo_S4x512_S_d0_1 h_S_)) : (⟨S4x512, .f32⟩ : BufTy).Contents (Elt F) → (⟨S_, .f32⟩ : BufTy).Contents (Elt F) → (⟨S_, .f32⟩ : BufTy).Contents (Elt F)) main_v6 main_cst_2)
  let main_cst_3 : (⟨S_, .f32⟩ : BufTy).Contents (Elt F) := (constant S_ .f32 0x322BCC77#32)
  let main_v17 : (⟨S_, .f32⟩ : BufTy).Contents (Elt F) := (((addf) : (⟨S_, .f32⟩ : BufTy).Contents (Elt F) → (⟨S_, .f32⟩ : BufTy).Contents (Elt F) → (⟨S_, .f32⟩ : BufTy).Contents (Elt F)) main_v16 main_cst_3)
  let main_v18 : (⟨S_, .f32⟩ : BufTy).Contents (Elt F) := (((Host.divf) : (⟨S_, .f32⟩ : BufTy).Contents (Elt F) → (⟨S_, .f32⟩ : BufTy).Contents (Elt F) → (⟨S_, .f32⟩ : BufTy).Contents (Elt F)) main_v15 main_v17)
  main_v18

/-- The mask main_v6, broadcast along the argument axis, times the row of a2 at each position's command a3 (a negative
    command counted from the end). -/
def maskRest (a2 : (⟨S10x16, .f32⟩ : BufTy).Contents (Elt F)) (a3 : (⟨S4x512, .i32⟩ : BufTy).Contents (Elt F)) (main_v6 : (⟨S4x512, .f32⟩ : BufTy).Contents (Elt F)) : (⟨S4x512x16, .f32⟩ : BufTy).Contents (Elt F) :=
  let main_c_4 : (⟨S_, .i32⟩ : BufTy).Contents (Elt F) := (constantI S_ 32 0#32)
  let main_v19 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_4)
  let main_v20 : (⟨S4x512, .i1⟩ : BufTy).Contents (Elt F) := (((cmpi .slt) : (⟨S4x512, .i32⟩ : BufTy).Contents (Elt F) → (⟨S4x512, .i32⟩ : BufTy).Contents (Elt F) → (⟨S4x512, .i1⟩ : BufTy).Contents (Elt F)) a3 main_v19)
  let main_c_5 : (⟨S_, .i32⟩ : BufTy).Contents (Elt F) := (constantI S_ 32 10#32)
  let main_v21 : (⟨S4x512, .i32⟩ : BufTy).Contents (Elt F) := (((broadcastInDim S4x512 ![] bcast_S_S4x512) : (⟨S_, .i32⟩ : BufTy).Contents (Elt F) → (⟨S4x512, .i32⟩ : BufTy).Contents (Elt F)) main_c_5)
  let main_v22 : (⟨S4x512, .i32⟩ : BufTy).Contents (Elt F) := (((addi) : (⟨S4x512, .i32⟩ : BufTy).Contents (Elt F) → (⟨S4x512, .i32⟩ : BufTy).Contents (Elt F) → (⟨S4x512, .i32⟩ : BufTy).Contents (Elt F)) a3 main_v21)
  let main_v23 : (⟨S4x512, .i32⟩ : BufTy).Contents (Elt F) := (((select) : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)) main_v20 main_v22 a3)
  let main_v24 : (⟨S4x512x1, .i32⟩ : BufTy).Contents (Elt F) := (((broadcastInDim S4x512x1 ![0, 1] bcast_S4x512_S4x512x1_0_1) : (⟨S4x512, .i32⟩ : BufTy).Contents (Elt F) → (⟨S4x512x1, .i32⟩ : BufTy).Contents (Elt F)) main_v23)
  let main_v25 : (⟨S4x512x16, .f32⟩ : BufTy).Contents (Elt F) := ((((fun x i => Host.gather gather_S10x16_S4x512x1_S4x512x16_2_0_n_n_0_2_116 x i)) : (⟨S10x16, .f32⟩ : BufTy).Contents (Elt F) → (⟨S4x512x1, .i32⟩ : BufTy).Contents (Elt F) → (⟨S4x512x16, .f32⟩ : BufTy).Contents (Elt F)) a2 main_v24)
  let main_v26 : (⟨S4x512x1, .f32⟩ : BufTy).Contents (Elt F) := (((broadcastInDim S4x512x1 ![0, 1] bcast_S4x512_S4x512x1_0_1) : (⟨S4x512, .f32⟩ : BufTy).Contents (Elt F) → (⟨S4x512x1, .f32⟩ : BufTy).Contents (Elt F)) main_v6)
  let main_v27 : (⟨S4x512x16, .f32⟩ : BufTy).Contents (Elt F) := (((broadcastInDim S4x512x16 ![0, 1, 2] bcast_S4x512x1_S4x512x16_0_1_2) : (⟨S4x512x1, .f32⟩ : BufTy).Contents (Elt F) → (⟨S4x512x16, .f32⟩ : BufTy).Contents (Elt F)) main_v26)
  let main_v28 : (⟨S4x512x16, .f32⟩ : BufTy).Contents (Elt F) := (((mulf) : (⟨S4x512x16, .f32⟩ : BufTy).Contents (Elt F) → (⟨S4x512x16, .f32⟩ : BufTy).Contents (Elt F) → (⟨S4x512x16, .f32⟩ : BufTy).Contents (Elt F)) main_v27 main_v25)
  main_v28

/-- The command loss is the masked mean of minus the log-softmax entries taken at the commands, under the valid-position mask. -/
theorem cmdLoss_eq (a0 : (⟨S4x512x10, .f32⟩ : BufTy).Contents (Elt F)) (a3 : (⟨S4x512, .i32⟩ : BufTy).Contents (Elt F)) :
    Cert.KernelIdeal.St.cmdLoss a0 a3 = cmdTail (takeCmd (lsmCmd a0) a3) (vmask a3) := rfl

/-- The combined mask is the valid-position mask times the commands' argument-mask rows. -/
theorem argMask_eq (a2 : (⟨S10x16, .f32⟩ : BufTy).Contents (Elt F)) (a3 : (⟨S4x512, .i32⟩ : BufTy).Contents (Elt F)) :
    Cert.KernelIdeal.St.argMask a2 a3 = maskRest a2 a3 (vmask a3) := rfl

/-! ## The operations, stretch by stretch -/

/-- Stretch 0 of the operations. -/
def R0 : List (HloOp τ sig (Elt F)) := rst_0
/-- Stretch 1 of the operations. -/
def R1 : List (HloOp τ sig (Elt F)) := rst_1
/-- Stretch 2 of the operations. -/
def R2 : List (HloOp τ sig (Elt F)) := rst_2
/-- Stretch 3 of the operations. -/
def R3 : List (HloOp τ sig (Elt F)) := rst_3
/-- Stretch 4 of the operations. -/
def R4 : List (HloOp τ sig (Elt F)) := rst_4
/-- Stretch 5 of the operations. -/
def R5 : List (HloOp τ sig (Elt F)) := rst_5
/-- Stretch 6 of the operations. -/
def R6 : List (HloOp τ sig (Elt F)) := rst_6
/-- Stretch 7 of the operations. -/
def R7 : List (HloOp τ sig (Elt F)) := rst_7
/-- Stretch 8 of the operations. -/
def R8 : List (HloOp τ sig (Elt F)) := rst_8
/-- Stretch 9 of the operations. -/
def R9 : List (HloOp τ sig (Elt F)) := rst_9
/-- Stretch 10 of the operations. -/
def R10 : List (HloOp τ sig (Elt F)) := rst_10
/-- Stretch 11 of the operations. -/
def R11 : List (HloOp τ sig (Elt F)) := rst_11
/-- Stretch 12 of the operations. -/
def R12 : List (HloOp τ sig (Elt F)) := rst_12
/-- Stretch 13 of the operations. -/
def R13 : List (HloOp τ sig (Elt F)) := rst_13
/-- Stretch 14 of the operations. -/
def R14 : List (HloOp τ sig (Elt F)) := rst_14
/-- Stretch 15 of the operations. -/
def R15 : List (HloOp τ sig (Elt F)) := rst_15
/-- Stretch 16 of the operations. -/
def R16 : List (HloOp τ sig (Elt F)) := rst_16
/-- Stretch 17 of the operations. -/
def R17 : List (HloOp τ sig (Elt F)) := rst_17

/-- The operations are the stretches in order. -/
theorem rops_eq : (rops : List (HloOp τ sig (Elt F))) = R0 ++ (R1 ++ (R2 ++ (R3 ++ (R4 ++ (R5 ++ (R6 ++ (R7 ++ (R8 ++ (R9 ++ (R10 ++ (R11 ++ (R12 ++ (R13 ++ (R14 ++ (R15 ++ (R16 ++ (R17))))))))))))))))) := rfl

/-- The contents after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Each operation of a literal list writes only buffers of a literal list of references. -/
local macro "writes_sub" : tactic =>
  `(tactic| (simp only [List.Forall]
             (repeat' constructor) <;>
               (simp only [nullary_writes, unary_writes, binary_writes, ternary_writes, quaternary_writes, reshape_writes,
                  Finset.singleton_subset_iff, List.mem_toFinset]
                exact List.mem_map_of_mem (by decide))))

/-- Stretch 0 writes only its listed buffers, -/
theorem w0 : (R0 : List (HloOp τ sig (Elt F))).Forall fun op => op.writes ⊆ (rst_0_writes.map (Proc.devRef (τ := τ) .tc)).toFinset := by
  unfold R0; writes_sub
/-- so a buffer not among them keeps its contents through it. -/
theorem k0 (V : Valuation τ sig (Elt F)) (r : Ref sig .tc) (hr : r ∉ rst_0_writes) :
    after R0 V (no_index (Proc.devRef .tc r)) = V (Proc.devRef .tc r) :=
  after_of_writes_sub R0 V w0 hr
/-- Stretch 1 writes only its listed buffers, -/
theorem w1 : (R1 : List (HloOp τ sig (Elt F))).Forall fun op => op.writes ⊆ (rst_1_writes.map (Proc.devRef (τ := τ) .tc)).toFinset := by
  unfold R1; writes_sub
/-- so a buffer not among them keeps its contents through it. -/
theorem k1 (V : Valuation τ sig (Elt F)) (r : Ref sig .tc) (hr : r ∉ rst_1_writes) :
    after R1 V (no_index (Proc.devRef .tc r)) = V (Proc.devRef .tc r) :=
  after_of_writes_sub R1 V w1 hr
/-- Stretch 2 writes only its listed buffers, -/
theorem w2 : (R2 : List (HloOp τ sig (Elt F))).Forall fun op => op.writes ⊆ (rst_2_writes.map (Proc.devRef (τ := τ) .tc)).toFinset := by
  unfold R2; writes_sub
/-- so a buffer not among them keeps its contents through it. -/
theorem k2 (V : Valuation τ sig (Elt F)) (r : Ref sig .tc) (hr : r ∉ rst_2_writes) :
    after R2 V (no_index (Proc.devRef .tc r)) = V (Proc.devRef .tc r) :=
  after_of_writes_sub R2 V w2 hr
/-- Stretch 3 writes only its listed buffers, -/
theorem w3 : (R3 : List (HloOp τ sig (Elt F))).Forall fun op => op.writes ⊆ (rst_3_writes.map (Proc.devRef (τ := τ) .tc)).toFinset := by
  unfold R3; writes_sub
/-- so a buffer not among them keeps its contents through it. -/
theorem k3 (V : Valuation τ sig (Elt F)) (r : Ref sig .tc) (hr : r ∉ rst_3_writes) :
    after R3 V (no_index (Proc.devRef .tc r)) = V (Proc.devRef .tc r) :=
  after_of_writes_sub R3 V w3 hr
/-- Stretch 4 writes only its listed buffers, -/
theorem w4 : (R4 : List (HloOp τ sig (Elt F))).Forall fun op => op.writes ⊆ (rst_4_writes.map (Proc.devRef (τ := τ) .tc)).toFinset := by
  unfold R4; writes_sub
/-- so a buffer not among them keeps its contents through it. -/
theorem k4 (V : Valuation τ sig (Elt F)) (r : Ref sig .tc) (hr : r ∉ rst_4_writes) :
    after R4 V (no_index (Proc.devRef .tc r)) = V (Proc.devRef .tc r) :=
  after_of_writes_sub R4 V w4 hr
/-- Stretch 5 writes only its listed buffers, -/
theorem w5 : (R5 : List (HloOp τ sig (Elt F))).Forall fun op => op.writes ⊆ (rst_5_writes.map (Proc.devRef (τ := τ) .tc)).toFinset := by
  unfold R5; writes_sub
/-- so a buffer not among them keeps its contents through it. -/
theorem k5 (V : Valuation τ sig (Elt F)) (r : Ref sig .tc) (hr : r ∉ rst_5_writes) :
    after R5 V (no_index (Proc.devRef .tc r)) = V (Proc.devRef .tc r) :=
  after_of_writes_sub R5 V w5 hr
/-- Stretch 6 writes only its listed buffers, -/
theorem w6 : (R6 : List (HloOp τ sig (Elt F))).Forall fun op => op.writes ⊆ (rst_6_writes.map (Proc.devRef (τ := τ) .tc)).toFinset := by
  unfold R6; writes_sub
/-- so a buffer not among them keeps its contents through it. -/
theorem k6 (V : Valuation τ sig (Elt F)) (r : Ref sig .tc) (hr : r ∉ rst_6_writes) :
    after R6 V (no_index (Proc.devRef .tc r)) = V (Proc.devRef .tc r) :=
  after_of_writes_sub R6 V w6 hr
/-- Stretch 7 writes only its listed buffers, -/
theorem w7 : (R7 : List (HloOp τ sig (Elt F))).Forall fun op => op.writes ⊆ (rst_7_writes.map (Proc.devRef (τ := τ) .tc)).toFinset := by
  unfold R7; writes_sub
/-- so a buffer not among them keeps its contents through it. -/
theorem k7 (V : Valuation τ sig (Elt F)) (r : Ref sig .tc) (hr : r ∉ rst_7_writes) :
    after R7 V (no_index (Proc.devRef .tc r)) = V (Proc.devRef .tc r) :=
  after_of_writes_sub R7 V w7 hr
/-- Stretch 8 writes only its listed buffers, -/
theorem w8 : (R8 : List (HloOp τ sig (Elt F))).Forall fun op => op.writes ⊆ (rst_8_writes.map (Proc.devRef (τ := τ) .tc)).toFinset := by
  unfold R8; writes_sub
/-- so a buffer not among them keeps its contents through it. -/
theorem k8 (V : Valuation τ sig (Elt F)) (r : Ref sig .tc) (hr : r ∉ rst_8_writes) :
    after R8 V (no_index (Proc.devRef .tc r)) = V (Proc.devRef .tc r) :=
  after_of_writes_sub R8 V w8 hr
/-- Stretch 9 writes only its listed buffers, -/
theorem w9 : (R9 : List (HloOp τ sig (Elt F))).Forall fun op => op.writes ⊆ (rst_9_writes.map (Proc.devRef (τ := τ) .tc)).toFinset := by
  unfold R9; writes_sub
/-- so a buffer not among them keeps its contents through it. -/
theorem k9 (V : Valuation τ sig (Elt F)) (r : Ref sig .tc) (hr : r ∉ rst_9_writes) :
    after R9 V (no_index (Proc.devRef .tc r)) = V (Proc.devRef .tc r) :=
  after_of_writes_sub R9 V w9 hr
/-- Stretch 10 writes only its listed buffers, -/
theorem w10 : (R10 : List (HloOp τ sig (Elt F))).Forall fun op => op.writes ⊆ (rst_10_writes.map (Proc.devRef (τ := τ) .tc)).toFinset := by
  unfold R10; writes_sub
/-- so a buffer not among them keeps its contents through it. -/
theorem k10 (V : Valuation τ sig (Elt F)) (r : Ref sig .tc) (hr : r ∉ rst_10_writes) :
    after R10 V (no_index (Proc.devRef .tc r)) = V (Proc.devRef .tc r) :=
  after_of_writes_sub R10 V w10 hr
/-- Stretch 11 writes only its listed buffers, -/
theorem w11 : (R11 : List (HloOp τ sig (Elt F))).Forall fun op => op.writes ⊆ (rst_11_writes.map (Proc.devRef (τ := τ) .tc)).toFinset := by
  unfold R11; writes_sub
/-- so a buffer not among them keeps its contents through it. -/
theorem k11 (V : Valuation τ sig (Elt F)) (r : Ref sig .tc) (hr : r ∉ rst_11_writes) :
    after R11 V (no_index (Proc.devRef .tc r)) = V (Proc.devRef .tc r) :=
  after_of_writes_sub R11 V w11 hr
/-- Stretch 12 writes only its listed buffers, -/
theorem w12 : (R12 : List (HloOp τ sig (Elt F))).Forall fun op => op.writes ⊆ (rst_12_writes.map (Proc.devRef (τ := τ) .tc)).toFinset := by
  unfold R12; writes_sub
/-- so a buffer not among them keeps its contents through it. -/
theorem k12 (V : Valuation τ sig (Elt F)) (r : Ref sig .tc) (hr : r ∉ rst_12_writes) :
    after R12 V (no_index (Proc.devRef .tc r)) = V (Proc.devRef .tc r) :=
  after_of_writes_sub R12 V w12 hr
/-- Stretch 13 writes only its listed buffers, -/
theorem w13 : (R13 : List (HloOp τ sig (Elt F))).Forall fun op => op.writes ⊆ (rst_13_writes.map (Proc.devRef (τ := τ) .tc)).toFinset := by
  unfold R13; writes_sub
/-- so a buffer not among them keeps its contents through it. -/
theorem k13 (V : Valuation τ sig (Elt F)) (r : Ref sig .tc) (hr : r ∉ rst_13_writes) :
    after R13 V (no_index (Proc.devRef .tc r)) = V (Proc.devRef .tc r) :=
  after_of_writes_sub R13 V w13 hr
/-- Stretch 14 writes only its listed buffers, -/
theorem w14 : (R14 : List (HloOp τ sig (Elt F))).Forall fun op => op.writes ⊆ (rst_14_writes.map (Proc.devRef (τ := τ) .tc)).toFinset := by
  unfold R14; writes_sub
/-- so a buffer not among them keeps its contents through it. -/
theorem k14 (V : Valuation τ sig (Elt F)) (r : Ref sig .tc) (hr : r ∉ rst_14_writes) :
    after R14 V (no_index (Proc.devRef .tc r)) = V (Proc.devRef .tc r) :=
  after_of_writes_sub R14 V w14 hr
/-- Stretch 15 writes only its listed buffers, -/
theorem w15 : (R15 : List (HloOp τ sig (Elt F))).Forall fun op => op.writes ⊆ (rst_15_writes.map (Proc.devRef (τ := τ) .tc)).toFinset := by
  unfold R15; writes_sub
/-- so a buffer not among them keeps its contents through it. -/
theorem k15 (V : Valuation τ sig (Elt F)) (r : Ref sig .tc) (hr : r ∉ rst_15_writes) :
    after R15 V (no_index (Proc.devRef .tc r)) = V (Proc.devRef .tc r) :=
  after_of_writes_sub R15 V w15 hr
/-- Stretch 16 writes only its listed buffers, -/
theorem w16 : (R16 : List (HloOp τ sig (Elt F))).Forall fun op => op.writes ⊆ (rst_16_writes.map (Proc.devRef (τ := τ) .tc)).toFinset := by
  unfold R16; writes_sub
/-- so a buffer not among them keeps its contents through it. -/
theorem k16 (V : Valuation τ sig (Elt F)) (r : Ref sig .tc) (hr : r ∉ rst_16_writes) :
    after R16 V (no_index (Proc.devRef .tc r)) = V (Proc.devRef .tc r) :=
  after_of_writes_sub R16 V w16 hr
/-- Stretch 17 writes only its listed buffers, -/
theorem w17 : (R17 : List (HloOp τ sig (Elt F))).Forall fun op => op.writes ⊆ (rst_17_writes.map (Proc.devRef (τ := τ) .tc)).toFinset := by
  unfold R17; writes_sub
/-- so a buffer not among them keeps its contents through it. -/
theorem k17 (V : Valuation τ sig (Elt F)) (r : Ref sig .tc) (hr : r ∉ rst_17_writes) :
    after R17 V (no_index (Proc.devRef .tc r)) = V (Proc.devRef .tc r) :=
  after_of_writes_sub R17 V w17 hr

section Runs

attribute [local irreducible] Host.reduce Host.gather Host.reduceAdd Host.reduceWindow Host.exp Host.log Host.negf Host.divf broadcastInDim cmpi cmpf select maximumf subf mulf addf uitofp sitofp extui constant constantI iotaInDim shapeCast maxsi minsi absi andi addi

/-! ## Two stretches over the buffers themselves

Stretches 9 and 14 belong to called functions, whose operations name each buffer together with the type of the value it
holds; here are the same operations naming the buffers alone, which is the same list. -/

/-- The operations of stretch 9 (the log-softmax of the argument logits), over the buffers alone. -/
def P9 : List (HloOp τ sig (Elt F)) :=
  [ StableHlo.nullary main_call4_cst (constant S_ .f32 0xFF800000#32),
    StableHlo.binary main_arg1 main_call4_cst main_call4_v0 ((fun x v => Host.reduce FloatOps.maximumf x v reducesTo_S4x512x16x8192_S4x512x16_d3 h_S_) : (⟨S4x512x16x8192, .f32⟩ : BufTy).Contents (Elt F) → (⟨S_, .f32⟩ : BufTy).Contents (Elt F) → (⟨S4x512x16, .f32⟩ : BufTy).Contents (Elt F)),
    StableHlo.nullary main_call4_cst_0 (constant S_ .f32 0xFF800000#32),
    StableHlo.unary main_call4_cst_0 main_call4_v1 ((broadcastInDim S4x512x16 ![] bcast_S_S4x512x16) : (⟨S_, .f32⟩ : BufTy).Contents (Elt F) → (⟨S4x512x16, .f32⟩ : BufTy).Contents (Elt F)),
    StableHlo.binary main_call4_v1 main_call4_v0 main_call4_v2 ((maximumf) : (⟨S4x512x16, .f32⟩ : BufTy).Contents (Elt F) → (⟨S4x512x16, .f32⟩ : BufTy).Contents (Elt F) → (⟨S4x512x16, .f32⟩ : BufTy).Contents (Elt F)),
    StableHlo.unary main_call4_v2 main_call4_v3 ((broadcastInDim S4x512x16x1 ![0, 1, 2] bcast_S4x512x16_S4x512x16x1_0_1_2) : (⟨S4x512x16, .f32⟩ : BufTy).Contents (Elt F) → (⟨S4x512x16x1, .f32⟩ : BufTy).Contents (Elt F)),
    StableHlo.unary main_call4_v3 main_call4_v4 ((broadcastInDim S4x512x16x8192 ![0, 1, 2, 3] bcast_S4x512x16x1_S4x512x16x8192_0_1_2_3) : (⟨S4x512x16x1, .f32⟩ : BufTy).Contents (Elt F) → (⟨S4x512x16x8192, .f32⟩ : BufTy).Contents (Elt F)),
    StableHlo.binary main_arg1 main_call4_v4 main_call4_v5 ((subf) : (⟨S4x512x16x8192, .f32⟩ : BufTy).Contents (Elt F) → (⟨S4x512x16x8192, .f32⟩ : BufTy).Contents (Elt F) → (⟨S4x512x16x8192, .f32⟩ : BufTy).Contents (Elt F)),
    StableHlo.unary main_call4_v5 main_call4_v6 ((Host.exp) : (⟨S4x512x16x8192, .f32⟩ : BufTy).Contents (Elt F) → (⟨S4x512x16x8192, .f32⟩ : BufTy).Contents (Elt F)),
    StableHlo.nullary main_call4_cst_1 (constant S_ .f32 0x00000000#32),
    StableHlo.binary main_call4_v6 main_call4_cst_1 main_call4_v7 ((fun x v => Host.reduceAdd x v reducesTo_S4x512x16x8192_S4x512x16_d3 h_S_) : (⟨S4x512x16x8192, .f32⟩ : BufTy).Contents (Elt F) → (⟨S_, .f32⟩ : BufTy).Contents (Elt F) → (⟨S4x512x16, .f32⟩ : BufTy).Contents (Elt F)),
    StableHlo.unary main_call4_v7 main_call4_v8 ((broadcastInDim S4x512x16x1 ![0, 1, 2] bcast_S4x512x16_S4x512x16x1_0_1_2) : (⟨S4x512x16, .f32⟩ : BufTy).Contents (Elt F) → (⟨S4x512x16x1, .f32⟩ : BufTy).Contents (Elt F)),
    StableHlo.unary main_call4_v8 main_call4_v9 ((Host.log) : (⟨S4x512x16x1, .f32⟩ : BufTy).Contents (Elt F) → (⟨S4x512x16x1, .f32⟩ : BufTy).Contents (Elt F)),
    StableHlo.unary main_call4_v9 main_call4_v10 ((broadcastInDim S4x512x16x8192 ![0, 1, 2, 3] bcast_S4x512x16x1_S4x512x16x8192_0_1_2_3) : (⟨S4x512x16x1, .f32⟩ : BufTy).Contents (Elt F) → (⟨S4x512x16x8192, .f32⟩ : BufTy).Contents (Elt F)),
    StableHlo.binary main_call4_v5 main_call4_v10 main_v19 ((subf) : (⟨S4x512x16x8192, .f32⟩ : BufTy).Contents (Elt F) → (⟨S4x512x16x8192, .f32⟩ : BufTy).Contents (Elt F) → (⟨S4x512x16x8192, .f32⟩ : BufTy).Contents (Elt F)) ]
/-- They are stretch 9. -/
theorem R9_eq : (R9 : List (HloOp τ sig (Elt F))) = P9 := rfl

/-- The operations of stretch 14 (the entries taken at the window positions), over the buffers alone. -/
def P14 : List (HloOp τ sig (Elt F)) :=
  [ StableHlo.nullary main_call7_c (constantI S_ 32 0#32),
    StableHlo.unary main_call7_c main_call7_v0 ((broadcastInDim S4x512x16x7 ![] bcast_S_S4x512x16x7) : (⟨S_, .i32⟩ : BufTy).Contents (Elt F) → (⟨S4x512x16x7, .i32⟩ : BufTy).Contents (Elt F)),
    StableHlo.binary main_v48 main_call7_v0 main_call7_v1 ((cmpi .slt) : (⟨S4x512x16x7, .i32⟩ : BufTy).Contents (Elt F) → (⟨S4x512x16x7, .i32⟩ : BufTy).Contents (Elt F) → (⟨S4x512x16x7, .i1⟩ : BufTy).Contents (Elt F)),
    StableHlo.nullary main_call7_c_0 (constantI S_ 32 8192#32),
    StableHlo.unary main_call7_c_0 main_call7_v2 ((broadcastInDim S4x512x16x7 ![] bcast_S_S4x512x16x7) : (⟨S_, .i32⟩ : BufTy).Contents (Elt F) → (⟨S4x512x16x7, .i32⟩ : BufTy).Contents (Elt F)),
    StableHlo.binary main_v48 main_call7_v2 main_call7_v3 ((addi) : (⟨S4x512x16x7, .i32⟩ : BufTy).Contents (Elt F) → (⟨S4x512x16x7, .i32⟩ : BufTy).Contents (Elt F) → (⟨S4x512x16x7, .i32⟩ : BufTy).Contents (Elt F)),
    StableHlo.ternary main_call7_v1 main_call7_v3 main_v48 main_call7_v4 ((select) : (⟨S4x512x16x7, .i1⟩ : BufTy).Contents (Elt F) → (⟨S4x512x16x7, .i32⟩ : BufTy).Contents (Elt F) → (⟨S4x512x16x7, .i32⟩ : BufTy).Contents (Elt F) → (⟨S4x512x16x7, .i32⟩ : BufTy).Contents (Elt F)),
    StableHlo.reshape main_call7_v4 main_call7_v5 rfl shapeCasts_S4x512x16x7_S4x512x16x7x1,
    StableHlo.nullary main_call7_c_1 (constantI S1 32 8191#32),
    StableHlo.nullary main_call7_c_2 (constantI S_ 32 0#32),
    StableHlo.unary main_call7_c_2 main_call7_v6 ((broadcastInDim S4x512x16x7x1 ![] bcast_S_S4x512x16x7x1) : (⟨S_, .i32⟩ : BufTy).Contents (Elt F) → (⟨S4x512x16x7x1, .i32⟩ : BufTy).Contents (Elt F)),
    StableHlo.binary main_call7_v5 main_call7_v6 main_call7_v7 ((cmpi .sge) : (⟨S4x512x16x7x1, .i32⟩ : BufTy).Contents (Elt F) → (⟨S4x512x16x7x1, .i32⟩ : BufTy).Contents (Elt F) → (⟨S4x512x16x7x1, .i1⟩ : BufTy).Contents (Elt F)),
    StableHlo.unary main_call7_c_1 main_call7_v8 ((broadcastInDim S1x1x1x1x1 ![4] bcast_S1_S1x1x1x1x1_4) : (⟨S1, .i32⟩ : BufTy).Contents (Elt F) → (⟨S1x1x1x1x1, .i32⟩ : BufTy).Contents (Elt F)),
    StableHlo.unary main_call7_v8 main_call7_v9 ((broadcastInDim S4x512x16x7x1 ![0, 1, 2, 3, 4] bcast_S1x1x1x1x1_S4x512x16x7x1_0_1_2_3_4) : (⟨S1x1x1x1x1, .i32⟩ : BufTy).Contents (Elt F) → (⟨S4x512x16x7x1, .i32⟩ : BufTy).Contents (Elt F)),
    StableHlo.binary main_call7_v5 main_call7_v9 main_call7_v10 ((cmpi .sle) : (⟨S4x512x16x7x1, .i32⟩ : BufTy).Contents (Elt F) → (⟨S4x512x16x7x1, .i32⟩ : BufTy).Contents (Elt F) → (⟨S4x512x16x7x1, .i1⟩ : BufTy).Contents (Elt F)),
    StableHlo.binary main_call7_v7 main_call7_v10 main_call7_v11 ((andi) : (⟨S4x512x16x7x1, .i1⟩ : BufTy).Contents (Elt F) → (⟨S4x512x16x7x1, .i1⟩ : BufTy).Contents (Elt F) → (⟨S4x512x16x7x1, .i1⟩ : BufTy).Contents (Elt F)),
    StableHlo.nullary main_call7_c_3 (constantI S_ 1 1#1),
    StableHlo.binary main_call7_v11 main_call7_c_3 main_call7_v12 ((fun x v => Host.reduce IntOp.andi x v reducesTo_S4x512x16x7x1_S4x512x16x7_d4 h_S_) : (⟨S4x512x16x7x1, .i1⟩ : BufTy).Contents (Elt F) → (⟨S_, .i1⟩ : BufTy).Contents (Elt F) → (⟨S4x512x16x7, .i1⟩ : BufTy).Contents (Elt F)),
    StableHlo.binary main_v19 main_call7_v5 main_call7_v13 ((fun x i => Host.gather gather_S4x512x16x8192_S4x512x16x7x1_S4x512x16x7_n_3_012_012_3_4_1111 x i) : (⟨S4x512x16x8192, .f32⟩ : BufTy).Contents (Elt F) → (⟨S4x512x16x7x1, .i32⟩ : BufTy).Contents (Elt F) → (⟨S4x512x16x7, .f32⟩ : BufTy).Contents (Elt F)),
    StableHlo.nullary main_call7_cst (constant S_ .f32 0x7FC00000#32),
    StableHlo.unary main_call7_cst main_call7_v14 ((broadcastInDim S4x512x16x7 ![] bcast_S_S4x512x16x7) : (⟨S_, .f32⟩ : BufTy).Contents (Elt F) → (⟨S4x512x16x7, .f32⟩ : BufTy).Contents (Elt F)),
    StableHlo.ternary main_call7_v12 main_call7_v13 main_call7_v14 main_v49 ((select) : (⟨S4x512x16x7, .i1⟩ : BufTy).Contents (Elt F) → (⟨S4x512x16x7, .f32⟩ : BufTy).Contents (Elt F) → (⟨S4x512x16x7, .f32⟩ : BufTy).Contents (Elt F) → (⟨S4x512x16x7, .f32⟩ : BufTy).Contents (Elt F)) ]
/-- They are stretch 14. -/
theorem R14_eq : (R14 : List (HloOp τ sig (Elt F))) = P14 := rfl

/-! ## What each run of stretches computes -/

/-- Stretches 0 to 2 compute the valid-position mask from the commands. -/
theorem a_v6 (V : Valuation τ sig (Elt F)) :
    after R2 (after R1 (after R0 V)) (no_index (Proc.devRef .tc main_v6)) = vmask (V (Proc.devRef .tc main_arg3)) := by
  unfold R0 R1 R2 vmask
  after_results_simp
  try rfl
/-- Stretch 3 computes the log-softmax of the command logits. -/
theorem b_v7 (V : Valuation τ sig (Elt F)) :
    after R3 V (no_index (Proc.devRef .tc main_v7)) = lsmCmd (V (Proc.devRef .tc main_arg0)) := by
  unfold R3 lsmCmd
  after_results_simp
  try rfl
/-- Stretches 4 and 5 take its entries at the commands. -/
theorem c_v9 (V : Valuation τ sig (Elt F)) :
    after R5 (after R4 V) (no_index (Proc.devRef .tc main_v9)) = takeCmd (V (Proc.devRef .tc main_v7)) (V (Proc.devRef .tc main_arg3)) := by
  unfold R4 R5 takeCmd
  after_results_simp
  try rfl
/-- Stretches 6 to 8 compute the masked mean of minus the taken entries. -/
theorem d_v18 (V : Valuation τ sig (Elt F)) :
    after R8 (after R7 (after R6 V)) (no_index (Proc.devRef .tc main_v18)) = cmdTail (V (Proc.devRef .tc main_v9)) (V (Proc.devRef .tc main_v6)) := by
  unfold R6 R7 R8 cmdTail
  after_results_simp
  try rfl
/-- Stretch 9 computes the log-softmax of the argument logits along their last axis. -/
theorem e_v19 (V : Valuation τ sig (Elt F)) :
    after R9 V (no_index (Proc.devRef .tc main_v19)) = logSoftmaxLast (V (Proc.devRef .tc main_arg1)) := by
  rw [R9_eq]
  unfold P9 logSoftmaxLast
  after_results_simp
  try rfl
/-- Stretch 10 computes the combined mask from the valid-position mask. -/
theorem f_v29 (V : Valuation τ sig (Elt F)) :
    after R10 V (no_index (Proc.devRef .tc main_v29)) = maskRest (V (Proc.devRef .tc main_arg2)) (V (Proc.devRef .tc main_arg3)) (V (Proc.devRef .tc main_v6)) := by
  unfold R10 maskRest
  after_results_simp
  try rfl
/-- Stretches 10 and 11 clip the targets into [0, 8191]. -/
theorem f_v30 (V : Valuation τ sig (Elt F)) :
    after R11 (after R10 V) (no_index (Proc.devRef .tc main_v30)) = Cert.KernelIdeal.St.tgtClip (V (Proc.devRef .tc main_arg4)) := by
  unfold R10 R11 Cert.KernelIdeal.St.tgtClip
  after_results_simp
  try rfl
/-- Stretch 12 computes the seven normalized window weights. -/
theorem g_v42 (V : Valuation τ sig (Elt F)) :
    after R12 V (no_index (Proc.devRef .tc main_v42)) = Cert.KernelIdeal.St.wnorm := by
  unfold R12 Cert.KernelIdeal.St.wnorm
  after_results_simp
  try rfl
/-- Stretches 12 and 13 compute the seven clipped window positions around each clipped target. -/
theorem g_v48 (V : Valuation τ sig (Elt F)) :
    after R13 (after R12 V) (no_index (Proc.devRef .tc main_v48)) = Cert.KernelIdeal.St.idx7 (V (Proc.devRef .tc main_v30)) := by
  unfold R12 R13 Cert.KernelIdeal.St.idx7
  after_results_simp
  try rfl
/-- Stretch 14 takes the log-softmax values at the window positions. -/
theorem h_v49 (V : Valuation τ sig (Elt F)) :
    after R14 V (no_index (Proc.devRef .tc main_v49)) = Cert.KernelIdeal.St.takeLast (V (Proc.devRef .tc main_v19)) (V (Proc.devRef .tc main_v48)) := by
  rw [R14_eq]
  unfold P14 Cert.KernelIdeal.St.takeLast
  after_results_simp
  try rfl
/-- Stretches 15 to 17 compute the per-position loss (minus the weighted window sum of the taken values) and from it the argument loss under the combined mask, -/
theorem i_v61 (V : Valuation τ sig (Elt F)) :
    after R17 (after R16 (after R15 V)) (no_index (Proc.devRef .tc main_v61)) = Cert.KernelIdeal.St.lossTail (lossR (V (Proc.devRef .tc main_v49)) (V (Proc.devRef .tc main_v42))) (V (Proc.devRef .tc main_v29)) := by
  unfold R15 R16 R17 Cert.KernelIdeal.St.lossTail lossR
  after_results_simp
  try rfl
/-- and the total of the command loss and the argument loss. -/
theorem i_v64 (V : Valuation τ sig (Elt F)) :
    after R17 (after R16 (after R15 V)) (no_index (Proc.devRef .tc main_v64)) = Cert.KernelIdeal.St.total (V (Proc.devRef .tc main_v18)) (Cert.KernelIdeal.St.lossTail (lossR (V (Proc.devRef .tc main_v49)) (V (Proc.devRef .tc main_v42))) (V (Proc.devRef .tc main_v29))) := by
  unfold R15 R16 R17 Cert.KernelIdeal.St.total Cert.KernelIdeal.St.lossTail lossR
  after_results_simp
  try rfl

end Runs

/-! ## The three results -/

/-- After the reference's operations: the command loss (the same composite the kernel's program computes), -/
theorem r_v18 (V : Valuation τ sig (Elt F)) :
    after rops V (Proc.devRef .tc main_v18) = Cert.KernelIdeal.St.cmdLoss (V (Proc.devRef .tc main_arg0)) (V (Proc.devRef .tc main_arg3)) := by
  rw [rops_eq, cmdLoss_eq]
  simp (disch := decide) only [after_append, k0, k1, k2, k3, k4, k5, k6, k7, k8, k9, k10, k11, k12, k13, k14, k15, k16, k17, a_v6, b_v7, c_v9, d_v18, e_v19, f_v29, f_v30, g_v42, g_v48, h_v49, i_v61, i_v64]
/-- the argument loss: the loss tail of the per-position loss built from the LOG-SOFTMAX values gathered at the clipped
    window positions, under the mask; -/
theorem r_v61 (V : Valuation τ sig (Elt F)) :
    after rops V (Proc.devRef .tc main_v61) = Cert.KernelIdeal.St.lossTail (lossR (Cert.KernelIdeal.St.takeLast (logSoftmaxLast (V (Proc.devRef .tc main_arg1))) (Cert.KernelIdeal.St.idx7 (Cert.KernelIdeal.St.tgtClip (V (Proc.devRef .tc main_arg4))))) Cert.KernelIdeal.St.wnorm) (Cert.KernelIdeal.St.argMask (V (Proc.devRef .tc main_arg2)) (V (Proc.devRef .tc main_arg3))) := by
  rw [rops_eq, argMask_eq]
  simp (disch := decide) only [after_append, k0, k1, k2, k3, k4, k5, k6, k7, k8, k9, k10, k11, k12, k13, k14, k15, k16, k17, a_v6, b_v7, c_v9, d_v18, e_v19, f_v29, f_v30, g_v42, g_v48, h_v49, i_v61, i_v64]
/-- and the total loss. -/
theorem r_v64 (V : Valuation τ sig (Elt F)) :
    after rops V (Proc.devRef .tc main_v64) = Cert.KernelIdeal.St.total (Cert.KernelIdeal.St.cmdLoss (V (Proc.devRef .tc main_arg0)) (V (Proc.devRef .tc main_arg3))) (Cert.KernelIdeal.St.lossTail (lossR (Cert.KernelIdeal.St.takeLast (logSoftmaxLast (V (Proc.devRef .tc main_arg1))) (Cert.KernelIdeal.St.idx7 (Cert.KernelIdeal.St.tgtClip (V (Proc.devRef .tc main_arg4))))) Cert.KernelIdeal.St.wnorm) (Cert.KernelIdeal.St.argMask (V (Proc.devRef .tc main_arg2)) (V (Proc.devRef .tc main_arg3)))) := by
  rw [rops_eq, cmdLoss_eq, argMask_eq]
  simp (disch := decide) only [after_append, k0, k1, k2, k3, k4, k5, k6, k7, k8, k9, k10, k11, k12, k13, k14, k15, k16, k17, a_v6, b_v7, c_v9, d_v18, e_v19, f_v29, f_v30, g_v42, g_v48, h_v49, i_v61, i_v64]

end Cert.ReferenceIdeal.Af

end
-- ==== Proof.TakeRead.lean ====
import proofs.«428594_j79611513799125_3_alg».proof.Proof.KStages
import proofs.«428594_j79611513799125_3_alg».proof.Proof.RowDefs
import Idealize.ShloMosaic.PureOps.Reduce
import Idealize.ShloMosaic.Lib.Pipeline.Value

noncomputable section

namespace Cert.KernelIdeal.Rd

open Idealize.ShloMosaic Idealize.ShloMosaic.ValueIdx Idealize.SL.Sem Cert.KernelIdeal Cert.KernelIdeal.Gen Cert.Rows

/-- A signed 32-bit word clipped below at 0 and then above at 8191 lies in [0, 8191], whatever the word. -/
theorem clip_range (a : BitVec 32) :
    0 ≤ (IntOp.minsi 8191#32 (IntOp.maxsi 0#32 a)).toInt ∧ (IntOp.minsi 8191#32 (IntOp.maxsi 0#32 a)).toInt ≤ 8191 := by
  have h0 : (0#32 : BitVec 32).toInt = 0 := by decide
  have h1 : (8191#32 : BitVec 32).toInt = 8191 := by decide
  unfold IntOp.minsi IntOp.maxsi
  simp only [BitVec.slt, decide_eq_true_eq, h0, h1]
  split_ifs <;> omega

/-- The clipped window positions lie in [0, 8191] (read as signed integers). -/
theorem idx7_range (tg : (⟨S4x512x16, .i32⟩ : BufTy).Contents (Elt Ideal)) (k : S4x512x16x7.Idx) :
    0 ≤ (St.idx7 (F := Ideal) tg k).toInt ∧ (St.idx7 (F := Ideal) tg k).toInt ≤ 8191 := by
  unfold St.idx7
  exact clip_range _

/-- Counting a non-negative position from the end changes nothing: the wrap `select (a < 0) (a + 8192) a` is `a`. -/
theorem wrap_nonneg (a : BitVec 32) (h : 0 ≤ a.toInt) :
    Scalar.select (IntOp.cmpi .slt a 0#32) (IntOp.addi a 8192#32) a = a := by
  have h0 : (0#32 : BitVec 32).toInt = 0 := by decide
  have hs : a.slt 0#32 = false := by
    simp only [BitVec.slt, decide_eq_false_iff_not, h0]; omega
  show Scalar.select (BitVec.ofBool (a.slt 0#32)) _ _ = _
  rw [hs]
  exact select_zero _ _

/-- The range test `(a ≥ 0) ∧ (a ≤ 8191)` is the bit 1 on a position in [0, 8191]. -/
theorem inrange_one (a : BitVec 32) (h : 0 ≤ a.toInt ∧ a.toInt ≤ 8191) :
    IntOp.andi (IntOp.cmpi .sge a 0#32) (IntOp.cmpi .sle a 8191#32) = 1#1 := by
  have h0 : (0#32 : BitVec 32).toInt = 0 := by decide
  have h1 : (8191#32 : BitVec 32).toInt = 8191 := by decide
  have hge : (0#32 : BitVec 32).sle a = true := by
    simp only [BitVec.sle, decide_eq_true_eq, h0]; exact h.1
  have hle : a.sle 8191#32 = true := by
    simp only [BitVec.sle, decide_eq_true_eq, h1]; exact h.2
  show IntOp.andi (BitVec.ofBool ((0#32 : BitVec 32).sle a)) (BitVec.ofBool (a.sle 8191#32)) = 1#1
  rw [hge, hle]
  decide

/-- An ∧-reduction over the unit axis, from the bit 1, of an array of one-bit words that are all 1 is 1 at every index. -/
theorem reduce_and_ones (m : IVec S4x512x16x7x1 1) (hm : ∀ q, m q = 1#1) (k : S4x512x16x7.Idx) :
    Host.reduce IntOp.andi m (constantI S_ 1 1#1) reducesTo_S4x512x16x7x1_S4x512x16x7_d4 h_S_ k = 1#1 := by
  rw [Host.reduce_eq_fold, show m = fun _ => 1#1 from funext hm]
  show Finset.fold IntOp.andi 1#1 (fun _ => 1#1) _ = 1#1
  rw [Finset.fold_const _ (by decide)]
  split <;> decide

/-- The start-indices array read at (b, s, n, j, 0) is the positions' entry at (b, s, n, j): the reshape only adds a unit axis. -/
theorem reshape_read (i : (⟨S4x512x16x7, .i32⟩ : BufTy).Contents (Elt Ideal)) (b : Fin 4) (s : Fin 512) (n : Fin 16) (j : Fin 7) :
    shapeCast S4x512x16x7x1 i shapeCasts_S4x512x16x7_S4x512x16x7x1 (ix5 b s n j (0 : Fin 1)) = i (ix4 b s n j) :=
  shapeCast_apply i _ _ _ (by
    rw [Shape.rowMajor_val_four, Shape.rowMajor_val_five]
    show ((b.val * 512 + s.val) * 16 + n.val) * 7 + j.val = (((b.val * 512 + s.val) * 16 + n.val) * 7 + j.val) * 1 + 0
    omega)

/-- Taking along the last axis at in-range positions reads, at (b, s, n, j), the operand's entry of the SAME row (b, s, n)
    at the tap's position; the out-of-range fill is never selected. -/
theorem takeLast_apply (x : (⟨S4x512x16x8192, .f32⟩ : BufTy).Contents (Elt Ideal)) (i : (⟨S4x512x16x7, .i32⟩ : BufTy).Contents (Elt Ideal))
    (hi : ∀ k : S4x512x16x7.Idx, 0 ≤ (i k).toInt ∧ (i k).toInt ≤ 8191) (b : Fin 4) (s : Fin 512) (n : Fin 16) (j : Fin 7) :
    St.takeLast (F := Ideal) x i (ix4 b s n j) = x (ix4 b s n (tapPos i b s n j)) := by
  -- the wrapped positions are the positions themselves
  have hw : (select (cmpi .slt i (broadcastInDim S4x512x16x7 ![] bcast_S_S4x512x16x7 (constantI S_ 32 0#32)))
      (addi i (broadcastInDim S4x512x16x7 ![] bcast_S_S4x512x16x7 (constantI S_ 32 8192#32))) i
        : (⟨S4x512x16x7, .i32⟩ : BufTy).Contents (Elt Ideal)) = i :=
    funext fun k => wrap_nonneg (i k) (hi k).1
  unfold St.takeLast
  dsimp only
  rw [hw, select_apply, reduce_and_ones (k := ix4 b s n j) (hm := ?hm), select_one]
  case hm => intro q; exact inrange_one _ (hi _)
  -- the gather, one operand axis at a time
  unfold Host.gather
  refine congrArg x (funext fun a => Fin.ext ?_)
  -- the start index of every component is read at (b, s, n, j, 0)
  have hsi : ∀ c, gather_S4x512x16x8192_S4x512x16x7x1_S4x512x16x7_n_3_012_012_3_4_1111.siIdx (ix4 b s n j) c = ix5 b s n j (0 : Fin 1) := by
    intro c; funext e; refine Fin.ext ?_
    match e with
    | ⟨0, _⟩ => rfl
    | ⟨1, _⟩ => rfl
    | ⟨2, _⟩ => rfl
    | ⟨3, _⟩ => rfl
    | ⟨4, _⟩ => exact Nat.lt_one_iff.mp c.isLt
  match a with
  | ⟨0, _⟩ =>
    -- a batching axis: the result index's own coordinate
    show GatherDims.start gather_S4x512x16x8192_S4x512x16x7x1_S4x512x16x7_n_3_012_012_3_4_1111 _ _ (0 : Fin 4) + GatherDims.batchCoord gather_S4x512x16x8192_S4x512x16x7x1_S4x512x16x7_n_3_012_012_3_4_1111 _ (0 : Fin 4) + GatherDims.offCoord gather_S4x512x16x8192_S4x512x16x7x1_S4x512x16x7_n_3_012_012_3_4_1111 _ (0 : Fin 4) = b.val
    rw [GatherDims.start_batching _ _ _ _ (by decide),
      GatherDims.offCoord_eq_zero _ _ _ (fun h => ((GatherDims.mem_sKept _ _).mp h).2 (by decide)), Nat.zero_add, Nat.add_zero]
    rfl
  | ⟨1, _⟩ =>
    show GatherDims.start gather_S4x512x16x8192_S4x512x16x7x1_S4x512x16x7_n_3_012_012_3_4_1111 _ _ (1 : Fin 4) + GatherDims.batchCoord gather_S4x512x16x8192_S4x512x16x7x1_S4x512x16x7_n_3_012_012_3_4_1111 _ (1 : Fin 4) + GatherDims.offCoord gather_S4x512x16x8192_S4x512x16x7x1_S4x512x16x7_n_3_012_012_3_4_1111 _ (1 : Fin 4) = s.val
    rw [GatherDims.start_batching _ _ _ _ (by decide),
      GatherDims.offCoord_eq_zero _ _ _ (fun h => ((GatherDims.mem_sKept _ _).mp h).2 (by decide)), Nat.zero_add, Nat.add_zero]
    rfl
  | ⟨2, _⟩ =>
    show GatherDims.start gather_S4x512x16x8192_S4x512x16x7x1_S4x512x16x7_n_3_012_012_3_4_1111 _ _ (2 : Fin 4) + GatherDims.batchCoord gather_S4x512x16x8192_S4x512x16x7x1_S4x512x16x7_n_3_012_012_3_4_1111 _ (2 : Fin 4) + GatherDims.offCoord gather_S4x512x16x8192_S4x512x16x7x1_S4x512x16x7_n_3_012_012_3_4_1111 _ (2 : Fin 4) = n.val
    rw [GatherDims.start_batching _ _ _ _ (by decide),
      GatherDims.offCoord_eq_zero _ _ _ (fun h => ((GatherDims.mem_sKept _ _).mp h).2 (by decide)), Nat.zero_add, Nat.add_zero]
    rfl
  | ⟨3, _⟩ =>
    -- the collapsed axis the start index map names: the start index clamped into [0, 8192 − 1]
    show GatherDims.start gather_S4x512x16x8192_S4x512x16x7x1_S4x512x16x7_n_3_012_012_3_4_1111 _ _ (3 : Fin 4) + GatherDims.batchCoord gather_S4x512x16x8192_S4x512x16x7x1_S4x512x16x7_n_3_012_012_3_4_1111 _ (3 : Fin 4) + GatherDims.offCoord gather_S4x512x16x8192_S4x512x16x7x1_S4x512x16x7_n_3_012_012_3_4_1111 _ (3 : Fin 4) = (tapPos i b s n j).val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide), hsi]
    show min (shapeCast S4x512x16x7x1 i shapeCasts_S4x512x16x7_S4x512x16x7x1 (ix5 b s n j (0 : Fin 1))).toInt.toNat 8191
      = min (i (ix4 b s n j)).toInt.toNat 8191
    rw [reshape_read]

end Cert.KernelIdeal.Rd

end
-- ==== Proof.LibWindowLse.lean ====
import Idealize.ShloMosaic.PureOps.Ideal
import Mathlib.Data.EReal.Basic
import Mathlib.Data.EReal.Operations
import Mathlib.Data.Finset.Fold
import Mathlib.Data.Finset.Max
import Mathlib.Data.Fintype.Basic
import Mathlib.Algebra.BigOperators.Group.Finset.Basic
import Mathlib.Algebra.BigOperators.Ring.Finset
import Mathlib.Algebra.Order.BigOperators.Group.Finset
import Mathlib.Analysis.SpecialFunctions.Log.Basic
import Mathlib.Tactic.Ring

/-!
# A weighted window of log-softmax values, on the extended reals

For a nonempty finite row of real logits `x`, let `m` be the row maximum and
`S = Σ_v exp (x v − m)` the sum of the shifted exponentials; `m + log S` is the row's
log-sum-exp. For taps `g` into the row and real weights `w`,

  `Σ_j x (g j) · w j − (Σ_j w j) · (m + log S) = Σ_j (x (g j) − m − log S) · w j`.

This file proves that identity for the exact operations on the extended reals
(`Ideal.exp`, `Ideal.log`, EReal's `+ − *`), where it is the coercion of the real
identity because every quantity involved is a real number:

* `fold_max_real`: the fold of `max` from `⊥` over a nonempty finite row of reals is a real;
* `exp_coe`, `log_coe_pos`: the extended exponential of a real, and the extended logarithm
  of a positive real, are the coercions of the real ones;
* `coe_sum`: a finite sum of coercions is the coercion of the sum;
* `window_lse`: the identity itself.
-/

namespace WindowLse

open Idealize.ShloMosaic

/-- The extended exponential of a real is the real exponential. -/
theorem exp_coe (r : ℝ) : Idealize.ShloMosaic.Ideal.exp (r : EReal) = ((Real.exp r : ℝ) : EReal) := rfl

/-- The extended logarithm of a positive real is the real logarithm. -/
theorem log_coe_pos {r : ℝ} (h : 0 < r) :
    Idealize.ShloMosaic.Ideal.log (r : EReal) = ((Real.log r : ℝ) : EReal) := by
  show (if r ≤ 0 then (⊥ : EReal) else ((Real.log r : ℝ) : EReal)) = _
  exact if_neg (not_le.2 h)

/-- The coercion `ℝ → EReal` commutes with finite sums. -/
theorem coe_sum {κ : Type} (s : Finset κ) (f : κ → ℝ) :
    (((∑ j ∈ s, f j : ℝ)) : EReal) = ∑ j ∈ s, ((f j : ℝ) : EReal) := by
  classical
  induction s using Finset.induction_on with
  | empty => simp
  | insert a s ha ih => rw [Finset.sum_insert ha, Finset.sum_insert ha, EReal.coe_add, ih]

/-- The maximum of a nonempty finite row of reals, folded from `⊥` on the extended reals,
    is attained, hence is a real. -/
theorem fold_max_real {ι : Type} [Fintype ι] [Nonempty ι] (x : ι → ℝ) :
    ∃ r : ℝ, (Finset.univ : Finset ι).fold max (⊥ : EReal) (fun v => ((x v : ℝ) : EReal)) = (r : EReal) := by
  obtain ⟨v₀, _, h⟩ := Finset.exists_max_image Finset.univ x Finset.univ_nonempty
  refine ⟨x v₀, le_antisymm ?_ ?_⟩
  · exact (Finset.fold_max_le _).2
      ⟨bot_le, fun v hv => EReal.coe_le_coe_iff.2 (h v hv)⟩
  · exact (Finset.le_fold_max _).2 (Or.inr ⟨v₀, Finset.mem_univ _, le_rfl⟩)

/-- The identity with the row maximum already named as a real `m` (any real `m` will do:
    only the positivity of the sum of exponentials is used). -/
theorem window_lse_real {ι κ : Type} [Fintype ι] [Nonempty ι] [Fintype κ]
    (x : ι → ℝ) (m : ℝ) (g : κ → ι) (w : κ → ℝ) :
    - (((0 : EReal) + ∑ j : κ, ((x (g j) : ℝ) : EReal) * ((w j : ℝ) : EReal))
        - ((0 : EReal) + ∑ j : κ, ((w j : ℝ) : EReal))
          * ((m : EReal) + Ideal.log (∑ v : ι, Ideal.exp (((x v : ℝ) : EReal) - (m : EReal)))))
      = - ((0 : EReal) + ∑ j : κ, ((((x (g j) : ℝ) : EReal) - max (⊥ : EReal) (m : EReal))
            - Ideal.log ((0 : EReal)
                + ∑ v : ι, Ideal.exp (((x v : ℝ) : EReal) - max (⊥ : EReal) (m : EReal))))
              * ((w j : ℝ) : EReal)) := by
  -- the sum of the shifted exponentials is a positive real `S`
  have hmax : max (⊥ : EReal) (m : EReal) = (m : EReal) := max_eq_right bot_le
  have hS : (∑ v : ι, Ideal.exp (((x v : ℝ) : EReal) - (m : EReal)))
      = ((∑ v : ι, Real.exp (x v - m) : ℝ) : EReal) := by
    rw [coe_sum]
    exact Finset.sum_congr rfl fun v _ => by rw [← EReal.coe_sub, exp_coe]
  have hpos : 0 < ∑ v : ι, Real.exp (x v - m) :=
    Finset.sum_pos (fun v _ => Real.exp_pos _) Finset.univ_nonempty
  -- the real identity
  have key : ∑ j : κ, (x (g j) - m - Real.log (∑ v : ι, Real.exp (x v - m))) * w j
      = ∑ j : κ, x (g j) * w j
        - (∑ j : κ, w j) * (m + Real.log (∑ v : ι, Real.exp (x v - m))) := by
    rw [Finset.sum_mul, ← Finset.sum_sub_distrib]
    exact Finset.sum_congr rfl fun j _ => by ring
  -- both sides are the coercion of the two sides of the real identity
  rw [hmax, zero_add, zero_add, zero_add, zero_add, hS, log_coe_pos hpos]
  simp only [← EReal.coe_mul, ← EReal.coe_sub, ← EReal.coe_add, ← coe_sum]
  rw [key]

/-- For a nonempty finite row of REAL logits x, taps g into the row and REAL weights w: the weighted window sum of the
    raw logits minus (total weight) x (row maximum + log of the sum of shifted exponentials) equals the weighted window
    sum of the log-softmax values (logit − maximum − log-sum), negated on both sides; all operations the exact ones on
    the extended reals (Ideal.exp, Ideal.log, EReal's + − *), the sums with the host's leading `0 +`. -/
theorem window_lse {ι κ : Type} [Fintype ι] [Nonempty ι] [Fintype κ] (x : ι → ℝ) (g : κ → ι) (w : κ → ℝ) :
    let xe : ι → EReal := fun v => ((x v : ℝ) : EReal)
    let M : EReal := (Finset.univ : Finset ι).fold max (⊥ : EReal) xe;
    - (((0 : EReal) + ∑ j : κ, xe (g j) * ((w j : ℝ) : EReal))
        - ((0 : EReal) + ∑ j : κ, ((w j : ℝ) : EReal)) * (M + Ideal.log (∑ v : ι, Ideal.exp (xe v - M))))
      = - ((0 : EReal) + ∑ j : κ, ((xe (g j) - max (⊥ : EReal) M)
            - Ideal.log ((0 : EReal) + ∑ v : ι, Ideal.exp (xe v - max (⊥ : EReal) M))) * ((w j : ℝ) : EReal)) := by
  intro xe M
  obtain ⟨m, hm⟩ := fold_max_real x
  have hM : M = (m : EReal) := hm
  rw [hM]
  exact window_lse_real x m g w

end WindowLse
-- ==== Proof.LossRead.lean ====
import proofs.«428594_j79611513799125_3_alg».proof.Proof.KStages
import proofs.«428594_j79611513799125_3_alg».proof.Proof.RStages
import proofs.«428594_j79611513799125_3_alg».proof.Proof.RowDefs
import proofs.«428594_j79611513799125_3_alg».proof.Proof.LibWindowLse
import Idealize.ShloMosaic.PureOps.Ideal.Laws
import Idealize.ShloMosaic.Lib.IdealHost
import Idealize.ShloMosaic.Lib.Pipeline.Value

/-!
# The per-position losses, the total weight and the window weights, read at an index

Both sides weigh seven gathered values by the window weights and sum them over the last axis of a [4, 512, 16, 7] array;
the kernel side then subtracts the total weight times the log-partition value. Each is read here at a position (b, s, n)
as a sum over the seven taps. The window weights exp(−2|s|) / (Σ exp(−2|s|) + 1e-8), s = −3..3, are real numbers: every
exponent is a real, so every exponential is a positive real, and the divisor is a positive real.
-/

noncomputable section

namespace Cert.KernelIdeal.Rd

open Idealize.ShloMosaic Idealize.ShloMosaic.ValueIdx Idealize.SL.Sem Cert.Rows

/-- The index a sum over the last axis of a [4, 512, 16, 7] array inserts at (b, s, n) is (b, s, n, j). -/
private theorem lift4 (hR : (⟨4, ![4, 512, 16, 7]⟩ : Shape).Reduces [3] ⟨3, ![4, 512, 16]⟩) (b : Fin 4) (s : Fin 512) (n : Fin 16) (j : Fin 7) :
    hR.lift (ix3 b s n) j = ix4 b s n j := by
  funext c; apply Fin.ext; fin_cases c <;> rfl

/-- The index a sum over the one axis of a [7] array inserts at the empty index is (j). -/
private theorem lift1 (hR : (⟨1, ![7]⟩ : Shape).Reduces [0] ⟨0, ![]⟩) (j : Fin 7) : hR.lift ix0 j = ix1 j := by
  funext c; apply Fin.ext; fin_cases c; rfl

/-- The weights broadcast [7] → [1, 1, 1, 7] → [4, 512, 16, 7] read weight j at (b, s, n, j). -/
private theorem bcast_wn {α : Type} (wn : (⟨1, ![7]⟩ : Shape).Idx → α)
    (h1 : (⟨1, ![7]⟩ : Shape).BroadcastsInDim ⟨4, ![1, 1, 1, 7]⟩ ![3])
    (h2 : (⟨4, ![1, 1, 1, 7]⟩ : Shape).BroadcastsInDim ⟨4, ![4, 512, 16, 7]⟩ ![0, 1, 2, 3])
    (b : Fin 4) (s : Fin 512) (n : Fin 16) (j : Fin 7) :
    broadcastInDim ⟨4, ![4, 512, 16, 7]⟩ ![0, 1, 2, 3] h2 (broadcastInDim ⟨4, ![1, 1, 1, 7]⟩ ![3] h1 wn) (ix4 b s n j) = wn (ix1 j) := by
  rw [broadcastInDim_apply _ h2 _ _ (ix4 0 0 0 j) (by intro a; fin_cases a <;> rfl),
    broadcastInDim_apply _ h1 _ _ (ix1 j) (by intro a; fin_cases a; rfl)]

/-- A sum over the indices of a [7] array is the sum over its one coordinate. -/
private theorem sum_idx1 (f : (⟨1, ![7]⟩ : Shape).Idx → EReal) : ∑ i, f i = ∑ j : Fin 7, f (ix1 j) :=
  Fintype.sum_equiv ⟨fun i => i 0, fun j => ix1 j, fun i => (eq_ix1 i).symm, fun _ => rfl⟩ _ _
    fun i => congrArg f (eq_ix1 i)

/-- An f32 pattern whose exponent field is not all ones denotes a real number. -/
private theorem ofBits_f32_real (b : BitVec 32) (h : (b.extractLsb' 23 8).toNat ≠ 255) :
    ∃ r : ℝ, Ideal.ofBits .f32 b = ((r : ℝ) : EReal) := by
  show ∃ r : ℝ, Ideal.ieee 8 23 b = _
  unfold Ideal.ieee
  dsimp only
  rw [if_neg (by simpa using h)]
  split <;> exact ⟨_, rfl⟩

/-- … and with its sign bit clear, a real that is not negative. -/
private theorem ofBits_f32_nonneg (b : BitVec 32) (h : (b.extractLsb' 23 8).toNat ≠ 255) (hs : (b.extractLsb' 31 1 == 1#1) = false) :
    ∃ r : ℝ, 0 ≤ r ∧ Ideal.ofBits .f32 b = ((r : ℝ) : EReal) := by
  show ∃ r : ℝ, 0 ≤ r ∧ Ideal.ieee 8 23 b = _
  unfold Ideal.ieee
  dsimp only
  rw [if_neg (by simpa using h), hs]
  simp only [Bool.false_eq_true, if_false, one_mul]
  split
  · exact ⟨_, by positivity, rfl⟩
  · exact ⟨_, by positivity, rfl⟩

/-- The exponential of a real entry, over (the sum of the exponentials of the seven real entries plus a real that is
    not negative), is a real: the divisor is a positive real. -/
private theorem expdiv_real (M : FVec Ideal ⟨1, ![7]⟩ .f32) (hM : ∀ i, ∃ r : ℝ, M i = ((r : ℝ) : EReal))
    (e : EReal) (he : ∃ r : ℝ, 0 ≤ r ∧ e = ((r : ℝ) : EReal)) (i₀ : (⟨1, ![7]⟩ : Shape).Idx) :
    ∃ r : ℝ, Ideal.div (Host.exp M i₀) (((0 : EReal) + ∑ i, Host.exp M i) + e) = ((r : ℝ) : EReal) := by
  show ∃ r : ℝ, Ideal.div (Ideal.exp (M i₀)) (((0 : EReal) + ∑ i, Ideal.exp (M i)) + e) = ((r : ℝ) : EReal)
  choose f hf using hM
  obtain ⟨e', he0, rfl⟩ := he
  simp only [hf, WindowLse.exp_coe]
  rw [zero_add, ← WindowLse.coe_sum, ← EReal.coe_add]
  have hpos : 0 < ∑ i, Real.exp (f i) + e' :=
    add_pos_of_pos_of_nonneg (Finset.sum_pos (fun _ _ => Real.exp_pos _) ⟨i₀, Finset.mem_univ _⟩) he0
  rw [Ideal.div_coe hpos.ne', ← EReal.coe_mul]
  exact ⟨_, rfl⟩

/-- The kernel side's per-position loss at (b, s, n): minus (the weighted window sum of the gathered values minus the
    total weight times the log-partition value). -/
theorem lossK_apply (g : (⟨Cert.KernelIdeal.S4x512x16x7, .f32⟩ : BufTy).Contents (Elt Ideal)) (wn : (⟨Cert.KernelIdeal.S7, .f32⟩ : BufTy).Contents (Elt Ideal))
    (ws : (⟨Cert.KernelIdeal.S_, .f32⟩ : BufTy).Contents (Elt Ideal)) (lz : (⟨Cert.KernelIdeal.S4x512x16, .f32⟩ : BufTy).Contents (Elt Ideal))
    (b : Fin 4) (s : Fin 512) (n : Fin 16) :
    Cert.KernelIdeal.St.lossK (F := Ideal) g wn ws lz (ix3 b s n)
      = - (((0 : EReal) + ∑ j : Fin 7, g (ix4 b s n j) * wn (ix1 j)) - ws ix0 * lz (ix3 b s n)) := by
  have hR : (⟨4, ![4, 512, 16, 7]⟩ : Shape).Reduces [3] ⟨3, ![4, 512, 16]⟩ := by decide
  unfold Cert.KernelIdeal.St.lossK
  dsimp only
  show - ((Host.reduceAdd (F := Ideal) _ _ _ _ (ix3 b s n)) - (broadcastInDim _ _ _ ws (ix3 b s n)) * lz (ix3 b s n)) = _
  rw [hostReduceAdd_apply, Ideal.hostReduceAdd_single _ hR, constant_apply, Ideal.ofBits_zero_f32, broadcastInDim_scalar_apply]
  refine congrArg Neg.neg (congrArg (· - ws ix0 * lz (ix3 b s n)) (congrArg (HAdd.hAdd (0 : EReal))
    (Finset.sum_congr rfl fun (j : Fin 7) _ => ?_)))
  rw [mulf_apply, lift4 hR b s n j]
  exact congrArg (g (ix4 b s n j) * ·) (bcast_wn wn _ _ b s n j)

/-- The reference side's per-position loss at (b, s, n): minus the weighted window sum of the gathered values. -/
theorem lossR_apply (g : (⟨Cert.ReferenceIdeal.S4x512x16x7, .f32⟩ : BufTy).Contents (Elt Ideal)) (wn : (⟨Cert.ReferenceIdeal.S7, .f32⟩ : BufTy).Contents (Elt Ideal))
    (b : Fin 4) (s : Fin 512) (n : Fin 16) :
    Cert.ReferenceIdeal.St.lossR (F := Ideal) g wn (ix3 b s n) = - ((0 : EReal) + ∑ j : Fin 7, g (ix4 b s n j) * wn (ix1 j)) := by
  have hR : (⟨4, ![4, 512, 16, 7]⟩ : Shape).Reduces [3] ⟨3, ![4, 512, 16]⟩ := by decide
  unfold Cert.ReferenceIdeal.St.lossR
  dsimp only
  show - (Host.reduceAdd (F := Ideal) _ _ _ _ (ix3 b s n)) = _
  rw [hostReduceAdd_apply, Ideal.hostReduceAdd_single _ hR, constant_apply, Ideal.ofBits_zero_f32]
  refine congrArg Neg.neg (congrArg (HAdd.hAdd (0 : EReal)) (Finset.sum_congr rfl fun (j : Fin 7) _ => ?_))
  rw [mulf_apply, lift4 hR b s n j]
  exact congrArg (g (ix4 b s n j) * ·) (bcast_wn wn _ _ b s n j)

/-- The total weight is the sum of the seven weights. -/
theorem wsumOf_apply (wn : (⟨Cert.KernelIdeal.S7, .f32⟩ : BufTy).Contents (Elt Ideal)) :
    Cert.KernelIdeal.St.wsumOf (F := Ideal) wn ix0 = (0 : EReal) + ∑ j : Fin 7, wn (ix1 j) := by
  unfold Cert.KernelIdeal.St.wsumOf
  dsimp only
  rw [hostReduceAdd_apply, Ideal.hostReduceAdd_total _ (fun b => b.elim0), constant_apply, Ideal.ofBits_zero_f32]
  exact congrArg (HAdd.hAdd (0 : EReal)) (sum_idx1 wn)

/-- Each window weight exp(−2|s|) / (Σ exp(−2|s|) + 1e-8) is a real number. -/
theorem wnorm_real (j : Fin 7) : ∃ r : ℝ, Cert.KernelIdeal.St.wnorm (F := Ideal) (ix1 j) = ((r : ℝ) : EReal) := by
  unfold Cert.KernelIdeal.St.wnorm
  dsimp only
  rw [hostDivf_apply, broadcastInDim_scalar_apply, addf_apply, hostReduceAdd_apply,
    Ideal.hostReduceAdd_total _ (fun b => b.elim0), constant_apply, constant_apply, Ideal.ofBits_zero_f32]
  -- the factor −2 is a real c; each exponent is c times an integer's real
  obtain ⟨c, hc⟩ := ofBits_f32_real 0xC0000000#32 (by decide)
  refine expdiv_real _ (fun i => ?_) _ (ofBits_f32_nonneg 0x322BCC77#32 (by decide) (by decide)) (ix1 j)
  rw [mulf_apply, broadcastInDim_scalar_apply, constant_apply, hc]
  show ∃ r : ℝ, (c : EReal) * (((_ : Int) : ℝ) : EReal) = ((r : ℝ) : EReal)
  exact ⟨_, (EReal.coe_mul _ _).symm⟩

end Cert.KernelIdeal.Rd

end
-- ==== Proof.LsmRead.lean ====
/-
  The log-softmax along the last axis of a [4, 512, 16, 8192] array, read at one entry. At (b, s, n, v) it is
  x(b,s,n,v) − M − log (0 + ∑ u, exp (x(b,s,n,u) − M)), where M = max (−∞) (the maximum of row (b, s, n) taken from −∞).
  The row maximum and the row sum are reductions over the last axis, read as a fold and a sum over that axis's 8192
  coordinates; the two broadcasts that carry a per-row value back to the row's entries read the value at (b, s, n).
-/
import proofs.«428594_j79611513799125_3_alg».proof.Proof.RStages
import proofs.«428594_j79611513799125_3_alg».proof.Proof.RowDefs
import Idealize.ShloMosaic.PureOps.Ideal.Laws
import Idealize.ShloMosaic.Lib.Pipeline.Value

noncomputable section

namespace Cert.ReferenceIdeal.Rd

open Idealize.ShloMosaic Idealize.ShloMosaic.ValueIdx Idealize.SL.Sem Cert.ReferenceIdeal Cert.ReferenceIdeal.Gen Cert.Rows

/-- Dropping the last axis of [4, 512, 16, 8192] leaves [4, 512, 16]. -/
private theorem red3 : S4x512x16x8192.Reduces [3] S4x512x16 := by decide

/-- The row index (b, s, n) with the last coordinate u put back is (b, s, n, u). -/
private theorem lift_ix4 (b : Fin 4) (s : Fin 512) (n : Fin 16) (u : Fin 8192) :
    red3.lift (ix3 b s n) u = ix4 b s n u := by
  funext c; apply Fin.ext
  fin_cases c <;> rfl

/-- The f32 pattern 0xFF800000 is −∞. -/
private theorem negInf : Ideal.ofBits .f32 0xFF800000#32 = (⊥ : EReal) := by simp [Ideal.ofBits, Ideal.ieee]

/-- The maximum over the last axis from −∞, at (b, s, n), is the maximum of row (b, s, n): max is commutative and
    associative, so the reduction is the fold of max over the row's 8192 entries. -/
private theorem rowMax_apply (x : (⟨S4x512x16x8192, .f32⟩ : BufTy).Contents (Elt Ideal)) (b : Fin 4) (s : Fin 512) (n : Fin 16) :
    Host.reduce (FloatOps.maximumf (F := Ideal) (φ := .f32)) x (constant (F := Ideal) S_ .f32 0xFF800000#32) reducesTo_S4x512x16x8192_S4x512x16_d3 h_S_ (ix3 b s n)
      = rmax (row4 x b s n) := by
  rw [Host.reduce_eq_fold_single _ x _ reducesTo_S4x512x16x8192_S4x512x16_d3 red3 h_S_]
  have hf : (x ∘ red3.lift (ix3 b s n)) = row4 x b s n := funext fun u => congrArg x (lift_ix4 b s n u)
  show Finset.fold max (Ideal.ofBits .f32 0xFF800000#32) (x ∘ red3.lift (ix3 b s n)) (Finset.univ : Finset (Fin 8192)) = _
  rw [hf, negInf]
  rfl

/-- A [4, 512, 16] array broadcast to [4, 512, 16, 1] reads, at (b, s, n, z), its value at (b, s, n). -/
private theorem bcastUnit_apply {α : Type} (m : S4x512x16.Idx → α) (b : Fin 4) (s : Fin 512) (n : Fin 16) (z : Fin 1) :
    broadcastInDim S4x512x16x1 ![0, 1, 2] bcast_S4x512x16_S4x512x16x1_0_1_2 m (ix4 b s n z) = m (ix3 b s n) :=
  broadcastInDim_apply _ _ m (ix4 b s n z) (ix3 b s n) fun a => by fin_cases a <;> rfl

/-- A [4, 512, 16, 1] array broadcast along its unit axis to [4, 512, 16, 8192] reads, at (b, s, n, v), its value at (b, s, n, 0). -/
private theorem bcastRow_apply {α : Type} (m : S4x512x16x1.Idx → α) (b : Fin 4) (s : Fin 512) (n : Fin 16) (v : Fin 8192) :
    broadcastInDim S4x512x16x8192 ![0, 1, 2, 3] bcast_S4x512x16x1_S4x512x16x8192_0_1_2_3 m (ix4 b s n v) = m (ix4 b s n 0) :=
  broadcastInDim_apply _ _ m (ix4 b s n v) (ix4 b s n 0) fun a => by fin_cases a <;> rfl

/-- The shift M at (b, s, n): the larger of −∞ (a scalar broadcast to every row) and the row's maximum. -/
private theorem shiftMax_apply (x : (⟨S4x512x16x8192, .f32⟩ : BufTy).Contents (Elt Ideal)) (b : Fin 4) (s : Fin 512) (n : Fin 16) :
    maximumf (F := Ideal) (broadcastInDim S4x512x16 ![] bcast_S_S4x512x16 (constant (F := Ideal) S_ .f32 0xFF800000#32))
        (Host.reduce (FloatOps.maximumf (F := Ideal) (φ := .f32)) x (constant (F := Ideal) S_ .f32 0xFF800000#32) reducesTo_S4x512x16x8192_S4x512x16_d3 h_S_) (ix3 b s n)
      = max (⊥ : EReal) (rmax (row4 x b s n)) := by
  have hb : broadcastInDim S4x512x16 ![] bcast_S_S4x512x16 (constant (F := Ideal) S_ .f32 0xFF800000#32) (ix3 b s n) = (⊥ : EReal) :=
    (broadcastInDim_apply _ _ _ (ix3 b s n) ix0 fun a => a.elim0).trans negInf
  rw [maximumf_apply, rowMax_apply, hb]

/-- The exponential of an array at an index is the exponential of its entry there. -/
private theorem hostExp_apply {t : Shape} (y : FVec Ideal t .f32) (i : t.Idx) : Host.exp y i = Ideal.exp (y i) := rfl

/-- The logarithm of an array at an index is the logarithm of its entry there. -/
private theorem hostLog_apply {t : Shape} (y : FVec Ideal t .f32) (i : t.Idx) : Host.log y i = Ideal.log (y i) := rfl

/-- The sum over the last axis from 0, at (b, s, n), is 0 plus the sum of row (b, s, n)'s 8192 entries. -/
private theorem rowSum_apply (e : FVec Ideal S4x512x16x8192 .f32) (b : Fin 4) (s : Fin 512) (n : Fin 16) :
    Host.reduceAdd e (constant (F := Ideal) S_ .f32 0x00000000#32) reducesTo_S4x512x16x8192_S4x512x16_d3 h_S_ (ix3 b s n)
      = (0 : EReal) + ∑ u : Fin 8192, e (ix4 b s n u) := by
  show Ideal.hostReduceAdd reducesTo_S4x512x16x8192_S4x512x16_d3 e (Ideal.ofBits .f32 0x00000000#32) (ix3 b s n) = _
  rw [Ideal.hostReduceAdd_single _ red3, Ideal.ofBits_zero_f32]
  show (0 : EReal) + ∑ u : Fin 8192, e (red3.lift (ix3 b s n) u) = _
  simp only [lift_ix4]

/-- The shifted entry at (b, s, n, v): x(b,s,n,v) − M, the shift M of row (b, s, n) carried to the entry by the two broadcasts. -/
private theorem shifted_apply (x : (⟨S4x512x16x8192, .f32⟩ : BufTy).Contents (Elt Ideal)) (b : Fin 4) (s : Fin 512) (n : Fin 16) (v : Fin 8192) :
    subf (F := Ideal) x
        (broadcastInDim S4x512x16x8192 ![0, 1, 2, 3] bcast_S4x512x16x1_S4x512x16x8192_0_1_2_3
          (broadcastInDim S4x512x16x1 ![0, 1, 2] bcast_S4x512x16_S4x512x16x1_0_1_2
            (maximumf (F := Ideal) (broadcastInDim S4x512x16 ![] bcast_S_S4x512x16 (constant (F := Ideal) S_ .f32 0xFF800000#32))
              (Host.reduce (FloatOps.maximumf (F := Ideal) (φ := .f32)) x (constant (F := Ideal) S_ .f32 0xFF800000#32) reducesTo_S4x512x16x8192_S4x512x16_d3 h_S_))))
        (ix4 b s n v)
      = x (ix4 b s n v) - max (⊥ : EReal) (rmax (row4 x b s n)) := by
  rw [subf_apply, bcastRow_apply, bcastUnit_apply, shiftMax_apply]

/-- The log-softmax along the last axis at (b, s, n, v): the entry less the row's maximum, less the log of the sum of the
    exponentials of the row's entries less that maximum (the maximum taken once more against −∞, the sum from 0). -/
theorem logSoftmaxLast_apply (x : (⟨S4x512x16x8192, .f32⟩ : BufTy).Contents (Elt Ideal)) (b : Fin 4) (s : Fin 512) (n : Fin 16) (v : Fin 8192) :
    St.logSoftmaxLast (F := Ideal) x (ix4 b s n v)
      = (x (ix4 b s n v) - max (⊥ : EReal) (rmax (row4 x b s n)))
          - Ideal.log ((0 : EReal) + ∑ u : Fin 8192, Ideal.exp (x (ix4 b s n u) - max (⊥ : EReal) (rmax (row4 x b s n)))) := by
  unfold St.logSoftmaxLast
  dsimp only
  -- the outer difference; its first term is the shifted entry, its second the log of the row sum, read at (b, s, n, 0) then at (b, s, n)
  rw [subf_apply, shifted_apply, bcastRow_apply, hostLog_apply, bcastUnit_apply, rowSum_apply]
  simp only [hostExp_apply]
  -- term by term, each summand is the exponential of the shifted entry at (b, s, n, u)
  refine congrArg (fun t : EReal => x (ix4 b s n v) - max (⊥ : EReal) (rmax (row4 x b s n)) - Ideal.log ((0 : EReal) + t))
    (Finset.sum_congr rfl fun u _ => ?_)
  rw [shifted_apply]

end Cert.ReferenceIdeal.Rd

end
-- ==== Proof.LogzRead.lean ====
import proofs.«428594_j79611513799125_3_alg».proof.Proof.KStages
import proofs.«428594_j79611513799125_3_alg».proof.Proof.RowDefs
import Idealize.ShloMosaic.Lib.Pipeline.Value

noncomputable section

namespace Cert.KernelIdeal.Rd

open Idealize.ShloMosaic Idealize.ShloMosaic.ValueIdx Idealize.SL.Sem Cert.KernelIdeal Cert.KernelIdeal.Gen Cert.Rows

/-- Re-laying the logits as 2048 rows, taking each row's log-partition value and re-laying the result as [4, 512, 16] gives,
    at (b, s, n), the log-partition value of row (b, s, n) of the logits. -/
theorem unflat_logz_flat (x : (⟨S4x512x16x8192, .f32⟩ : BufTy).Contents (Elt Ideal)) (b : Fin 4) (s : Fin 512) (n : Fin 16) :
    St.unflatRows (F := Ideal) (logzRows (St.flatRows (F := Ideal) x)) (ix3 b s n) = lse (row4 x b s n) := by
  -- The flat row holding (b, s) is row b * 512 + s.
  have hr : b.val * 512 + s.val < 2048 := by omega
  -- The [2048, 16] → [4, 512, 16] re-laying reads, at (b, s, n), the operand at (b * 512 + s, n).
  have h1 : St.unflatRows (F := Ideal) (logzRows (St.flatRows (F := Ideal) x)) (ix3 b s n)
      = logzRows (St.flatRows (F := Ideal) x) (ix2 (⟨b.val * 512 + s.val, hr⟩ : Fin 2048) n) := by
    unfold St.unflatRows
    refine shapeCast_apply _ _ _ _ ?_
    rw [Shape.rowMajor_val_two, Shape.rowMajor_val_three]
    rfl
  rw [h1]
  show lse (row3 (St.flatRows (F := Ideal) x) (⟨b.val * 512 + s.val, hr⟩ : Fin 2048) n) = lse (row4 x b s n)
  refine congrArg lse (funext fun u => ?_)
  -- The [4, 512, 16, 8192] → [2048, 16, 8192] re-laying reads, at (b * 512 + s, n, u), the operand at (b, s, n, u).
  show St.flatRows (F := Ideal) x (ix3 (⟨b.val * 512 + s.val, hr⟩ : Fin 2048) n u) = x (ix4 b s n u)
  unfold St.flatRows
  refine shapeCast_apply _ _ _ _ ?_
  rw [Shape.rowMajor_val_four, Shape.rowMajor_val_three]
  rfl

end Cert.KernelIdeal.Rd

end
-- ==== Proof.Bridge.lean ====
/-
  The one place the two programs differ, per position (b, s, n): the kernel's program gathers the RAW logits at the seven
  clipped window positions, weights and sums them, and subtracts the total weight times the row's log-partition value
  (maximum plus log of the sum of shifted exponentials, from the pipelined region); the reference gathers the LOG-SOFTMAX
  values (logit minus maximum minus log-sum) at the same positions, weights and sums. For real logits and real weights
  both are the same real number (linearity of the weighted sum).
-/
import proofs.«428594_j79611513799125_3_alg».proof.Proof.TakeRead
import proofs.«428594_j79611513799125_3_alg».proof.Proof.LossRead
import proofs.«428594_j79611513799125_3_alg».proof.Proof.LsmRead
import proofs.«428594_j79611513799125_3_alg».proof.Proof.LogzRead
import proofs.«428594_j79611513799125_3_alg».proof.Proof.LibWindowLse

noncomputable section

namespace Cert.Bridge

open Idealize.ShloMosaic Idealize.ShloMosaic.ValueIdx Cert.Rows

/-- With every logit a real number, the kernel side's per-position loss (raw logits gathered, the region's log-partition
    values subtracted with the total weight) is the reference's (log-softmax values gathered). -/
theorem loss_eq (x : (⟨Cert.KernelIdeal.S4x512x16x8192, .f32⟩ : BufTy).Contents (Elt Ideal))
    (hx : ∀ k : Cert.KernelIdeal.S4x512x16x8192.Idx, ∃ r : ℝ, x k = ((r : ℝ) : EReal))
    (a4 : (⟨Cert.KernelIdeal.S4x512x16, .i32⟩ : BufTy).Contents (Elt Ideal)) :
    Cert.KernelIdeal.St.lossK (F := Ideal)
        (Cert.KernelIdeal.St.takeLast (F := Ideal) x (Cert.KernelIdeal.St.idx7 (F := Ideal) (Cert.KernelIdeal.St.tgtClip (F := Ideal) a4)))
        (Cert.KernelIdeal.St.wnorm (F := Ideal)) (Cert.KernelIdeal.St.wsumOf (F := Ideal) (Cert.KernelIdeal.St.wnorm (F := Ideal)))
        (Cert.KernelIdeal.St.unflatRows (F := Ideal) (logzRows (Cert.KernelIdeal.St.flatRows (F := Ideal) x)))
      = Cert.ReferenceIdeal.St.lossR (F := Ideal)
        (Cert.KernelIdeal.St.takeLast (F := Ideal) (Cert.ReferenceIdeal.St.logSoftmaxLast (F := Ideal) x)
          (Cert.KernelIdeal.St.idx7 (F := Ideal) (Cert.KernelIdeal.St.tgtClip (F := Ideal) a4)))
        (Cert.KernelIdeal.St.wnorm (F := Ideal)) := by
  funext q
  obtain ⟨b, s, n, rfl⟩ : ∃ (b : Fin 4) (s : Fin 512) (n : Fin 16), q = ix3 b s n := ⟨q 0, q 1, q 2, eq_ix3 q⟩
  -- the clipped window positions are in range, so every tap reads its own row
  have hi := Cert.KernelIdeal.Rd.idx7_range (Cert.KernelIdeal.St.tgtClip (F := Ideal) a4)
  generalize Cert.KernelIdeal.St.idx7 (F := Ideal) (Cert.KernelIdeal.St.tgtClip (F := Ideal) a4) = i at hi
  rw [Cert.KernelIdeal.Rd.lossK_apply, Cert.KernelIdeal.Rd.lossR_apply, Cert.KernelIdeal.Rd.wsumOf_apply,
    Cert.KernelIdeal.Rd.unflat_logz_flat]
  simp only [Cert.KernelIdeal.Rd.takeLast_apply _ i hi, Cert.ReferenceIdeal.Rd.logSoftmaxLast_apply]
  -- the logits and the weights as reals
  choose xr hxr using hx
  choose wr hwr using Cert.KernelIdeal.Rd.wnorm_real
  have hxe : x = fun k => ((xr k : ℝ) : EReal) := funext hxr
  subst hxe
  simp only [hwr]
  exact WindowLse.window_lse (fun u : Fin 8192 => xr (ix4 b s n u)) (fun j : Fin 7 => tapPos i b s n j) wr

end Cert.Bridge

end
-- ==== Proof.PreFinite.lean ====
import proofs.«428594_j79611513799125_3_alg».proof.Pre_finite_inputs
import proofs.«428594_j79611513799125_3_alg».proof.Proof.Gen.Pre_finite_inputs
import Idealize.ShloMosaic.PureOps.Ideal
import Idealize.ShloMosaic.Lib.ReduceAll
import Idealize.ShloMosaic.Lib.ValueIdx

noncomputable section

namespace Cert.PreFinite

open Idealize.ShloMosaic

/-- The rank-0 shape has exactly one index. -/
instance subsingleton_S_ : Subsingleton Cert.Pre_finite_inputs.S_.Idx :=
  ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max x (−x) compares strictly below +∞ is a real number:
    at x = ⊤ the maximum is ⊤, at x = ⊥ the negation −⊥ = ⊤ makes it ⊤ again, and ⊤ < ⊤ is false. -/
theorem real_of_abs_lt_top (x : EReal)
    (hx : Ideal.cmp .olt (max x (-x)) (⊤ : EReal) = 1#1) : ∃ r : ℝ, x = ((r : ℝ) : EReal) := by
  induction x using EReal.rec with
  | bot => simp [Ideal.cmp] at hx
  | coe r => exact ⟨r, rfl⟩
  | top => simp [Ideal.cmp] at hx

open Idealize.ShloMosaic in
/-- Under the precondition "every float input is finite" (the printed predicate evaluates to all ones), every entry of
    the second argument (the [4,512,16,8192] logits) is a real number. -/
theorem arg1_real [hP : Cert.Pre_finite_inputs.Facts]
    (x0 : FVec Ideal Cert.Pre_finite_inputs.S4x512x10 .f32) (x1 : FVec Ideal Cert.Pre_finite_inputs.S4x512x16x8192 .f32)
    (x2 : FVec Ideal Cert.Pre_finite_inputs.S10x16 .f32) (i3 : IVec Cert.Pre_finite_inputs.S4x512 32) (i4 : IVec Cert.Pre_finite_inputs.S4x512x16 32)
    (h : Cert.Pre_finite_inputs.fn (F := Ideal) x0 x1 x2 i3 i4 = fun _ => 1#1) :
    ∀ k : Cert.Pre_finite_inputs.S4x512x16x8192.Idx, ∃ r : ℝ, x1 k = ((r : ℝ) : EReal) := by
  intro k
  -- the predicate's one entry is 1
  have h0 := congrFun h ValueIdx.ix0
  dsimp only [Cert.Pre_finite_inputs.fn] at h0
  -- the outer conjunction, then the inner one: its second conjunct is the reduction over the logits
  have h1 := (IntOp.andi_eq_one.1 h0).1
  have h2 := (IntOp.andi_eq_one.1 h1).2
  -- a reduction by "and" over all axes that is 1 had a 1 at every entry
  have hk := Host.reduce_andi_all _ _ _ _ _ h2 k
  -- the entry at k: |x1 k| < +∞, read at the extended reals
  have hk' : Ideal.cmp .olt (max (x1 k) (-(x1 k))) (Ideal.ofBits .f32 0x7F800000#32) = 1#1 := hk
  rw [ofBits_inf] at hk'
  exact real_of_abs_lt_top (x1 k) hk'

end Cert.PreFinite

end
-- ==== Proof.lean ====
/-
  The certificate of a logsumexp kernel for a windowed soft-label cross-entropy loss against its jnp reference.

  Both programs return (total, command loss, argument loss). The command loss, the masks, the clipped window positions,
  the seven window weights w and the final masked mean are the same host operations in both. They differ in one array,
  the per-position argument loss L[b, s, n]: the reference takes log_softmax of the [4, 512, 16, 8192] logits and sums
  w_j · (x[p_j] − max − log Σ_v exp(x_v − max)) over the seven taps p_j; the kernel's program computes only
  logz = max + log Σ_v exp(x_v − max) per row in a pipelined region (128 grid points of 16 rows), gathers the RAW logits
  and uses Σ_j w_j · x[p_j] − (Σ_j w_j) · logz. For finite logits these are equal by linearity (Proof/Bridge.lean over
  Proof/LibWindowLse.lean); the precondition gives the finiteness (Proof/PreFinite.lean). The frames: the kernel's
  program by the pipeline library's frame run around one region with host operations on both sides (Proof/KFrame.lean at
  the ideal values, Proof/KFrameB.lean at the word level), the reference by the run of a straight line of host
  operations (Proof/RRun.lean). The idealization rewrote nothing, so `preserves` is trivial.
-/
import proofs.«428594_j79611513799125_3_alg».proof.Defs
import proofs.«428594_j79611513799125_3_alg».proof.Proof.Gen.Kernel
import proofs.«428594_j79611513799125_3_alg».proof.Proof.Gen.KernelIdeal
import proofs.«428594_j79611513799125_3_alg».proof.Proof.Gen.ReferenceIdeal
import proofs.«428594_j79611513799125_3_alg».proof.Proof.Gen.Pre_finite_inputs
import proofs.«428594_j79611513799125_3_alg».proof.Proof.KFrame
import proofs.«428594_j79611513799125_3_alg».proof.Proof.KFrameB
import proofs.«428594_j79611513799125_3_alg».proof.Proof.KValue
import proofs.«428594_j79611513799125_3_alg».proof.Proof.RRun
import proofs.«428594_j79611513799125_3_alg».proof.Proof.RAfter
import proofs.«428594_j79611513799125_3_alg».proof.Proof.Bridge
import proofs.«428594_j79611513799125_3_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level program runs to the end and keeps its arguments. -/
theorem frame_k : Cert.frame_Kernel := fun m ρ _ => Cert.Kernel.Fr.frame m ρ
/-- So does its reading at the ideal values. -/
theorem frame_ki : Cert.frame_KernelIdeal := fun m ρ _ => Cert.KernelIdeal.Fr.frame m ρ

/-- The reference is a straight line of host operations, none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Af.r_keep _ Cert.ReferenceIdeal.main_arg0 (by decide)),
     (h c Cert.ReferenceIdeal.main_arg1).trans (Cert.ReferenceIdeal.Af.r_keep _ Cert.ReferenceIdeal.main_arg1 (by decide)),
     (h c Cert.ReferenceIdeal.main_arg2).trans (Cert.ReferenceIdeal.Af.r_keep _ Cert.ReferenceIdeal.main_arg2 (by decide)),
     (h c Cert.ReferenceIdeal.main_arg3).trans (Cert.ReferenceIdeal.Af.r_keep _ Cert.ReferenceIdeal.main_arg3 (by decide)),
     (h c Cert.ReferenceIdeal.main_arg4).trans (Cert.ReferenceIdeal.Af.r_keep _ Cert.ReferenceIdeal.main_arg4 (by decide))⟩)
    (Cert.ReferenceIdeal.Af.run (F := Ideal) m ρ)

/-- The ideal pass rewrote no operation. -/
theorem preserves : Cert.preserves_Kernel_KernelIdeal := trivial

/-- At the ideal values, from memories agreeing on the arguments, the two programs end with the same three losses: the
    shared chains are the same functions of the same arguments, and the per-position argument losses agree because the
    logits are finite (the precondition) and the weighted window sum is linear. -/
theorem algebraic : Cert.algebraic_KernelIdeal_ReferenceIdeal := by
  intro m ρ m' ρ' hpre hagree
  refine ⟨_, _, _, Cert.KernelIdeal.Val.run m ρ, ?_⟩
  refine (θ_run Cert.ReferenceIdeal.defs _ _).mono (fun r h c => ?_) (Cert.ReferenceIdeal.Af.run (F := Ideal) m' ρ')
  obtain ⟨h0, h1, h2, h3, h4⟩ := hagree c
  have e0 : launchContents m' c (Proc.devRef .tc Cert.ReferenceIdeal.main_arg0) = (m ((c.tc : Thread Cert.KernelIdeal.nD Cert.KernelIdeal.τ).loc Cert.KernelIdeal.main_arg0)) := h0
  have e1 : launchContents m' c (Proc.devRef .tc Cert.ReferenceIdeal.main_arg1) = (m ((c.tc : Thread Cert.KernelIdeal.nD Cert.KernelIdeal.τ).loc Cert.KernelIdeal.main_arg1)) := h1
  have e2 : launchContents m' c (Proc.devRef .tc Cert.ReferenceIdeal.main_arg2) = (m ((c.tc : Thread Cert.KernelIdeal.nD Cert.KernelIdeal.τ).loc Cert.KernelIdeal.main_arg2)) := h2
  have e3 : launchContents m' c (Proc.devRef .tc Cert.ReferenceIdeal.main_arg3) = (m ((c.tc : Thread Cert.KernelIdeal.nD Cert.KernelIdeal.τ).loc Cert.KernelIdeal.main_arg3)) := h3
  have e4 : launchContents m' c (Proc.devRef .tc Cert.ReferenceIdeal.main_arg4) = (m ((c.tc : Thread Cert.KernelIdeal.nD Cert.KernelIdeal.τ).loc Cert.KernelIdeal.main_arg4)) := h4
  have hfin := Cert.PreFinite.arg1_real _ _ _ _ _ (hpre c)
  have hL := Cert.Bridge.loss_eq (m ((c.tc : Thread Cert.KernelIdeal.nD Cert.KernelIdeal.τ).loc Cert.KernelIdeal.main_arg1)) hfin (m ((c.tc : Thread Cert.KernelIdeal.nD Cert.KernelIdeal.τ).loc Cert.KernelIdeal.main_arg4))
  refine ⟨?_, ?_, ?_, ?_, ?_, ?_, ?_, ?_⟩
  · rw [h c Cert.ReferenceIdeal.main_v64, Cert.ReferenceIdeal.Af.r_v64, e0, e1, e2, e3, e4, hL]
  · rw [h c Cert.ReferenceIdeal.main_v18, Cert.ReferenceIdeal.Af.r_v18, e0, e3]
  · rw [h c Cert.ReferenceIdeal.main_v61, Cert.ReferenceIdeal.Af.r_v61, e1, e2, e3, e4, hL]
  · exact (h c Cert.ReferenceIdeal.main_arg0).trans (Cert.ReferenceIdeal.Af.r_keep _ Cert.ReferenceIdeal.main_arg0 (by decide))
  · exact (h c Cert.ReferenceIdeal.main_arg1).trans (Cert.ReferenceIdeal.Af.r_keep _ Cert.ReferenceIdeal.main_arg1 (by decide))
  · exact (h c Cert.ReferenceIdeal.main_arg2).trans (Cert.ReferenceIdeal.Af.r_keep _ Cert.ReferenceIdeal.main_arg2 (by decide))
  · exact (h c Cert.ReferenceIdeal.main_arg3).trans (Cert.ReferenceIdeal.Af.r_keep _ Cert.ReferenceIdeal.main_arg3 (by decide))
  · exact (h c Cert.ReferenceIdeal.main_arg4).trans (Cert.ReferenceIdeal.Af.r_keep _ Cert.ReferenceIdeal.main_arg4 (by decide))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
